-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S2x32x32768 : S_.BroadcastsInDim S2x32x32768 (![] : Fin 0 → Fin S2x32x32768.rank)
  reducesTo_S2x32x32768_S_d0_1_2 : S2x32x32768.ReducesTo [0, 1, 2] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x512 .f32) (main_arg1 : FVec F S512x512 .f32) (main_arg2 : FVec F S2x32x32768 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x32x32768 .f32 := Host.absf main_arg2
  let main_cst_2 : FVec F S_ .f32 := constant S_ .f32 0x7F800000#32
  let main_v10 : FVec F S2x32x32768 .f32 := broadcastInDim S2x32x32768 ![] bcast_S_S2x32x32768 main_cst_2
  let main_v11 : IVec S2x32x32768 1 := cmpf .olt main_v9 main_v10
  let main_c_3 : IVec S_ 1 := constantI S_ 1 1#1
  let main_v12 : IVec S_ 1 := (fun x v => Host.reduce IntOp.andi x v reducesTo_S2x32x32768_S_d0_1_2 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S1x3x128 : Shape := ⟨3, ![1, 3, 128]⟩
abbrev S3x1x128 : Shape := ⟨3, ![3, 1, 128]⟩
abbrev S64x3x128 : Shape := ⟨3, ![64, 3, 128]⟩
abbrev S3x64x128 : Shape := ⟨3, ![3, 64, 128]⟩
abbrev S65x3x64 : Shape := ⟨3, ![65, 3, 64]⟩
abbrev S1x3x64 : Shape := ⟨3, ![1, 3, 64]⟩
abbrev S3x1x64 : Shape := ⟨3, ![3, 1, 64]⟩
abbrev S64x3x64 : Shape := ⟨3, ![64, 3, 64]⟩
abbrev S3x64x64 : Shape := ⟨3, ![3, 64, 64]⟩
abbrev S8x8 : Shape := ⟨2, ![8, 8]⟩
abbrev S_ : Shape := ⟨0, ![]⟩
abbrev S8x1x8x1 : Shape := ⟨4, ![8, 1, 8, 1]⟩
abbrev S3x1x1x1x128 : Shape := ⟨5, ![3, 1, 1, 1, 128]⟩
abbrev S1x8x1x8x1 : Shape := ⟨5, ![1, 8, 1, 8, 1]⟩
abbrev S3x8x1x8x128 : Shape := ⟨5, ![3, 8, 1, 8, 128]⟩
abbrev S3x8x1024 : Shape := ⟨3, ![3, 8, 1024]⟩
abbrev S3x1x1x1x64 : Shape := ⟨5, ![3, 1, 1, 1, 64]⟩
abbrev S3x8x1x8x64 : Shape := ⟨5, ![3, 8, 1, 8, 64]⟩
abbrev S3x8x512 : Shape := ⟨3, ![3, 8, 512]⟩
abbrev S128x3x128 : Shape := ⟨3, ![128, 3, 128]⟩
abbrev S128x3x64 : Shape := ⟨3, ![128, 3, 64]⟩
abbrev S1x64 : Shape := ⟨2, ![1, 64]⟩
abbrev S8x512 : Shape := ⟨2, ![8, 512]⟩
abbrev S2x8x32768 : Shape := ⟨3, ![2, 8, 32768]⟩
abbrev S1x8x32768 : Shape := ⟨3, ![1, 8, 32768]⟩
abbrev S8x32768 : Shape := ⟨2, ![8, 32768]⟩
abbrev S8x512x64 : Shape := ⟨3, ![8, 512, 64]⟩
abbrev S512x8x64 : Shape := ⟨3, ![512, 8, 64]⟩
abbrev S4096x64 : Shape := ⟨2, ![4096, 64]⟩
abbrev S512x8 : Shape := ⟨2, ![512, 8]⟩
abbrev S1x128 : Shape := ⟨2, ![1, 128]⟩
abbrev S4096x128 : Shape := ⟨2, ![4096, 128]⟩
abbrev S1x64x128 : Shape := ⟨3, ![1, 64, 128]⟩
abbrev S64x128 : Shape := ⟨2, ![64, 128]⟩
abbrev S1x8x1024 : Shape := ⟨3, ![1, 8, 1024]⟩
abbrev S8x1024 : Shape := ⟨2, ![8, 1024]⟩
abbrev S512x1024 : Shape := ⟨2, ![512, 1024]⟩
abbrev S512x8x128 : Shape := ⟨3, ![512, 8, 128]⟩
abbrev S1x64x64 : Shape := ⟨3, ![1, 64, 64]⟩
abbrev S64x64 : Shape := ⟨2, ![64, 64]⟩
abbrev S1x8x512 : Shape := ⟨3, ![1, 8, 512]⟩
abbrev S1x1x64 : Shape := ⟨3, ![1, 1, 64]⟩

abbrev nBuf : Space → Nat
  | .hbm => 64
  | .vmem => 23
  | .smem => 0
  | _ => 0

abbrev bufTy : (tb : Table) → Fin (tcTables nBuf tb) → BufTy
  | .hbm, ⟨0, _⟩ => ⟨S32x512, .f32⟩
  | .hbm, ⟨1, _⟩ => ⟨S512x512, .f32⟩
  | .hbm, ⟨2, _⟩ => ⟨S2x32x32768, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S1x3x128, .f32⟩
  | .hbm, ⟨15, _⟩ => ⟨S3x1x128, .f32⟩
  | .hbm, ⟨16, _⟩ => ⟨S64x3x128, .f32⟩
  | .hbm, ⟨17, _⟩ => ⟨S3x64x128, .f32⟩
  | .hbm, ⟨18, _⟩ => ⟨S65x3x64, .f32⟩
  | .hbm, ⟨19, _⟩ => ⟨S1x3x64, .f32⟩
  | .hbm, ⟨20, _⟩ => ⟨S3x1x64, .f32⟩
  | .hbm, ⟨21, _⟩ => ⟨S64x3x64, .f32⟩
  | .hbm, ⟨22, _⟩ => ⟨S3x64x64, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S8x1x8x1, .f32⟩
  | .hbm, ⟨31, _⟩ => ⟨S3x1x1x1x128, .f32⟩
  | .hbm, ⟨32, _⟩ => ⟨S1x8x1x8x1, .f32⟩
  | .hbm, ⟨33, _⟩ => ⟨S3x8x1x8x128, .f32⟩
  | .hbm, ⟨34, _⟩ => ⟨S3x8x1x8x128, .f32⟩
  | .hbm, ⟨35, _⟩ => ⟨S3x8x1x8x128, .f32⟩
  | .hbm, ⟨36, _⟩ => ⟨S3x8x1024, .f32⟩
  | .hbm, ⟨37, _⟩ => ⟨S8x8, .i32⟩
  | .hbm, ⟨38, _⟩ => ⟨S8x8, .i32⟩
  | .hbm, ⟨39, _⟩ => ⟨S_, .i32⟩
  | .hbm, ⟨40, _⟩ => ⟨S8x8, .i32⟩
  | .hbm, ⟨41, _⟩ => ⟨S8x8, .i32⟩
  | .hbm, ⟨42, _⟩ => ⟨S8x8, .i1⟩
  | .hbm, ⟨43, _⟩ => ⟨S8x8, .f32⟩
  | .hbm, ⟨44, _⟩ => ⟨S8x1x8x1, .f32⟩
  | .hbm, ⟨45, _⟩ => ⟨S3x1x1x1x64, .f32⟩
  | .hbm, ⟨46, _⟩ => ⟨S1x8x1x8x1, .f32⟩
  | .hbm, ⟨47, _⟩ => ⟨S3x8x1x8x64, .f32⟩
  | .hbm, ⟨48, _⟩ => ⟨S3x8x1x8x64, .f32⟩
  | .hbm, ⟨49, _⟩ => ⟨S3x8x1x8x64, .f32⟩
  | .hbm, ⟨50, _⟩ => ⟨S3x8x512, .f32⟩
  | .hbm, ⟨51, _⟩ => ⟨S128x3x128, .f32⟩
  | .hbm, ⟨52, _⟩ => ⟨S64x3x128, .f32⟩
  | .hbm, ⟨53, _⟩ => ⟨S3x64x128, .f32⟩
  | .hbm, ⟨54, _⟩ => ⟨S64x3x128, .f32⟩
  | .hbm, ⟨55, _⟩ => ⟨S3x64x128, .f32⟩
  | .hbm, ⟨56, _⟩ => ⟨S128x3x64, .f32⟩
  | .hbm, ⟨57, _⟩ => ⟨S64x3x64, .f32⟩
  | .hbm, ⟨58, _⟩ => ⟨S3x64x64, .f32⟩
  | .hbm, ⟨59, _⟩ => ⟨S64x3x64, .f32⟩
  | .hbm, ⟨60, _⟩ => ⟨S3x64x64, .f32⟩
  | .hbm, ⟨61, _⟩ => ⟨S1x64, .f32⟩
  | .hbm, ⟨62, _⟩ => ⟨S32x512, .f32⟩
  | .hbm, ⟨63, _⟩ => ⟨S2x32x32768, .f32⟩
  | .local _ .vmem, ⟨0, _⟩ => ⟨S8x512, .f32⟩
  | .local _ .vmem, ⟨1, _⟩ => ⟨S8x512, .f32⟩
  | .local _ .vmem, ⟨2, _⟩ => ⟨S512x512, .f32⟩
  | .local _ .vmem, ⟨3, _⟩ => ⟨S2x8x32768, .f32⟩
  | .local _ .vmem, ⟨4, _⟩ => ⟨S2x8x32768, .f32⟩
  | .local _ .vmem, ⟨5, _⟩ => ⟨S3x8x1024, .f32⟩
  | .local _ .vmem, ⟨6, _⟩ => ⟨S3x64x128, .f32⟩
  | .local _ .vmem, ⟨7, _⟩ => ⟨S3x8x512, .f32⟩
  | .local _ .vmem, ⟨8, _⟩ => ⟨S3x64x64, .f32⟩
  | .local _ .vmem, ⟨9, _⟩ => ⟨S128, .f32⟩
  | .local _ .vmem, ⟨10, _⟩ => ⟨S64, .f32⟩
  | .local _ .vmem, ⟨11, _⟩ => ⟨S3x64x128, .f32⟩
  | .local _ .vmem, ⟨12, _⟩ => ⟨S3x64x128, .f32⟩
  | .local _ .vmem, ⟨13, _⟩ => ⟨S3x64x64, .f32⟩
  | .local _ .vmem, ⟨14, _⟩ => ⟨S3x64x64, .f32⟩
  | .local _ .vmem, ⟨15, _⟩ => ⟨S128, .f32⟩
  | .local _ .vmem, ⟨16, _⟩ => ⟨S64, .f32⟩
  | .local _ .vmem, ⟨17, _⟩ => ⟨S1x64, .f32⟩
  | .local _ .vmem, ⟨18, _⟩ => ⟨S1, .f32⟩
  | .local _ .vmem, ⟨19, _⟩ => ⟨S8x512, .f32⟩
  | .local _ .vmem, ⟨20, _⟩ => ⟨S8x512, .f32⟩
  | .local _ .vmem, ⟨21, _⟩ => ⟨S2x8x32768, .f32⟩
  | .local _ .vmem, ⟨22, _⟩ => ⟨S2x8x32768, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x8x32768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S195x128_S65x3x128 : S195x128.ShapeCasts S65x3x128
  slices_S65x3x128_S1x3x128_0_0_0 : S65x3x128.Slices ![0, 0, 0] S1x3x128
  transposes_S1x3x128_S3x1x128_1_0_2 : S1x3x128.Transposes [1, 0, 2] S3x1x128
  slices_S65x3x128_S64x3x128_1_0_0 : S65x3x128.Slices ![1, 0, 0] S64x3x128
  transposes_S64x3x128_S3x64x128_1_0_2 : S64x3x128.Transposes [1, 0, 2] S3x64x128
  shapeCasts_S195x64_S65x3x64 : S195x64.ShapeCasts S65x3x64
  slices_S65x3x64_S1x3x64_0_0_0 : S65x3x64.Slices ![0, 0, 0] S1x3x64
  transposes_S1x3x64_S3x1x64_1_0_2 : S1x3x64.Transposes [1, 0, 2] S3x1x64
  slices_S65x3x64_S64x3x64_1_0_0 : S65x3x64.Slices ![1, 0, 0] S64x3x64
  transposes_S64x3x64_S3x64x64_1_0_2 : S64x3x64.Transposes [1, 0, 2] S3x64x64
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S3x1x128_S3x1x1x1x128_0_2_4 : S3x1x128.BroadcastsInDim S3x1x1x1x128 (![0, 2, 4] : Fin 3 → Fin S3x1x1x1x128.rank)
  bcast_S8x1x8x1_S1x8x1x8x1_1_2_3_4 : S8x1x8x1.BroadcastsInDim S1x8x1x8x1 (![1, 2, 3, 4] : Fin 4 → Fin S1x8x1x8x1.rank)
  bcast_S1x8x1x8x1_S3x8x1x8x128_0_1_2_3_4 : S1x8x1x8x1.BroadcastsInDim S3x8x1x8x128 (![0, 1, 2, 3, 4] : Fin 5 → Fin S3x8x1x8x128.rank)
  bcast_S3x1x1x1x128_S3x8x1x8x128_0_1_2_3_4 : S3x1x1x1x128.BroadcastsInDim S3x8x1x8x128 (![0, 1, 2, 3, 4] : Fin 5 → Fin S3x8x1x8x128.rank)
  shapeCasts_S3x8x1x8x128_S3x8x1024 : S3x8x1x8x128.ShapeCasts S3x8x1024
  bcast_S3x1x64_S3x1x1x1x64_0_2_4 : S3x1x64.BroadcastsInDim S3x1x1x1x64 (![0, 2, 4] : Fin 3 → Fin S3x1x1x1x64.rank)
  bcast_S1x8x1x8x1_S3x8x1x8x64_0_1_2_3_4 : S1x8x1x8x1.BroadcastsInDim S3x8x1x8x64 (![0, 1, 2, 3, 4] : Fin 5 → Fin S3x8x1x8x64.rank)
  bcast_S3x1x1x1x64_S3x8x1x8x64_0_1_2_3_4 : S3x1x1x1x64.BroadcastsInDim S3x8x1x8x64 (![0, 1, 2, 3, 4] : Fin 5 → Fin S3x8x1x8x64.rank)
  shapeCasts_S3x8x1x8x64_S3x8x512 : S3x8x1x8x64.ShapeCasts S3x8x512
  shapeCasts_S384x128_S128x3x128 : S384x128.ShapeCasts S128x3x128
  slices_S128x3x128_S64x3x128_0_0_0 : S128x3x128.Slices ![0, 0, 0] S64x3x128
  slices_S128x3x128_S64x3x128_64_0_0 : S128x3x128.Slices ![64, 0, 0] S64x3x128
  shapeCasts_S384x64_S128x3x64 : S384x64.ShapeCasts S128x3x64
  slices_S128x3x64_S64x3x64_0_0_0 : S128x3x64.Slices ![0, 0, 0] S64x3x64
  slices_S128x3x64_S64x3x64_64_0_0 : S128x3x64.Slices ![64, 0, 0] S64x3x64
  transposes_S64x1_S1x64_1_0 : S64x1.Transposes [1, 0] S1x64
  inb_S512x512_S512x512_0_0 : ∀ a, (![0, 0] : Fin 2 → Nat) a + S512x512.size a ≤ S512x512.size a
  h_S512x512 : 0 < S512x512.numel
  inb_S2x8x32768_S1x8x32768_0_0_0 : ∀ a, (![0, 0, 0] : Fin 3 → Nat) a + S1x8x32768.size a ≤ S2x8x32768.size a
  h_S1x8x32768 : 0 < S1x8x32768.numel
  shapeCasts_S1x8x32768_S8x32768 : S1x8x32768.ShapeCasts S8x32768
  shapeCasts_S8x32768_S8x512x64 : S8x32768.ShapeCasts S8x512x64
  transposes_S8x512x64_p1_0_2_S512x8x64 : S8x512x64.Transposes [1, 0, 2] S512x8x64
  shapeCasts_S512x8x64_S4096x64 : S512x8x64.ShapeCasts S4096x64
  inb_S8x512_S8x512_0_0 : ∀ a, (![0, 0] : Fin 2 → Nat) a + S8x512.size a ≤ S8x512.size a
  h_S8x512 : 0 < S8x512.numel
  transposes_S8x512_p1_0_S512x8 : S8x512.Transposes [1, 0] S512x8
  bitsLt_bf16_f32 : FTy.bits .bf16 < FTy.bits .f32
  inb_S3x8x1024_S3x8x1024_0_0_0 : ∀ a, (![0, 0, 0] : Fin 3 → Nat) a + S3x8x1024.size a ≤ S3x8x1024.size a
  h_S3x8x1024 : 0 < S3x8x1024.numel
  shapeCasts_S3x8x1024_S3x8x1024 : S3x8x1024.ShapeCasts S3x8x1024
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  inb_S128_S128_0 : ∀ a, (![0] : Fin 1 → Nat) a + S128.size a ≤ S128.size a
  h_S128 : 0 < S128.numel
  shapeCasts_S4096x64_S512x8x64 : S4096x64.ShapeCasts S512x8x64
  shapeCasts_S512x8x64_S512x512 : S512x8x64.ShapeCasts S512x512
  shapeCasts_S128_S1x128 : S128.ShapeCasts S1x128
  shapeCasts_S1x128_S1x128 : S1x128.ShapeCasts S1x128
  broadcasts_S1x128_S4096x128 : S1x128.Broadcasts S4096x128
  shapeCasts_S512x512_S512x8x64 : S512x512.ShapeCasts S512x8x64
  slices_S3x64x128_o0_0_0_S1x64x128 : S3x64x128.Slices ![0, 0, 0] S1x64x128
  shapeCasts_S1x64x128_S64x128 : S1x64x128.ShapeCasts S64x128
  slices_S3x8x1024_o0_0_0_S1x8x1024 : S3x8x1024.Slices ![0, 0, 0] S1x8x1024
  shapeCasts_S1x8x1024_S8x1024 : S1x8x1024.ShapeCasts S8x1024
  shapeCasts_S512x1024_S512x8x128 : S512x1024.ShapeCasts S512x8x128
  shapeCasts_S512x8x128_S4096x128 : S512x8x128.ShapeCasts S4096x128
  slices_S3x64x128_o1_0_0_S1x64x128 : S3x64x128.Slices ![1, 0, 0] S1x64x128
  slices_S3x8x1024_o1_0_0_S1x8x1024 : S3x8x1024.Slices ![1, 0, 0] S1x8x1024
  slices_S3x64x128_o2_0_0_S1x64x128 : S3x64x128.Slices ![2, 0, 0] S1x64x128
  slices_S3x8x1024_o2_0_0_S1x8x1024 : S3x8x1024.Slices ![2, 0, 0] S1x8x1024
  slices_S4096x128_o0_0_S4096x64 : S4096x128.Slices ![0, 0] S4096x64
  slices_S4096x128_o0_64_S4096x64 : S4096x128.Slices ![0, 64] S4096x64
  inb_S3x8x512_S3x8x512_0_0_0 : ∀ a, (![0, 0, 0] : Fin 3 → Nat) a + S3x8x512.size a ≤ S3x8x512.size a
  h_S3x8x512 : 0 < S3x8x512.numel
  shapeCasts_S3x8x512_S3x8x512 : S3x8x512.ShapeCasts S3x8x512
  inb_S3x64x64_S3x64x64_0_0_0 : ∀ a, (![0, 0, 0] : Fin 3 → Nat) a + S3x64x64.size a ≤ S3x64x64.size a
  h_S3x64x64 : 0 < S3x64x64.numel
  shapeCasts_S3x64x64_S3x64x64 : S3x64x64.ShapeCasts S3x64x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S4096x64 : S1x64.Broadcasts S4096x64
  slices_S3x64x64_o0_0_0_S1x64x64 : S3x64x64.Slices ![0, 0, 0] S1x64x64
  shapeCasts_S1x64x64_S64x64 : S1x64x64.ShapeCasts S64x64
  slices_S3x8x512_o0_0_0_S1x8x512 : S3x8x512.Slices ![0, 0, 0] S1x8x512
  shapeCasts_S1x8x512_S8x512 : S1x8x512.ShapeCasts S8x512
  slices_S3x64x64_o1_0_0_S1x64x64 : S3x64x64.Slices ![1, 0, 0] S1x64x64
  slices_S3x8x512_o1_0_0_S1x8x512 : S3x8x512.Slices ![1, 0, 0] S1x8x512
  slices_S3x64x64_o2_0_0_S1x64x64 : S3x64x64.Slices ![2, 0, 0] S1x64x64
  slices_S3x8x512_o2_0_0_S1x8x512 : S3x8x512.Slices ![2, 0, 0] S1x8x512
  inb_S2x8x32768_S1x8x32768_1_0_0 : ∀ a, (![1, 0, 0] : Fin 3 → Nat) a + S1x8x32768.size a ≤ S2x8x32768.size a
  transposes_S512x8x64_p1_0_2_S8x512x64 : S512x8x64.Transposes [1, 0, 2] S8x512x64
  shapeCasts_S8x512x64_S8x32768 : S8x512x64.ShapeCasts S8x32768
  shapeCasts_S8x32768_S1x8x32768 : S8x32768.ShapeCasts S1x8x32768
  inb_S1x64_S1x64_0_0 : ∀ a, (![0, 0] : Fin 2 → Nat) a + S1x64.size a ≤ S1x64.size a
  h_S1x64 : 0 < S1x64.numel
  shapeCasts_S1x64_S1x1x64 : S1x64.ShapeCasts S1x1x64
  broadcasts_S1x1x64_S512x8x64 : S1x1x64.Broadcasts S512x8x64
  reduces_S512x8x64_S512x8 : S512x8x64.Reduces [2] S512x8
  inb_S1_S1_0 : ∀ a, (![0] : Fin 1 → Nat) a + S1.size a ≤ S1.size a
  h_S1 : 0 < S1.numel
  inpos_S1_p0 : ∀ a, (![0] : Fin 1 → Nat) a < S1.size a
  transposes_S512x8_p1_0_S8x512 : S512x8.Transposes [1, 0] S8x512
  dot_S512x512_S512x8_S512x8_1_0_0_1_n_n_wf : DotDims.WF S512x512 S512x8 S512x8 [1] [0] [0] [1] [] []
  dot_S512x512_S512x512_S512x512_1_0_0_1_n_n_wf : DotDims.WF S512x512 S512x512 S512x512 [1] [0] [0] [1] [] []
  dot_S4096x64_S64x128_S4096x128_1_0_0_1_n_n_wf : DotDims.WF S4096x64 S64x128 S4096x128 [1] [0] [0] [1] [] []
  dot_S512x8_S8x1024_S512x1024_1_0_0_1_n_n_wf : DotDims.WF S512x8 S8x1024 S512x1024 [1] [0] [0] [1] [] []
  dot_S4096x64_S64x64_S4096x64_1_0_0_1_n_n_wf : DotDims.WF S4096x64 S64x64 S4096x64 [1] [0] [0] [1] [] []
  dot_S512x8_S8x512_S512x512_1_0_0_1_n_n_wf : DotDims.WF S512x8 S8x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S32x512.size a
  hwx0_0 : ∀ i : grid0.Coords, EltTy.bits .f32 = 32 ∨ (Rect.block (s := S32x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8x32768.size a ≤ S2x32x32768.size a
  hwx0_2 : ∀ i : grid0.Coords, EltTy.bits .f32 = 32 ∨ (Rect.block (s := S2x32x32768) S2x8x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x8x1024.size a ≤ S3x8x1024.size a
  hwx0_3 : ∀ i : grid0.Coords, EltTy.bits .f32 = 32 ∨ (Rect.block (s := S3x8x1024) S3x8x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x128.size a ≤ S3x64x128.size a
  hwx0_4 : ∀ i : grid0.Coords, EltTy.bits .f32 = 32 ∨ (Rect.block (s := S3x64x128) S3x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x8x512.size a ≤ S3x8x512.size a
  hwx0_5 : ∀ i : grid0.Coords, EltTy.bits .f32 = 32 ∨ (Rect.block (s := S3x8x512) S3x8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64x64.size a ≤ S3x64x64.size a
  hwx0_6 : ∀ i : grid0.Coords, EltTy.bits .f32 = 32 ∨ (Rect.block (s := S3x64x64) S3x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x64x128.size a ≤ S3x64x128.size a
  hwx0_9 : ∀ i : grid0.Coords, EltTy.bits .f32 = 32 ∨ (Rect.block (s := S3x64x128) S3x64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64x128.size a ≤ S3x64x128.size a
  hwx0_10 : ∀ i : grid0.Coords, EltTy.bits .f32 = 32 ∨ (Rect.block (s := S3x64x128) S3x64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x64x64.size a ≤ S3x64x64.size a
  hwx0_11 : ∀ i : grid0.Coords, EltTy.bits .f32 = 32 ∨ (Rect.block (s := S3x64x64) S3x64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x64x64.size a ≤ S3x64x64.size a
  hwx0_12 : ∀ i : grid0.Coords, EltTy.bits .f32 = 32 ∨ (Rect.block (s := S3x64x64) S3x64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8x512.size a ≤ S32x512.size a
  hwx0_17 : ∀ i : grid0.Coords, EltTy.bits .f32 = 32 ∨ (Rect.block (s := S32x512) S8x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x8x32768.size a ≤ S2x32x32768.size a
  hwx0_18 : ∀ i : grid0.Coords, EltTy.bits .f32 = 32 ∨ (Rect.block (s := S2x32x32768) S2x8x32768.size (cc0_transform_18 i) (hinb0_18 i)).WholeWords (EltTy.packing .f32)

variable [Facts₀]

def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S512x8_S8x1024_S512x1024_1_0_0_1_n_n : DotDims S512x8 S8x1024 S512x1024 where
  lhsContracting := [1]
  rhsContracting := [0]
  lhsNonContracting := [0]
  rhsNonContracting := [1]
  lhsBatch := []
  rhsBatch := []
  wf := dot_S512x8_S8x1024_S512x1024_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x8x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S3x8x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S3x64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S3x8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S3x64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S3x64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S3x64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v33) S3x64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35_0) S8x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v35_1) S2x8x32768.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S1x32x32768 : Shape := ⟨3, ![1, 32, 32768]⟩
abbrev S32x32768 : Shape := ⟨2, ![32, 32768]⟩
abbrev S32x512x1 : Shape := ⟨3, ![32, 512, 1]⟩
abbrev S32x512x64 : Shape := ⟨3, ![32, 512, 64]⟩
abbrev S32x512x65 : Shape := ⟨3, ![32, 512, 65]⟩
abbrev S512x65x32 : Shape := ⟨3, ![512, 65, 32]⟩
abbrev S512x2080 : Shape := ⟨2, ![512, 2080]⟩
abbrev S_ : Shape := ⟨0, ![]⟩
abbrev S1x512x2080 : Shape := ⟨3, ![1, 512, 2080]⟩
abbrev S3x512x2080 : Shape := ⟨3, ![3, 512, 2080]⟩
abbrev S3x512x65x32 : Shape := ⟨4, ![3, 512, 65, 32]⟩
abbrev S32x512x65x3 : Shape := ⟨4, ![32, 512, 65, 3]⟩
abbrev S16384x195 : Shape := ⟨2, ![16384, 195]⟩
abbrev S16384x128 : Shape := ⟨2, ![16384, 128]⟩
abbrev S1x128 : Shape := ⟨2, ![1, 128]⟩
abbrev S32x65536 : Shape := ⟨2, ![32, 65536]⟩
abbrev S32x512x128 : Shape := ⟨3, ![32, 512, 128]⟩
abbrev S16384x64 : Shape := ⟨2, ![16384, 64]⟩
abbrev S1x64 : Shape := ⟨2, ![1, 64]⟩
abbrev S512x128x32 : Shape := ⟨3, ![512, 128, 32]⟩
abbrev S512x4096 : Shape := ⟨2, ![512, 4096]⟩
abbrev S1x512x4096 : Shape := ⟨3, ![1, 512, 4096]⟩
abbrev S3x512x4096 : Shape := ⟨3, ![3, 512, 4096]⟩
abbrev S3x512x128x32 : Shape := ⟨4, ![3, 512, 128, 32]⟩
abbrev S32x512x128x3 : Shape := ⟨4, ![32, 512, 128, 3]⟩
abbrev S16384x384 : Shape := ⟨2, ![16384, 384]⟩
abbrev S16384x1 : Shape := ⟨2, ![16384, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S32x512, .f32⟩
  | 1 => ⟨S512x512, .f32⟩
  | 2 => ⟨S2x32x32768, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S1x32x32768, .f32⟩
  | 14 => ⟨S32x32768, .f32⟩
  | 15 => ⟨S32x512x1, .f32⟩
  | 16 => ⟨S32x512x64, .f32⟩
  | 17 => ⟨S32x512x65, .f32⟩
  | 18 => ⟨S512x65x32, .f32⟩
  | 19 => ⟨S512x2080, .f32⟩
  | 20 => ⟨S512x2080, .f32⟩
  | 21 => ⟨S512x2080, .f32⟩
  | 22 => ⟨S_, .f32⟩
  | 23 => ⟨S512x2080, .f32⟩
  | 24 => ⟨S512x2080, .f32⟩
  | 25 => ⟨S512x2080, .f32⟩
  | 26 => ⟨S1x512x2080, .f32⟩
  | 27 => ⟨S1x512x2080, .f32⟩
  | 28 => ⟨S1x512x2080, .f32⟩
  | 29 => ⟨S3x512x2080, .f32⟩
  | 30 => ⟨S3x512x65x32, .f32⟩
  | 31 => ⟨S32x512x65x3, .f32⟩
  | 32 => ⟨S16384x195, .f32⟩
  | 33 => ⟨S16384x128, .f32⟩
  | 34 => ⟨S1x128, .f32⟩
  | 35 => ⟨S16384x128, .f32⟩
  | 36 => ⟨S16384x128, .f32⟩
  | 37 => ⟨S32x65536, .f32⟩
  | 38 => ⟨S32x65536, .f32⟩
  | 39 => ⟨S32x65536, .f32⟩
  | 40 => ⟨S_, .f32⟩
  | 41 => ⟨S32x65536, .f32⟩
  | 42 => ⟨S32x65536, .f32⟩
  | 43 => ⟨S_, .f32⟩
  | 44 => ⟨S32x65536, .f32⟩
  | 45 => ⟨S32x65536, .f32⟩
  | 46 => ⟨S32x512x128, .f32⟩
  | 47 => ⟨S32x512x64, .f32⟩
  | 48 => ⟨S32x512x64, .f32⟩
  | 49 => ⟨S32x32768, .f32⟩
  | 50 => ⟨S32x32768, .f32⟩
  | 51 => ⟨S32x32768, .f32⟩
  | 52 => ⟨S32x512x1, .f32⟩
  | 53 => ⟨S32x512x64, .f32⟩
  | 54 => ⟨S32x512x65, .f32⟩
  | 55 => ⟨S512x65x32, .f32⟩
  | 56 => ⟨S512x2080, .f32⟩
  | 57 => ⟨S512x2080, .f32⟩
  | 58 => ⟨S512x2080, .f32⟩
  | 59 => ⟨S_, .f32⟩
  | 60 => ⟨S512x2080, .f32⟩
  | 61 => ⟨S512x2080, .f32⟩
  | 62 => ⟨S512x2080, .f32⟩
  | 63 => ⟨S1x512x2080, .f32⟩
  | 64 => ⟨S1x512x2080, .f32⟩
  | 65 => ⟨S1x512x2080, .f32⟩
  | 66 => ⟨S3x512x2080, .f32⟩
  | 67 => ⟨S3x512x65x32, .f32⟩
  | 68 => ⟨S32x512x65x3, .f32⟩
  | 69 => ⟨S16384x195, .f32⟩
  | 70 => ⟨S16384x64, .f32⟩
  | 71 => ⟨S1x64, .f32⟩
  | 72 => ⟨S16384x64, .f32⟩
  | 73 => ⟨S16384x64, .f32⟩
  | 74 => ⟨S32x32768, .f32⟩
  | 75 => ⟨S32x32768, .f32⟩
  | 76 => ⟨S32x32768, .f32⟩
  | 77 => ⟨S_, .f32⟩
  | 78 => ⟨S32x32768, .f32⟩
  | 79 => ⟨S32x32768, .f32⟩
  | 80 => ⟨S32x32768, .f32⟩
  | 81 => ⟨S32x32768, .f32⟩
  | 82 => ⟨S1x32x32768, .f32⟩
  | 83 => ⟨S32x32768, .f32⟩
  | 84 => ⟨S32x512x64, .f32⟩
  | 85 => ⟨S32x512x64, .f32⟩
  | 86 => ⟨S32x512x128, .f32⟩
  | 87 => ⟨S512x128x32, .f32⟩
  | 88 => ⟨S512x4096, .f32⟩
  | 89 => ⟨S512x4096, .f32⟩
  | 90 => ⟨S512x4096, .f32⟩
  | 91 => ⟨S_, .f32⟩
  | 92 => ⟨S512x4096, .f32⟩
  | 93 => ⟨S512x4096, .f32⟩
  | 94 => ⟨S512x4096, .f32⟩
  | 95 => ⟨S1x512x4096, .f32⟩
  | 96 => ⟨S1x512x4096, .f32⟩
  | 97 => ⟨S1x512x4096, .f32⟩
  | 98 => ⟨S3x512x4096, .f32⟩
  | 99 => ⟨S3x512x128x32, .f32⟩
  | 100 => ⟨S32x512x128x3, .f32⟩
  | 101 => ⟨S16384x384, .f32⟩
  | 102 => ⟨S16384x128, .f32⟩
  | 103 => ⟨S1x128, .f32⟩
  | 104 => ⟨S16384x128, .f32⟩
  | 105 => ⟨S16384x128, .f32⟩
  | 106 => ⟨S32x65536, .f32⟩
  | 107 => ⟨S32x65536, .f32⟩
  | 108 => ⟨S32x65536, .f32⟩
  | 109 => ⟨S_, .f32⟩
  | 110 => ⟨S32x65536, .f32⟩
  | 111 => ⟨S32x65536, .f32⟩
  | 112 => ⟨S_, .f32⟩
  | 113 => ⟨S32x65536, .f32⟩
  | 114 => ⟨S32x65536, .f32⟩
  | 115 => ⟨S32x512x128, .f32⟩
  | 116 => ⟨S32x512x64, .f32⟩
  | 117 => ⟨S32x512x64, .f32⟩
  | 118 => ⟨S32x32768, .f32⟩
  | 119 => ⟨S32x32768, .f32⟩
  | 120 => ⟨S32x32768, .f32⟩
  | 121 => ⟨S32x512x64, .f32⟩
  | 122 => ⟨S32x512x64, .f32⟩
  | 123 => ⟨S32x512x128, .f32⟩
  | 124 => ⟨S512x128x32, .f32⟩
  | 125 => ⟨S512x4096, .f32⟩
  | 126 => ⟨S512x4096, .f32⟩
  | 127 => ⟨S512x4096, .f32⟩
  | _ => ⟨S32x512, .f32⟩

abbrev hbmTy0_1 (i : Nat) : BufTy := match i % 128 with
  | 0 => ⟨S_, .f32⟩
  | 1 => ⟨S512x4096, .f32⟩
  | 2 => ⟨S512x4096, .f32⟩
  | 3 => ⟨S512x4096, .f32⟩
  | 4 => ⟨S1x512x4096, .f32⟩
  | 5 => ⟨S1x512x4096, .f32⟩
  | 6 => ⟨S1x512x4096, .f32⟩
  | 7 => ⟨S3x512x4096, .f32⟩
  | 8 => ⟨S3x512x128x32, .f32⟩
  | 9 => ⟨S32x512x128x3, .f32⟩
  | 10 => ⟨S16384x384, .f32⟩
  | 11 => ⟨S16384x64, .f32⟩
  | 12 => ⟨S1x64, .f32⟩
  | 13 => ⟨S16384x64, .f32⟩
  | 14 => ⟨S16384x64, .f32⟩
  | 15 => ⟨S32x32768, .f32⟩
  | 16 => ⟨S32x32768, .f32⟩
  | 17 => ⟨S32x32768, .f32⟩
  | 18 => ⟨S_, .f32⟩
  | 19 => ⟨S32x32768, .f32⟩
  | 20 => ⟨S32x32768, .f32⟩
  | 21 => ⟨S32x32768, .f32⟩
  | 22 => ⟨S32x32768, .f32⟩
  | 23 => ⟨S16384x64, .f32⟩
  | 24 => ⟨S16384x1, .f32⟩
  | 25 => ⟨S1x1, .f32⟩
  | 26 => ⟨S16384x1, .f32⟩
  | 27 => ⟨S16384x1, .f32⟩
  | 28 => ⟨S32x512, .f32⟩
  | 29 => ⟨S1x32x32768, .f32⟩
  | 30 => ⟨S1x32x32768, .f32⟩
  | 31 => ⟨S2x32x32768, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_5 : Ref sig .tc := ⟨.hbm, 109, rfl⟩
abbrev main_v90 : Ref sig .tc := ⟨.hbm, 110, rfl⟩
abbrev main_v91 : Ref sig .tc := ⟨.hbm, 111, rfl⟩
abbrev main_cst_6 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_7 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_8 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]

class Facts₀ : Prop where
  slices_S2x32x32768_S1x32x32768_0_0_0 : S2x32x32768.Slices ![0, 0, 0] S1x32x32768
  shapeCasts_S1x32x32768_S32x32768 : S1x32x32768.ShapeCasts S32x32768
  shapeCasts_S32x512_S32x512x1 : S32x512.ShapeCasts S32x512x1
  shapeCasts_S32x32768_S32x512x64 : S32x32768.ShapeCasts S32x512x64
  concatenates_S32x512x1_S32x512x64_S32x512x65_d2 : Shape.Concatenates [S32x512x1, S32x512x64] S32x512x65 2
  transposes_S32x512x65_S512x65x32_1_2_0 : S32x512x65.Transposes [1, 2, 0] S512x65x32
  shapeCasts_S512x65x32_S512x2080 : S512x65x32.ShapeCasts S512x2080
  bcast_S_S512x2080 : S_.BroadcastsInDim S512x2080 (![] : Fin 0 → Fin S512x2080.rank)
  bcast_S512x2080_S1x512x2080_1_2 : S512x2080.BroadcastsInDim S1x512x2080 (![1, 2] : Fin 2 → Fin S1x512x2080.rank)
  concatenates_S1x512x2080_S1x512x2080_S1x512x2080_S3x512x2080_d0 : Shape.Concatenates [S1x512x2080, S1x512x2080, S1x512x2080] S3x512x2080 0
  shapeCasts_S3x512x2080_S3x512x65x32 : S3x512x2080.ShapeCasts S3x512x65x32
  transposes_S3x512x65x32_S32x512x65x3_3_1_2_0 : S3x512x65x32.Transposes [3, 1, 2, 0] S32x512x65x3
  shapeCasts_S32x512x65x3_S16384x195 : S32x512x65x3.ShapeCasts S16384x195
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S32x65536 : S16384x128.ShapeCasts S32x65536
  bcast_S_S32x65536 : S_.BroadcastsInDim S32x65536 (![] : Fin 0 → Fin S32x65536.rank)
  shapeCasts_S32x65536_S32x512x128 : S32x65536.ShapeCasts S32x512x128
  slices_S32x512x128_S32x512x64_0_0_0 : S32x512x128.Slices ![0, 0, 0] S32x512x64
  slices_S32x512x128_S32x512x64_0_0_64 : S32x512x128.Slices ![0, 0, 64] S32x512x64
  shapeCasts_S32x512x64_S32x32768 : S32x512x64.ShapeCasts S32x32768
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S32x32768 : S16384x64.ShapeCasts S32x32768
  bcast_S_S32x32768 : S_.BroadcastsInDim S32x32768 (![] : Fin 0 → Fin S32x32768.rank)
  slices_S2x32x32768_S1x32x32768_1_0_0 : S2x32x32768.Slices ![1, 0, 0] S1x32x32768
  concatenates_S32x512x64_S32x512x64_S32x512x128_d2 : Shape.Concatenates [S32x512x64, S32x512x64] S32x512x128 2
  transposes_S32x512x128_S512x128x32_1_2_0 : S32x512x128.Transposes [1, 2, 0] S512x128x32
  shapeCasts_S512x128x32_S512x4096 : S512x128x32.ShapeCasts S512x4096
  bcast_S_S512x4096 : S_.BroadcastsInDim S512x4096 (![] : Fin 0 → Fin S512x4096.rank)
  bcast_S512x4096_S1x512x4096_1_2 : S512x4096.BroadcastsInDim S1x512x4096 (![1, 2] : Fin 2 → Fin S1x512x4096.rank)
  concatenates_S1x512x4096_S1x512x4096_S1x512x4096_S3x512x4096_d0 : Shape.Concatenates [S1x512x4096, S1x512x4096, S1x512x4096] S3x512x4096 0
  shapeCasts_S3x512x4096_S3x512x128x32 : S3x512x4096.ShapeCasts S3x512x128x32
  transposes_S3x512x128x32_S32x512x128x3_3_1_2_0 : S3x512x128x32.Transposes [3, 1, 2, 0] S32x512x128x3
  shapeCasts_S32x512x128x3_S16384x384 : S32x512x128x3.ShapeCasts S16384x384
  shapeCasts_S32x32768_S16384x64 : S32x32768.ShapeCasts S16384x64
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S32x512 : S16384x1.ShapeCasts S32x512
  bcast_S32x32768_S1x32x32768_1_2 : S32x32768.BroadcastsInDim S1x32x32768 (![1, 2] : Fin 2 → Fin S1x32x32768.rank)
  concatenates_S1x32x32768_S1x32x32768_S2x32x32768_d0 : Shape.Concatenates [S1x32x32768, S1x32x32768] S2x32x32768 0
  dot_S512x512_S512x2080_S512x2080_1_0_0_1_n_n_wf : DotDims.WF S512x512 S512x2080 S512x2080 [1] [0] [0] [1] [] []
  dot_S16384x195_S195x128_S16384x128_1_0_0_1_n_n_wf : DotDims.WF S16384x195 S195x128 S16384x128 [1] [0] [0] [1] [] []
  dot_S16384x195_S195x64_S16384x64_1_0_0_1_n_n_wf : DotDims.WF S16384x195 S195x64 S16384x64 [1] [0] [0] [1] [] []
  dot_S512x512_S512x4096_S512x4096_1_0_0_1_n_n_wf : DotDims.WF S512x512 S512x4096 S512x4096 [1] [0] [0] [1] [] []
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []
  dot_S16384x64_S64x1_S16384x1_1_0_0_1_n_n_wf : DotDims.WF S16384x64 S64x1 S16384x1 [1] [0] [0] [1] [] []

variable [Facts₀]

def dot_S512x512_S512x2080_S512x2080_1_0_0_1_n_n : DotDims S512x512 S512x2080 S512x2080 where
  lhsContracting := [1]
  rhsContracting := [0]
  lhsNonContracting := [0]
  rhsNonContracting := [1]
  lhsBatch := []
  rhsBatch := []
  wf := dot_S512x512_S512x2080_S512x2080_1_0_0_1_n_n_wf
def dot_S16384x195_S195x128_S16384x128_1_0_0_1_n_n : DotDims S16384x195 S195x128 S16384x128 where
  lhsContracting := [1]
  rhsContracting := [0]
  lhsNonContracting := [0]
  rhsNonContracting := [1]
  lhsBatch := []
  rhsBatch := []
  wf := dot_S16384x195_S195x128_S16384x128_1_0_0_1_n_n_wf
def dot_S16384x195_S195x64_S16384x64_1_0_0_1_n_n : DotDims S16384x195 S195x64 S16384x64 where
  lhsContracting := [1]
  rhsContracting := [0]
  lhsNonContracting := [0]
  rhsNonContracting := [1]
  lhsBatch := []
  rhsBatch := []
  wf := dot_S16384x195_S195x64_S16384x64_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KNodes.lean ====
/- GENERATED by 'python3 scratch/name_nodes.py proof/Proof/Gen/KernelIdeal/Frame.lean proofs.«152469_g44504451121623_cont_8to1_c_180_12_alg»' (run in the unit directory): a table of names, one 'def' per distinct
   subterm of the two generated output terms, and the two equations that say so. No argument is made here. -/
import proofs.«152469_g44504451121623_cont_8to1_c_180_12_alg».proof.Proof.Gen.KernelIdeal.Frame

set_option maxRecDepth 16384

noncomputable section

namespace Cert.KernelIdeal.Nodes

open Cert.KernelIdeal Cert.KernelIdeal.Gen Idealize.ShloMosaic

variable {F : FTy → Type} [FloatOps F]

/-- The input windows' blocks at one grid point. -/
structure Blk (F : FTy → Type) [FloatOps F] where
  x0 : Vec F S8x512 .f32
  x1 : Vec F S512x512 .f32
  x2 : Vec F S2x8x32768 .f32
  x3 : Vec F S3x8x1024 .f32
  x4 : Vec F S3x64x128 .f32
  x5 : Vec F S3x8x512 .f32
  x6 : Vec F S3x64x64 .f32
  x7 : Vec F S128 .f32
  x8 : Vec F S64 .f32
  x9 : Vec F S3x64x128 .f32
  x10 : Vec F S3x64x128 .f32
  x11 : Vec F S3x64x64 .f32
  x12 : Vec F S3x64x64 .f32
  x13 : Vec F S128 .f32
  x14 : Vec F S64 .f32
  x15 : Vec F S1x64 .f32
  x16 : Vec F S1 .f32

variable (B : Blk F)

def t26 := k0_pay26 (View.ld B.x2 r0_9)
def t5 := k0_pay5 (View.ld B.x2 r0_1)
def t8 := k0_pay8 (View.ld B.x1 r0_0) (View.ld B.x0 r0_2)
def t9 := k0_pay9 (View.ld B.x3 r0_3)
def t6 := k0_pay6 (View.ld B.x0 r0_2)
def t7 := k0_pay7 (View.ld B.x1 r0_0) (View.ld B.x0 r0_2)
def t10 := k0_pay10 (View.ld B.x4 r0_4)
def t11 := k0_pay11 (View.ld B.x2 r0_1)
def t12 := k0_pay12 (View.ld B.x1 r0_0) (View.ld B.x2 r0_1)
def t13 := k0_pay13 (View.ld B.x1 r0_0) (View.ld B.x2 r0_1)
def t14 := k0_pay14 (View.ld B.x7 r0_5)
def t15 := k0_pay15 (t6 B) (t7 B) (t9 B) (t10 B) (t11 B) (t12 B) (t13 B) (t14 B)
def t17 := k0_pay17 (t8 B) (t9 B) (t15 B)
def t18 := k0_pay18 (View.ld B.x5 r0_6)
def t19 := k0_pay19 (View.ld B.x6 r0_7)
def t21 := k0_pay21 (View.ld B.x1 r0_0) (t5 B) (t8 B) (t9 B) (t15 B)
def t22 := k0_pay22 (View.ld B.x1 r0_0) (t5 B) (t8 B) (t9 B) (t15 B)
def t23 := k0_pay23 (t5 B) (t8 B) (t9 B) (t15 B) (View.ld B.x6 r0_7) (View.ld B.x8 r0_8)
def t24 := k0_pay24 (t6 B) (t7 B) (t8 B) (t18 B) (t19 B) (t21 B) (t22 B) (t23 B)
def t29 := k0_pay29 (View.ld B.x1 r0_0) (t5 B) (t17 B) (t24 B)
def t30 := k0_pay30 (View.ld B.x9 r0_4)
def t27 := k0_pay27 (t5 B) (t17 B) (t24 B)
def t28 := k0_pay28 (View.ld B.x1 r0_0) (t5 B) (t17 B) (t24 B)
def t31 := k0_pay31 (View.ld B.x10 r0_4)
def t32 := k0_pay32 (View.ld B.x2 r0_9)
def t33 := k0_pay33 (View.ld B.x1 r0_0) (View.ld B.x2 r0_9)
def t35 := k0_pay35 (t27 B) (t28 B) (t30 B) (t31 B) (View.ld B.x13 r0_5) (t32 B) (t33 B)
def t36 := k0_pay36 (t31 B)
def t34 := k0_pay34 (View.ld B.x1 r0_0) (View.ld B.x2 r0_9)
def t37 := k0_pay37 (t32 B) (t34 B)
def t39 := k0_pay39 (t29 B) (t30 B) (t35 B) (t36 B) (t37 B)
def t40 := k0_pay40 (View.ld B.x11 r0_7)
def t41 := k0_pay41 (View.ld B.x12 r0_7)
def t43 := k0_pay43 (View.ld B.x1 r0_0) (t26 B) (t29 B) (t30 B) (t35 B) (t36 B) (t37 B)
def t44 := k0_pay44 (View.ld B.x1 r0_0) (t26 B) (t29 B) (t30 B) (t35 B) (t36 B) (t37 B)
def t45 := k0_pay45 (View.ld B.x14 r0_8)
def t46 := k0_pay46 (View.ld B.x12 r0_7)
def t47 := k0_pay47 (t26 B) (t29 B) (t30 B) (t35 B) (t36 B) (t37 B)
def t48 := k0_pay48 (t27 B) (t28 B) (t40 B) (t41 B) (t43 B) (t44 B) (t45 B) (t46 B) (t47 B)
def t49 := k0_pay49 (t40 B)
def t50 := k0_pay50 (t29 B)
def t4 := k0_pay4 (t26 B) (t39 B) (t48 B) (t49 B) (t50 B) (View.ld B.x15 r0_10) (View.ld B.x16 r0_11)
def t3 := k0_pay3 (t26 B) (t39 B) (t48 B) (t49 B) (t50 B)
def t25 := k0_pay25 (t5 B) (t17 B) (t24 B)
def t2 := k0_pay2 (t25 B)

theorem out0_17_eq : out0_17 B.x0 B.x1 B.x2 B.x3 B.x4 B.x5 B.x6 B.x7 B.x8 B.x9 B.x10 B.x11 B.x12 B.x13 B.x14 B.x15 B.x16 = View.canon [⟨r0_2, t4 B⟩] := rfl

theorem out0_18_eq : out0_18 B.x0 B.x1 B.x2 B.x3 B.x4 B.x5 B.x6 B.x7 B.x8 B.x9 B.x10 B.x11 B.x12 B.x13 B.x14 B.x15 B.x16 = View.canon [⟨r0_9, t3 B⟩, ⟨r0_1, t2 B⟩] := rfl

end Cert.KernelIdeal.Nodes

end
-- ==== Proof.Spec.lean ====
/-
  The mathematics both programs compute, per batch sample, over the extended reals.

  A diffusion-convolutional GRU decoder: two cells and a linear read-out. For one sample the data are a scalar
  signal `x n` on the 512 nodes and two hidden states `h n j` (512 nodes, 64 units). With the adjacency `A`, a
  column `z` over the nodes has the three diffusion taps `z`, `A z` and `2·A(A z) − z`. A graph convolution of the
  feature columns (the cell's input columns, then the 64 state columns) is the bias plus, for every feature
  column `f` and tap `m`, the tap at the node times the weight row `3·f + m`. The gate is the logistic of one such
  convolution (its first 64 outputs the reset gate `r`, its last 64 the update gate `u`), the candidate the
  hyperbolic tangent of a second convolution whose state columns are `r · h`, and the new state is
  `u · h + (1 − u) · c`. The second cell takes the first cell's new state as its 64 input columns. The read-out
  is `Σ_j h₁ n j · Wp j + bp`.

  The sums of a convolution are written here in one fixed order of accumulation (bias, then tap by tap the state
  block and the input block); any other association of the same terms is the same extended real, because
  addition of extended reals is associative and commutative.
-/
import Idealize.ShloMosaic.PureOps.Ideal
import Idealize.ShloMosaic.Lib.IdealHost

noncomputable section

namespace Cert.Dcgru

open Idealize.ShloMosaic

/-- The factor `2` of the third tap, as both programs spell it. -/
def two : EReal := Ideal.ofBits .f32 0x40000000#32

/-- The `1` of the update gate's complement `1 − u`, as both programs spell it. -/
def one : EReal := Ideal.ofBits .f32 0x3F800000#32

/-- One diffusion step of a node-indexed column: `(A z) n = Σ_k A n k · z k`. -/
def hop (A : Fin 512 → Fin 512 → EReal) (z : Fin 512 → EReal) (n : Fin 512) : EReal :=
  ∑ k : Fin 512, A n k * z k

/-- The third tap `2·A(A z) − z`. -/
def hop2 (A : Fin 512 → Fin 512 → EReal) (z : Fin 512 → EReal) (n : Fin 512) : EReal :=
  two * hop A (hop A z) n - z n

/-! ## Weight rows: feature column `f`, tap `m` ↦ row `3·f + m` -/

/-- First cell: the scalar input is feature column 0. -/
def w0x (mm : Fin 3) : Fin 195 := ⟨mm.val, by have := mm.isLt; omega⟩
/-- First cell: state unit `j` is feature column `1 + j`. -/
def w0h (mm : Fin 3) (j : Fin 64) : Fin 195 := ⟨(1 + j.val) * 3 + mm.val, by have := mm.isLt; have := j.isLt; omega⟩
/-- Second cell: input unit `j` is feature column `j`. -/
def w1x (mm : Fin 3) (j : Fin 64) : Fin 384 := ⟨j.val * 3 + mm.val, by have := mm.isLt; have := j.isLt; omega⟩
/-- Second cell: state unit `j` is feature column `64 + j`. -/
def w1h (mm : Fin 3) (j : Fin 64) : Fin 384 := ⟨(64 + j.val) * 3 + mm.val, by have := mm.isLt; have := j.isLt; omega⟩

/-- The reset half of a gate's 128 outputs. -/
def lo (j : Fin 64) : Fin 128 := ⟨j.val, by have := j.isLt; omega⟩
/-- The update half of a gate's 128 outputs. -/
def hi (j : Fin 64) : Fin 128 := ⟨64 + j.val, by have := j.isLt; omega⟩

/-- Position `64·n + j` of (node, unit) among a hidden state's 32768 entries per sample. -/
def flat (n : Fin 512) (j : Fin 64) : Fin 32768 := ⟨n.val * 64 + j.val, by have := n.isLt; have := j.isLt; omega⟩
@[simp] theorem flat_val (n : Fin 512) (j : Fin 64) : (flat n j).val = n.val * 64 + j.val := rfl
/-- The node of position `q`. -/
def nodeOf (q : Fin 32768) : Fin 512 := ⟨q.val / 64, by have := q.isLt; omega⟩
/-- The unit of position `q`. -/
def unitOf (q : Fin 32768) : Fin 64 := ⟨q.val % 64, Nat.mod_lt _ (by norm_num)⟩
theorem flat_nodeOf_unitOf (q : Fin 32768) : flat (nodeOf q) (unitOf q) = q :=
  Fin.ext (by show q.val / 64 * 64 + q.val % 64 = q.val; omega)

/-- Graph convolution of the first cell: one scalar input column `x`, 64 state columns `s j`. -/
def gconv0 {O : ℕ} (A : Fin 512 → Fin 512 → EReal) (W : Fin 195 → Fin O → EReal) (bias : Fin O → EReal)
    (x : Fin 512 → EReal) (s : Fin 64 → Fin 512 → EReal) (n : Fin 512) (o : Fin O) : EReal :=
  (((((bias o + ∑ j : Fin 64, s j n * W (w0h 0 j) o) + x n * W (w0x 0) o)
      + ∑ j : Fin 64, hop A (s j) n * W (w0h 1 j) o) + hop A x n * W (w0x 1) o)
      + ∑ j : Fin 64, hop2 A (s j) n * W (w0h 2 j) o) + hop2 A x n * W (w0x 2) o

/-- Graph convolution of the second cell: 64 input columns `xs j`, 64 state columns `s j`. -/
def gconv1 {O : ℕ} (A : Fin 512 → Fin 512 → EReal) (W : Fin 384 → Fin O → EReal) (bias : Fin O → EReal)
    (xs : Fin 64 → Fin 512 → EReal) (s : Fin 64 → Fin 512 → EReal) (n : Fin 512) (o : Fin O) : EReal :=
  (((((bias o + ∑ j : Fin 64, s j n * W (w1h 0 j) o) + ∑ j : Fin 64, xs j n * W (w1x 0 j) o)
      + ∑ j : Fin 64, hop A (s j) n * W (w1h 1 j) o) + ∑ j : Fin 64, hop A (xs j) n * W (w1x 1 j) o)
      + ∑ j : Fin 64, hop2 A (s j) n * W (w1h 2 j) o) + ∑ j : Fin 64, hop2 A (xs j) n * W (w1x 2 j) o

/-- The decoder's parameters, as functions into the extended reals. -/
structure Params where
  A : Fin 512 → Fin 512 → EReal
  Wg0 : Fin 195 → Fin 128 → EReal
  bg0 : Fin 128 → EReal
  Wc0 : Fin 195 → Fin 64 → EReal
  bc0 : Fin 64 → EReal
  Wg1 : Fin 384 → Fin 128 → EReal
  bg1 : Fin 128 → EReal
  Wc1 : Fin 384 → Fin 64 → EReal
  bc1 : Fin 64 → EReal
  Wp : Fin 64 → EReal
  bp : EReal

namespace Params

variable (P : Params)

/-- First cell, both gates: the logistic of the convolution of `x` and `h0`. -/
def gate0 (x : Fin 512 → EReal) (h0 : Fin 512 → Fin 64 → EReal) (n : Fin 512) (o : Fin 128) : EReal :=
  Ideal.logistic (gconv0 P.A P.Wg0 P.bg0 x (fun j n => h0 n j) n o)

/-- First cell, candidate: the state columns are `r · h0`. -/
def cand0 (x : Fin 512 → EReal) (h0 : Fin 512 → Fin 64 → EReal) (n : Fin 512) (j : Fin 64) : EReal :=
  Ideal.tanh (gconv0 P.A P.Wc0 P.bc0 x (fun j n => P.gate0 x h0 n (lo j) * h0 n j) n j)

/-- First cell, new state `u · h0 + (1 − u) · c`. -/
def hn0 (x : Fin 512 → EReal) (h0 : Fin 512 → Fin 64 → EReal) (n : Fin 512) (j : Fin 64) : EReal :=
  P.gate0 x h0 n (hi j) * h0 n j + (one - P.gate0 x h0 n (hi j)) * P.cand0 x h0 n j

/-- Second cell, both gates: its input columns are the first cell's new state. -/
def gate1 (x : Fin 512 → EReal) (h0 h1 : Fin 512 → Fin 64 → EReal) (n : Fin 512) (o : Fin 128) : EReal :=
  Ideal.logistic (gconv1 P.A P.Wg1 P.bg1 (fun j n => P.hn0 x h0 n j) (fun j n => h1 n j) n o)

/-- Second cell, candidate. -/
def cand1 (x : Fin 512 → EReal) (h0 h1 : Fin 512 → Fin 64 → EReal) (n : Fin 512) (j : Fin 64) : EReal :=
  Ideal.tanh (gconv1 P.A P.Wc1 P.bc1 (fun j n => P.hn0 x h0 n j)
    (fun j n => P.gate1 x h0 h1 n (lo j) * h1 n j) n j)

/-- Second cell, new state. -/
def hn1 (x : Fin 512 → EReal) (h0 h1 : Fin 512 → Fin 64 → EReal) (n : Fin 512) (j : Fin 64) : EReal :=
  P.gate1 x h0 h1 n (hi j) * h1 n j + (one - P.gate1 x h0 h1 n (hi j)) * P.cand1 x h0 h1 n j

/-- The read-out at a node. -/
def out (x : Fin 512 → EReal) (h0 h1 : Fin 512 → Fin 64 → EReal) (n : Fin 512) : EReal :=
  (∑ j : Fin 64, P.hn1 x h0 h1 n j * P.Wp j) + P.bp

end Params

end Cert.Dcgru

end
-- ==== Proof.KSem.lean ====
/-
  The vocabulary in which the kernel body's intermediate vectors are read against the decoder's mathematics.

  One grid point works on a chunk of 8 batch samples. Inside the body a quantity indexed by (node n, sample b,
  unit j) lives in one of two layouts with the same row-major position: "rows" (4096 × O, row `8·n + b`, column
  the unit) and "node-major" (512 × 512, row the node, column `64·b + j`); the scalar input's taps are 512 × 8
  (node, sample). A hidden state's block is 8 × 32768 with column `64·n + j`.
  The block's weight operands are slices and re-arrangements of the decoder's weight matrices; `Agrees` lists,
  operand by operand, which entry of which matrix each entry is (for the two Kronecker operands: the weight on the
  diagonal sample pair, zero off it).
-/
import proofs.«152469_g44504451121623_cont_8to1_c_180_12_alg».proof.Proof.KNodes
import proofs.«152469_g44504451121623_cont_8to1_c_180_12_alg».proof.Proof.Spec
import Idealize.ShloMosaic.Lib.ValueIdx

noncomputable section

namespace Cert.KernelIdeal.Sem

open Cert.KernelIdeal Cert.KernelIdeal.Gen Cert.KernelIdeal.Nodes Cert.Dcgru Idealize.ShloMosaic ValueIdx

/-! ## Index arithmetic -/

/-- Row `8·n + b` of a rows-layout vector. -/
def row (n : Fin 512) (b : Fin 8) : Fin 4096 := ⟨n.val * 8 + b.val, by have := n.isLt; have := b.isLt; omega⟩
/-- Column `64·b + j` of a node-major vector. -/
def col (b : Fin 8) (j : Fin 64) : Fin 512 := ⟨b.val * 64 + j.val, by have := b.isLt; have := j.isLt; omega⟩
/-- Column `128·b + o` of the gate's Kronecker operand. -/
def col128 (b : Fin 8) (o : Fin 128) : Fin 1024 := ⟨b.val * 128 + o.val, by have := b.isLt; have := o.isLt; omega⟩

@[simp] theorem row_val (n : Fin 512) (b : Fin 8) : (row n b).val = n.val * 8 + b.val := rfl
@[simp] theorem col_val (b : Fin 8) (j : Fin 64) : (col b j).val = b.val * 64 + j.val := rfl
@[simp] theorem col128_val (b : Fin 8) (o : Fin 128) : (col128 b o).val = b.val * 128 + o.val := rfl

/-! ## Layouts -/

/-- `v` holds `f b n o` in the rows layout. -/
def Rows {O : ℕ} {φ : FTy} (v : FVec Ideal (⟨2, ![4096, O]⟩ : Shape) φ) (f : Fin 8 → Fin 512 → Fin O → EReal) : Prop :=
  ∀ (n : Fin 512) (b : Fin 8) (o : Fin O), v (ix2 (row n b) o) = f b n o

/-- `v` holds `f b n j` in the node-major layout. -/
def Nm {φ : FTy} (v : FVec Ideal (⟨2, ![512, 512]⟩ : Shape) φ) (f : Fin 8 → Fin 512 → Fin 64 → EReal) : Prop :=
  ∀ (n : Fin 512) (b : Fin 8) (j : Fin 64), v (ix2 n (col b j)) = f b n j

/-- `v` holds the scalar-input quantity `f b n` as (node, sample). -/
def Xnm {φ : FTy} (v : FVec Ideal (⟨2, ![512, 8]⟩ : Shape) φ) (f : Fin 8 → Fin 512 → EReal) : Prop :=
  ∀ (n : Fin 512) (b : Fin 8), v (ix2 n b) = f b n

/-! ## One grid point's data -/

/-- The scalar input of sample `b` of the chunk. -/
def xs (B : Blk Ideal) (b : Fin 8) (n : Fin 512) : EReal := B.x0 (ix2 b n)

/-- Hidden state `l` of sample `b` of the chunk. -/
def hs (B : Blk Ideal) (l : Fin 2) (b : Fin 8) (n : Fin 512) (j : Fin 64) : EReal := B.x2 (ix3 l b (flat n j))

/-- The chunk's operands are the decoder's parameters: operand by operand. -/
structure Agrees (P : Params) (B : Blk Ideal) : Prop where
  adj : ∀ (n k : Fin 512), B.x1 (ix2 n k) = P.A n k
  kxg0 : ∀ (mm : Fin 3) (b' b : Fin 8) (o : Fin 128), B.x3 (ix3 mm b' (col128 b o)) = if b' = b then P.Wg0 (w0x mm) o else 0
  whg0 : ∀ (mm : Fin 3) (j : Fin 64) (o : Fin 128), B.x4 (ix3 mm j o) = P.Wg0 (w0h mm j) o
  kxc0 : ∀ (mm : Fin 3) (b' b : Fin 8) (o : Fin 64), B.x5 (ix3 mm b' (col b o)) = if b' = b then P.Wc0 (w0x mm) o else 0
  whc0 : ∀ (mm : Fin 3) (j : Fin 64) (o : Fin 64), B.x6 (ix3 mm j o) = P.Wc0 (w0h mm j) o
  bg0 : ∀ (o : Fin 128), B.x7 (ix1 o) = P.bg0 o
  bc0 : ∀ (o : Fin 64), B.x8 (ix1 o) = P.bc0 o
  wxg1 : ∀ (mm : Fin 3) (j : Fin 64) (o : Fin 128), B.x9 (ix3 mm j o) = P.Wg1 (w1x mm j) o
  whg1 : ∀ (mm : Fin 3) (j : Fin 64) (o : Fin 128), B.x10 (ix3 mm j o) = P.Wg1 (w1h mm j) o
  wxc1 : ∀ (mm : Fin 3) (j : Fin 64) (o : Fin 64), B.x11 (ix3 mm j o) = P.Wc1 (w1x mm j) o
  whc1 : ∀ (mm : Fin 3) (j : Fin 64) (o : Fin 64), B.x12 (ix3 mm j o) = P.Wc1 (w1h mm j) o
  bg1 : ∀ (o : Fin 128), B.x13 (ix1 o) = P.bg1 o
  bc1 : ∀ (o : Fin 64), B.x14 (ix1 o) = P.bc1 o
  wp : ∀ (j : Fin 64), B.x15 (ix2 0 j) = P.Wp j
  bp : B.x16 (ix1 0) = P.bp

end Cert.KernelIdeal.Sem

end
-- ==== Proof.KArgs.lean ====
/-
  The kernel program's argument arrays read as the decoder's parameters and per-sample data (all 32 samples).
-/
import proofs.«152469_g44504451121623_cont_8to1_c_180_12_alg».proof.Proof.KSem

noncomputable section

namespace Cert.KernelIdeal.Args

open Cert.KernelIdeal Cert.KernelIdeal.Gen Cert.KernelIdeal.Nodes Cert.KernelIdeal.Sem Cert.Dcgru
open Idealize.ShloMosaic Idealize.ShloMosaic.TcCoe ValueIdx

variable (m : (ℓ : Loc nD τ sig) → Buf (Elt Ideal) ℓ) (c : Dev nD)

/-- The argument arrays as launched, each at its literal shape. -/
abbrev aInputs : FVec Ideal S32x512 .f32 := m ((c : Thread nD τ).loc main_arg0)
abbrev aAdj : FVec Ideal S512x512 .f32 := m ((c : Thread nD τ).loc main_arg1)
abbrev aHidden : FVec Ideal S2x32x32768 .f32 := m ((c : Thread nD τ).loc main_arg2)
abbrev aWg0 : FVec Ideal S195x128 .f32 := m ((c : Thread nD τ).loc main_arg3)
abbrev aBg0 : FVec Ideal S128 .f32 := m ((c : Thread nD τ).loc main_arg4)
abbrev aWc0 : FVec Ideal S195x64 .f32 := m ((c : Thread nD τ).loc main_arg5)
abbrev aBc0 : FVec Ideal S64 .f32 := m ((c : Thread nD τ).loc main_arg6)
abbrev aWg1 : FVec Ideal S384x128 .f32 := m ((c : Thread nD τ).loc main_arg7)
abbrev aBg1 : FVec Ideal S128 .f32 := m ((c : Thread nD τ).loc main_arg8)
abbrev aWc1 : FVec Ideal S384x64 .f32 := m ((c : Thread nD τ).loc main_arg9)
abbrev aBc1 : FVec Ideal S64 .f32 := m ((c : Thread nD τ).loc main_arg10)
abbrev aWp : FVec Ideal S64x1 .f32 := m ((c : Thread nD τ).loc main_arg11)
abbrev aBp : FVec Ideal S1 .f32 := m ((c : Thread nD τ).loc main_arg12)

/-- The decoder's parameters as the kernel program's argument arrays hold them. -/
def kParams : Params where
  A := fun n k => aAdj m c (ix2 n k)
  Wg0 := fun k o => aWg0 m c (ix2 k o)
  bg0 := fun o => aBg0 m c (ix1 o)
  Wc0 := fun k o => aWc0 m c (ix2 k o)
  bc0 := fun o => aBc0 m c (ix1 o)
  Wg1 := fun k o => aWg1 m c (ix2 k o)
  bg1 := fun o => aBg1 m c (ix1 o)
  Wc1 := fun k o => aWc1 m c (ix2 k o)
  bc1 := fun o => aBc1 m c (ix1 o)
  Wp := fun j => aWp m c (ix2 j 0)
  bp := aBp m c (ix1 0)

/-- The scalar input of sample `b` (of all 32). -/
def kX (b : Fin 32) (n : Fin 512) : EReal := aInputs m c (ix2 b n)

/-- Hidden state `l` of sample `b` (of all 32). -/
def kH (l : Fin 2) (b : Fin 32) (n : Fin 512) (j : Fin 64) : EReal := aHidden m c (ix3 l b (flat n j))

end Cert.KernelIdeal.Args

end
-- ==== Proof.KHost.lean ====
/-
  The weight operands of the call, as the host operations before it leave them.

  Each weight matrix `W` (rows `3·f + m`) is reshaped to (feature, tap, output), cut into its input-feature and
  state-feature parts and transposed to (tap, feature, output): entry (m, j, o) of a part is `W (3·f + m) o` with
  `f` the part's j-th feature. For the first cell's one input feature the (tap, 1, output) part is multiplied
  with the 8 × 8 identity (a comparison of two index grids, converted to 0 and 1) into a (tap, 8, 8·O) operand:
  entry (m, b', O·b + o) is the weight when `b' = b` and zero otherwise. The read-out weights are transposed.
-/
import proofs.«152469_g44504451121623_cont_8to1_c_180_12_alg».proof.Proof.KArgs
import Idealize.ShloMosaic.Lib.Pipeline.Value
import Idealize.ShloMosaic.Lib.IdealHost

noncomputable section

namespace Cert.KernelIdeal.Host

open Cert.KernelIdeal Cert.KernelIdeal.Gen Cert.KernelIdeal.Nodes Cert.KernelIdeal.Sem Cert.KernelIdeal.Args Cert.Dcgru
open Idealize.ShloMosaic Idealize.ShloMosaic.TcCoe ValueIdx

/-! ## The layout operations read at coordinates -/

section Reads
variable {α : Type}

/-- A matrix reshaped to (feature, tap, output) keeps the row-major position: entry `(f, mm, o)` is the matrix's
    entry `(k, o)` for the row `k = 3·f + mm`. -/
theorem rows_apply {K Fe O : ℕ} (W : (⟨2, ![K, O]⟩ : Shape).Idx → α)
    (h : (⟨2, ![K, O]⟩ : Shape).ShapeCasts ⟨3, ![Fe, 3, O]⟩) (f : Fin Fe) (mm : Fin 3) (o : Fin O) (k : Fin K)
    (hk : k.val = f.val * 3 + mm.val) :
    shapeCast ⟨3, ![Fe, 3, O]⟩ W h (ix3 f mm o) = W (ix2 k o) :=
  shapeCast_apply W h _ _ (by
    rw [Shape.rowMajor_val_two, Shape.rowMajor_val_three]
    show k.val * O + o.val = (f.val * 3 + mm.val) * O + o.val
    rw [hk])

/-- The features from `off` on, cut out of a (feature, tap, output) array and transposed to (tap, feature, output):
    entry `(mm, j, o)` is the array's entry `(f, mm, o)` at the feature `f = off + j`. -/
theorem part_apply {Fe P O : ℕ} (off : ℕ) (X : (⟨3, ![Fe, 3, O]⟩ : Shape).Idx → α)
    (hs : (⟨3, ![Fe, 3, O]⟩ : Shape).Slices ![off, 0, 0] ⟨3, ![P, 3, O]⟩)
    (ht : (⟨3, ![P, 3, O]⟩ : Shape).Transposes [1, 0, 2] ⟨3, ![3, P, O]⟩)
    (mm : Fin 3) (j : Fin P) (o : Fin O) (f : Fin Fe) (hf : f.val = off + j.val) :
    transpose ⟨3, ![3, P, O]⟩ [1, 0, 2] (extractStridedSlice ⟨3, ![P, 3, O]⟩ ![off, 0, 0] X hs) ht (ix3 mm j o)
      = X (ix3 f mm o) := by
  refine (transpose_apply _ _ ht _ (ix3 j mm o)
    (fun b => match b with | ⟨0, _⟩ => rfl | ⟨1, _⟩ => rfl | ⟨2, _⟩ => rfl)).trans ?_
  exact extractStridedSlice_apply _ X hs _ _ (fun a => match a with
    | ⟨0, _⟩ => hf
    | ⟨1, _⟩ => (Nat.zero_add _).symm
    | ⟨2, _⟩ => (Nat.zero_add _).symm)

/-- A part of a weight matrix, read at `(mm, j, o)`: the matrix's row `3·f + mm` at the feature `f = off + j`. -/
theorem weight_part_apply {K Fe P O : ℕ} (off : ℕ) (W : (⟨2, ![K, O]⟩ : Shape).Idx → α)
    (h : (⟨2, ![K, O]⟩ : Shape).ShapeCasts ⟨3, ![Fe, 3, O]⟩)
    (hs : (⟨3, ![Fe, 3, O]⟩ : Shape).Slices ![off, 0, 0] ⟨3, ![P, 3, O]⟩)
    (ht : (⟨3, ![P, 3, O]⟩ : Shape).Transposes [1, 0, 2] ⟨3, ![3, P, O]⟩)
    (mm : Fin 3) (j : Fin P) (o : Fin O) (f : Fin Fe) (hf : f.val = off + j.val)
    (k : Fin K) (hk : k.val = f.val * 3 + mm.val) :
    transpose ⟨3, ![3, P, O]⟩ [1, 0, 2]
        (extractStridedSlice ⟨3, ![P, 3, O]⟩ ![off, 0, 0] (shapeCast ⟨3, ![Fe, 3, O]⟩ W h) hs) ht (ix3 mm j o)
      = W (ix2 k o) :=
  (part_apply off _ hs ht mm j o f hf).trans (rows_apply W h f mm o k hk)

end Reads

/-! ## The identity matrix and the Kronecker operands -/

/-- The two index grids' words at `(a, b)` compare equal exactly when `a = b`. -/
theorem eye_word : ∀ a b : Fin 8,
    IntOp.cmpi .eq (IntOp.addi (BitVec.ofNat 32 a.val) 0#32) (BitVec.ofNat 32 b.val) = if a = b then 1#1 else 0#1 := by
  decide

/-- The 8 × 8 identity as the host computes it: the row grid (plus a zero constant) compared with the column grid,
    the bit converted to a float. -/
abbrev eye : FVec Ideal S8x8 .f32 :=
  uitofp .f32 (cmpi .eq (addi (iotaInDim S8x8 32 0) (broadcastInDim S8x8 ![] bcast_S_S8x8 (constantI S_ 32 0#32)))
    (iotaInDim S8x8 32 1))

/-- It is `1` on the diagonal and `0` off it. -/
theorem eye_apply (a b : Fin 8) : eye (ix2 a b) = if a = b then 1 else 0 := by
  show (((IntOp.cmpi .eq (IntOp.addi (BitVec.ofNat 32 a.val)
      (broadcastInDim S8x8 ![] bcast_S_S8x8 (constantI S_ 32 0#32) (ix2 a b))) (BitVec.ofNat 32 b.val)).toNat : ℝ) : EReal) = _
  rw [broadcastInDim_scalar_apply]
  show (((IntOp.cmpi .eq (IntOp.addi (BitVec.ofNat 32 a.val) 0#32) (BitVec.ofNat 32 b.val)).toNat : ℝ) : EReal) = _
  rw [eye_word a b]
  by_cases h : a = b
  · rw [if_pos h, if_pos h]; simp
  · rw [if_neg h, if_neg h]; simp

/-- The gates' Kronecker operand as `@kron` computes it from a matrix `E` and a (tap, 1, output) array `W`: both
    broadcast to (tap, row, 1, sample, output), multiplied, and the last three axes merged. -/
abbrev kron128 (E : FVec Ideal S8x8 .f32) (W : FVec Ideal S3x1x128 .f32) : FVec Ideal S3x8x1024 .f32 :=
  shapeCast S3x8x1024
    (mulf
      (broadcastInDim S3x8x1x8x128 ![0, 1, 2, 3, 4] bcast_S1x8x1x8x1_S3x8x1x8x128_0_1_2_3_4
        (broadcastInDim S1x8x1x8x1 ![1, 2, 3, 4] bcast_S8x1x8x1_S1x8x1x8x1_1_2_3_4
          (broadcastInDim S8x1x8x1 ![0, 2] bcast_S8x8_S8x1x8x1_0_2 E)))
      (broadcastInDim S3x8x1x8x128 ![0, 1, 2, 3, 4] bcast_S3x1x1x1x128_S3x8x1x8x128_0_1_2_3_4
        (broadcastInDim S3x1x1x1x128 ![0, 2, 4] bcast_S3x1x128_S3x1x1x1x128_0_2_4 W)))
    shapeCasts_S3x8x1x8x128_S3x8x1024

/-- Its entry `(mm, b', 128·b + o)` is `E (b', b) · W (mm, 0, o)`. -/
theorem kron128_apply (E : FVec Ideal S8x8 .f32) (W : FVec Ideal S3x1x128 .f32) (mm : Fin 3) (b' b : Fin 8) (o : Fin 128) :
    kron128 E W (ix3 mm b' (col128 b o)) = E (ix2 b' b) * W (ix3 mm 0 o) := by
  refine (shapeCast_apply _ _ _ (ix5 mm b' (0 : Fin 1) b o) (by
    rw [Shape.rowMajor_val_five, Shape.rowMajor_val_three]
    show (((mm.val * 8 + b'.val) * 1 + 0) * 8 + b.val) * 128 + o.val = (mm.val * 8 + b'.val) * 1024 + (b.val * 128 + o.val)
    omega)).trans ?_
  rw [mulf_apply]
  congr 1
  · refine (broadcastInDim_apply _ _ _ _ (ix5 (0 : Fin 1) b' (0 : Fin 1) b (0 : Fin 1)) (fun a => match a with
      | ⟨0, _⟩ => rfl | ⟨1, _⟩ => rfl | ⟨2, _⟩ => rfl | ⟨3, _⟩ => rfl | ⟨4, _⟩ => rfl)).trans ?_
    refine (broadcastInDim_apply _ _ _ _ (ix4 b' (0 : Fin 1) b (0 : Fin 1)) (fun a => match a with
      | ⟨0, _⟩ => rfl | ⟨1, _⟩ => rfl | ⟨2, _⟩ => rfl | ⟨3, _⟩ => rfl)).trans ?_
    exact broadcastInDim_apply _ _ _ _ (ix2 b' b) (fun a => match a with | ⟨0, _⟩ => rfl | ⟨1, _⟩ => rfl)
  · refine (broadcastInDim_apply _ _ _ _ (ix5 mm (0 : Fin 1) (0 : Fin 1) (0 : Fin 1) o) (fun a => match a with
      | ⟨0, _⟩ => rfl | ⟨1, _⟩ => rfl | ⟨2, _⟩ => rfl | ⟨3, _⟩ => rfl | ⟨4, _⟩ => rfl)).trans ?_
    exact broadcastInDim_apply _ _ _ _ (ix3 mm (0 : Fin 1) o) (fun a => match a with
      | ⟨0, _⟩ => rfl | ⟨1, _⟩ => rfl | ⟨2, _⟩ => rfl)

/-- The candidate's Kronecker operand as `@kron_0` computes it: the same at 64 outputs. -/
abbrev kron64 (E : FVec Ideal S8x8 .f32) (W : FVec Ideal S3x1x64 .f32) : FVec Ideal S3x8x512 .f32 :=
  shapeCast S3x8x512
    (mulf
      (broadcastInDim S3x8x1x8x64 ![0, 1, 2, 3, 4] bcast_S1x8x1x8x1_S3x8x1x8x64_0_1_2_3_4
        (broadcastInDim S1x8x1x8x1 ![1, 2, 3, 4] bcast_S8x1x8x1_S1x8x1x8x1_1_2_3_4
          (broadcastInDim S8x1x8x1 ![0, 2] bcast_S8x8_S8x1x8x1_0_2 E)))
      (broadcastInDim S3x8x1x8x64 ![0, 1, 2, 3, 4] bcast_S3x1x1x1x64_S3x8x1x8x64_0_1_2_3_4
        (broadcastInDim S3x1x1x1x64 ![0, 2, 4] bcast_S3x1x64_S3x1x1x1x64_0_2_4 W)))
    shapeCasts_S3x8x1x8x64_S3x8x512

/-- Its entry `(mm, b', 64·b + o)` is `E (b', b) · W (mm, 0, o)`. -/
theorem kron64_apply (E : FVec Ideal S8x8 .f32) (W : FVec Ideal S3x1x64 .f32) (mm : Fin 3) (b' b : Fin 8) (o : Fin 64) :
    kron64 E W (ix3 mm b' (col b o)) = E (ix2 b' b) * W (ix3 mm 0 o) := by
  refine (shapeCast_apply _ _ _ (ix5 mm b' (0 : Fin 1) b o) (by
    rw [Shape.rowMajor_val_five, Shape.rowMajor_val_three]
    show (((mm.val * 8 + b'.val) * 1 + 0) * 8 + b.val) * 64 + o.val = (mm.val * 8 + b'.val) * 512 + (b.val * 64 + o.val)
    omega)).trans ?_
  rw [mulf_apply]
  congr 1
  · refine (broadcastInDim_apply _ _ _ _ (ix5 (0 : Fin 1) b' (0 : Fin 1) b (0 : Fin 1)) (fun a => match a with
      | ⟨0, _⟩ => rfl | ⟨1, _⟩ => rfl | ⟨2, _⟩ => rfl | ⟨3, _⟩ => rfl | ⟨4, _⟩ => rfl)).trans ?_
    refine (broadcastInDim_apply _ _ _ _ (ix4 b' (0 : Fin 1) b (0 : Fin 1)) (fun a => match a with
      | ⟨0, _⟩ => rfl | ⟨1, _⟩ => rfl | ⟨2, _⟩ => rfl | ⟨3, _⟩ => rfl)).trans ?_
    exact broadcastInDim_apply _ _ _ _ (ix2 b' b) (fun a => match a with | ⟨0, _⟩ => rfl | ⟨1, _⟩ => rfl)
  · refine (broadcastInDim_apply _ _ _ _ (ix5 mm (0 : Fin 1) (0 : Fin 1) (0 : Fin 1) o) (fun a => match a with
      | ⟨0, _⟩ => rfl | ⟨1, _⟩ => rfl | ⟨2, _⟩ => rfl | ⟨3, _⟩ => rfl | ⟨4, _⟩ => rfl)).trans ?_
    exact broadcastInDim_apply _ _ _ _ (ix3 mm (0 : Fin 1) o) (fun a => match a with
      | ⟨0, _⟩ => rfl | ⟨1, _⟩ => rfl | ⟨2, _⟩ => rfl)

/-! ## The buffers as the host operations leave them -/

variable (m : (ℓ : Loc nD τ sig) → Buf (Elt Ideal) ℓ) (c : Dev nD)

/-- First cell, gates, state features: the reshape, the cut from feature 1 and the transpose of the gates' weights. -/
theorem buf_whg0 :
    (V m c main_v4 : FVec Ideal S3x64x128 .f32)
      = transpose S3x64x128 [1, 0, 2]
          (extractStridedSlice S64x3x128 ![1, 0, 0]
            (shapeCast S65x3x128 (aWg0 m c) shapeCasts_S195x128_S65x3x128) slices_S65x3x128_S64x3x128_1_0_0)
          transposes_S64x3x128_S3x64x128_1_0_2 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  all_goals rfl

/-- First cell, candidate, state features. -/
theorem buf_whc0 :
    (V m c main_v9 : FVec Ideal S3x64x64 .f32)
      = transpose S3x64x64 [1, 0, 2]
          (extractStridedSlice S64x3x64 ![1, 0, 0]
            (shapeCast S65x3x64 (aWc0 m c) shapeCasts_S195x64_S65x3x64) slices_S65x3x64_S64x3x64_1_0_0)
          transposes_S64x3x64_S3x64x64_1_0_2 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Second cell, gates, input features. -/
theorem buf_wxg1 :
    (V m c main_v26 : FVec Ideal S3x64x128 .f32)
      = transpose S3x64x128 [1, 0, 2]
          (extractStridedSlice S64x3x128 ![0, 0, 0]
            (shapeCast S128x3x128 (aWg1 m c) shapeCasts_S384x128_S128x3x128) slices_S128x3x128_S64x3x128_0_0_0)
          transposes_S64x3x128_S3x64x128_1_0_2 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Second cell, gates, state features. -/
theorem buf_whg1 :
    (V m c main_v28 : FVec Ideal S3x64x128 .f32)
      = transpose S3x64x128 [1, 0, 2]
          (extractStridedSlice S64x3x128 ![64, 0, 0]
            (shapeCast S128x3x128 (aWg1 m c) shapeCasts_S384x128_S128x3x128) slices_S128x3x128_S64x3x128_64_0_0)
          transposes_S64x3x128_S3x64x128_1_0_2 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Second cell, candidate, input features. -/
theorem buf_wxc1 :
    (V m c main_v31 : FVec Ideal S3x64x64 .f32)
      = transpose S3x64x64 [1, 0, 2]
          (extractStridedSlice S64x3x64 ![0, 0, 0]
            (shapeCast S128x3x64 (aWc1 m c) shapeCasts_S384x64_S128x3x64) slices_S128x3x64_S64x3x64_0_0_0)
          transposes_S64x3x64_S3x64x64_1_0_2 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  all_goals rfl

/-- Second cell, candidate, state features. -/
theorem buf_whc1 :
    (V m c main_v33 : FVec Ideal S3x64x64 .f32)
      = transpose S3x64x64 [1, 0, 2]
          (extractStridedSlice S64x3x64 ![64, 0, 0]
            (shapeCast S128x3x64 (aWc1 m c) shapeCasts_S384x64_S128x3x64) slices_S128x3x64_S64x3x64_64_0_0)
          transposes_S64x3x64_S3x64x64_1_0_2 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  all_goals rfl

/-- The read-out weights: one transpose. -/
theorem buf_wp :
    (V m c main_v34 : FVec Ideal S1x64 .f32) = transpose S1x64 [1, 0] (aWp m c) transposes_S64x1_S1x64_1_0 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  all_goals rfl

/-- First cell, gates: the input feature's (tap, 1, output) part. -/
abbrev wx0g : FVec Ideal S3x1x128 .f32 :=
  transpose S3x1x128 [1, 0, 2]
    (extractStridedSlice S1x3x128 ![0, 0, 0]
      (shapeCast S65x3x128 (aWg0 m c) shapeCasts_S195x128_S65x3x128) slices_S65x3x128_S1x3x128_0_0_0)
    transposes_S1x3x128_S3x1x128_1_0_2

/-- First cell, candidate: the input feature's (tap, 1, output) part. -/
abbrev wx0c : FVec Ideal S3x1x64 .f32 :=
  transpose S3x1x64 [1, 0, 2]
    (extractStridedSlice S1x3x64 ![0, 0, 0]
      (shapeCast S65x3x64 (aWc0 m c) shapeCasts_S195x64_S65x3x64) slices_S65x3x64_S1x3x64_0_0_0)
    transposes_S1x3x64_S3x1x64_1_0_2

/-- First cell, gates: the Kronecker operand is `@kron` of the identity and the input feature's part. -/
theorem buf_kxg0 : (V m c main_v16 : FVec Ideal S3x8x1024 .f32) = kron128 eye (wx0g m c) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  all_goals rfl

/-- First cell, candidate: the Kronecker operand is `@kron_0` of the identity and the input feature's part. -/
theorem buf_kxc0 : (V m c main_v23 : FVec Ideal S3x8x512 .f32) = kron64 eye (wx0c m c) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  all_goals rfl

/-! ## The operands, entry by entry -/

/-- First cell, gates: the Kronecker operand of the input feature. -/
theorem host_kxg0 (mm : Fin 3) (b' b : Fin 8) (o : Fin 128) :
    (V m c main_v16 : FVec Ideal S3x8x1024 .f32) (ix3 mm b' (col128 b o))
      = if b' = b then (kParams m c).Wg0 (w0x mm) o else 0 := by
  have hw : wx0g m c (ix3 mm 0 o) = (kParams m c).Wg0 (w0x mm) o :=
    weight_part_apply 0 (aWg0 m c) shapeCasts_S195x128_S65x3x128 slices_S65x3x128_S1x3x128_0_0_0 transposes_S1x3x128_S3x1x128_1_0_2
      mm (0 : Fin 1) o (0 : Fin 65) rfl (w0x mm) (by show mm.val = 0 * 3 + mm.val; omega)
  rw [buf_kxg0, kron128_apply, eye_apply, hw]
  by_cases h : b' = b
  · rw [if_pos h, if_pos h, one_mul]
  · rw [if_neg h, if_neg h, zero_mul]

/-- First cell, gates: the state features' weights. -/
theorem host_whg0 (mm : Fin 3) (j : Fin 64) (o : Fin 128) :
    (V m c main_v4 : FVec Ideal S3x64x128 .f32) (ix3 mm j o) = (kParams m c).Wg0 (w0h mm j) o := by
  rw [buf_whg0]
  exact weight_part_apply 1 (aWg0 m c) shapeCasts_S195x128_S65x3x128 slices_S65x3x128_S64x3x128_1_0_0 transposes_S64x3x128_S3x64x128_1_0_2
    mm j o (⟨1 + j.val, by have := j.isLt; omega⟩ : Fin 65) rfl (w0h mm j) rfl

/-- First cell, candidate: the Kronecker operand of the input feature. -/
theorem host_kxc0 (mm : Fin 3) (b' b : Fin 8) (o : Fin 64) :
    (V m c main_v23 : FVec Ideal S3x8x512 .f32) (ix3 mm b' (col b o))
      = if b' = b then (kParams m c).Wc0 (w0x mm) o else 0 := by
  have hw : wx0c m c (ix3 mm 0 o) = (kParams m c).Wc0 (w0x mm) o :=
    weight_part_apply 0 (aWc0 m c) shapeCasts_S195x64_S65x3x64 slices_S65x3x64_S1x3x64_0_0_0 transposes_S1x3x64_S3x1x64_1_0_2
      mm (0 : Fin 1) o (0 : Fin 65) rfl (w0x mm) (by show mm.val = 0 * 3 + mm.val; omega)
  rw [buf_kxc0, kron64_apply, eye_apply, hw]
  by_cases h : b' = b
  · rw [if_pos h, if_pos h, one_mul]
  · rw [if_neg h, if_neg h, zero_mul]

/-- First cell, candidate: the state features' weights. -/
theorem host_whc0 (mm : Fin 3) (j : Fin 64) (o : Fin 64) :
    (V m c main_v9 : FVec Ideal S3x64x64 .f32) (ix3 mm j o) = (kParams m c).Wc0 (w0h mm j) o := by
  rw [buf_whc0]
  exact weight_part_apply 1 (aWc0 m c) shapeCasts_S195x64_S65x3x64 slices_S65x3x64_S64x3x64_1_0_0 transposes_S64x3x64_S3x64x64_1_0_2
    mm j o (⟨1 + j.val, by have := j.isLt; omega⟩ : Fin 65) rfl (w0h mm j) rfl

/-- Second cell, gates: the input features' weights. -/
theorem host_wxg1 (mm : Fin 3) (j : Fin 64) (o : Fin 128) :
    (V m c main_v26 : FVec Ideal S3x64x128 .f32) (ix3 mm j o) = (kParams m c).Wg1 (w1x mm j) o := by
  rw [buf_wxg1]
  exact weight_part_apply 0 (aWg1 m c) shapeCasts_S384x128_S128x3x128 slices_S128x3x128_S64x3x128_0_0_0 transposes_S64x3x128_S3x64x128_1_0_2
    mm j o (⟨j.val, by have := j.isLt; omega⟩ : Fin 128) (Nat.zero_add _).symm (w1x mm j) rfl

/-- Second cell, gates: the state features' weights. -/
theorem host_whg1 (mm : Fin 3) (j : Fin 64) (o : Fin 128) :
    (V m c main_v28 : FVec Ideal S3x64x128 .f32) (ix3 mm j o) = (kParams m c).Wg1 (w1h mm j) o := by
  rw [buf_whg1]
  exact weight_part_apply 64 (aWg1 m c) shapeCasts_S384x128_S128x3x128 slices_S128x3x128_S64x3x128_64_0_0 transposes_S64x3x128_S3x64x128_1_0_2
    mm j o (⟨64 + j.val, by have := j.isLt; omega⟩ : Fin 128) rfl (w1h mm j) rfl

/-- Second cell, candidate: the input features' weights. -/
theorem host_wxc1 (mm : Fin 3) (j : Fin 64) (o : Fin 64) :
    (V m c main_v31 : FVec Ideal S3x64x64 .f32) (ix3 mm j o) = (kParams m c).Wc1 (w1x mm j) o := by
  rw [buf_wxc1]
  exact weight_part_apply 0 (aWc1 m c) shapeCasts_S384x64_S128x3x64 slices_S128x3x64_S64x3x64_0_0_0 transposes_S64x3x64_S3x64x64_1_0_2
    mm j o (⟨j.val, by have := j.isLt; omega⟩ : Fin 128) (Nat.zero_add _).symm (w1x mm j) rfl

/-- Second cell, candidate: the state features' weights. -/
theorem host_whc1 (mm : Fin 3) (j : Fin 64) (o : Fin 64) :
    (V m c main_v33 : FVec Ideal S3x64x64 .f32) (ix3 mm j o) = (kParams m c).Wc1 (w1h mm j) o := by
  rw [buf_whc1]
  exact weight_part_apply 64 (aWc1 m c) shapeCasts_S384x64_S128x3x64 slices_S128x3x64_S64x3x64_64_0_0 transposes_S64x3x64_S3x64x64_1_0_2
    mm j o (⟨64 + j.val, by have := j.isLt; omega⟩ : Fin 128) rfl (w1h mm j) rfl

/-- The read-out weights, transposed to a row. -/
theorem host_wp (j : Fin 64) :
    (V m c main_v34 : FVec Ideal S1x64 .f32) (ix2 0 j) = (kParams m c).Wp j := by
  rw [buf_wp]
  exact transpose_apply _ (aWp m c) transposes_S64x1_S1x64_1_0 _ (ix2 j (0 : Fin 1))
    (fun b => match b with | ⟨0, _⟩ => rfl | ⟨1, _⟩ => rfl)

end Cert.KernelIdeal.Host

end
-- ==== Proof.SpecSums.lean ====
/-
  Re-association of the convolution's sums.

  A convolution is one sum over the weight rows `3·f + m` (feature column `f`, tap `m`) plus the bias. Grouping the
  rows by tap, and within a tap into the state block and the input block, gives the same element of any
  commutative monoid. The input block of the first cell is also met as a sum over the chunk's 8 samples against a
  weight that vanishes off the diagonal: only the diagonal term survives.
-/
import proofs.«152469_g44504451121623_cont_8to1_c_180_12_alg».proof.Proof.Spec
import Mathlib.Algebra.BigOperators.Fin

noncomputable section

namespace Cert.Dcgru

open Idealize.ShloMosaic

/-- A sum over `K = 3·N` rows, read feature column by feature column: column `f` contributes its three taps, the
rows `3·f`, `3·f + 1`, `3·f + 2`. The rows are carried to pairs (column, tap) along the bijection
`(f, m) ↦ m + 3·f`. -/
private theorem sum_rows3 {M : Type*} [AddCommMonoid M] {N K : ℕ} (hK : K = N * 3) (g : Fin K → M) :
    (∑ k : Fin K, g k)
      = ∑ f : Fin N, ((g ⟨f.val * 3 + 0, by have := f.isLt; omega⟩ + g ⟨f.val * 3 + 1, by have := f.isLt; omega⟩)
          + g ⟨f.val * 3 + 2, by have := f.isLt; omega⟩) := by
  subst hK
  rw [← Fintype.sum_equiv finProdFinEquiv (fun p : Fin N × Fin 3 => g (finProdFinEquiv p)) g (fun _ => rfl),
    Fintype.sum_prod_type]
  refine Fintype.sum_congr _ _ (fun f => ?_)
  have h : ∀ m : Fin 3, (finProdFinEquiv (f, m) : Fin (N * 3))
      = ⟨f.val * 3 + m.val, by have := f.isLt; have := m.isLt; omega⟩ :=
    fun m => Fin.ext (by rw [finProdFinEquiv_apply_val]; show m.val + 3 * f.val = f.val * 3 + m.val; omega)
  rw [Fin.sum_univ_three, h 0, h 1, h 2]
  rfl

/-- The 195 rows of a first-cell weight matrix, grouped by tap into state rows and the input row. -/
theorem sum195_split {M : Type*} [AddCommMonoid M] (g : Fin 195 → M) (c : M) :
    (∑ k : Fin 195, g k) + c
      = (((((c + ∑ j : Fin 64, g (w0h 0 j)) + g (w0x 0)) + ∑ j : Fin 64, g (w0h 1 j)) + g (w0x 1))
          + ∑ j : Fin 64, g (w0h 2 j)) + g (w0x 2) := by
  -- feature column 0 is the input, feature column 1 + j the state unit j
  have hs : ∀ (m : Fin 3) (j : Fin 64) (hlt : j.succ.val * 3 + m.val < 195),
      (⟨j.succ.val * 3 + m.val, hlt⟩ : Fin 195) = w0h m j :=
    fun m j _ => Fin.ext (by show (j.val + 1) * 3 + m.val = (1 + j.val) * 3 + m.val; omega)
  rw [sum_rows3 (N := 65) rfl g, Fin.sum_univ_succ, Finset.sum_add_distrib, Finset.sum_add_distrib]
  have e0 : ∀ j : Fin 64, g ⟨j.succ.val * 3 + 0, by have := j.isLt; simp only [Fin.val_succ]; omega⟩ = g (w0h 0 j) :=
    fun j => congrArg g (hs 0 j _)
  have e1 : ∀ j : Fin 64, g ⟨j.succ.val * 3 + 1, by have := j.isLt; simp only [Fin.val_succ]; omega⟩ = g (w0h 1 j) :=
    fun j => congrArg g (hs 1 j _)
  have e2 : ∀ j : Fin 64, g ⟨j.succ.val * 3 + 2, by have := j.isLt; simp only [Fin.val_succ]; omega⟩ = g (w0h 2 j) :=
    fun j => congrArg g (hs 2 j _)
  rw [Fintype.sum_congr _ _ e0, Fintype.sum_congr _ _ e1, Fintype.sum_congr _ _ e2]
  show ((g (w0x 0) + g (w0x 1)) + g (w0x 2)) + (((∑ j : Fin 64, g (w0h 0 j)) + ∑ j : Fin 64, g (w0h 1 j))
      + ∑ j : Fin 64, g (w0h 2 j)) + c = _
  ac_rfl

/-- The 384 rows of a second-cell weight matrix, grouped by tap into state rows and input rows. -/
theorem sum384_split {M : Type*} [AddCommMonoid M] (g : Fin 384 → M) (c : M) :
    (∑ k : Fin 384, g k) + c
      = (((((c + ∑ j : Fin 64, g (w1h 0 j)) + ∑ j : Fin 64, g (w1x 0 j)) + ∑ j : Fin 64, g (w1h 1 j))
          + ∑ j : Fin 64, g (w1x 1 j)) + ∑ j : Fin 64, g (w1h 2 j)) + ∑ j : Fin 64, g (w1x 2 j) := by
  -- feature column j is the input unit j, feature column 64 + j the state unit j
  have hx : ∀ (m : Fin 3) (j : Fin 64) (hlt : (Fin.castAdd 64 j).val * 3 + m.val < 384),
      (⟨(Fin.castAdd 64 j).val * 3 + m.val, hlt⟩ : Fin 384) = w1x m j :=
    fun m j _ => Fin.ext (by show j.val * 3 + m.val = j.val * 3 + m.val; rfl)
  have hh : ∀ (m : Fin 3) (j : Fin 64) (hlt : (Fin.natAdd 64 j).val * 3 + m.val < 384),
      (⟨(Fin.natAdd 64 j).val * 3 + m.val, hlt⟩ : Fin 384) = w1h m j :=
    fun m j _ => Fin.ext (by show (64 + j.val) * 3 + m.val = (64 + j.val) * 3 + m.val; rfl)
  rw [sum_rows3 (N := 64 + 64) rfl g, Fin.sum_univ_add]
  simp only [Finset.sum_add_distrib]
  have x0 : ∀ j : Fin 64, g ⟨(Fin.castAdd 64 j).val * 3 + 0, by have := (Fin.castAdd 64 j).isLt; omega⟩ = g (w1x 0 j) :=
    fun j => congrArg g (hx 0 j _)
  have x1 : ∀ j : Fin 64, g ⟨(Fin.castAdd 64 j).val * 3 + 1, by have := (Fin.castAdd 64 j).isLt; omega⟩ = g (w1x 1 j) :=
    fun j => congrArg g (hx 1 j _)
  have x2 : ∀ j : Fin 64, g ⟨(Fin.castAdd 64 j).val * 3 + 2, by have := (Fin.castAdd 64 j).isLt; omega⟩ = g (w1x 2 j) :=
    fun j => congrArg g (hx 2 j _)
  have h0 : ∀ j : Fin 64, g ⟨(Fin.natAdd 64 j).val * 3 + 0, by have := (Fin.natAdd 64 j).isLt; omega⟩ = g (w1h 0 j) :=
    fun j => congrArg g (hh 0 j _)
  have h1 : ∀ j : Fin 64, g ⟨(Fin.natAdd 64 j).val * 3 + 1, by have := (Fin.natAdd 64 j).isLt; omega⟩ = g (w1h 1 j) :=
    fun j => congrArg g (hh 1 j _)
  have h2 : ∀ j : Fin 64, g ⟨(Fin.natAdd 64 j).val * 3 + 2, by have := (Fin.natAdd 64 j).isLt; omega⟩ = g (w1h 2 j) :=
    fun j => congrArg g (hh 2 j _)
  rw [Fintype.sum_congr _ _ x0, Fintype.sum_congr _ _ x1, Fintype.sum_congr _ _ x2,
    Fintype.sum_congr _ _ h0, Fintype.sum_congr _ _ h1, Fintype.sum_congr _ _ h2]
  ac_rfl

/-- A sum over the chunk's samples against a weight carried only by sample `b`. -/
theorem sum_diag8 (x : Fin 8 → EReal) (w : EReal) (b : Fin 8) :
    (∑ b' : Fin 8, x b' * (if b' = b then w else 0)) = x b * w := by
  rw [Finset.sum_eq_single b]
  · rw [if_pos rfl]
  · intro b' _ hb'
    rw [if_neg hb', mul_zero]
  · intro h
    exact absurd (Finset.mem_univ b) h

/-- The logistic function written out with the literal `1` of the programs is the logistic function. -/
theorem logistic_spelled (x : EReal) : Ideal.div one (one + Ideal.exp (-x)) = Ideal.logistic x := by
  rw [one, Idealize.ShloMosaic.Ideal.ofBits_one_f32]
  rfl

end Cert.Dcgru

end
-- ==== Proof.KL0G.lean ====
/-
  First cell, gates, on one chunk: the hidden state and the scalar input re-laid, their diffusion taps, and the
  logistic of the convolution, read in the rows layout against the decoder's mathematics.
-/
import proofs.«152469_g44504451121623_cont_8to1_c_180_12_alg».proof.Proof.KSem
import proofs.«152469_g44504451121623_cont_8to1_c_180_12_alg».proof.Proof.SpecSums
import Idealize.ShloMosaic.Lib.Pipeline.Value
import Idealize.ShloMosaic.PureOps.Ideal.Laws

noncomputable section

namespace Cert.KernelIdeal.L0G

open Cert.KernelIdeal Cert.KernelIdeal.Gen Cert.KernelIdeal.Nodes Cert.KernelIdeal.Sem Cert.Dcgru Idealize.ShloMosaic ValueIdx

variable (P : Params) (B : Blk Ideal)

/-! ## A product of two matrices at an entry

Every product in the body contracts the columns of its left operand with the rows of its right operand and adds
into a zero accumulator: entry `(a, c)` is `Σ_i lhs (a, i) · rhs (i, c)`. -/

section Product
variable {m k n : Nat} {φ₁ φ₂ : FTy}
  (w : DotDims.WF ⟨2, ![m, k]⟩ ⟨2, ![k, n]⟩ ⟨2, ![m, n]⟩ [1] [0] [0] [1] [] [])

/-- The dimension numbers "columns of the left operand against rows of the right operand". -/
abbrev colsRows : DotDims ⟨2, ![m, k]⟩ ⟨2, ![k, n]⟩ ⟨2, ![m, n]⟩ := ⟨[1], [0], [0], [1], [], [], w⟩

/-- The left operand is read at (row of the entry, contracted coordinate). -/
theorem colsRows_lhs (a : Fin m) (c : Fin n) (i : Fin k) :
    (colsRows w).lhsIdx (ix2 a c) ((contrEquiv1 (colsRows w) k rfl rfl).symm i) = ix2 a i := by
  have hi := contrEquiv1_symm_val (colsRows w) k rfl rfl i
  funext ax
  apply Fin.ext
  match ax with
  | ⟨0, _⟩ => simp [DotDims.lhsIdx]; rfl
  | ⟨1, _⟩ => simp [DotDims.lhsIdx]; exact hi

/-- The right operand is read at (contracted coordinate, column of the entry). -/
theorem colsRows_rhs (a : Fin m) (c : Fin n) (i : Fin k) :
    (colsRows w).rhsIdx (ix2 a c) ((contrEquiv1 (colsRows w) k rfl rfl).symm i) = ix2 i c := by
  have hi := contrEquiv1_symm_val (colsRows w) k rfl rfl i
  funext ax
  apply Fin.ext
  match ax with
  | ⟨0, _⟩ => simp [DotDims.rhsIdx]; exact hi
  | ⟨1, _⟩ => simp [DotDims.rhsIdx]; rfl

/-- Entry `(a, c)` of the product into the zero accumulator. -/
theorem matmul_zero_entry (lhs : FVec Ideal ⟨2, ![m, k]⟩ φ₁) (rhs : FVec Ideal ⟨2, ![k, n]⟩ φ₂) (a : Fin m) (c : Fin n) :
    matmul (colsRows w) none lhs rhs (constant (F := Ideal) ⟨2, ![m, n]⟩ .f32 0x00000000#32) (ix2 a c)
      = ∑ i : Fin k, lhs (ix2 a i) * rhs (ix2 i c) := by
  show FloatOps.matmul (colsRows w) none lhs rhs (constant (F := Ideal) ⟨2, ![m, n]⟩ .f32 0x00000000#32) (ix2 a c) = _
  rw [Ideal.matmul_constant_zero_apply, ← Equiv.sum_comp (contrEquiv1 (colsRows w) k rfl rfl).symm]
  refine Finset.sum_congr rfl fun i _ => ?_
  rw [colsRows_lhs, colsRows_rhs]

end Product

/-! ## Loads: a block read where its rectangle sits -/

/-- The adjacency block, whole. -/
theorem ld_adj (X : Vec Ideal S512x512 .f32) (n k : Fin 512) : View.ld X r0_0 (ix2 n k) = X (ix2 n k) := by
  show X (r0_0.idx (ix2 n k)) = _
  refine congrArg X (funext fun a => Fin.ext ?_)
  match a with
  | ⟨0, _⟩ => show 0 + 1 * n.val = n.val; omega
  | ⟨1, _⟩ => show 0 + 1 * k.val = k.val; omega

/-- The scalar input's block, whole. -/
theorem ld_x (X : Vec Ideal S8x512 .f32) (b : Fin 8) (n : Fin 512) : View.ld X r0_2 (ix2 b n) = X (ix2 b n) := by
  show X (r0_2.idx (ix2 b n)) = _
  refine congrArg X (funext fun a => Fin.ext ?_)
  match a with
  | ⟨0, _⟩ => show 0 + 1 * b.val = b.val; omega
  | ⟨1, _⟩ => show 0 + 1 * n.val = n.val; omega

/-- The first hidden state's slab of the two-state block. -/
theorem ld_h0 (X : Vec Ideal S2x8x32768 .f32) (b : Fin 8) (q : Fin 32768) :
    View.ld X r0_1 (ix3 (0 : Fin 1) b q) = X (ix3 (0 : Fin 2) b q) := by
  show X (r0_1.idx (ix3 (0 : Fin 1) b q)) = _
  refine congrArg X (funext fun a => Fin.ext ?_)
  match a with
  | ⟨0, _⟩ => show 0 + 1 * 0 = 0; rfl
  | ⟨1, _⟩ => show 0 + 1 * b.val = b.val; omega
  | ⟨2, _⟩ => show 0 + 1 * q.val = q.val; omega

/-! ## The hidden state and the input, re-laid -/

/-- Rows layout of a hidden-state slab: row `8·n + b`, column `j` holds sample `b` at position `64·n + j`. -/
theorem pay5_apply (v1 : Vec Ideal S1x8x32768 .f32) (n : Fin 512) (b : Fin 8) (j : Fin 64) :
    k0_pay5 v1 (ix2 (row n b) j) = v1 (ix3 (0 : Fin 1) b (flat n j)) := by
  have hn := n.isLt
  have hb := b.isLt
  have hj := j.isLt
  unfold k0_pay5
  dsimp only
  -- 4096 × 64 at (8n + b, j) is 512 × 8 × 64 at (n, b, j)
  refine (shapeCast_apply _ _ _ (ix3 n b j) (by
    rw [Shape.rowMajor_val_three, Shape.rowMajor_val_two]
    show (n.val * 8 + b.val) * 64 + j.val = (n.val * 8 + b.val) * 64 + j.val
    rfl)).trans ?_
  -- the first two axes exchanged
  refine (transpose_apply _ _ _ _ (ix3 b n j) (fun c => match c with
    | ⟨0, _⟩ => rfl | ⟨1, _⟩ => rfl | ⟨2, _⟩ => rfl)).trans ?_
  -- 8 × 512 × 64 at (b, n, j) is 8 × 32768 at (b, 64n + j)
  refine (shapeCast_apply _ _ _ (ix2 b (flat n j)) (by
    rw [Shape.rowMajor_val_two, Shape.rowMajor_val_three]
    show b.val * 32768 + (n.val * 64 + j.val) = (b.val * 512 + n.val) * 64 + j.val
    omega)).trans ?_
  -- the leading unit axis
  exact shapeCast_apply _ _ _ (ix3 (0 : Fin 1) b (flat n j)) (by
    rw [Shape.rowMajor_val_three, Shape.rowMajor_val_two]
    show ((0 : Nat) * 8 + b.val) * 32768 + (n.val * 64 + j.val) = b.val * 32768 + (n.val * 64 + j.val)
    omega)

/-- The scalar input transposed to (node, sample). -/
theorem pay6_apply (v6 : Vec Ideal S8x512 .f32) (n : Fin 512) (b : Fin 8) : k0_pay6 v6 (ix2 n b) = v6 (ix2 b n) := by
  unfold k0_pay6
  dsimp only
  exact transpose_apply _ _ _ _ (ix2 b n) (fun c => match c with | ⟨0, _⟩ => rfl | ⟨1, _⟩ => rfl)

/-- One diffusion step of the input: `Σ_k A (n, k) · x (b, k)`. -/
theorem pay7_apply (v0 : Vec Ideal S512x512 .f32) (v6 : Vec Ideal S8x512 .f32) (n : Fin 512) (b : Fin 8) :
    k0_pay7 v0 v6 (ix2 n b) = ∑ k : Fin 512, v0 (ix2 n k) * v6 (ix2 b k) := by
  unfold k0_pay7
  refine (matmul_zero_entry Facts₀.dot_S512x512_S512x8_S512x8_1_0_0_1_n_n_wf _ _ n b).trans ?_
  refine Finset.sum_congr rfl fun k _ => ?_
  show v0 (ix2 n k) * k0_pay6 v6 (ix2 k b) = _
  rw [pay6_apply]

/-- The third tap of the input: twice a diffusion step of the first tap, minus the input. -/
theorem pay8_apply (v0 : Vec Ideal S512x512 .f32) (v6 : Vec Ideal S8x512 .f32) (n : Fin 512) (b : Fin 8) :
    k0_pay8 v0 v6 (ix2 n b) = two * (∑ k : Fin 512, v0 (ix2 n k) * k0_pay7 v0 v6 (ix2 k b)) - v6 (ix2 b n) := by
  unfold k0_pay8
  show Ideal.ofBits .f32 0x40000000#32
      * matmul dot_S512x512_S512x8_S512x8_1_0_0_1_n_n none (truncf .bf16 v0 bitsLt_bf16_f32)
          (truncf .bf16 (k0_pay7 v0 v6) bitsLt_bf16_f32) (constant S512x8 .f32 0x00000000#32) (ix2 n b)
      - k0_pay6 v6 (ix2 n b) = _
  rw [pay6_apply]
  rw [show matmul dot_S512x512_S512x8_S512x8_1_0_0_1_n_n none (truncf .bf16 v0 bitsLt_bf16_f32)
          (truncf .bf16 (k0_pay7 v0 v6) bitsLt_bf16_f32) (constant S512x8 .f32 0x00000000#32) (ix2 n b)
        = ∑ k : Fin 512, v0 (ix2 n k) * k0_pay7 v0 v6 (ix2 k b) from
      matmul_zero_entry Facts₀.dot_S512x512_S512x8_S512x8_1_0_0_1_n_n_wf _ _ n b]
  rfl

/-- The first hidden state in the rows layout. -/
theorem t5_sem : Rows (t5 B) (fun b n j => hs B 0 b n j) := by
  intro n b j
  show k0_pay5 (View.ld B.x2 r0_1) (ix2 (row n b) j) = B.x2 (ix3 0 b (flat n j))
  rw [pay5_apply, ld_h0]

/-- The scalar input as (node, sample). -/
theorem t6_sem : Xnm (t6 B) (fun b n => xs B b n) := by
  intro n b
  show k0_pay6 (View.ld B.x0 r0_2) (ix2 n b) = B.x0 (ix2 b n)
  rw [pay6_apply, ld_x]

/-- Its first diffusion tap. -/
theorem t7_sem (hB : Agrees P B) : Xnm (t7 B) (fun b n => hop P.A (xs B b) n) := by
  intro n b
  show k0_pay7 (View.ld B.x1 r0_0) (View.ld B.x0 r0_2) (ix2 n b) = ∑ k : Fin 512, P.A n k * B.x0 (ix2 b k)
  rw [pay7_apply]
  refine Finset.sum_congr rfl fun k _ => ?_
  rw [ld_adj, ld_x, hB.adj]

/-- Its second diffusion tap. -/
theorem t8_sem (hB : Agrees P B) : Xnm (t8 B) (fun b n => hop2 P.A (xs B b) n) := by
  intro n b
  show k0_pay8 (View.ld B.x1 r0_0) (View.ld B.x0 r0_2) (ix2 n b)
    = two * (∑ k : Fin 512, P.A n k * hop P.A (xs B b) k) - B.x0 (ix2 b n)
  rw [pay8_apply, ld_x]
  have hs : (∑ k : Fin 512, View.ld B.x1 r0_0 (ix2 n k) * k0_pay7 (View.ld B.x1 r0_0) (View.ld B.x0 r0_2) (ix2 k b))
      = ∑ k : Fin 512, P.A n k * hop P.A (xs B b) k :=
    Finset.sum_congr rfl fun k _ => by
      rw [ld_adj, hB.adj]
      exact congrArg (P.A n k * ·) (t7_sem P B hB k b)
  rw [hs]

/-! ## Re-layouts between rows, (node, sample, unit) and node-major

All of them keep the row-major position: row `8·n + b`, column `j` ↔ `(n, b, j)` ↔ `(n, 64·b + j)`, and the same with
128 outputs in place of 64 units. -/

section Relayout
variable {α : Type}

theorem cast_rows_nbj (v : S4096x64.Idx → α) (h : S4096x64.ShapeCasts S512x8x64) (n : Fin 512) (b : Fin 8) (j : Fin 64) :
    shapeCast S512x8x64 v h (ix3 n b j) = v (ix2 (row n b) j) :=
  shapeCast_apply v h (ix3 n b j) (ix2 (row n b) j) (by
    rw [Shape.rowMajor_val_two, Shape.rowMajor_val_three]
    show (n.val * 8 + b.val) * 64 + j.val = (n.val * 8 + b.val) * 64 + j.val
    rfl)

theorem cast_nbj_rows (v : S512x8x64.Idx → α) (h : S512x8x64.ShapeCasts S4096x64) (n : Fin 512) (b : Fin 8) (j : Fin 64) :
    shapeCast S4096x64 v h (ix2 (row n b) j) = v (ix3 n b j) :=
  shapeCast_apply v h (ix2 (row n b) j) (ix3 n b j) (by
    rw [Shape.rowMajor_val_three, Shape.rowMajor_val_two]
    show (n.val * 8 + b.val) * 64 + j.val = (n.val * 8 + b.val) * 64 + j.val
    rfl)

theorem cast_nbj_nm (v : S512x8x64.Idx → α) (h : S512x8x64.ShapeCasts S512x512) (n : Fin 512) (b : Fin 8) (j : Fin 64) :
    shapeCast S512x512 v h (ix2 n (col b j)) = v (ix3 n b j) :=
  shapeCast_apply v h (ix2 n (col b j)) (ix3 n b j) (by
    rw [Shape.rowMajor_val_three, Shape.rowMajor_val_two]
    show (n.val * 8 + b.val) * 64 + j.val = n.val * 512 + (b.val * 64 + j.val)
    omega)

theorem cast_nm_nbj (v : S512x512.Idx → α) (h : S512x512.ShapeCasts S512x8x64) (n : Fin 512) (b : Fin 8) (j : Fin 64) :
    shapeCast S512x8x64 v h (ix3 n b j) = v (ix2 n (col b j)) :=
  shapeCast_apply v h (ix3 n b j) (ix2 n (col b j)) (by
    rw [Shape.rowMajor_val_two, Shape.rowMajor_val_three]
    show n.val * 512 + (b.val * 64 + j.val) = (n.val * 8 + b.val) * 64 + j.val
    omega)

theorem cast_nc_nbo (v : S512x1024.Idx → α) (h : S512x1024.ShapeCasts S512x8x128) (n : Fin 512) (b : Fin 8) (o : Fin 128) :
    shapeCast S512x8x128 v h (ix3 n b o) = v (ix2 n (col128 b o)) :=
  shapeCast_apply v h (ix3 n b o) (ix2 n (col128 b o)) (by
    rw [Shape.rowMajor_val_two, Shape.rowMajor_val_three]
    show n.val * 1024 + (b.val * 128 + o.val) = (n.val * 8 + b.val) * 128 + o.val
    omega)

theorem cast_nbo_rows (v : S512x8x128.Idx → α) (h : S512x8x128.ShapeCasts S4096x128) (n : Fin 512) (b : Fin 8) (o : Fin 128) :
    shapeCast S4096x128 v h (ix2 (row n b) o) = v (ix3 n b o) :=
  shapeCast_apply v h (ix2 (row n b) o) (ix3 n b o) (by
    rw [Shape.rowMajor_val_three, Shape.rowMajor_val_two]
    show (n.val * 8 + b.val) * 128 + o.val = (n.val * 8 + b.val) * 128 + o.val
    rfl)

/-- Tap `mm` of the state weights, as a 64 × 128 matrix. -/
theorem slice_wh (v20 : S3x64x128.Idx → α) (off0 : Nat) (mm : Fin 3) (hoff : off0 = mm.val)
    (hs : S3x64x128.Slices ![off0, 0, 0] S1x64x128) (hc : S1x64x128.ShapeCasts S64x128) (j : Fin 64) (o : Fin 128) :
    shapeCast S64x128 (extractStridedSlice S1x64x128 ![off0, 0, 0] v20 hs) hc (ix2 j o) = v20 (ix3 mm j o) := by
  subst hoff
  refine (shapeCast_apply _ hc (ix2 j o) (ix3 (0 : Fin 1) j o) (by
    rw [Shape.rowMajor_val_three, Shape.rowMajor_val_two]
    show ((0 : Nat) * 64 + j.val) * 128 + o.val = j.val * 128 + o.val
    omega)).trans ?_
  exact extractStridedSlice_apply _ v20 hs (ix3 (0 : Fin 1) j o) (ix3 mm j o) (fun a => match a with
    | ⟨0, _⟩ => by show mm.val = mm.val + 0; omega
    | ⟨1, _⟩ => by show j.val = 0 + j.val; omega
    | ⟨2, _⟩ => by show o.val = 0 + o.val; omega)

/-- Tap `mm` of the Kronecker operand, as an 8 × 1024 matrix. -/
theorem slice_kx (v18 : S3x8x1024.Idx → α) (off0 : Nat) (mm : Fin 3) (hoff : off0 = mm.val)
    (hs : S3x8x1024.Slices ![off0, 0, 0] S1x8x1024) (hc : S1x8x1024.ShapeCasts S8x1024) (b' : Fin 8) (c : Fin 1024) :
    shapeCast S8x1024 (extractStridedSlice S1x8x1024 ![off0, 0, 0] v18 hs) hc (ix2 b' c) = v18 (ix3 mm b' c) := by
  subst hoff
  refine (shapeCast_apply _ hc (ix2 b' c) (ix3 (0 : Fin 1) b' c) (by
    rw [Shape.rowMajor_val_three, Shape.rowMajor_val_two]
    show ((0 : Nat) * 8 + b'.val) * 1024 + c.val = b'.val * 1024 + c.val
    omega)).trans ?_
  exact extractStridedSlice_apply _ v18 hs (ix3 (0 : Fin 1) b' c) (ix3 mm b' c) (fun a => match a with
    | ⟨0, _⟩ => by show mm.val = mm.val + 0; omega
    | ⟨1, _⟩ => by show b'.val = 0 + b'.val; omega
    | ⟨2, _⟩ => by show c.val = 0 + c.val; omega)

end Relayout

/-! ## The two kinds of block product in a convolution -/

/-- A node-major state quantity, re-laid to rows, times tap `mm` of the state weights. -/
theorem state_block (v : FVec Ideal S512x512 .f32) (v20 : FVec Ideal S3x64x128 .f32) (off0 : Nat) (mm : Fin 3)
    (hoff : off0 = mm.val) (hs : S3x64x128.Slices ![off0, 0, 0] S1x64x128) (hc : S1x64x128.ShapeCasts S64x128)
    (h1 : S512x512.ShapeCasts S512x8x64) (h2 : S512x8x64.ShapeCasts S4096x64) (n : Fin 512) (b : Fin 8) (o : Fin 128) :
    matmul dot_S4096x64_S64x128_S4096x128_1_0_0_1_n_n none
        (truncf .bf16 (shapeCast S4096x64 (addf (shapeCast S512x8x64 v h1)
          (broadcast S512x8x64 (Scalar.ofBits .f32 0x00000000#32 : Ideal .f32))) h2) bitsLt_bf16_f32)
        (truncf .bf16 (shapeCast S64x128 (extractStridedSlice S1x64x128 ![off0, 0, 0] v20 hs) hc) bitsLt_bf16_f32)
        (constant S4096x128 .f32 0x00000000#32) (ix2 (row n b) o)
      = ∑ j : Fin 64, v (ix2 n (col b j)) * v20 (ix3 mm j o) := by
  refine (matmul_zero_entry Facts₀.dot_S4096x64_S64x128_S4096x128_1_0_0_1_n_n_wf _ _ (row n b) o).trans ?_
  refine Finset.sum_congr rfl fun j _ => ?_
  show shapeCast S4096x64 (addf (shapeCast S512x8x64 v h1)
        (broadcast S512x8x64 (Scalar.ofBits .f32 0x00000000#32 : Ideal .f32))) h2 (ix2 (row n b) j)
      * shapeCast S64x128 (extractStridedSlice S1x64x128 ![off0, 0, 0] v20 hs) hc (ix2 j o) = _
  rw [cast_nbj_rows, slice_wh v20 off0 mm hoff]
  show (shapeCast S512x8x64 v h1 (ix3 n b j) + Ideal.ofBits .f32 0x00000000#32) * _ = _
  rw [Ideal.ofBits_zero_f32, add_zero, cast_nm_nbj]

/-- An input tap (node, sample) times tap `mm` of the Kronecker operand, re-laid to rows. -/
theorem input_block (v : FVec Ideal S512x8 .f32) (v18 : FVec Ideal S3x8x1024 .f32) (off0 : Nat) (mm : Fin 3)
    (hoff : off0 = mm.val) (hs : S3x8x1024.Slices ![off0, 0, 0] S1x8x1024) (hc : S1x8x1024.ShapeCasts S8x1024)
    (h1 : S512x1024.ShapeCasts S512x8x128) (h2 : S512x8x128.ShapeCasts S4096x128) (n : Fin 512) (b : Fin 8) (o : Fin 128) :
    shapeCast S4096x128 (addf (shapeCast S512x8x128
        (matmul dot_S512x8_S8x1024_S512x1024_1_0_0_1_n_n none (truncf .bf16 v bitsLt_bf16_f32)
          (truncf .bf16 (shapeCast S8x1024 (extractStridedSlice S1x8x1024 ![off0, 0, 0] v18 hs) hc) bitsLt_bf16_f32)
          (constant S512x1024 .f32 0x00000000#32)) h1)
        (broadcast S512x8x128 (Scalar.ofBits .f32 0x00000000#32 : Ideal .f32))) h2 (ix2 (row n b) o)
      = ∑ b' : Fin 8, v (ix2 n b') * v18 (ix3 mm b' (col128 b o)) := by
  rw [cast_nbo_rows]
  show shapeCast S512x8x128 _ h1 (ix3 n b o) + Ideal.ofBits .f32 0x00000000#32 = _
  rw [Ideal.ofBits_zero_f32, add_zero, cast_nc_nbo]
  refine (matmul_zero_entry Facts₀.dot_S512x8_S8x1024_S512x1024_1_0_0_1_n_n_wf _ _ n (col128 b o)).trans ?_
  refine Finset.sum_congr rfl fun b' _ => ?_
  show v (ix2 n b') * shapeCast S8x1024 (extractStridedSlice S1x8x1024 ![off0, 0, 0] v18 hs) hc (ix2 b' (col128 b o)) = _
  rw [slice_kx v18 off0 mm hoff]

/-! ## The hidden state node-major, and its diffusion taps -/

/-- Node-major layout of a hidden-state slab: row `n`, column `64·b + j`; the zero added on the way changes nothing. -/
theorem pay11_apply (v1 : Vec Ideal S1x8x32768 .f32) (n : Fin 512) (b : Fin 8) (j : Fin 64) :
    k0_pay11 v1 (ix2 n (col b j)) = v1 (ix3 (0 : Fin 1) b (flat n j)) := by
  unfold k0_pay11
  show shapeCast S512x512 (addf (shapeCast S512x8x64 (k0_pay5 v1) _)
      (broadcast S512x8x64 (Scalar.ofBits .f32 0x00000000#32 : Ideal .f32))) _ (ix2 n (col b j)) = _
  rw [cast_nbj_nm]
  show shapeCast S512x8x64 (k0_pay5 v1) _ (ix3 n b j) + Ideal.ofBits .f32 0x00000000#32 = _
  rw [Ideal.ofBits_zero_f32, add_zero, cast_rows_nbj, pay5_apply]

/-- One diffusion step, column by column. -/
theorem pay12_apply (v0 : Vec Ideal S512x512 .f32) (v1 : Vec Ideal S1x8x32768 .f32) (n c : Fin 512) :
    k0_pay12 v0 v1 (ix2 n c) = ∑ k : Fin 512, v0 (ix2 n k) * k0_pay11 v1 (ix2 k c) := by
  unfold k0_pay12
  exact matmul_zero_entry Facts₀.dot_S512x512_S512x512_S512x512_1_0_0_1_n_n_wf _ _ n c

/-- The third tap, column by column. -/
theorem pay13_apply (v0 : Vec Ideal S512x512 .f32) (v1 : Vec Ideal S1x8x32768 .f32) (n c : Fin 512) :
    k0_pay13 v0 v1 (ix2 n c)
      = two * (∑ k : Fin 512, v0 (ix2 n k) * k0_pay12 v0 v1 (ix2 k c)) - k0_pay11 v1 (ix2 n c) := by
  unfold k0_pay13
  show Ideal.ofBits .f32 0x40000000#32
      * matmul dot_S512x512_S512x512_S512x512_1_0_0_1_n_n none (truncf .bf16 v0 bitsLt_bf16_f32)
          (truncf .bf16 (k0_pay12 v0 v1) bitsLt_bf16_f32) (constant S512x512 .f32 0x00000000#32) (ix2 n c)
      - k0_pay11 v1 (ix2 n c) = _
  rw [show matmul dot_S512x512_S512x512_S512x512_1_0_0_1_n_n none (truncf .bf16 v0 bitsLt_bf16_f32)
          (truncf .bf16 (k0_pay12 v0 v1) bitsLt_bf16_f32) (constant S512x512 .f32 0x00000000#32) (ix2 n c)
        = ∑ k : Fin 512, v0 (ix2 n k) * k0_pay12 v0 v1 (ix2 k c) from
      matmul_zero_entry Facts₀.dot_S512x512_S512x512_S512x512_1_0_0_1_n_n_wf _ _ n c]
  rfl

/-- The bias, the same on every row. -/
theorem pay14_apply (v21 : Vec Ideal S128 .f32) (r : Fin 4096) (o : Fin 128) : k0_pay14 v21 (ix2 r o) = v21 (ix1 o) := by
  unfold k0_pay14
  refine (broadcastTo_apply _ _ (ix2 r o) (ix2 (0 : Fin 1) o) (fun a => match a with
    | ⟨0, _⟩ => by show (0 : Nat) = if (1 : Nat) = 1 then 0 else _; rfl
    | ⟨1, _⟩ => by show o.val = if (128 : Nat) = 1 then 0 else o.val; rfl)).trans ?_
  rw [shapeCast_self]
  exact shapeCast_apply _ _ (ix2 (0 : Fin 1) o) (ix1 o) (by
    rw [Shape.rowMajor_val_one, Shape.rowMajor_val_two]
    show o.val = 0 * 128 + o.val
    omega)

/-! ## The weight operands as loaded -/

theorem t9_apply (mm : Fin 3) (b' : Fin 8) (c : Fin 1024) : t9 B (ix3 mm b' c) = B.x3 (ix3 mm b' c) := by
  show k0_pay9 (View.ld B.x3 r0_3) (ix3 mm b' c) = _
  unfold k0_pay9
  rw [shapeCast_self]
  show B.x3 (r0_3.idx (ix3 mm b' c)) = _
  refine congrArg B.x3 (funext fun a => Fin.ext ?_)
  match a with
  | ⟨0, _⟩ => show 0 + 1 * mm.val = mm.val; omega
  | ⟨1, _⟩ => show 0 + 1 * b'.val = b'.val; omega
  | ⟨2, _⟩ => show 0 + 1 * c.val = c.val; omega

theorem t10_apply (mm : Fin 3) (j : Fin 64) (o : Fin 128) : t10 B (ix3 mm j o) = B.x4 (ix3 mm j o) := by
  show k0_pay10 (View.ld B.x4 r0_4) (ix3 mm j o) = _
  unfold k0_pay10
  rw [shapeCast_self]
  show B.x4 (r0_4.idx (ix3 mm j o)) = _
  refine congrArg B.x4 (funext fun a => Fin.ext ?_)
  match a with
  | ⟨0, _⟩ => show 0 + 1 * mm.val = mm.val; omega
  | ⟨1, _⟩ => show 0 + 1 * j.val = j.val; omega
  | ⟨2, _⟩ => show 0 + 1 * o.val = o.val; omega

theorem t14_apply (r : Fin 4096) (o : Fin 128) : t14 B (ix2 r o) = B.x7 (ix1 o) := by
  show k0_pay14 (View.ld B.x7 r0_5) (ix2 r o) = _
  rw [pay14_apply]
  show B.x7 (r0_5.idx (ix1 o)) = _
  refine congrArg B.x7 (funext fun a => Fin.ext ?_)
  match a with
  | ⟨0, _⟩ => show 0 + 1 * o.val = o.val; omega

/-! ## The convolution's accumulation, in the order the body adds -/

/-- Bias, then tap by tap the state block and the input block, up to the third tap's state block. -/
theorem pay15_apply (v7 v10 : FVec Ideal S512x8 .f32) (v18 : FVec Ideal S3x8x1024 .f32) (v20 : FVec Ideal S3x64x128 .f32)
    (v25 v28 v34 : FVec Ideal S512x512 .f32) (v37 : FVec Ideal S4096x128 .f32) (n : Fin 512) (b : Fin 8) (o : Fin 128) :
    k0_pay15 v7 v10 v18 v20 v25 v28 v34 v37 (ix2 (row n b) o)
      = ((((v37 (ix2 (row n b) o) + ∑ j : Fin 64, v25 (ix2 n (col b j)) * v20 (ix3 0 j o))
            + ∑ b' : Fin 8, v7 (ix2 n b') * v18 (ix3 0 b' (col128 b o)))
           + ∑ j : Fin 64, v28 (ix2 n (col b j)) * v20 (ix3 1 j o))
          + ∑ b' : Fin 8, v10 (ix2 n b') * v18 (ix3 1 b' (col128 b o)))
         + ∑ j : Fin 64, v34 (ix2 n (col b j)) * v20 (ix3 2 j o) := by
  unfold k0_pay15
  rw [addf_apply, addf_apply, addf_apply, addf_apply, addf_apply]
  rw [state_block v25 v20 0 0 rfl, state_block v28 v20 1 1 rfl, state_block v34 v20 2 2 rfl,
    input_block v7 v18 0 0 rfl, input_block v10 v18 1 1 rfl]

/-- The third tap's input block added, and the logistic. -/
theorem pay16_apply (v16 : FVec Ideal S512x8 .f32) (v18 : FVec Ideal S3x8x1024 .f32) (v87 : FVec Ideal S4096x128 .f32)
    (n : Fin 512) (b : Fin 8) (o : Fin 128) :
    k0_pay16 v16 v18 v87 (ix2 (row n b) o)
      = Ideal.logistic (v87 (ix2 (row n b) o) + ∑ b' : Fin 8, v16 (ix2 n b') * v18 (ix3 2 b' (col128 b o))) := by
  unfold k0_pay16
  show Ideal.logistic (v87 (ix2 (row n b) o) + shapeCast S4096x128 _ _ (ix2 (row n b) o)) = _
  rw [input_block v16 v18 2 2 rfl]

/-! ## The nodes against the decoder's mathematics -/

/-- The first hidden state node-major. -/
theorem t11_sem : Nm (t11 B) (fun b n j => hs B 0 b n j) := by
  intro n b j
  show k0_pay11 (View.ld B.x2 r0_1) (ix2 n (col b j)) = B.x2 (ix3 0 b (flat n j))
  rw [pay11_apply, ld_h0]

/-- Its first diffusion tap, unit by unit. -/
theorem t12_sem (hB : Agrees P B) : Nm (t12 B) (fun b n j => hop P.A (fun k => hs B 0 b k j) n) := by
  intro n b j
  show k0_pay12 (View.ld B.x1 r0_0) (View.ld B.x2 r0_1) (ix2 n (col b j)) = ∑ k : Fin 512, P.A n k * hs B 0 b k j
  rw [pay12_apply]
  refine Finset.sum_congr rfl fun k _ => ?_
  rw [ld_adj, hB.adj]
  exact congrArg (P.A n k * ·) (t11_sem B k b j)

/-- Its second diffusion tap, unit by unit. -/
theorem t13_sem (hB : Agrees P B) : Nm (t13 B) (fun b n j => hop2 P.A (fun k => hs B 0 b k j) n) := by
  intro n b j
  show k0_pay13 (View.ld B.x1 r0_0) (View.ld B.x2 r0_1) (ix2 n (col b j))
    = two * (∑ k : Fin 512, P.A n k * hop P.A (fun k => hs B 0 b k j) k) - hs B 0 b n j
  rw [pay13_apply]
  have hsum : (∑ k : Fin 512, View.ld B.x1 r0_0 (ix2 n k)
        * k0_pay12 (View.ld B.x1 r0_0) (View.ld B.x2 r0_1) (ix2 k (col b j)))
      = ∑ k : Fin 512, P.A n k * hop P.A (fun k => hs B 0 b k j) k :=
    Finset.sum_congr rfl fun k _ => by
      rw [ld_adj, hB.adj]
      exact congrArg (P.A n k * ·) (t12_sem P B hB k b j)
  rw [hsum]
  exact congrArg (two * (∑ k : Fin 512, P.A n k * hop P.A (fun k => hs B 0 b k j) k) - ·) (t11_sem B n b j)

/-- The gate's bias on every row. -/
theorem t14_sem (hB : Agrees P B) (r : Fin 4096) (o : Fin 128) : t14 B (ix2 r o) = P.bg0 o := by
  rw [t14_apply, hB.bg0]

/-- A state block of the gate's convolution: the weights are rows `3·(1 + j) + mm` of the gate's matrix. -/
theorem state_sum (hB : Agrees P B) (mm : Fin 3) (v : FVec Ideal S512x512 .f32) (f : Fin 64 → EReal)
    (n : Fin 512) (b : Fin 8) (o : Fin 128) (hv : ∀ j, v (ix2 n (col b j)) = f j) :
    (∑ j : Fin 64, v (ix2 n (col b j)) * t10 B (ix3 mm j o)) = ∑ j : Fin 64, f j * P.Wg0 (w0h mm j) o :=
  Finset.sum_congr rfl fun j _ => by rw [hv j, t10_apply, hB.whg0]

/-- An input block of the gate's convolution: of the chunk's samples only the row's own meets a nonzero weight, row
    `mm` of the gate's matrix. -/
theorem kron_sum (hB : Agrees P B) (mm : Fin 3) (v : FVec Ideal S512x8 .f32) (x : EReal)
    (n : Fin 512) (b : Fin 8) (o : Fin 128) (hv : v (ix2 n b) = x) :
    (∑ b' : Fin 8, v (ix2 n b') * t9 B (ix3 mm b' (col128 b o))) = x * P.Wg0 (w0x mm) o := by
  subst hv
  refine Eq.trans ?_ (sum_diag8 (fun b' => v (ix2 n b')) (P.Wg0 (w0x mm) o) b)
  exact Finset.sum_congr rfl fun b' _ => by rw [t9_apply, hB.kxg0]

/-- The convolution accumulated up to the third tap's state block. -/
theorem t15_sem (hB : Agrees P B) (n : Fin 512) (b : Fin 8) (o : Fin 128) :
    t15 B (ix2 (row n b) o)
      = ((((P.bg0 o + ∑ j : Fin 64, hs B 0 b n j * P.Wg0 (w0h 0 j) o) + xs B b n * P.Wg0 (w0x 0) o)
            + ∑ j : Fin 64, hop P.A (fun k => hs B 0 b k j) n * P.Wg0 (w0h 1 j) o)
           + hop P.A (xs B b) n * P.Wg0 (w0x 1) o)
          + ∑ j : Fin 64, hop2 P.A (fun k => hs B 0 b k j) n * P.Wg0 (w0h 2 j) o := by
  show k0_pay15 (t6 B) (t7 B) (t9 B) (t10 B) (t11 B) (t12 B) (t13 B) (t14 B) (ix2 (row n b) o) = _
  rw [pay15_apply, t14_sem P B hB,
    state_sum P B hB 0 (t11 B) (fun j => hs B 0 b n j) n b o (fun j => t11_sem B n b j),
    state_sum P B hB 1 (t12 B) (fun j => hop P.A (fun k => hs B 0 b k j) n) n b o (fun j => t12_sem P B hB n b j),
    state_sum P B hB 2 (t13 B) (fun j => hop2 P.A (fun k => hs B 0 b k j) n) n b o (fun j => t13_sem P B hB n b j),
    kron_sum P B hB 0 (t6 B) (xs B b n) n b o (t6_sem B n b),
    kron_sum P B hB 1 (t7 B) (hop P.A (xs B b) n) n b o (t7_sem P B hB n b)]

/-- Both gates of the first cell, in the rows layout. -/
theorem gate0_sem (hB : Agrees P B) :
    Rows (k0_pay16 (t8 B) (t9 B) (t15 B)) (fun b n o => P.gate0 (xs B b) (hs B 0 b) n o) := by
  intro n b o
  rw [pay16_apply, t15_sem P B hB n b o,
    kron_sum P B hB 2 (t8 B) (hop2 P.A (xs B b) n) n b o (t8_sem P B hB n b)]
  rfl

/-- The update gate of the first cell. -/
theorem t17_sem (hB : Agrees P B) : Rows (t17 B) (fun b n j => P.gate0 (xs B b) (hs B 0 b) n (hi j)) := by
  intro n b j
  show extractStridedSlice S4096x64 ![0, 64] (k0_pay16 (t8 B) (t9 B) (t15 B))
      Facts₀.slices_S4096x128_o0_64_S4096x64 (ix2 (row n b) j) = _
  refine (extractStridedSlice_apply _ _ _ (ix2 (row n b) j) (ix2 (row n b) (hi j)) (fun a => match a with
    | ⟨0, _⟩ => by show n.val * 8 + b.val = 0 + (n.val * 8 + b.val); omega
    | ⟨1, _⟩ => by show 64 + j.val = 64 + j.val; rfl)).trans ?_
  exact gate0_sem P B hB n b (hi j)

end Cert.KernelIdeal.L0G

end
-- ==== Proof.KL0C.lean ====
/-
  First cell, candidate and new state, on one chunk: the reset gate times the state, its diffusion taps, the
  hyperbolic tangent of the convolution, and `u · h + (1 − u) · c`.

  Every intermediate of the body is read at one entry. A product of matrices is the sum over its contracted
  coordinate; a change of layout keeps the row-major position, so a quantity indexed by (node `n`, sample `b`,
  unit `j`) is met at row `8·n + b`, column `j` of a 4096 × 64 vector or at row `n`, column `64·b + j` of a
  512 × 512 one. The candidate's convolution is accumulated block by block in the order of the sums of `gconv0`:
  bias and untapped state block, then for each tap the input block (against the Kronecker operand, of which only
  the sample's own weight is not zero) and the next state block.
-/
import proofs.«152469_g44504451121623_cont_8to1_c_180_12_alg».proof.Proof.KL0G
import Idealize.ShloMosaic.Lib.Pipeline.Value
import Idealize.ShloMosaic.PureOps.Ideal.Laws

noncomputable section

namespace Cert.KernelIdeal.L0C

open Cert.KernelIdeal Cert.KernelIdeal.Gen Cert.KernelIdeal.Nodes Cert.KernelIdeal.Sem Cert.Dcgru Idealize.ShloMosaic ValueIdx

variable (P : Params) (B : Blk Ideal)

/-! ## Products of matrices at an entry -/

/-- A rows-by-columns product into the zero accumulator, read at an entry: the sum over the one contracted
    coordinate of the products of the entries. -/
theorem mm_apply {m k n : Nat}
    (w : DotDims.WF ⟨2, ![m, k]⟩ ⟨2, ![k, n]⟩ ⟨2, ![m, n]⟩ [1] [0] [0] [1] [] [])
    (X : FVec Ideal ⟨2, ![m, k]⟩ .bf16) (W : FVec Ideal ⟨2, ![k, n]⟩ .bf16) (r : Fin m) (o : Fin n) :
    matmul (⟨[1], [0], [0], [1], [], [], w⟩ : DotDims _ _ _) none X W (constant (F := Ideal) ⟨2, ![m, n]⟩ .f32 0x00000000#32) (ix2 r o)
      = ∑ c : Fin k, X (ix2 r c) * W (ix2 c o) := by
  show FloatOps.matmul _ none X W _ (ix2 r o) = _
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 r o)
      ((contrEquiv1 _ k rfl rfl).symm c) = ix2 r c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 r o)
      ((contrEquiv1 _ k rfl rfl).symm c) = ix2 c o := by
    funext ax; apply Fin.ext
    match ax with
    | ⟨0, _⟩ => simp [DotDims.rhsIdx]; exact hc
    | ⟨1, _⟩ => simp [DotDims.rhsIdx]; rfl
  rw [hl, hr]

/-- The three products of the candidate: state rows by state weights, (node, sample) by the Kronecker operand,
    adjacency by node-major columns. -/
theorem mmW_apply (X : FVec Ideal S4096x64 .bf16) (W : FVec Ideal S64x64 .bf16) (r : Fin 4096) (o : Fin 64) :
    matmul dot_S4096x64_S64x64_S4096x64_1_0_0_1_n_n none X W (constant (F := Ideal) S4096x64 .f32 0x00000000#32) (ix2 r o)
      = ∑ k : Fin 64, X (ix2 r k) * W (ix2 k o) :=
  mm_apply dot_S4096x64_S64x64_S4096x64_1_0_0_1_n_n_wf X W r o
theorem mmK_apply (X : FVec Ideal S512x8 .bf16) (W : FVec Ideal S8x512 .bf16) (r : Fin 512) (o : Fin 512) :
    matmul dot_S512x8_S8x512_S512x512_1_0_0_1_n_n none X W (constant (F := Ideal) S512x512 .f32 0x00000000#32) (ix2 r o)
      = ∑ k : Fin 8, X (ix2 r k) * W (ix2 k o) :=
  mm_apply dot_S512x8_S8x512_S512x512_1_0_0_1_n_n_wf X W r o
theorem mmA_apply (X : FVec Ideal S512x512 .bf16) (W : FVec Ideal S512x512 .bf16) (r : Fin 512) (o : Fin 512) :
    matmul dot_S512x512_S512x512_S512x512_1_0_0_1_n_n none X W (constant (F := Ideal) S512x512 .f32 0x00000000#32) (ix2 r o)
      = ∑ k : Fin 512, X (ix2 r k) * W (ix2 k o) :=
  mm_apply dot_S512x512_S512x512_S512x512_1_0_0_1_n_n_wf X W r o

/-! ## Changes of layout at an entry -/

/-- The zero word the body adds after a re-laying is the extended real zero. -/
theorem zero_word : (Scalar.ofBits .f32 0x00000000#32 : Ideal .f32) = 0 := Ideal.ofBits_zero_f32

/-- Node-major to rows: the two casts keep the row-major position `(8·n + b)·64 + j = n·512 + (64·b + j)`, and the
    zero added in between changes nothing. -/
theorem rows_of_nm (v : FVec Ideal S512x512 .f32) (n : Fin 512) (b : Fin 8) (j : Fin 64) :
    shapeCast S4096x64 (addf (shapeCast S512x8x64 v shapeCasts_S512x512_S512x8x64)
        (broadcast S512x8x64 (Scalar.ofBits .f32 0x00000000#32 : Ideal .f32))) shapeCasts_S512x8x64_S4096x64 (ix2 (row n b) j)
      = v (ix2 n (col b j)) := by
  refine (shapeCast_apply _ _ _ (ix3 n b j) ?_).trans ?_
  · rw [Shape.rowMajor_val_three, Shape.rowMajor_val_two]
    show (n.val * 8 + b.val) * 64 + j.val = (n.val * 8 + b.val) * 64 + j.val
    rfl
  · rw [addf_apply, broadcast_apply, zero_word, add_zero]
    refine shapeCast_apply _ _ _ (ix2 n (col b j)) ?_
    rw [Shape.rowMajor_val_two, Shape.rowMajor_val_three]
    show n.val * 512 + (b.val * 64 + j.val) = (n.val * 8 + b.val) * 64 + j.val
    omega

/-- One input block of the convolution: the tap (node, sample) against slice `m` of the Kronecker operand, re-laid
    into rows, read at an entry. -/
theorem xblock_apply (x : FVec Ideal S512x8 .f32) (K : FVec Ideal S3x8x512 .f32) (off : Fin 3 → Nat)
    (h : S3x8x512.Slices off S1x8x512) (m : Fin 3) (h0 : off 0 = m.val) (h1 : off 1 = 0) (h2 : off 2 = 0)
    (n : Fin 512) (b : Fin 8) (o : Fin 64) :
    shapeCast S4096x64 (addf (shapeCast S512x8x64
        (matmul dot_S512x8_S8x512_S512x512_1_0_0_1_n_n none (truncf .bf16 x bitsLt_bf16_f32)
          (truncf .bf16 (shapeCast S8x512 (extractStridedSlice S1x8x512 off K h) shapeCasts_S1x8x512_S8x512) bitsLt_bf16_f32)
          (constant S512x512 .f32 0x00000000#32)) shapeCasts_S512x512_S512x8x64)
        (broadcast S512x8x64 (Scalar.ofBits .f32 0x00000000#32 : Ideal .f32))) shapeCasts_S512x8x64_S4096x64 (ix2 (row n b) o)
      = ∑ k : Fin 8, x (ix2 n k) * K (ix3 m k (col b o)) := by
  refine (rows_of_nm _ n b o).trans ((mmK_apply _ _ n (col b o)).trans (Finset.sum_congr rfl fun k _ => ?_))
  rw [truncf_apply, truncf_apply]
  congr 1
  refine (shapeCast_apply _ _ _ (ix3 (0 : Fin 1) k (col b o)) ?_).trans ?_
  · rw [Shape.rowMajor_val_three, Shape.rowMajor_val_two]
    show (0 * 8 + k.val) * 512 + (b.val * 64 + o.val) = k.val * 512 + (b.val * 64 + o.val)
    omega
  · refine extractStridedSlice_apply _ _ _ _ (ix3 m k (col b o)) (fun a => ?_)
    match a with
    | ⟨0, _⟩ => show m.val = off 0 + 0; omega
    | ⟨1, _⟩ => show k.val = off 1 + k.val; omega
    | ⟨2, _⟩ => show b.val * 64 + o.val = off 2 + (b.val * 64 + o.val); omega

/-- One state block of the convolution: a node-major quantity re-laid into rows against slice `m` of the state
    weights, read at an entry. -/
theorem hblock_apply (v : FVec Ideal S512x512 .f32) (W : FVec Ideal S3x64x64 .f32) (off : Fin 3 → Nat)
    (h : S3x64x64.Slices off S1x64x64) (m : Fin 3) (h0 : off 0 = m.val) (h1 : off 1 = 0) (h2 : off 2 = 0)
    (n : Fin 512) (b : Fin 8) (o : Fin 64) :
    matmul dot_S4096x64_S64x64_S4096x64_1_0_0_1_n_n none
        (truncf .bf16 (shapeCast S4096x64 (addf (shapeCast S512x8x64 v shapeCasts_S512x512_S512x8x64)
          (broadcast S512x8x64 (Scalar.ofBits .f32 0x00000000#32 : Ideal .f32))) shapeCasts_S512x8x64_S4096x64) bitsLt_bf16_f32)
        (truncf .bf16 (shapeCast S64x64 (extractStridedSlice S1x64x64 off W h) shapeCasts_S1x64x64_S64x64) bitsLt_bf16_f32)
        (constant S4096x64 .f32 0x00000000#32) (ix2 (row n b) o)
      = ∑ k : Fin 64, v (ix2 n (col b k)) * W (ix3 m k o) := by
  refine (mmW_apply _ _ (row n b) o).trans (Finset.sum_congr rfl fun k _ => ?_)
  rw [truncf_apply, truncf_apply, rows_of_nm]
  congr 1
  refine (shapeCast_apply _ _ _ (ix3 (0 : Fin 1) k o) ?_).trans ?_
  · rw [Shape.rowMajor_val_three, Shape.rowMajor_val_two]
    show (0 * 64 + k.val) * 64 + o.val = k.val * 64 + o.val
    omega
  · refine extractStridedSlice_apply _ _ _ _ (ix3 m k o) (fun a => ?_)
    match a with
    | ⟨0, _⟩ => show m.val = off 0 + 0; omega
    | ⟨1, _⟩ => show k.val = off 1 + k.val; omega
    | ⟨2, _⟩ => show o.val = off 2 + o.val; omega

/-! ## The printed operation groups at an entry -/

/-- The reset half of the gate times the state, re-laid node-major, read at an entry. -/
theorem pay20_apply (v5 : FVec Ideal S4096x64 .f32) (v16 : FVec Ideal S512x8 .f32) (v18 : FVec Ideal S3x8x1024 .f32)
    (v87 : FVec Ideal S4096x128 .f32) (n : Fin 512) (b : Fin 8) (j : Fin 64) :
    k0_pay20 v5 v16 v18 v87 (ix2 n (col b j))
      = k0_pay16 v16 v18 v87 (ix2 (row n b) (lo j)) * v5 (ix2 (row n b) j) := by
  unfold k0_pay20
  refine (shapeCast_apply _ _ _ (ix3 n b j) ?_).trans ?_
  · rw [Shape.rowMajor_val_three, Shape.rowMajor_val_two]
    show (n.val * 8 + b.val) * 64 + j.val = n.val * 512 + (b.val * 64 + j.val)
    omega
  · rw [addf_apply, broadcast_apply, zero_word, add_zero]
    refine (shapeCast_apply _ _ _ (ix2 (row n b) j) ?_).trans ?_
    · rw [Shape.rowMajor_val_two, Shape.rowMajor_val_three]
      show (n.val * 8 + b.val) * 64 + j.val = (n.val * 8 + b.val) * 64 + j.val
      rfl
    · rw [mulf_apply]
      congr 1
      refine extractStridedSlice_apply _ _ _ _ (ix2 (row n b) (lo j)) (fun a => ?_)
      match a with
      | ⟨0, _⟩ => show n.val * 8 + b.val = 0 + (n.val * 8 + b.val); omega
      | ⟨1, _⟩ => show j.val = 0 + j.val; omega

/-- One diffusion step of the node-major columns, read at an entry. -/
theorem pay21_apply (v0 : Vec Ideal S512x512 .f32) (v5 : FVec Ideal S4096x64 .f32) (v16 : FVec Ideal S512x8 .f32)
    (v18 : FVec Ideal S3x8x1024 .f32) (v87 : FVec Ideal S4096x128 .f32) (n c : Fin 512) :
    k0_pay21 v0 v5 v16 v18 v87 (ix2 n c) = ∑ k : Fin 512, v0 (ix2 n k) * k0_pay20 v5 v16 v18 v87 (ix2 k c) := by
  unfold k0_pay21
  exact mmA_apply _ _ n c

/-- The third tap of the node-major columns, read at an entry. -/
theorem pay22_apply (v0 : Vec Ideal S512x512 .f32) (v5 : FVec Ideal S4096x64 .f32) (v16 : FVec Ideal S512x8 .f32)
    (v18 : FVec Ideal S3x8x1024 .f32) (v87 : FVec Ideal S4096x128 .f32) (n c : Fin 512) :
    k0_pay22 v0 v5 v16 v18 v87 (ix2 n c)
      = two * (∑ k : Fin 512, v0 (ix2 n k) * k0_pay21 v0 v5 v16 v18 v87 (ix2 k c)) - k0_pay20 v5 v16 v18 v87 (ix2 n c) := by
  unfold k0_pay22
  rw [subf_apply, mulf_apply, broadcast_apply, mmA_apply]
  rfl

/-- The bias plus the first state block, read at an entry. -/
theorem pay23_apply (v5 : FVec Ideal S4096x64 .f32) (v16 : FVec Ideal S512x8 .f32) (v18 : FVec Ideal S3x8x1024 .f32)
    (v87 : FVec Ideal S4096x128 .f32) (v104 : Vec Ideal S3x64x64 .f32) (v106 : Vec Ideal S64 .f32)
    (n : Fin 512) (b : Fin 8) (o : Fin 64) :
    k0_pay23 v5 v16 v18 v87 v104 v106 (ix2 (row n b) o)
      = v106 (ix1 o) + ∑ k : Fin 64, k0_pay20 v5 v16 v18 v87 (ix2 n (col b k)) * v104 (ix3 0 k o) := by
  unfold k0_pay23
  rw [addf_apply, hblock_apply _ (k0_pay19 v104) ![0, 0, 0] slices_S3x64x64_o0_0_0_S1x64x64 0 rfl rfl rfl]
  congr 1
  · refine (broadcastTo_apply _ _ _ (ix2 (0 : Fin 1) o) (fun a => ?_)).trans ?_
    · match a with
      | ⟨0, _⟩ => rfl
      | ⟨1, _⟩ => rfl
    · rw [shapeCast_self]
      refine shapeCast_apply _ _ _ (ix1 o) ?_
      rw [Shape.rowMajor_val_one, Shape.rowMajor_val_two]
      show o.val = 0 * 64 + o.val
      omega
  · refine Finset.sum_congr rfl fun k _ => ?_
    congr 1
    unfold k0_pay19
    rw [shapeCast_self]

/-- The accumulation of the remaining five blocks on the first, read at an entry. -/
theorem pay24_apply (v7 v10 v16 : FVec Ideal S512x8 .f32) (v103 : FVec Ideal S3x8x512 .f32) (v105 : FVec Ideal S3x64x64 .f32)
    (v113 v119 : FVec Ideal S512x512 .f32) (v132 : FVec Ideal S4096x64 .f32) (n : Fin 512) (b : Fin 8) (o : Fin 64) :
    k0_pay24 v7 v10 v16 v103 v105 v113 v119 v132 (ix2 (row n b) o)
      = ((((v132 (ix2 (row n b) o) + ∑ k : Fin 8, v7 (ix2 n k) * v103 (ix3 0 k (col b o)))
          + ∑ k : Fin 64, v113 (ix2 n (col b k)) * v105 (ix3 1 k o))
          + ∑ k : Fin 8, v10 (ix2 n k) * v103 (ix3 1 k (col b o)))
          + ∑ k : Fin 64, v119 (ix2 n (col b k)) * v105 (ix3 2 k o))
          + ∑ k : Fin 8, v16 (ix2 n k) * v103 (ix3 2 k (col b o)) := by
  unfold k0_pay24
  rw [addf_apply, addf_apply, addf_apply, addf_apply, addf_apply,
    xblock_apply v7 v103 ![0, 0, 0] slices_S3x8x512_o0_0_0_S1x8x512 0 rfl rfl rfl,
    hblock_apply v113 v105 ![1, 0, 0] slices_S3x64x64_o1_0_0_S1x64x64 1 rfl rfl rfl,
    xblock_apply v10 v103 ![1, 0, 0] slices_S3x8x512_o1_0_0_S1x8x512 1 rfl rfl rfl,
    hblock_apply v119 v105 ![2, 0, 0] slices_S3x64x64_o2_0_0_S1x64x64 2 rfl rfl rfl,
    xblock_apply v16 v103 ![2, 0, 0] slices_S3x8x512_o2_0_0_S1x8x512 2 rfl rfl rfl]

/-- The new state from the update gate, the old state and the accumulated convolution, read at an entry. -/
theorem pay25_apply (v5 v100 v182 : FVec Ideal S4096x64 .f32) (i : S4096x64.Idx) :
    k0_pay25 v5 v100 v182 i = v100 i * v5 i + (one - v100 i) * Ideal.tanh (v182 i) := by
  unfold k0_pay25
  rfl

/-! ## The intermediates against the decoder's mathematics -/

/-- The candidate's state columns `r · h` of sample `b`: unit `j`, node `n`. -/
def rh (b : Fin 8) (j : Fin 64) (n : Fin 512) : EReal :=
  P.gate0 (xs B b) (hs B 0 b) n (lo j) * hs B 0 b n j

theorem hz1 : (![0] : Fin 1 → Nat) = fun _ => 0 := funext fun a => match a with | ⟨0, _⟩ => rfl
theorem hz2 : (![0, 0] : Fin 2 → Nat) = fun _ => 0 := funext fun a => match a with | ⟨0, _⟩ => rfl | ⟨1, _⟩ => rfl
theorem hz3 : (![0, 0, 0] : Fin 3 → Nat) = fun _ => 0 :=
  funext fun a => match a with | ⟨0, _⟩ => rfl | ⟨1, _⟩ => rfl | ⟨2, _⟩ => rfl

/-- The adjacency, the candidate's two weight operands and its bias are loaded whole. -/
theorem ld_x1 : View.ld B.x1 r0_0 = B.x1 := View.ld_unit_zero (S := S512x512) hz2 _ B.x1
theorem ld_x5 : View.ld B.x5 r0_6 = B.x5 := View.ld_unit_zero (S := S3x8x512) hz3 _ B.x5
theorem ld_x6 : View.ld B.x6 r0_7 = B.x6 := View.ld_unit_zero (S := S3x64x64) hz3 _ B.x6
theorem ld_x8 : View.ld B.x8 r0_8 = B.x8 := View.ld_unit_zero (S := S64) hz1 _ B.x8

/-- The loaded adjacency block is the decoder's adjacency. -/
theorem ld_adj (hB : Agrees P B) (n k : Fin 512) : View.ld B.x1 r0_0 (ix2 n k) = P.A n k := by
  rw [ld_x1]
  exact hB.adj n k

/-- The candidate's Kronecker operand as the body holds it is the loaded block. -/
theorem t18_apply (i : S3x8x512.Idx) : t18 B i = B.x5 i := by
  unfold t18 k0_pay18
  rw [shapeCast_self, ld_x5]

/-- The candidate's state weights as the body holds them are the loaded block. -/
theorem t19_apply (i : S3x64x64.Idx) : t19 B i = B.x6 i := by
  unfold t19 k0_pay19
  rw [shapeCast_self, ld_x6]

/-- The reset gate times the state, node-major. -/
theorem t20_sem (hB : Agrees P B) : Nm (k0_pay20 (t5 B) (t8 B) (t9 B) (t15 B)) (fun b n j => rh P B b j n) := by
  intro n b j
  exact (pay20_apply _ _ _ _ n b j).trans
    (congrArg₂ (· * ·) (L0G.gate0_sem P B hB n b (lo j)) (L0G.t5_sem B n b j))

/-- Its first diffusion tap, column by column. -/
theorem t21_sem (hB : Agrees P B) : Nm (t21 B) (fun b n j => hop P.A (rh P B b j) n) := by
  intro n b j
  refine (pay21_apply _ _ _ _ _ n (col b j)).trans (Finset.sum_congr rfl fun k _ => ?_)
  exact congrArg₂ (· * ·) (ld_adj P B hB n k) (t20_sem P B hB k b j)

/-- Its second diffusion tap. -/
theorem t22_sem (hB : Agrees P B) : Nm (t22 B) (fun b n j => hop2 P.A (rh P B b j) n) := by
  intro n b j
  refine (pay22_apply _ _ _ _ _ n (col b j)).trans ?_
  have e : (∑ k : Fin 512, View.ld B.x1 r0_0 (ix2 n k)
        * k0_pay21 (View.ld B.x1 r0_0) (t5 B) (t8 B) (t9 B) (t15 B) (ix2 k (col b j)))
      = hop P.A (hop P.A (rh P B b j)) n :=
    Finset.sum_congr rfl fun k _ => congrArg₂ (· * ·) (ld_adj P B hB n k) (t21_sem P B hB k b j)
  exact congrArg₂ (fun x y => two * x - y) e (t20_sem P B hB n b j)

/-- An input block against the Kronecker operand: only the sample's own weight survives. -/
theorem xterm (hB : Agrees P B) (m : Fin 3) (v : FVec Ideal S512x8 .f32) (f : Fin 8 → Fin 512 → EReal) (hv : Xnm v f)
    (n : Fin 512) (b : Fin 8) (o : Fin 64) :
    (∑ k : Fin 8, v (ix2 n k) * t18 B (ix3 m k (col b o))) = f b n * P.Wc0 (w0x m) o := by
  refine Eq.trans (Finset.sum_congr rfl fun k _ => ?_) (sum_diag8 (fun b' => f b' n) (P.Wc0 (w0x m) o) b)
  rw [hv n k, t18_apply, hB.kxc0 m k b o]

/-- A state block against the state weights of tap `m`. -/
theorem hterm (hB : Agrees P B) (m : Fin 3) (v : FVec Ideal S512x512 .f32) (f : Fin 8 → Fin 512 → Fin 64 → EReal)
    (hv : Nm v f) (n : Fin 512) (b : Fin 8) (o : Fin 64) :
    (∑ k : Fin 64, v (ix2 n (col b k)) * t19 B (ix3 m k o)) = ∑ j : Fin 64, f b n j * P.Wc0 (w0h m j) o :=
  Finset.sum_congr rfl fun k _ => by rw [hv n b k, t19_apply, hB.whc0 m k o]

/-- The bias and the untapped state block. -/
theorem t23_sem (hB : Agrees P B) :
    Rows (t23 B) (fun b n o => P.bc0 o + ∑ j : Fin 64, rh P B b j n * P.Wc0 (w0h 0 j) o) := by
  intro n b o
  refine (pay23_apply _ _ _ _ _ _ n b o).trans ?_
  rw [ld_x8, hB.bc0 o]
  refine congrArg (P.bc0 o + ·) (Finset.sum_congr rfl fun k _ => ?_)
  rw [ld_x6, hB.whc0 0 k o]
  exact congrArg (· * _) (t20_sem P B hB n b k)

/-- The candidate's convolution, accumulated in the order of the sums of `gconv0`. -/
theorem t24_sem (hB : Agrees P B) :
    Rows (t24 B) (fun b n o => gconv0 P.A P.Wc0 P.bc0 (xs B b) (rh P B b) n o) := by
  intro n b o
  refine (pay24_apply _ _ _ _ _ _ _ _ n b o).trans ?_
  rw [t23_sem P B hB n b o,
    xterm P B hB 0 (t6 B) _ (L0G.t6_sem B) n b o, hterm P B hB 1 (t21 B) _ (t21_sem P B hB) n b o,
    xterm P B hB 1 (t7 B) _ (L0G.t7_sem P B hB) n b o, hterm P B hB 2 (t22 B) _ (t22_sem P B hB) n b o,
    xterm P B hB 2 (t8 B) _ (L0G.t8_sem P B hB) n b o] <;> rfl

/-- The first cell's new state, in the rows layout. -/
theorem t25_sem (hB : Agrees P B) : Rows (t25 B) (fun b n j => P.hn0 (xs B b) (hs B 0 b) n j) := by
  intro n b j
  refine (pay25_apply _ _ _ (ix2 (row n b) j)).trans ?_
  rw [L0G.t5_sem B n b j, L0G.t17_sem P B hB n b j, t24_sem P B hB n b j] <;> rfl

end Cert.KernelIdeal.L0C

end
-- ==== Proof.KL1G.lean ====
/-
  Second cell, gates, on one chunk: its input columns are the first cell's new state.
-/
import proofs.«152469_g44504451121623_cont_8to1_c_180_12_alg».proof.Proof.KL0C
import Idealize.ShloMosaic.Lib.Pipeline.Value

noncomputable section

namespace Cert.KernelIdeal.L1G

open Cert.KernelIdeal Cert.KernelIdeal.Gen Cert.KernelIdeal.Nodes Cert.KernelIdeal.Sem Cert.Dcgru Idealize.ShloMosaic ValueIdx

/-! ## A product read at an index: row of the left operand against column of the right -/

theorem lhs_w_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide),
    dif_pos (show (0 : Fin S4096x64.rank) ∈ dot_S4096x64_S64x128_S4096x128_1_0_0_1_n_n.lhsNonContracting by decide)]
  rfl
theorem lhs_w_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhs_w_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhs_w_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide),
    dif_pos (show (1 : Fin S64x128.rank) ∈ dot_S4096x64_S64x128_S4096x128_1_0_0_1_n_n.rhsNonContracting by decide)]
  rfl

/-- A 4096×64 by 64×128 product into the zero accumulator, at (r, o): the sum over the 64 units. -/
theorem mmW_apply {φ₁ φ₂ : FTy} (a : FVec Ideal S4096x64 φ₁) (w : FVec Ideal S64x128 φ₂) (r : Fin 4096) (o : Fin 128) :
    matmul dot_S4096x64_S64x128_S4096x128_1_0_0_1_n_n none a w (constant (F := Ideal) S4096x128 .f32 0x00000000#32) (ix2 r o)
      = ∑ k : Fin 64, a (ix2 r k) * w (ix2 k o) := by
  simp only [matmul]
  rw [Ideal.matmul_constant_zero_apply,
    ← Equiv.sum_comp (contrEquiv1 dot_S4096x64_S64x128_S4096x128_1_0_0_1_n_n 64 rfl rfl).symm]
  refine Finset.sum_congr rfl fun k _ => ?_
  have hk := contrEquiv1_symm_val dot_S4096x64_S64x128_S4096x128_1_0_0_1_n_n 64 rfl rfl k
  have el : dot_S4096x64_S64x128_S4096x128_1_0_0_1_n_n.lhsIdx (ix2 r o)
      ((contrEquiv1 dot_S4096x64_S64x128_S4096x128_1_0_0_1_n_n 64 rfl rfl).symm k) = ix2 r k := funext fun a => Fin.ext (by
    match a with
    | ⟨0, _⟩ => exact lhs_w_0 _ _
    | ⟨1, _⟩ => exact (lhs_w_1 _ _).trans hk)
  have er : dot_S4096x64_S64x128_S4096x128_1_0_0_1_n_n.rhsIdx (ix2 r o)
      ((contrEquiv1 dot_S4096x64_S64x128_S4096x128_1_0_0_1_n_n 64 rfl rfl).symm k) = ix2 k o := funext fun a => Fin.ext (by
    match a with
    | ⟨0, _⟩ => exact (rhs_w_0 _ _).trans hk
    | ⟨1, _⟩ => exact rhs_w_1 _ _)
  rw [el, er]

theorem lhs_a_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem lhs_a_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_a_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_a_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- A 512×512 by 512×512 product into the zero accumulator, at (n, c): the sum over the 512 nodes. -/
theorem mmA_apply {φ₁ φ₂ : FTy} (a : FVec Ideal S512x512 φ₁) (z : FVec Ideal S512x512 φ₂) (n c : Fin 512) :
    matmul dot_S512x512_S512x512_S512x512_1_0_0_1_n_n none a z (constant (F := Ideal) S512x512 .f32 0x00000000#32) (ix2 n c)
      = ∑ k : Fin 512, a (ix2 n k) * z (ix2 k c) := by
  simp only [matmul]
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 n c)
      ((contrEquiv1 dot_S512x512_S512x512_S512x512_1_0_0_1_n_n 512 rfl rfl).symm k) = ix2 n k := funext fun a => Fin.ext (by
    match a with
    | ⟨0, _⟩ => exact lhs_a_0 _ _
    | ⟨1, _⟩ => exact (lhs_a_1 _ _).trans hk)
  have er : dot_S512x512_S512x512_S512x512_1_0_0_1_n_n.rhsIdx (ix2 n c)
      ((contrEquiv1 dot_S512x512_S512x512_S512x512_1_0_0_1_n_n 512 rfl rfl).symm k) = ix2 k c := funext fun a => Fin.ext (by
    match a with
    | ⟨0, _⟩ => exact (rhs_a_0 _ _).trans hk
    | ⟨1, _⟩ => exact rhs_a_1 _ _)
  rw [el, er]

/-! ## The two layouts of one quantity: same row-major position -/

/-- Rows to node-major (with the kernel's `+ 0`): entry (n, 64·b + j) is entry (8·n + b, j). -/
theorem toNm_apply (v : FVec Ideal S4096x64 .f32) (n : Fin 512) (b : Fin 8) (j : Fin 64) :
    shapeCast S512x512 (addf (shapeCast S512x8x64 v shapeCasts_S4096x64_S512x8x64)
        (broadcast S512x8x64 (Scalar.ofBits (F := Ideal) .f32 0x00000000#32))) shapeCasts_S512x8x64_S512x512 (ix2 n (col b j))
      = v (ix2 (row n b) j) := by
  refine (shapeCast_apply _ _ _ (ix3 n b j) ?_).trans ?_
  · rw [Shape.rowMajor_val_three, Shape.rowMajor_val_two]
    show (n.val * 8 + b.val) * 64 + j.val = n.val * 512 + (b.val * 64 + j.val)
    omega
  · rw [addf_apply, broadcast_apply]
    refine (congrArg (· + _) (shapeCast_apply _ _ _ (ix2 (row n b) j) ?_)).trans ?_
    · rw [Shape.rowMajor_val_three, Shape.rowMajor_val_two]
      show (n.val * 8 + b.val) * 64 + j.val = (n.val * 8 + b.val) * 64 + j.val
      rfl
    · show v _ + Ideal.ofBits .f32 0x00000000#32 = _
      rw [Ideal.ofBits_zero_f32, add_zero]

/-- Node-major to rows (with the kernel's `+ 0`): entry (8·n + b, j) is entry (n, 64·b + j). -/
theorem toRows_apply (v : FVec Ideal S512x512 .f32) (n : Fin 512) (b : Fin 8) (j : Fin 64) :
    shapeCast S4096x64 (addf (shapeCast S512x8x64 v shapeCasts_S512x512_S512x8x64)
        (broadcast S512x8x64 (Scalar.ofBits (F := Ideal) .f32 0x00000000#32))) shapeCasts_S512x8x64_S4096x64 (ix2 (row n b) j)
      = v (ix2 n (col b j)) := by
  refine (shapeCast_apply _ _ _ (ix3 n b j) ?_).trans ?_
  · rw [Shape.rowMajor_val_three, Shape.rowMajor_val_two]
    show (n.val * 8 + b.val) * 64 + j.val = (n.val * 8 + b.val) * 64 + j.val
    rfl
  · rw [addf_apply, broadcast_apply]
    refine (congrArg (· + _) (shapeCast_apply _ _ _ (ix2 n (col b j)) ?_)).trans ?_
    · rw [Shape.rowMajor_val_three, Shape.rowMajor_val_two]
      show n.val * 512 + (b.val * 64 + j.val) = (n.val * 8 + b.val) * 64 + j.val
      omega
    · show v _ + Ideal.ofBits .f32 0x00000000#32 = _
      rw [Ideal.ofBits_zero_f32, add_zero]

/-- Tap `m` of a 3×64×128 weight operand as a 64×128 matrix. -/
theorem tap_apply (w : FVec Ideal S3x64x128 .f32) (off : Fin 3 → Nat) (h : S3x64x128.Slices off S1x64x128)
    (m : Fin 3) (hoff : off = ![m.val, 0, 0]) (k : Fin 64) (o : Fin 128) :
    shapeCast S64x128 (extractStridedSlice S1x64x128 off w h) shapeCasts_S1x64x128_S64x128 (ix2 k o) = w (ix3 m k o) := by
  subst hoff
  refine (shapeCast_apply _ _ _ (ix3 (0 : Fin 1) k o) ?_).trans ?_
  · rw [Shape.rowMajor_val_three, Shape.rowMajor_val_two]
    show (0 * 64 + k.val) * 128 + o.val = k.val * 128 + o.val
    omega
  · refine extractStridedSlice_apply _ _ _ _ (ix3 m k o) fun a => ?_
    match a with
    | ⟨0, _⟩ => show m.val = m.val + 0; omega
    | ⟨1, _⟩ => show k.val = 0 + k.val; omega
    | ⟨2, _⟩ => show o.val = 0 + o.val; omega

/-- The bias row broadcast over the 4096 rows. -/
theorem bias_apply (v : Vec Ideal S128 .f32) (r : Fin 4096) (o : Fin 128) :
    broadcastTo S4096x128 (shapeCast S1x128 (shapeCast S1x128 v shapeCasts_S128_S1x128) shapeCasts_S1x128_S1x128)
        broadcasts_S1x128_S4096x128 (ix2 r o) = v (ix1 o) := by
  refine (broadcastTo_apply _ _ _ (ix2 (0 : Fin 1) o) fun a => ?_).trans ?_
  · match a with
    | ⟨0, _⟩ => rfl
    | ⟨1, _⟩ => rfl
  · refine (shapeCast_apply _ _ _ (ix2 (0 : Fin 1) o) rfl).trans ?_
    refine shapeCast_apply _ _ _ (ix1 o) ?_
    rw [Shape.rowMajor_val_one, Shape.rowMajor_val_two]
    show o.val = 0 * 128 + o.val
    omega

/-! ## Loads: the contents at the rectangle's embedding -/

/-- The second hidden state's rectangle reads plane 1 of the block. -/
theorem ld_h1 (X : Vec Ideal S2x8x32768 .f32) (b : Fin 8) (q : Fin 32768) :
    View.ld X r0_9 (ix3 (0 : Fin 1) b q) = X (ix3 (1 : Fin 2) b q) := by
  show X (r0_9.emb (ix3 (0 : Fin 1) b q)) = _
  congr 1
  funext a; apply Fin.ext
  match a with
  | ⟨0, _⟩ => rfl
  | ⟨1, _⟩ => show 0 + 1 * b.val = b.val; omega
  | ⟨2, _⟩ => show 0 + 1 * q.val = q.val; omega

theorem hz1 : (![0] : Fin 1 → Nat) = fun _ => 0 := by
  funext a; match a with | ⟨0, _⟩ => rfl
theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

theorem ld_adj (X : Vec Ideal S512x512 .f32) : View.ld X r0_0 = X := View.ld_unit_zero (S := S512x512) hz2 _ X
theorem ld_w (X : Vec Ideal S3x64x128 .f32) : View.ld X r0_4 = X := View.ld_unit_zero (S := S3x64x128) hz3 _ X
theorem ld_b (X : Vec Ideal S128 .f32) : View.ld X r0_5 = X := View.ld_unit_zero (S := S128) hz1 _ X

/-! ## The second hidden state, re-laid -/

/-- A hidden-state plane (8 × 32768, column 64·n + j) in the rows layout. -/
theorem pay26_apply (v : Vec Ideal S1x8x32768 .f32) (n : Fin 512) (b : Fin 8) (j : Fin 64) :
    k0_pay26 v (ix2 (row n b) j) = v (ix3 (0 : Fin 1) b (flat n j)) := by
  unfold k0_pay26
  dsimp only
  refine (shapeCast_apply _ _ _ (ix3 n b j) ?_).trans ?_
  · rw [Shape.rowMajor_val_three, Shape.rowMajor_val_two]
    show (n.val * 8 + b.val) * 64 + j.val = (n.val * 8 + b.val) * 64 + j.val
    rfl
  refine (transpose_apply _ _ _ _ (ix3 b n j) fun a => ?_).trans ?_
  · match a with
    | ⟨0, _⟩ => rfl
    | ⟨1, _⟩ => rfl
    | ⟨2, _⟩ => rfl
  refine (shapeCast_apply _ _ _ (ix2 b (flat n j)) ?_).trans ?_
  · rw [Shape.rowMajor_val_three, Shape.rowMajor_val_two]
    show b.val * 32768 + (n.val * 64 + j.val) = (b.val * 512 + n.val) * 64 + j.val
    omega
  refine shapeCast_apply _ _ _ (ix3 (0 : Fin 1) b (flat n j)) ?_
  rw [Shape.rowMajor_val_three, Shape.rowMajor_val_two]
  show (0 * 8 + b.val) * 32768 + (n.val * 64 + j.val) = b.val * 32768 + (n.val * 64 + j.val)
  omega

variable (P : Params) (B : Blk Ideal)

/-- The second hidden state in the rows layout. -/
theorem t26_sem : Rows (t26 B) (fun b n j => hs B 1 b n j) := by
  intro n b j
  unfold t26
  rw [pay26_apply]
  exact ld_h1 B.x2 b (flat n j)

/-- The second hidden state, node-major. -/
theorem t32_sem : Nm (t32 B) (fun b n j => hs B 1 b n j) := by
  intro n b j
  unfold t32 k0_pay32
  exact (toNm_apply _ n b j).trans (t26_sem B n b j)

/-- The first cell's new state, node-major. -/
theorem t27_sem (hB : Agrees P B) : Nm (t27 B) (fun b n j => P.hn0 (xs B b) (hs B 0 b) n j) := by
  intro n b j
  unfold t27 k0_pay27
  exact (toNm_apply _ n b j).trans (L0C.t25_sem P B hB n b j)

/-- The adjacency operand's entries. -/
theorem adj_sem (hB : Agrees P B) (n k : Fin 512) : View.ld B.x1 r0_0 (ix2 n k) = P.A n k := by
  rw [ld_adj]
  exact hB.adj n k

/-- Its first diffusion tap, column by column. -/
theorem t28_sem (hB : Agrees P B) :
    Nm (t28 B) (fun b n j => hop P.A (fun k => P.hn0 (xs B b) (hs B 0 b) k j) n) := by
  intro n b j
  unfold t28 k0_pay28
  dsimp only
  refine (mmA_apply _ _ n (col b j)).trans (Finset.sum_congr rfl fun k _ => ?_)
  rw [truncf_apply, truncf_apply]
  exact congrArg₂ (· * ·) (adj_sem P B hB n k) (t27_sem P B hB k b j)

/-- Its second diffusion tap. -/
theorem t29_sem (hB : Agrees P B) :
    Nm (t29 B) (fun b n j => hop2 P.A (fun k => P.hn0 (xs B b) (hs B 0 b) k j) n) := by
  intro n b j
  unfold t29 k0_pay29
  dsimp only
  rw [subf_apply, mulf_apply, broadcast_apply]
  refine congrArg₂ (· - ·) (congrArg₂ (· * ·) rfl ?_) (t27_sem P B hB n b j)
  refine (mmA_apply _ _ n (col b j)).trans (Finset.sum_congr rfl fun k _ => ?_)
  rw [truncf_apply, truncf_apply]
  exact congrArg₂ (· * ·) (adj_sem P B hB n k) (t28_sem P B hB k b j)

/-! ## The second cell's weight operands -/

/-- The input-column weights of the gates. -/
theorem t30_sem (hB : Agrees P B) (m : Fin 3) (k : Fin 64) (o : Fin 128) : t30 B (ix3 m k o) = P.Wg1 (w1x m k) o := by
  unfold t30 k0_pay30
  rw [shapeCast_self, ld_w]
  exact hB.wxg1 m k o

/-- The state-column weights of the gates. -/
theorem t31_sem (hB : Agrees P B) (m : Fin 3) (k : Fin 64) (o : Fin 128) : t31 B (ix3 m k o) = P.Wg1 (w1h m k) o := by
  unfold t31 k0_pay31
  rw [shapeCast_self, ld_w]
  exact hB.whg1 m k o

/-- The third tap's state-column weights. -/
theorem t36_sem (hB : Agrees P B) (k : Fin 64) (o : Fin 128) : t36 B (ix2 k o) = P.Wg1 (w1h 2 k) o := by
  unfold t36 k0_pay36
  exact (tap_apply _ _ _ 2 rfl k o).trans (t31_sem P B hB 2 k o)

/-! ## The second hidden state's diffusion taps -/

theorem t33_sem (hB : Agrees P B) : Nm (t33 B) (fun b n j => hop P.A (fun k => hs B 1 b k j) n) := by
  intro n b j
  unfold t33 k0_pay33
  dsimp only
  refine (mmA_apply _ _ n (col b j)).trans (Finset.sum_congr rfl fun k _ => ?_)
  rw [truncf_apply, truncf_apply]
  exact congrArg₂ (· * ·) (adj_sem P B hB n k) (t32_sem B k b j)

theorem t34_sem (hB : Agrees P B) :
    Nm (t34 B) (fun b n j => two * hop P.A (hop P.A (fun k => hs B 1 b k j)) n) := by
  intro n b j
  unfold t34 k0_pay34
  dsimp only
  rw [mulf_apply, broadcast_apply]
  refine congrArg₂ (· * ·) rfl ?_
  refine (mmA_apply _ _ n (col b j)).trans (Finset.sum_congr rfl fun k _ => ?_)
  rw [truncf_apply, truncf_apply]
  exact congrArg₂ (· * ·) (adj_sem P B hB n k) (t33_sem P B hB k b j)

theorem t37_sem (hB : Agrees P B) : Rows (t37 B) (fun b n j => hop2 P.A (fun k => hs B 1 b k j) n) := by
  intro n b j
  unfold t37 k0_pay37
  dsimp only
  rw [truncf_apply]
  refine (toRows_apply _ n b j).trans ?_
  rw [subf_apply]
  exact congrArg₂ (· - ·) (t34_sem P B hB n b j) (t32_sem B n b j)

/-! ## The gates' convolution, accumulated in the order of the mathematics -/

/-- The accumulation after the first two taps: bias, then per tap the state block and the input block. -/
theorem t35_sem (hB : Agrees P B) (n : Fin 512) (b : Fin 8) (o : Fin 128) :
    t35 B (ix2 (row n b) o)
      = (((P.bg1 o + ∑ j : Fin 64, hs B 1 b n j * P.Wg1 (w1h 0 j) o)
            + ∑ j : Fin 64, P.hn0 (xs B b) (hs B 0 b) n j * P.Wg1 (w1x 0 j) o)
          + ∑ j : Fin 64, hop P.A (fun k => hs B 1 b k j) n * P.Wg1 (w1h 1 j) o)
        + ∑ j : Fin 64, hop P.A (fun k => P.hn0 (xs B b) (hs B 0 b) k j) n * P.Wg1 (w1x 1 j) o := by
  unfold t35 k0_pay35
  rw [addf_apply, addf_apply, addf_apply, addf_apply]
  refine congrArg₂ (· + ·) (congrArg₂ (· + ·) (congrArg₂ (· + ·) (congrArg₂ (· + ·) ?_ ?_) ?_) ?_) ?_
  · rw [bias_apply, ld_b]
    exact hB.bg1 o
  · refine (mmW_apply _ _ (row n b) o).trans (Finset.sum_congr rfl fun j _ => ?_)
    rw [truncf_apply, truncf_apply]
    exact congrArg₂ (· * ·) ((toRows_apply _ n b j).trans (t32_sem B n b j))
      ((tap_apply _ _ _ 0 rfl j o).trans (t31_sem P B hB 0 j o))
  · refine (mmW_apply _ _ (row n b) o).trans (Finset.sum_congr rfl fun j _ => ?_)
    rw [truncf_apply, truncf_apply]
    exact congrArg₂ (· * ·) ((toRows_apply _ n b j).trans (t27_sem P B hB n b j))
      ((tap_apply _ _ _ 0 rfl j o).trans (t30_sem P B hB 0 j o))
  · refine (mmW_apply _ _ (row n b) o).trans (Finset.sum_congr rfl fun j _ => ?_)
    rw [truncf_apply, truncf_apply]
    exact congrArg₂ (· * ·) ((toRows_apply _ n b j).trans (t33_sem P B hB n b j))
      ((tap_apply _ _ _ 1 rfl j o).trans (t31_sem P B hB 1 j o))
  · refine (mmW_apply _ _ (row n b) o).trans (Finset.sum_congr rfl fun j _ => ?_)
    rw [truncf_apply, truncf_apply]
    exact congrArg₂ (· * ·) ((toRows_apply _ n b j).trans (t28_sem P B hB n b j))
      ((tap_apply _ _ _ 1 rfl j o).trans (t30_sem P B hB 1 j o))

/-- Both gates of the second cell, in the rows layout. -/
theorem gate1_sem (hB : Agrees P B) :
    Rows (k0_pay38 (t29 B) (t30 B) (t35 B) (t36 B) (t37 B))
      (fun b n o => P.gate1 (xs B b) (hs B 0 b) (hs B 1 b) n o) := by
  intro n b o
  unfold k0_pay38
  dsimp only
  unfold Params.gate1 gconv1
  refine congrArg Ideal.logistic ?_
  rw [addf_apply, addf_apply]
  refine congrArg₂ (· + ·) (congrArg₂ (· + ·) (t35_sem P B hB n b o) ?_) ?_
  · refine (mmW_apply _ _ (row n b) o).trans (Finset.sum_congr rfl fun j _ => ?_)
    rw [truncf_apply]
    exact congrArg₂ (· * ·) (t37_sem P B hB n b j) (t36_sem P B hB j o)
  · refine (mmW_apply _ _ (row n b) o).trans (Finset.sum_congr rfl fun j _ => ?_)
    rw [truncf_apply, truncf_apply]
    exact congrArg₂ (· * ·) ((toRows_apply _ n b j).trans (t29_sem P B hB n b j))
      ((tap_apply _ _ _ 2 rfl j o).trans (t30_sem P B hB 2 j o))

/-- The update gate of the second cell. -/
theorem t39_sem (hB : Agrees P B) :
    Rows (t39 B) (fun b n j => P.gate1 (xs B b) (hs B 0 b) (hs B 1 b) n (hi j)) := by
  intro n b j
  unfold t39 k0_pay39
  dsimp only
  refine (extractStridedSlice_apply _ _ _ _ (ix2 (row n b) (hi j)) fun a => ?_).trans
    (gate1_sem P B hB n b (hi j))
  match a with
  | ⟨0, _⟩ => show n.val * 8 + b.val = 0 + (n.val * 8 + b.val); omega
  | ⟨1, _⟩ => show 64 + j.val = 64 + j.val; rfl

end Cert.KernelIdeal.L1G

end
-- ==== Proof.KL1C.lean ====
/-
  Second cell, candidate and new state, on one chunk.

  The candidate's convolution is accumulated bias first, then tap by tap the state block (the reset gate times the
  second hidden state, then its first diffusion tap `A·` and its second `2·A(A·) − ·`) and the input block (the first
  cell's new state and its two taps), each term the product of a 4096 × 64 rows-layout operand with a 64 × 64 tap of a
  weight operand. Every operand is read entry by entry: a layout change keeps the row-major position, a product into
  the zero splat is the sum over its contraction index, and the sums come in the order the specification writes them.
  The new state is `u · h₁ + (1 − u) · tanh` of that convolution.
-/
import proofs.«152469_g44504451121623_cont_8to1_c_180_12_alg».proof.Proof.KL1G
import Idealize.ShloMosaic.PureOps.Ideal.Laws
import Idealize.ShloMosaic.Lib.Pipeline.Value
import Idealize.ShloMosaic.Lib.ValueIdx

noncomputable section

namespace Cert.KernelIdeal.L1C

open Cert.KernelIdeal Cert.KernelIdeal.Gen Cert.KernelIdeal.Nodes Cert.KernelIdeal.Sem Cert.Dcgru Idealize.ShloMosaic ValueIdx

/-! ## Layout changes read at an index -/

/-- A node-major vector read in the rows layout: the cast to 512 × 8 × 64, the zero splat added, the cast to
    4096 × 64 keep the row-major position `((8·n + b)·64 + j)`. -/
theorem rows_of_nm (v : FVec Ideal S512x512 .f32) (h1 : S512x512.ShapeCasts S512x8x64) (h2 : S512x8x64.ShapeCasts S4096x64)
    (n : Fin 512) (b : Fin 8) (j : Fin 64) :
    shapeCast S4096x64 (addf (shapeCast S512x8x64 v h1) (broadcast S512x8x64 (Scalar.ofBits .f32 0x00000000#32))) h2
        (ix2 (row n b) j) = v (ix2 n (col b j)) := by
  refine (shapeCast_apply _ h2 _ (ix3 n b j) ?_).trans ?_
  · rw [Shape.rowMajor_val_three, Shape.rowMajor_val_two]
    show (n.val * 8 + b.val) * 64 + j.val = (n.val * 8 + b.val) * 64 + j.val
    rfl
  · rw [addf_apply, broadcast_apply]
    show _ + Ideal.ofBits .f32 0x00000000#32 = _
    rw [Ideal.ofBits_zero_f32, add_zero]
    refine shapeCast_apply _ h1 _ (ix2 n (col b j)) ?_
    rw [Shape.rowMajor_val_two, Shape.rowMajor_val_three]
    show n.val * 512 + (b.val * 64 + j.val) = (n.val * 8 + b.val) * 64 + j.val
    omega

/-- A rows-layout vector read node-major: the same position the other way. -/
theorem nm_of_rows (v : FVec Ideal S4096x64 .f32) (h1 : S4096x64.ShapeCasts S512x8x64) (h2 : S512x8x64.ShapeCasts S512x512)
    (n : Fin 512) (b : Fin 8) (j : Fin 64) :
    shapeCast S512x512 (addf (shapeCast S512x8x64 v h1) (broadcast S512x8x64 (Scalar.ofBits .f32 0x00000000#32))) h2
        (ix2 n (col b j)) = v (ix2 (row n b) j) := by
  refine (shapeCast_apply _ h2 _ (ix3 n b j) ?_).trans ?_
  · rw [Shape.rowMajor_val_three, Shape.rowMajor_val_two]
    show (n.val * 8 + b.val) * 64 + j.val = n.val * 512 + (b.val * 64 + j.val)
    omega
  · rw [addf_apply, broadcast_apply]
    show _ + Ideal.ofBits .f32 0x00000000#32 = _
    rw [Ideal.ofBits_zero_f32, add_zero]
    refine shapeCast_apply _ h1 _ (ix2 (row n b) j) ?_
    rw [Shape.rowMajor_val_two, Shape.rowMajor_val_three]
    show (n.val * 8 + b.val) * 64 + j.val = (n.val * 8 + b.val) * 64 + j.val
    rfl

/-- Tap `m` of a 3 × 64 × 64 weight operand, as a 64 × 64 matrix. -/
theorem tap_apply (W : FVec Ideal S3x64x64 .f32) (m : Nat) (hm : m < 3) (h1 : S3x64x64.Slices ![m, 0, 0] S1x64x64)
    (h2 : S1x64x64.ShapeCasts S64x64) (k o : Fin 64) :
    shapeCast S64x64 (extractStridedSlice S1x64x64 ![m, 0, 0] W h1) h2 (ix2 k o) = W (ix3 ⟨m, hm⟩ k o) := by
  refine (shapeCast_apply _ h2 _ (ix3 (0 : Fin 1) k o) ?_).trans ?_
  · rw [Shape.rowMajor_val_three, Shape.rowMajor_val_two]
    show (0 * 64 + k.val) * 64 + o.val = k.val * 64 + o.val
    omega
  · refine extractStridedSlice_apply _ _ h1 _ (ix3 ⟨m, hm⟩ k o) (fun a => ?_)
    match a with
    | ⟨0, _⟩ => show m = m + 0; omega
    | ⟨1, _⟩ => show k.val = 0 + k.val; omega
    | ⟨2, _⟩ => show o.val = 0 + o.val; omega

/-! ## The two products read at an entry -/

theorem lhs64_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs64_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs64_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs64_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The product into the zero splat, entry by entry: row of the left operand times column of the right. -/
theorem matmul64_apply {φ₁ φ₂ : FTy} (L : FVec Ideal S4096x64 φ₁) (R : FVec Ideal S64x64 φ₂) (r : Fin 4096) (o : Fin 64) :
    matmul dot_S4096x64_S64x64_S4096x64_1_0_0_1_n_n none L R (constant (F := Ideal) S4096x64 .f32 0x00000000#32) (ix2 r o)
      = ∑ k : Fin 64, L (ix2 r k) * R (ix2 k o) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r o) ((contrEquiv1 dot_S4096x64_S64x64_S4096x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S4096x64_S64x64_S4096x64_1_0_0_1_n_n.rhsIdx (ix2 r o) ((contrEquiv1 dot_S4096x64_S64x64_S4096x64_1_0_0_1_n_n 64 rfl rfl).symm k) = ix2 k o := funext fun a => Fin.ext (by
    match a with
    | ⟨0, _⟩ => exact (rhs64_0 _ _).trans hk
    | ⟨1, _⟩ => exact rhs64_1 _ _)
  rw [el, er]

theorem lhs512_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs512_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs512_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs512_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product into the zero splat, entry by entry: row of the left operand times column of the right. -/
theorem matmul512_apply {φ₁ φ₂ : FTy} (L : FVec Ideal S512x512 φ₁) (R : FVec Ideal S512x512 φ₂) (r : Fin 512) (o : Fin 512) :
    matmul dot_S512x512_S512x512_S512x512_1_0_0_1_n_n none L R (constant (F := Ideal) S512x512 .f32 0x00000000#32) (ix2 r o)
      = ∑ k : Fin 512, L (ix2 r k) * R (ix2 k o) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r o) ((contrEquiv1 dot_S512x512_S512x512_S512x512_1_0_0_1_n_n 512 rfl rfl).symm k) = ix2 r k := funext fun a => Fin.ext (by
    match a with
    | ⟨0, _⟩ => exact lhs512_0 _ _
    | ⟨1, _⟩ => exact (lhs512_1 _ _).trans hk)
  have er : dot_S512x512_S512x512_S512x512_1_0_0_1_n_n.rhsIdx (ix2 r o) ((contrEquiv1 dot_S512x512_S512x512_S512x512_1_0_0_1_n_n 512 rfl rfl).symm k) = ix2 k o := funext fun a => Fin.ext (by
    match a with
    | ⟨0, _⟩ => exact (rhs512_0 _ _).trans hk
    | ⟨1, _⟩ => exact rhs512_1 _ _)
  rw [el, er]

variable (P : Params) (B : Blk Ideal)

/-! ## The earlier stages' results, entry by entry -/

theorem t26_apply (n : Fin 512) (b : Fin 8) (j : Fin 64) : t26 B (ix2 (row n b) j) = hs B 1 b n j :=
  L1G.t26_sem B n b j
theorem t27_apply (hB : Agrees P B) (n : Fin 512) (b : Fin 8) (j : Fin 64) :
    t27 B (ix2 n (col b j)) = P.hn0 (xs B b) (hs B 0 b) n j :=
  L1G.t27_sem P B hB n b j
theorem t28_apply (hB : Agrees P B) (n : Fin 512) (b : Fin 8) (j : Fin 64) :
    t28 B (ix2 n (col b j)) = hop P.A (fun k => P.hn0 (xs B b) (hs B 0 b) k j) n :=
  L1G.t28_sem P B hB n b j
theorem t29_apply (hB : Agrees P B) (n : Fin 512) (b : Fin 8) (j : Fin 64) :
    t29 B (ix2 n (col b j)) = hop2 P.A (fun k => P.hn0 (xs B b) (hs B 0 b) k j) n :=
  L1G.t29_sem P B hB n b j
theorem gate1_apply (hB : Agrees P B) (n : Fin 512) (b : Fin 8) (o : Fin 128) :
    k0_pay38 (t29 B) (t30 B) (t35 B) (t36 B) (t37 B) (ix2 (row n b) o) = P.gate1 (xs B b) (hs B 0 b) (hs B 1 b) n o :=
  L1G.gate1_sem P B hB n b o
theorem t39_apply (hB : Agrees P B) (n : Fin 512) (b : Fin 8) (j : Fin 64) :
    t39 B (ix2 (row n b) j) = P.gate1 (xs B b) (hs B 0 b) (hs B 1 b) n (hi j) :=
  L1G.t39_sem P B hB n b j

/-! ## The operands of the candidate's convolution -/

/-- A load of the whole block reads the block. -/
theorem ld_x1 : View.ld B.x1 r0_0 = B.x1 :=
  View.ld_unit_zero (S := S512x512) (funext fun a => match a with | ⟨0, _⟩ => rfl | ⟨1, _⟩ => rfl) _ B.x1
theorem ld_x11 : View.ld B.x11 r0_7 = B.x11 :=
  View.ld_unit_zero (S := S3x64x64) (funext fun a => match a with | ⟨0, _⟩ => rfl | ⟨1, _⟩ => rfl | ⟨2, _⟩ => rfl) _ B.x11
theorem ld_x12 : View.ld B.x12 r0_7 = B.x12 :=
  View.ld_unit_zero (S := S3x64x64) (funext fun a => match a with | ⟨0, _⟩ => rfl | ⟨1, _⟩ => rfl | ⟨2, _⟩ => rfl) _ B.x12
theorem ld_x14 : View.ld B.x14 r0_8 = B.x14 :=
  View.ld_unit_zero (S := S64) (funext fun a => match a with | ⟨0, _⟩ => rfl) _ B.x14

/-- The adjacency operand, entry by entry. -/
theorem adj_apply (hB : Agrees P B) (n k : Fin 512) : View.ld B.x1 r0_0 (ix2 n k) = P.A n k :=
  (congrFun (ld_x1 B) (ix2 n k)).trans (hB.adj n k)

/-- The input-block weights of the candidate: tap `m`, input unit `k`, output `o`. -/
theorem t40_apply (hB : Agrees P B) (m : Fin 3) (k o : Fin 64) : t40 B (ix3 m k o) = P.Wc1 (w1x m k) o := by
  unfold t40 k0_pay40
  rw [shapeCast_self, ld_x11]
  exact hB.wxc1 m k o

/-- The state-block weights of the candidate. -/
theorem t41_apply (hB : Agrees P B) (m : Fin 3) (k o : Fin 64) : t41 B (ix3 m k o) = P.Wc1 (w1h m k) o := by
  unfold t41 k0_pay41
  rw [shapeCast_self, ld_x12]
  exact hB.whc1 m k o

/-- The bias, the same in every row. -/
theorem t45_apply (hB : Agrees P B) (r : Fin 4096) (o : Fin 64) : t45 B (ix2 r o) = P.bc1 o := by
  unfold t45 k0_pay45
  refine (broadcastTo_apply _ _ _ (ix2 (0 : Fin 1) o) (fun a => ?_)).trans ?_
  · match a with
    | ⟨0, _⟩ => rfl
    | ⟨1, _⟩ => rfl
  · rw [shapeCast_self]
    refine (shapeCast_apply _ _ _ (ix1 o) ?_).trans ?_
    · rw [Shape.rowMajor_val_one, Shape.rowMajor_val_two]
      show o.val = 0 * 64 + o.val
      omega
    · rw [ld_x14]
      exact hB.bc1 o

/-- Tap 0 of the state-block weights. -/
theorem t46_apply (hB : Agrees P B) (k o : Fin 64) : t46 B (ix2 k o) = P.Wc1 (w1h 0 k) o := by
  unfold t46 k0_pay46
  exact (tap_apply _ 0 (by decide) _ _ k o).trans (t41_apply P B hB 0 k o)

/-- Tap 2 of the input-block weights. -/
theorem t49_apply (hB : Agrees P B) (k o : Fin 64) : t49 B (ix2 k o) = P.Wc1 (w1x 2 k) o := by
  unfold t49 k0_pay49
  exact (tap_apply _ 2 (by decide) _ _ k o).trans (t40_apply P B hB 2 k o)

/-- The candidate's state columns: reset gate times the second hidden state. -/
def rh (b : Fin 8) (n : Fin 512) (j : Fin 64) : EReal :=
  P.gate1 (xs B b) (hs B 0 b) (hs B 1 b) n (lo j) * hs B 1 b n j

/-- The reset half of the gates times the rows of the second hidden state, node-major. -/
theorem pay42_apply (hB : Agrees P B) (n : Fin 512) (b : Fin 8) (j : Fin 64) :
    k0_pay42 (t26 B) (t29 B) (t30 B) (t35 B) (t36 B) (t37 B) (ix2 n (col b j)) = rh P B b n j := by
  unfold k0_pay42
  refine (nm_of_rows _ _ _ n b j).trans ?_
  rw [mulf_apply, t26_apply B n b j]
  refine congrArg (· * hs B 1 b n j) ?_
  refine (extractStridedSlice_apply _ _ _ _ (ix2 (row n b) (lo j)) (fun a => ?_)).trans (gate1_apply P B hB n b (lo j))
  match a with
  | ⟨0, _⟩ => show n.val * 8 + b.val = 0 + (n.val * 8 + b.val); omega
  | ⟨1, _⟩ => show j.val = 0 + j.val; omega

/-- Its first diffusion tap, column by column. -/
theorem t43_apply (hB : Agrees P B) (n : Fin 512) (b : Fin 8) (j : Fin 64) :
    t43 B (ix2 n (col b j)) = hop P.A (fun k => rh P B b k j) n := by
  unfold t43 k0_pay43
  refine (matmul512_apply _ _ n (col b j)).trans ?_
  refine Finset.sum_congr rfl fun k _ => ?_
  rw [truncf_apply, truncf_apply, adj_apply P B hB n k, pay42_apply P B hB k b j]

/-- Its second diffusion tap. -/
theorem t44_apply (hB : Agrees P B) (n : Fin 512) (b : Fin 8) (j : Fin 64) :
    t44 B (ix2 n (col b j)) = hop2 P.A (fun k => rh P B b k j) n := by
  unfold t44 k0_pay44
  rw [subf_apply, mulf_apply, broadcast_apply, pay42_apply P B hB n b j, matmul512_apply]
  show Ideal.ofBits .f32 0x40000000#32 * _ - _ = two * hop P.A (hop P.A fun k => rh P B b k j) n - rh P B b n j
  refine congrArg (fun z => Ideal.ofBits .f32 0x40000000#32 * z - rh P B b n j) ?_
  refine Finset.sum_congr rfl fun k _ => ?_
  show View.ld B.x1 r0_0 (ix2 n k) * t43 B (ix2 k (col b j)) = _
  rw [adj_apply P B hB n k, t43_apply P B hB k b j]

/-- The state columns in the rows layout. -/
theorem t47_apply (hB : Agrees P B) (n : Fin 512) (b : Fin 8) (j : Fin 64) : t47 B (ix2 (row n b) j) = rh P B b n j := by
  unfold t47 k0_pay47
  rw [truncf_apply]
  exact (rows_of_nm _ _ _ n b j).trans (pay42_apply P B hB n b j)

/-- The second tap of the first cell's new state in the rows layout. -/
theorem t50_apply (hB : Agrees P B) (n : Fin 512) (b : Fin 8) (j : Fin 64) :
    t50 B (ix2 (row n b) j) = hop2 P.A (fun k => P.hn0 (xs B b) (hs B 0 b) k j) n := by
  unfold t50 k0_pay50
  rw [truncf_apply]
  exact (rows_of_nm _ _ _ n b j).trans (t29_apply P B hB n b j)

/-! ## The accumulation -/

/-- One accumulated product: the rows of a node-major vector against tap `m` of a weight operand. -/
theorem term_apply (v : FVec Ideal S512x512 .f32) (W : FVec Ideal S3x64x64 .f32) (m : Nat) (hm : m < 3)
    (h1 : S512x512.ShapeCasts S512x8x64) (h2 : S512x8x64.ShapeCasts S4096x64)
    (h3 : S3x64x64.Slices ![m, 0, 0] S1x64x64) (h4 : S1x64x64.ShapeCasts S64x64)
    (hb : FTy.bits .bf16 < FTy.bits .f32) (n : Fin 512) (b : Fin 8) (o : Fin 64) :
    matmul dot_S4096x64_S64x64_S4096x64_1_0_0_1_n_n none
        (truncf .bf16 (shapeCast S4096x64 (addf (shapeCast S512x8x64 v h1)
          (broadcast S512x8x64 (Scalar.ofBits .f32 0x00000000#32))) h2) hb)
        (truncf .bf16 (shapeCast S64x64 (extractStridedSlice S1x64x64 ![m, 0, 0] W h3) h4) hb)
        (constant (F := Ideal) S4096x64 .f32 0x00000000#32) (ix2 (row n b) o)
      = ∑ k : Fin 64, v (ix2 n (col b k)) * W (ix3 ⟨m, hm⟩ k o) := by
  refine (matmul64_apply _ _ (row n b) o).trans ?_
  refine Finset.sum_congr rfl fun k _ => ?_
  rw [truncf_apply, truncf_apply, rows_of_nm, tap_apply _ m hm]

/-- The convolution up to its last product, in the order of accumulation: bias, then tap by tap the state block and
    the input block. -/
theorem t48_apply (hB : Agrees P B) (n : Fin 512) (b : Fin 8) (o : Fin 64) :
    t48 B (ix2 (row n b) o)
      = ((((P.bc1 o + ∑ k : Fin 64, rh P B b n k * P.Wc1 (w1h 0 k) o)
            + ∑ k : Fin 64, P.hn0 (xs B b) (hs B 0 b) n k * P.Wc1 (w1x 0 k) o)
          + ∑ k : Fin 64, hop P.A (fun n' => rh P B b n' k) n * P.Wc1 (w1h 1 k) o)
        + ∑ k : Fin 64, hop P.A (fun n' => P.hn0 (xs B b) (hs B 0 b) n' k) n * P.Wc1 (w1x 1 k) o)
      + ∑ k : Fin 64, hop2 P.A (fun n' => rh P B b n' k) n * P.Wc1 (w1h 2 k) o := by
  unfold t48 k0_pay48
  rw [addf_apply, addf_apply, addf_apply, addf_apply, addf_apply]
  refine congrArg₂ (· + ·) (congrArg₂ (· + ·) (congrArg₂ (· + ·) (congrArg₂ (· + ·) (congrArg₂ (· + ·) ?_ ?_) ?_) ?_) ?_) ?_
  · exact t45_apply P B hB (row n b) o
  · refine (matmul64_apply _ _ (row n b) o).trans (Finset.sum_congr rfl fun k _ => ?_)
    rw [truncf_apply, t47_apply P B hB n b k, t46_apply P B hB k o]
  · refine (term_apply (t27 B) (t40 B) 0 (by decide) _ _ _ _ _ n b o).trans (Finset.sum_congr rfl fun k _ => ?_)
    rw [t27_apply P B hB n b k, t40_apply P B hB ⟨0, by decide⟩ k o]
    rfl
  · refine (term_apply (t43 B) (t41 B) 1 (by decide) _ _ _ _ _ n b o).trans (Finset.sum_congr rfl fun k _ => ?_)
    rw [t43_apply P B hB n b k, t41_apply P B hB ⟨1, by decide⟩ k o]
    rfl
  · refine (term_apply (t28 B) (t40 B) 1 (by decide) _ _ _ _ _ n b o).trans (Finset.sum_congr rfl fun k _ => ?_)
    rw [t28_apply P B hB n b k, t40_apply P B hB ⟨1, by decide⟩ k o]
    rfl
  · refine (term_apply (t44 B) (t41 B) 2 (by decide) _ _ _ _ _ n b o).trans (Finset.sum_congr rfl fun k _ => ?_)
    rw [t44_apply P B hB n b k, t41_apply P B hB ⟨2, by decide⟩ k o]
    rfl

/-- The second cell's new state, in the rows layout. -/
theorem hn1_sem (hB : Agrees P B) :
    Rows (k0_pay1 (t26 B) (t39 B) (t48 B) (t49 B) (t50 B))
      (fun b n j => P.hn1 (xs B b) (hs B 0 b) (hs B 1 b) n j) := by
  intro n b j
  unfold k0_pay1
  rw [addf_apply, mulf_apply, mulf_apply, subf_apply, broadcast_apply]
  show t39 B (ix2 (row n b) j) * t26 B (ix2 (row n b) j)
      + (Ideal.ofBits .f32 0x3F800000#32 - t39 B (ix2 (row n b) j))
        * Ideal.tanh (t48 B (ix2 (row n b) j) + _) = _
  rw [t39_apply P B hB n b j, t26_apply B n b j, t48_apply P B hB n b j, matmul64_apply]
  have hlast : (∑ k : Fin 64, t50 B (ix2 (row n b) k) * truncf .bf16 (t49 B) bitsLt_bf16_f32 (ix2 k j))
      = ∑ k : Fin 64, hop2 P.A (fun n' => P.hn0 (xs B b) (hs B 0 b) n' k) n * P.Wc1 (w1x 2 k) j :=
    Finset.sum_congr rfl fun k _ => by rw [truncf_apply, t50_apply P B hB n b k, t49_apply P B hB k j]
  rw [hlast]
  rfl

end Cert.KernelIdeal.L1C

end
-- ==== Proof.KOut.lean ====
/-
  What one grid point leaves in its two output blocks: the two new states re-laid as (sample, 64·node + unit),
  and the read-out as (sample, node).
-/
import proofs.«152469_g44504451121623_cont_8to1_c_180_12_alg».proof.Proof.KL1C
import Idealize.ShloMosaic.Lib.Pipeline.Value
import Idealize.ShloMosaic.PureOps.Ideal.Laws

noncomputable section

namespace Cert.KernelIdeal.Out

open Cert.KernelIdeal Cert.KernelIdeal.Gen Cert.KernelIdeal.Nodes Cert.KernelIdeal.Sem Cert.Dcgru Idealize.ShloMosaic ValueIdx

/-! ## The re-laying of a rows-layout state into an output block

Row 8·n + b, column j of the 4096 × 64 vector has row-major position (8·n + b)·64 + j, which is position
(n, b, j) of 512 × 8 × 64; exchanging the first two axes gives (b, n, j) of 8 × 512 × 64, whose position
(512·b + n)·64 + j is that of (b, 64·n + j) in 8 × 32768; a leading unit axis changes no position. -/

/-- The four layout operations that carry a rows-layout state to a 1 × 8 × 32768 block. -/
def relay (v : FVec Ideal S4096x64 .f32) : FVec Ideal S1x8x32768 .f32 :=
  shapeCast S1x8x32768
    (shapeCast S8x32768
      (transpose S8x512x64 [1, 0, 2] (shapeCast S512x8x64 v shapeCasts_S4096x64_S512x8x64)
        transposes_S512x8x64_p1_0_2_S8x512x64)
      shapeCasts_S8x512x64_S8x32768)
    shapeCasts_S8x32768_S1x8x32768

/-- The re-laid block at (·, b, 64·n + j) is the rows-layout vector at (8·n + b, j). -/
theorem relay_apply (v : FVec Ideal S4096x64 .f32) (z : Fin 1) (b : Fin 8) (n : Fin 512) (j : Fin 64) :
    relay v (ix3 z b (flat n j)) = v (ix2 (row n b) j) := by
  have hz : z.val < 1 := z.isLt
  have hb : b.val < 8 := b.isLt
  have hn : n.val < 512 := n.isLt
  have hj : j.val < 64 := j.isLt
  unfold relay
  -- the leading unit axis: (z, b, q) of 1 × 8 × 32768 is (b, q) of 8 × 32768
  refine (shapeCast_apply _ _ (ix3 z b (flat n j)) (ix2 b (flat n j)) (by
    rw [Shape.rowMajor_val_two, Shape.rowMajor_val_three]
    show b.val * 32768 + (n.val * 64 + j.val) = (z.val * 8 + b.val) * 32768 + (n.val * 64 + j.val)
    omega)).trans ?_
  -- (b, 64·n + j) of 8 × 32768 is (b, n, j) of 8 × 512 × 64
  refine (shapeCast_apply _ _ (ix2 b (flat n j)) (ix3 b n j) (by
    rw [Shape.rowMajor_val_three, Shape.rowMajor_val_two]
    show (b.val * 512 + n.val) * 64 + j.val = b.val * 32768 + (n.val * 64 + j.val)
    omega)).trans ?_
  -- the exchange of the first two axes
  refine (transpose_apply _ _ _ (ix3 b n j) (ix3 n b j)
    (fun a => match a with | ⟨0, _⟩ => rfl | ⟨1, _⟩ => rfl | ⟨2, _⟩ => rfl)).trans ?_
  -- (n, b, j) of 512 × 8 × 64 is (8·n + b, j) of 4096 × 64
  exact shapeCast_apply _ _ (ix3 n b j) (ix2 (row n b) j) (by
    rw [Shape.rowMajor_val_two, Shape.rowMajor_val_three]
    show (n.val * 8 + b.val) * 64 + j.val = (n.val * 8 + b.val) * 64 + j.val
    rfl)

theorem pay2_eq (v : FVec Ideal S4096x64 .f32) : k0_pay2 v = relay v := rfl

theorem pay3_eq (v193 v290 v362 : FVec Ideal S4096x64 .f32) (v368 : FVec Ideal S64x64 .f32)
    (v369 : FVec Ideal S4096x64 .bf16) :
    k0_pay3 v193 v290 v362 v368 v369 = relay (k0_pay1 v193 v290 v362 v368 v369) := rfl

/-! ## The two stores into the hidden-state block -/

/-- The first store's rectangle places (·, b, q) at hidden state 0. -/
theorem emb_r0_1 (b : Fin 8) (q : Fin 32768) :
    r0_1.emb (ix3 (0 : Fin 1) b q) = ix3 (0 : Fin 2) b q := by
  funext a
  match a with
  | ⟨0, _⟩ => apply Fin.ext; show 0 + 1 * 0 = 0; rfl
  | ⟨1, _⟩ => apply Fin.ext; show 0 + 1 * b.val = b.val; omega
  | ⟨2, _⟩ => apply Fin.ext; show 0 + 1 * q.val = q.val; omega

/-- The second store's rectangle places (·, b, q) at hidden state 1. -/
theorem emb_r0_9 (b : Fin 8) (q : Fin 32768) :
    r0_9.emb (ix3 (0 : Fin 1) b q) = ix3 (1 : Fin 2) b q := by
  funext a
  match a with
  | ⟨0, _⟩ => apply Fin.ext; show 1 + 1 * 0 = 1; rfl
  | ⟨1, _⟩ => apply Fin.ext; show 0 + 1 * b.val = b.val; omega
  | ⟨2, _⟩ => apply Fin.ext; show 0 + 1 * q.val = q.val; omega

/-- Hidden state 0 lies outside the second store's rectangle. -/
theorem not_mem_r0_9 (b : Fin 8) (q : Fin 32768) : ix3 (0 : Fin 2) b q ∉ r0_9.set := by
  rw [Rect.mem_set_unit]
  intro h
  have h0 := (h 0).1
  change 1 ≤ 0 at h0
  omega

/-- Of the two stores, hidden state 0 reads the first one's payload. -/
theorem canon18_zero (p0 p1 : Vec Ideal S1x8x32768 .f32) (b : Fin 8) (q : Fin 32768) :
    View.canon ([⟨r0_9, p0⟩, ⟨r0_1, p1⟩] : List (View.Piece (Elt Ideal) S2x8x32768 .f32)) (ix3 (0 : Fin 2) b q)
      = p1 (ix3 (0 : Fin 1) b q) := by
  rw [View.canon_cons_of_not_mem (⟨r0_9, p0⟩ : View.Piece (Elt Ideal) S2x8x32768 .f32) _ (not_mem_r0_9 b q),
    ← emb_r0_1 b q]
  exact View.canon_cons_emb r0_1 p1 [] (ix3 (0 : Fin 1) b q)

/-- Hidden state 1 reads the second one's payload. -/
theorem canon18_one (p0 p1 : Vec Ideal S1x8x32768 .f32) (b : Fin 8) (q : Fin 32768) :
    View.canon ([⟨r0_9, p0⟩, ⟨r0_1, p1⟩] : List (View.Piece (Elt Ideal) S2x8x32768 .f32)) (ix3 (1 : Fin 2) b q)
      = p0 (ix3 (0 : Fin 1) b q) := by
  rw [← emb_r0_9 b q]
  exact View.canon_cons_emb r0_9 p0 [⟨r0_1, p1⟩] (ix3 (0 : Fin 1) b q)

variable (P : Params) (B : Blk Ideal)

/-- The block at hidden state 0 holds the first cell's new state. -/
theorem out18_zero (hB : Agrees P B) (b : Fin 8) (n : Fin 512) (j : Fin 64) :
    out0_18 B.x0 B.x1 B.x2 B.x3 B.x4 B.x5 B.x6 B.x7 B.x8 B.x9 B.x10 B.x11 B.x12 B.x13 B.x14 B.x15 B.x16 (ix3 (0 : Fin 2) b (flat n j))
      = P.hn0 (xs B b) (hs B 0 b) n j := by
  rw [out0_18_eq]
  refine (canon18_zero _ _ b (flat n j)).trans ?_
  unfold t2
  rw [pay2_eq, relay_apply]
  exact L0C.t25_sem P B hB n b j

/-- The block at hidden state 1 holds the second cell's new state. -/
theorem out18_one (hB : Agrees P B) (b : Fin 8) (n : Fin 512) (j : Fin 64) :
    out0_18 B.x0 B.x1 B.x2 B.x3 B.x4 B.x5 B.x6 B.x7 B.x8 B.x9 B.x10 B.x11 B.x12 B.x13 B.x14 B.x15 B.x16 (ix3 (1 : Fin 2) b (flat n j))
      = P.hn1 (xs B b) (hs B 0 b) (hs B 1 b) n j := by
  rw [out0_18_eq]
  refine (canon18_one _ _ b (flat n j)).trans ?_
  unfold t3
  rw [pay3_eq, relay_apply]
  exact L1C.hn1_sem P B hB n b j

/-- The hidden-state output block: new state `l` of sample `b` at node `n`, unit `j`. -/
theorem out18_apply (hB : Agrees P B) (l : Fin 2) (b : Fin 8) (n : Fin 512) (j : Fin 64) :
    out0_18 B.x0 B.x1 B.x2 B.x3 B.x4 B.x5 B.x6 B.x7 B.x8 B.x9 B.x10 B.x11 B.x12 B.x13 B.x14 B.x15 B.x16 (ix3 l b (flat n j))
      = if l.val = 0 then P.hn0 (xs B b) (hs B 0 b) n j else P.hn1 (xs B b) (hs B 0 b) (hs B 1 b) n j := by
  match l with
  | ⟨0, _⟩ => rw [if_pos rfl]; exact out18_zero P B hB b n j
  | ⟨1, _⟩ => rw [if_neg Nat.one_ne_zero]; exact out18_one P B hB b n j

/-! ## The read-out

The state's rows as 512 × 8 × 64 times the read-out row broadcast over (node, sample), summed over the unit
axis, plus the bias, with (node, sample) exchanged to (sample, node). -/

/-- The sum over the unit axis of a 512 × 8 × 64 vector, at (n, b). -/
theorem unitSum_apply (src : FVec Ideal S512x8x64 .f32) (hφ : FKind.Formats .f32)
    (hacc : (0x00000000#32 : BitVec 32) = FKind.add.neutral .f32 hφ) (n : Fin 512) (b : Fin 8) :
    multiReduction (F := Ideal) .add [2] S512x8 src 0x00000000#32 reduces_S512x8x64_S512x8 hφ hacc (ix2 n b)
      = ∑ j : Fin 64, src (ix3 n b j) := by
  refine (Ideal.multiReduction_add_single src 0x00000000#32 reduces_S512x8x64_S512x8 hφ hacc (ix2 n b)).trans ?_
  refine Finset.sum_congr rfl fun (j : Fin 64) _ => ?_
  congr 1
  funext a
  match a with
  | ⟨0, _⟩ => rfl
  | ⟨1, _⟩ => rfl
  | ⟨2, _⟩ => rfl

/-- The state's rows as 512 × 8 × 64, at (n, b, j). -/
theorem rows3_apply (h : FVec Ideal S4096x64 .f32) (n : Fin 512) (b : Fin 8) (j : Fin 64) :
    shapeCast S512x8x64 h shapeCasts_S4096x64_S512x8x64 (ix3 n b j) = h (ix2 (row n b) j) :=
  shapeCast_apply _ _ (ix3 n b j) (ix2 (row n b) j) (by
    rw [Shape.rowMajor_val_two, Shape.rowMajor_val_three]
    show (n.val * 8 + b.val) * 64 + j.val = (n.val * 8 + b.val) * 64 + j.val
    rfl)

/-- The read-out row broadcast over (node, sample), at (n, b, j). -/
theorem wrow_apply (w : Vec Ideal S1x64 .f32) (n : Fin 512) (b : Fin 8) (j : Fin 64) :
    broadcastTo S512x8x64
        (shapeCast S1x1x64 (shapeCast S1x64 w shapeCasts_S1x64_S1x64) shapeCasts_S1x64_S1x1x64)
        broadcasts_S1x1x64_S512x8x64 (ix3 n b j)
      = w (ix2 0 j) := by
  have hj : j.val < 64 := j.isLt
  refine (broadcastTo_apply _ _ (ix3 n b j) (ix3 (0 : Fin 1) (0 : Fin 1) j) (fun a => match a with
    | ⟨0, _⟩ => by show (0 : Nat) = if (1 : Nat) = 1 then 0 else n.val; rfl
    | ⟨1, _⟩ => by show (0 : Nat) = if (1 : Nat) = 1 then 0 else b.val; rfl
    | ⟨2, _⟩ => by show j.val = if (64 : Nat) = 1 then 0 else j.val; rfl)).trans ?_
  refine (shapeCast_apply _ _ (ix3 (0 : Fin 1) (0 : Fin 1) j) (ix2 (0 : Fin 1) j) (by
    rw [Shape.rowMajor_val_two, Shape.rowMajor_val_three]
    show 0 * 64 + j.val = (0 * 1 + 0) * 64 + j.val
    omega)).trans ?_
  rw [shapeCast_self]

/-- The read-out payload at (b, n): the sum over the units of the new state's row 8·n + b times the read-out row,
    plus the bias. -/
theorem pay4_apply (v193 v290 v362 : FVec Ideal S4096x64 .f32) (v368 : FVec Ideal S64x64 .f32)
    (v369 : FVec Ideal S4096x64 .bf16) (w : Vec Ideal S1x64 .f32) (c : Vec Ideal S1 .f32) (b : Fin 8) (n : Fin 512) :
    k0_pay4 v193 v290 v362 v368 v369 w c (ix2 b n)
      = (∑ j : Fin 64, k0_pay1 v193 v290 v362 v368 v369 (ix2 (row n b) j) * w (ix2 0 j)) + c (ix1 0) := by
  unfold k0_pay4
  dsimp only
  generalize k0_pay1 v193 v290 v362 v368 v369 = h
  refine (transpose_apply _ _ _ (ix2 b n) (ix2 n b) (fun a => match a with | ⟨0, _⟩ => rfl | ⟨1, _⟩ => rfl)).trans ?_
  rw [addf_apply, broadcast_apply]
  congr 1
  · refine (unitSum_apply _ _ _ n b).trans ?_
    refine Finset.sum_congr rfl fun j _ => ?_
    rw [mulf_apply, rows3_apply, wrow_apply]
  · show c _ = c _
    congr 1
    funext a
    match a with
    | ⟨0, _⟩ => rfl

/-- The read-out block: sample `b` at node `n`. -/
theorem out17_apply (hB : Agrees P B) (b : Fin 8) (n : Fin 512) :
    out0_17 B.x0 B.x1 B.x2 B.x3 B.x4 B.x5 B.x6 B.x7 B.x8 B.x9 B.x10 B.x11 B.x12 B.x13 B.x14 B.x15 B.x16 (ix2 b n)
      = P.out (xs B b) (hs B 0 b) (hs B 1 b) n := by
  have hz2 : (![0, 0] : Fin 2 → Nat) = fun _ => 0 := by
    funext a; match a with | ⟨0, _⟩ => rfl | ⟨1, _⟩ => rfl
  have hz1 : (![0] : Fin 1 → Nat) = fun _ => 0 := by
    funext a; match a with | ⟨0, _⟩ => rfl
  rw [out0_17_eq, View.canon_unit_zero hz2]
  unfold t4
  rw [pay4_apply, View.ld_unit_zero (S := S1x64) hz2, View.ld_unit_zero (S := S1) hz1, hB.bp]
  unfold Params.out
  congr 1
  refine Finset.sum_congr rfl fun j _ => ?_
  rw [hB.wp j, L1C.hn1_sem P B hB n b j]

end Cert.KernelIdeal.Out

end
-- ==== Proof.KGlue.lean ====
/-
  From one grid point's blocks to the two result arrays.

  Grid point `t` works on samples `8·t … 8·t + 7`: its input blocks are rows `8·t + b` of the scalar input and of
  each hidden state, and the whole of every other operand; its output blocks are the same rows of the two results.
  The four points' blocks tile each result, so each result array ends as one function of the argument arrays:
  the read-out of sample `i₀` at node `i₁`, and new state `i₀` of sample `i₁` at position `i₂ = 64·node + unit`.
-/
import proofs.«152469_g44504451121623_cont_8to1_c_180_12_alg».proof.Proof.KHost
import proofs.«152469_g44504451121623_cont_8to1_c_180_12_alg».proof.Proof.KOut
import proofs.«152469_g44504451121623_cont_8to1_c_180_12_alg».proof.Proof.Gen.KernelIdeal.Value

set_option maxRecDepth 16384

noncomputable section

namespace Cert.KernelIdeal.Glue

open Cert.KernelIdeal Cert.KernelIdeal.Gen Cert.KernelIdeal.Nodes Cert.KernelIdeal.Sem Cert.KernelIdeal.Args Cert.KernelIdeal.Host
open Cert.Dcgru Idealize.ShloMosaic Idealize.ShloMosaic.TcCoe Idealize.SL.Sem ValueIdx
open Idealize.ShloMosaic.Pipeline (Dat)

variable (m : (ℓ : Loc nD τ sig) → Buf (Elt Ideal) ℓ) (ρ : Dev nD → PrngReg) (c : Dev nD)

/-! ## The closed forms -/

/-- The read-out result as one function of the argument arrays. -/
def G17 : FVec Ideal S32x512 .f32 := fun i =>
  (kParams m c).out (kX m c (i 0)) (kH m c 0 (i 0)) (kH m c 1 (i 0)) (i 1)

/-- The stacked new states as one function of the argument arrays. -/
def G18 : FVec Ideal S2x32x32768 .f32 := fun i =>
  if (i 0).val = 0 then (kParams m c).hn0 (kX m c (i 1)) (kH m c 0 (i 1)) (nodeOf (i 2)) (unitOf (i 2))
  else (kParams m c).hn1 (kX m c (i 1)) (kH m c 0 (i 1)) (kH m c 1 (i 1)) (nodeOf (i 2)) (unitOf (i 2))

/-! ## One grid point's blocks -/

theorem lt4 (t : Fin cfg0.N) : t.val < 4 := lt_of_lt_of_eq t.isLt N_0

/-- Sample `8·t + b` of all 32. -/
def samp (t : Fin cfg0.N) (b : Fin 8) : Fin 32 := ⟨t.val * 8 + b.val, by have := lt4 t; have := b.isLt; omega⟩

/-- The block index maps of the windows that move with the grid, decided over the four points. -/
theorem idx_moving : ∀ t : Fin cfg0.N, win0_0.index t (0 : Fin 2) = t.val ∧ win0_0.index t (1 : Fin 2) = 0
    ∧ win0_2.index t (0 : Fin 3) = 0 ∧ win0_2.index t (1 : Fin 3) = t.val ∧ win0_2.index t (2 : Fin 3) = 0
    ∧ win0_17.index t (0 : Fin 2) = t.val ∧ win0_17.index t (1 : Fin 2) = 0
    ∧ win0_18.index t (0 : Fin 3) = 0 ∧ win0_18.index t (1 : Fin 3) = t.val ∧ win0_18.index t (2 : Fin 3) = 0 :=
  (by decide +kernel : ∀ t : Fin grid0.N, _)

/-- The input blocks of grid point `t`. -/
abbrev blkAt (t : Fin cfg0.N) : Blk Ideal where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t

/-- The scalar input's block: rows `8·t + b`. -/
theorem x0_apply (t : Fin cfg0.N) (b : Fin 8) (n : Fin 512) :
    (blkAt m c t).x0 (ix2 b n) = kX m c (samp t b) n := by
  show V m c main_arg0 (((cfg0.win 0).blk t).view.emb (ix2 b n)) = _
  rw [V_main_arg0]
  show aInputs m c _ = aInputs m c _
  congr 1
  funext a; apply Fin.ext
  obtain ⟨e0, e1, -⟩ := idx_moving t
  match a with
  | ⟨0, _⟩ => show win0_0.index t (0 : Fin 2) * 8 + 1 * b.val = t.val * 8 + b.val; rw [e0]; omega
  | ⟨1, _⟩ => show win0_0.index t (1 : Fin 2) * 512 + 1 * n.val = n.val; rw [e1]; omega

/-- The hidden states' block: rows `8·t + b` of both states. -/
theorem x2_apply (t : Fin cfg0.N) (l : Fin 2) (b : Fin 8) (q : Fin 32768) :
    (blkAt m c t).x2 (ix3 l b q) = aHidden m c (ix3 l (samp t b) q) := by
  show V m c main_arg2 (((cfg0.win 2).blk t).view.emb (ix3 l b q)) = _
  rw [V_main_arg2]
  show aHidden m c _ = aHidden m c _
  congr 1
  funext a; apply Fin.ext
  obtain ⟨-, -, e0, e1, e2, -⟩ := idx_moving t
  match a with
  | ⟨0, _⟩ => show win0_2.index t (0 : Fin 3) * 2 + 1 * l.val = l.val; rw [e0]; omega
  | ⟨1, _⟩ => show win0_2.index t (1 : Fin 3) * 8 + 1 * b.val = t.val * 8 + b.val; rw [e1]; omega
  | ⟨2, _⟩ => show win0_2.index t (2 : Fin 3) * 32768 + 1 * q.val = q.val; rw [e2]; omega

/-! Every other operand is staged whole at every point: its block is the array. -/

theorem idx1 : ∀ (t : Fin cfg0.N) (a : Fin 2), win0_1.index t a = 0 :=
  (by decide +kernel : ∀ (t : Fin grid0.N) (a : Fin 2), win0_1.index t a = 0)

theorem x1_apply (t : Fin cfg0.N) (i : S512x512.Idx) : (blkAt m c t).x1 i = V m c main_arg1 i := by
  show V m c main_arg1 (((cfg0.win 1).blk t).view.emb i) = _
  congr 1
  funext a; apply Fin.ext
  show win0_1.index t a * S512x512.size a + 1 * (i a).val = (i a).val
  rw [idx1 t a]; omega

theorem idx3 : ∀ (t : Fin cfg0.N) (a : Fin 3), win0_3.index t a = 0 :=
  (by decide +kernel : ∀ (t : Fin grid0.N) (a : Fin 3), win0_3.index t a = 0)

theorem x3_apply (t : Fin cfg0.N) (i : S3x8x1024.Idx) : (blkAt m c t).x3 i = V m c main_v16 i := by
  show V m c main_v16 (((cfg0.win 3).blk t).view.emb i) = _
  congr 1
  funext a; apply Fin.ext
  show win0_3.index t a * S3x8x1024.size a + 1 * (i a).val = (i a).val
  rw [idx3 t a]; omega

theorem idx4 : ∀ (t : Fin cfg0.N) (a : Fin 3), win0_4.index t a = 0 :=
  (by decide +kernel : ∀ (t : Fin grid0.N) (a : Fin 3), win0_4.index t a = 0)

theorem x4_apply (t : Fin cfg0.N) (i : S3x64x128.Idx) : (blkAt m c t).x4 i = V m c main_v4 i := by
  show V m c main_v4 (((cfg0.win 4).blk t).view.emb i) = _
  congr 1
  funext a; apply Fin.ext
  show win0_4.index t a * S3x64x128.size a + 1 * (i a).val = (i a).val
  rw [idx4 t a]; omega

theorem idx5 : ∀ (t : Fin cfg0.N) (a : Fin 3), win0_5.index t a = 0 :=
  (by decide +kernel : ∀ (t : Fin grid0.N) (a : Fin 3), win0_5.index t a = 0)

theorem x5_apply (t : Fin cfg0.N) (i : S3x8x512.Idx) : (blkAt m c t).x5 i = V m c main_v23 i := by
  show V m c main_v23 (((cfg0.win 5).blk t).view.emb i) = _
  congr 1
  funext a; apply Fin.ext
  show win0_5.index t a * S3x8x512.size a + 1 * (i a).val = (i a).val
  rw [idx5 t a]; omega

theorem idx6 : ∀ (t : Fin cfg0.N) (a : Fin 3), win0_6.index t a = 0 :=
  (by decide +kernel : ∀ (t : Fin grid0.N) (a : Fin 3), win0_6.index t a = 0)

theorem x6_apply (t : Fin cfg0.N) (i : S3x64x64.Idx) : (blkAt m c t).x6 i = V m c main_v9 i := by
  show V m c main_v9 (((cfg0.win 6).blk t).view.emb i) = _
  congr 1
  funext a; apply Fin.ext
  show win0_6.index t a * S3x64x64.size a + 1 * (i a).val = (i a).val
  rw [idx6 t a]; omega

theorem idx7 : ∀ (t : Fin cfg0.N) (a : Fin 1), win0_7.index t a = 0 :=
  (by decide +kernel : ∀ (t : Fin grid0.N) (a : Fin 1), win0_7.index t a = 0)

theorem x7_apply (t : Fin cfg0.N) (i : S128.Idx) : (blkAt m c t).x7 i = V m c main_arg4 i := by
  show V m c main_arg4 (((cfg0.win 7).blk t).view.emb i) = _
  congr 1
  funext a; apply Fin.ext
  show win0_7.index t a * S128.size a + 1 * (i a).val = (i a).val
  rw [idx7 t a]; omega

theorem idx8 : ∀ (t : Fin cfg0.N) (a : Fin 1), win0_8.index t a = 0 :=
  (by decide +kernel : ∀ (t : Fin grid0.N) (a : Fin 1), win0_8.index t a = 0)

theorem x8_apply (t : Fin cfg0.N) (i : S64.Idx) : (blkAt m c t).x8 i = V m c main_arg6 i := by
  show V m c main_arg6 (((cfg0.win 8).blk t).view.emb i) = _
  congr 1
  funext a; apply Fin.ext
  show win0_8.index t a * S64.size a + 1 * (i a).val = (i a).val
  rw [idx8 t a]; omega

theorem idx9 : ∀ (t : Fin cfg0.N) (a : Fin 3), win0_9.index t a = 0 :=
  (by decide +kernel : ∀ (t : Fin grid0.N) (a : Fin 3), win0_9.index t a = 0)

theorem x9_apply (t : Fin cfg0.N) (i : S3x64x128.Idx) : (blkAt m c t).x9 i = V m c main_v26 i := by
  show V m c main_v26 (((cfg0.win 9).blk t).view.emb i) = _
  congr 1
  funext a; apply Fin.ext
  show win0_9.index t a * S3x64x128.size a + 1 * (i a).val = (i a).val
  rw [idx9 t a]; omega

theorem idx10 : ∀ (t : Fin cfg0.N) (a : Fin 3), win0_10.index t a = 0 :=
  (by decide +kernel : ∀ (t : Fin grid0.N) (a : Fin 3), win0_10.index t a = 0)

theorem x10_apply (t : Fin cfg0.N) (i : S3x64x128.Idx) : (blkAt m c t).x10 i = V m c main_v28 i := by
  show V m c main_v28 (((cfg0.win 10).blk t).view.emb i) = _
  congr 1
  funext a; apply Fin.ext
  show win0_10.index t a * S3x64x128.size a + 1 * (i a).val = (i a).val
  rw [idx10 t a]; omega

theorem idx11 : ∀ (t : Fin cfg0.N) (a : Fin 3), win0_11.index t a = 0 :=
  (by decide +kernel : ∀ (t : Fin grid0.N) (a : Fin 3), win0_11.index t a = 0)

theorem x11_apply (t : Fin cfg0.N) (i : S3x64x64.Idx) : (blkAt m c t).x11 i = V m c main_v31 i := by
  show V m c main_v31 (((cfg0.win 11).blk t).view.emb i) = _
  congr 1
  funext a; apply Fin.ext
  show win0_11.index t a * S3x64x64.size a + 1 * (i a).val = (i a).val
  rw [idx11 t a]; omega

theorem idx12 : ∀ (t : Fin cfg0.N) (a : Fin 3), win0_12.index t a = 0 :=
  (by decide +kernel : ∀ (t : Fin grid0.N) (a : Fin 3), win0_12.index t a = 0)

theorem x12_apply (t : Fin cfg0.N) (i : S3x64x64.Idx) : (blkAt m c t).x12 i = V m c main_v33 i := by
  show V m c main_v33 (((cfg0.win 12).blk t).view.emb i) = _
  congr 1
  funext a; apply Fin.ext
  show win0_12.index t a * S3x64x64.size a + 1 * (i a).val = (i a).val
  rw [idx12 t a]; omega

theorem idx13 : ∀ (t : Fin cfg0.N) (a : Fin 1), win0_13.index t a = 0 :=
  (by decide +kernel : ∀ (t : Fin grid0.N) (a : Fin 1), win0_13.index t a = 0)

theorem x13_apply (t : Fin cfg0.N) (i : S128.Idx) : (blkAt m c t).x13 i = V m c main_arg8 i := by
  show V m c main_arg8 (((cfg0.win 13).blk t).view.emb i) = _
  congr 1
  funext a; apply Fin.ext
  show win0_13.index t a * S128.size a + 1 * (i a).val = (i a).val
  rw [idx13 t a]; omega

theorem idx14 : ∀ (t : Fin cfg0.N) (a : Fin 1), win0_14.index t a = 0 :=
  (by decide +kernel : ∀ (t : Fin grid0.N) (a : Fin 1), win0_14.index t a = 0)

theorem x14_apply (t : Fin cfg0.N) (i : S64.Idx) : (blkAt m c t).x14 i = V m c main_arg10 i := by
  show V m c main_arg10 (((cfg0.win 14).blk t).view.emb i) = _
  congr 1
  funext a; apply Fin.ext
  show win0_14.index t a * S64.size a + 1 * (i a).val = (i a).val
  rw [idx14 t a]; omega

theorem idx15 : ∀ (t : Fin cfg0.N) (a : Fin 2), win0_15.index t a = 0 :=
  (by decide +kernel : ∀ (t : Fin grid0.N) (a : Fin 2), win0_15.index t a = 0)

theorem x15_apply (t : Fin cfg0.N) (i : S1x64.Idx) : (blkAt m c t).x15 i = V m c main_v34 i := by
  show V m c main_v34 (((cfg0.win 15).blk t).view.emb i) = _
  congr 1
  funext a; apply Fin.ext
  show win0_15.index t a * S1x64.size a + 1 * (i a).val = (i a).val
  rw [idx15 t a]; omega

theorem idx16 : ∀ (t : Fin cfg0.N) (a : Fin 1), win0_16.index t a = 0 :=
  (by decide +kernel : ∀ (t : Fin grid0.N) (a : Fin 1), win0_16.index t a = 0)

theorem x16_apply (t : Fin cfg0.N) (i : S1.Idx) : (blkAt m c t).x16 i = V m c main_arg12 i := by
  show V m c main_arg12 (((cfg0.win 16).blk t).view.emb i) = _
  congr 1
  funext a; apply Fin.ext
  show win0_16.index t a * S1.size a + 1 * (i a).val = (i a).val
  rw [idx16 t a]; omega

/-- The chunk's operands are the decoder's parameters as the argument arrays hold them. -/
theorem agrees (t : Fin cfg0.N) : Agrees (kParams m c) (blkAt m c t) where
  adj := fun n k => by rw [x1_apply, V_main_arg1]; rfl
  kxg0 := fun mm b' b o => by rw [x3_apply]; exact host_kxg0 m c mm b' b o
  whg0 := fun mm j o => by rw [x4_apply]; exact host_whg0 m c mm j o
  kxc0 := fun mm b' b o => by rw [x5_apply]; exact host_kxc0 m c mm b' b o
  whc0 := fun mm j o => by rw [x6_apply]; exact host_whc0 m c mm j o
  bg0 := fun o => by rw [x7_apply, V_main_arg4]; rfl
  bc0 := fun o => by rw [x8_apply, V_main_arg6]; rfl
  wxg1 := fun mm j o => by rw [x9_apply]; exact host_wxg1 m c mm j o
  whg1 := fun mm j o => by rw [x10_apply]; exact host_whg1 m c mm j o
  wxc1 := fun mm j o => by rw [x11_apply]; exact host_wxc1 m c mm j o
  whc1 := fun mm j o => by rw [x12_apply]; exact host_whc1 m c mm j o
  bg1 := fun o => by rw [x13_apply, V_main_arg8]; rfl
  bc1 := fun o => by rw [x14_apply, V_main_arg10]; rfl
  wp := fun j => by rw [x15_apply]; exact host_wp m c j
  bp := by rw [x16_apply, V_main_arg12]; rfl

/-- The chunk's scalar inputs are samples `8·t + b`. -/
theorem xs_blk (t : Fin cfg0.N) (b : Fin 8) : xs (blkAt m c t) b = kX m c (samp t b) :=
  funext fun n => x0_apply m c t b n

/-- The chunk's hidden states are samples `8·t + b`. -/
theorem hs_blk (t : Fin cfg0.N) (l : Fin 2) (b : Fin 8) : hs (blkAt m c t) l b = kH m c l (samp t b) :=
  funext fun n => funext fun j => x2_apply m c t l b (flat n j)

/-! ## What each point writes back is its block of the closed form -/

theorem out17_at (t : Fin cfg0.N) (y : S8x512.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = G17 m c (((cfg0.win 17).blk t).view.emb y) := by
  obtain ⟨b, n, rfl⟩ : ∃ (b : Fin 8) (n : Fin 512), y = ix2 b n := ⟨y 0, y 1, eq_ix2 y⟩
  have h := Out.out17_apply (kParams m c) (blkAt m c t) (agrees m c t) b n
  rw [xs_blk, hs_blk, hs_blk] at h
  dsimp only [blkAt] at h
  refine h.trans ?_
  have he : ((cfg0.win 17).blk t).view.emb (ix2 b n) = (ix2 (samp t b) n : S32x512.Idx) := by
    funext a; apply Fin.ext
    obtain ⟨-, -, -, -, -, e0, e1, -⟩ := idx_moving t
    match a with
    | ⟨0, _⟩ => show win0_17.index t (0 : Fin 2) * 8 + 1 * b.val = t.val * 8 + b.val; rw [e0]; omega
    | ⟨1, _⟩ => show win0_17.index t (1 : Fin 2) * 512 + 1 * n.val = n.val; rw [e1]; omega
  rw [he]
  rfl

theorem out18_at (t : Fin cfg0.N) (y : S2x8x32768.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = G18 m c (((cfg0.win 18).blk t).view.emb y) := by
  obtain ⟨l, b, q, rfl⟩ : ∃ (l : Fin 2) (b : Fin 8) (q : Fin 32768), y = ix3 l b q := ⟨y 0, y 1, y 2, eq_ix3 y⟩
  rw [← flat_nodeOf_unitOf q]
  have h := Out.out18_apply (kParams m c) (blkAt m c t) (agrees m c t) l b (nodeOf q) (unitOf q)
  rw [xs_blk, hs_blk, hs_blk] at h
  dsimp only [blkAt] at h
  refine h.trans ?_
  have he : ((cfg0.win 18).blk t).view.emb (ix3 l b (flat (nodeOf q) (unitOf q)))
      = (ix3 l (samp t b) (flat (nodeOf q) (unitOf q)) : S2x32x32768.Idx) := by
    funext a; apply Fin.ext
    obtain ⟨-, -, -, -, -, -, -, e0, e1, e2⟩ := idx_moving t
    match a with
    | ⟨0, _⟩ => show win0_18.index t (0 : Fin 3) * 2 + 1 * l.val = l.val; rw [e0]; omega
    | ⟨1, _⟩ => show win0_18.index t (1 : Fin 3) * 8 + 1 * b.val = t.val * 8 + b.val; rw [e1]; omega
    | ⟨2, _⟩ => show win0_18.index t (2 : Fin 3) * 32768 + 1 * (flat (nodeOf q) (unitOf q)).val = (flat (nodeOf q) (unitOf q)).val; rw [e2]; omega
  rw [he]
  show _ = if l.val = 0 then _ else _
  rw [flat_nodeOf_unitOf q]

/-! ## The four points' blocks fill each result -/

theorem mem_blk17 (t : Fin cfg0.N) (i : S32x512.Idx) :
    i ∈ ((cfg0.win 17).blk t).view.set ↔ ∀ a : Fin 2, win0_17.index t a * S8x512.size a ≤ (i a).val ∧ (i a).val < win0_17.index t a * S8x512.size a + S8x512.size a := by
  show i ∈ ((View.whole main_v35_0).slice (win0_17.rect t)).set ↔ _
  rw [View.set_slice_whole, Rect.mem_set_unit]
  exact Iff.rfl

theorem cover17 (i : S32x512.Idx) : ∃ t : Fin cfg0.N, (cfg0.win 17).flush t = true ∧ i ∈ ((cfg0.win 17).blk t).view.set := by
  have hi0 : (i 0).val < 32 := (i 0).isLt
  have hi1 : (i 1).val < 512 := (i 1).isLt
  let t : Fin cfg0.N := ⟨(i 0).val / 8, by rw [show cfg0.N = 4 from N_0]; omega⟩
  refine ⟨t, flush0_17 t, ?_⟩
  rw [mem_blk17]
  obtain ⟨-, -, -, -, -, e0, e1, -⟩ := idx_moving t
  have ht : t.val = (i 0).val / 8 := rfl
  intro a
  match a with
  | ⟨0, _⟩ => show win0_17.index t (0 : Fin 2) * 8 ≤ (i 0).val ∧ (i 0).val < win0_17.index t (0 : Fin 2) * 8 + 8; rw [e0]; omega
  | ⟨1, _⟩ => show win0_17.index t (1 : Fin 2) * 512 ≤ (i 1).val ∧ (i 1).val < win0_17.index t (1 : Fin 2) * 512 + 512; rw [e1]; omega

theorem mem_blk18 (t : Fin cfg0.N) (i : S2x32x32768.Idx) :
    i ∈ ((cfg0.win 18).blk t).view.set ↔ ∀ a : Fin 3, win0_18.index t a * S2x8x32768.size a ≤ (i a).val ∧ (i a).val < win0_18.index t a * S2x8x32768.size a + S2x8x32768.size a := by
  show i ∈ ((View.whole main_v35_1).slice (win0_18.rect t)).set ↔ _
  rw [View.set_slice_whole, Rect.mem_set_unit]
  exact Iff.rfl

theorem cover18 (i : S2x32x32768.Idx) : ∃ t : Fin cfg0.N, (cfg0.win 18).flush t = true ∧ i ∈ ((cfg0.win 18).blk t).view.set := by
  have hi0 : (i 0).val < 2 := (i 0).isLt
  have hi1 : (i 1).val < 32 := (i 1).isLt
  have hi2 : (i 2).val < 32768 := (i 2).isLt
  let t : Fin cfg0.N := ⟨(i 1).val / 8, by rw [show cfg0.N = 4 from N_0]; omega⟩
  refine ⟨t, flush0_18 t, ?_⟩
  rw [mem_blk18]
  obtain ⟨-, -, -, -, -, -, -, e0, e1, e2⟩ := idx_moving t
  have ht : t.val = (i 1).val / 8 := rfl
  intro a
  match a with
  | ⟨0, _⟩ => show win0_18.index t (0 : Fin 3) * 2 ≤ (i 0).val ∧ (i 0).val < win0_18.index t (0 : Fin 3) * 2 + 2; rw [e0]; omega
  | ⟨1, _⟩ => show win0_18.index t (1 : Fin 3) * 8 ≤ (i 1).val ∧ (i 1).val < win0_18.index t (1 : Fin 3) * 8 + 8; rw [e1]; omega
  | ⟨2, _⟩ => show win0_18.index t (2 : Fin 3) * 32768 ≤ (i 2).val ∧ (i 2).val < win0_18.index t (2 : Fin 3) * 32768 + 32768; rw [e2]; omega

end Cert.KernelIdeal.Glue

end
-- ==== Proof.KFinal.lean ====
/-
  Each result array after the run is its closed form: what every grid point writes back is its block of the closed
  form, and the four blocks fill the array.
-/
import proofs.«152469_g44504451121623_cont_8to1_c_180_12_alg».proof.Proof.KGlue

set_option maxRecDepth 16384

noncomputable section

namespace Cert.KernelIdeal.Glue

open Cert.KernelIdeal Cert.KernelIdeal.Gen Cert.KernelIdeal.Nodes Cert.KernelIdeal.Sem Cert.KernelIdeal.Args Cert.KernelIdeal.Host
open Cert.Dcgru Idealize.ShloMosaic Idealize.ShloMosaic.TcCoe Idealize.SL.Sem ValueIdx
open Idealize.ShloMosaic.Pipeline (Dat)

variable (m : (ℓ : Loc nD τ sig) → Buf (Elt Ideal) ℓ) (ρ : Dev nD → PrngReg) (c : Dev nD)

/-- A staged read-out block that is, index by index, the block of an array `G` is what reading `G` through the
    window's block gives (the window's blocks are never clipped, so the whole staging buffer is written back). -/
theorem cut17_of (t : Fin cfg0.N) (X : Vec Ideal S8x512 .f32) (G : FVec Ideal S32x512 .f32)
    (h : ∀ y : S8x512.Idx, X y = G (((cfg0.win 17).blk t).view.emb y)) :
    (cfg0.win 17).cut (grid0.coords t) X = ((cfg0.win 17).blk t).view.read (Elt Ideal) G := by
  funext y
  exact h y

/-- The same for the hidden-state window. -/
theorem cut18_of (t : Fin cfg0.N) (X : Vec Ideal S2x8x32768 .f32) (G : FVec Ideal S2x32x32768 .f32)
    (h : ∀ y : S2x8x32768.Idx, X y = G (((cfg0.win 18).blk t).view.emb y)) :
    (cfg0.win 18).cut (grid0.coords t) X = ((cfg0.win 18).blk t).view.read (Elt Ideal) G := by
  funext y
  exact h y

theorem flushed17_eq (t : Fin cfg0.N) :
    (dats m 0 c).flushed 17 t = ((cfg0.win 17).blk t).view.read (Elt Ideal) (G17 m c) := by
  rw [Value.flushed17]
  exact cut17_of t _ _ (out17_at m c t)

theorem flushed18_eq (t : Fin cfg0.N) :
    (dats m 0 c).flushed 18 t = ((cfg0.win 18).blk t).view.read (Elt Ideal) (G18 m c) := by
  rw [Value.flushed18]
  exact cut18_of t _ _ (out18_at m c t)

/-- The read-out array after the run. -/
theorem final17 : (dats m 0 c).arrAt 17 cfg0.N = G17 m c :=
  (dats m 0 c).arrAt_eq_of_cover 17 (G17 m c) (fun t _ => flushed17_eq m c t) (cover17)

/-- The stacked new states after the run. -/
theorem final18 : (dats m 0 c).arrAt 18 cfg0.N = G18 m c :=
  (dats m 0 c).arrAt_eq_of_cover 18 (G18 m c) (fun t _ => flushed18_eq m c t) (cover18)

end Cert.KernelIdeal.Glue

end
-- ==== Proof.RSem.lean ====
/-
  The reference program's argument buffers read as the decoder's parameters and per-sample data.

  The reference works on all 32 samples at once; a hidden state is 32 × 32768 with column `64·n + j`, the scalar
  input 32 × 512.
-/
import proofs.«152469_g44504451121623_cont_8to1_c_180_12_alg».proof.Proof.RRunDefs
import proofs.«152469_g44504451121623_cont_8to1_c_180_12_alg».proof.Proof.Spec
import Idealize.ShloMosaic.Lib.ValueIdx

noncomputable section

namespace Cert.ReferenceIdeal.Sem

open Cert.ReferenceIdeal Cert.ReferenceIdeal.Gen Cert.ReferenceIdeal.Value Cert.Dcgru
open Idealize.ShloMosaic Idealize.ShloMosaic.TcCoe Idealize.ShloMosaic.StableHlo ValueIdx

variable (V0 : Valuation τ sig (Elt Ideal))

/-- The argument buffers, each at its literal shape. -/
abbrev aInputs : FVec Ideal S32x512 .f32 := V0 (Proc.devRef .tc main_arg0)
abbrev aAdj : FVec Ideal S512x512 .f32 := V0 (Proc.devRef .tc main_arg1)
abbrev aHidden : FVec Ideal S2x32x32768 .f32 := V0 (Proc.devRef .tc main_arg2)
abbrev aWg0 : FVec Ideal S195x128 .f32 := V0 (Proc.devRef .tc main_arg3)
abbrev aBg0 : FVec Ideal S128 .f32 := V0 (Proc.devRef .tc main_arg4)
abbrev aWc0 : FVec Ideal S195x64 .f32 := V0 (Proc.devRef .tc main_arg5)
abbrev aBc0 : FVec Ideal S64 .f32 := V0 (Proc.devRef .tc main_arg6)
abbrev aWg1 : FVec Ideal S384x128 .f32 := V0 (Proc.devRef .tc main_arg7)
abbrev aBg1 : FVec Ideal S128 .f32 := V0 (Proc.devRef .tc main_arg8)
abbrev aWc1 : FVec Ideal S384x64 .f32 := V0 (Proc.devRef .tc main_arg9)
abbrev aBc1 : FVec Ideal S64 .f32 := V0 (Proc.devRef .tc main_arg10)
abbrev aWp : FVec Ideal S64x1 .f32 := V0 (Proc.devRef .tc main_arg11)
abbrev aBp : FVec Ideal S1 .f32 := V0 (Proc.devRef .tc main_arg12)

/-- The decoder's parameters as the reference's argument buffers hold them. -/
def refParams : Params where
  A := fun n k => aAdj V0 (ix2 n k)
  Wg0 := fun k o => aWg0 V0 (ix2 k o)
  bg0 := fun o => aBg0 V0 (ix1 o)
  Wc0 := fun k o => aWc0 V0 (ix2 k o)
  bc0 := fun o => aBc0 V0 (ix1 o)
  Wg1 := fun k o => aWg1 V0 (ix2 k o)
  bg1 := fun o => aBg1 V0 (ix1 o)
  Wc1 := fun k o => aWc1 V0 (ix2 k o)
  bc1 := fun o => aBc1 V0 (ix1 o)
  Wp := fun j => aWp V0 (ix2 j 0)
  bp := aBp V0 (ix1 0)

/-- The scalar input of sample `b`. -/
def refX (b : Fin 32) (n : Fin 512) : EReal := aInputs V0 (ix2 b n)

/-- Hidden state `l` of sample `b`. -/
def refH (l : Fin 2) (b : Fin 32) (n : Fin 512) (j : Fin 64) : EReal := aHidden V0 (ix3 l b (flat n j))

/-- The reference's first result. -/
def resOut : FVec Ideal S32x512 .f32 := res_main_v133 V0

/-- The reference's second result. -/
def resHs : FVec Ideal S2x32x32768 .f32 := res_main_v136 V0

end Cert.ReferenceIdeal.Sem

end
-- ==== Proof.R0G.lean ====
/-
  First cell, gates, in the reference: the concatenated feature columns, their diffusion taps, one 195-wide
  product with the weight matrix, the bias, and the logistic written out; read against the decoder's mathematics.

  The reference stacks all 32 samples. The feature stack is 512 × 2080 with column `32·f + b` (feature `f`: 0 the
  scalar input, `1 + j` the state unit `j`; sample `b`); a diffusion step is a product with the adjacency, column
  by column; the three taps are stacked, and re-laid with row `512·b + n` and column `3·f + m`; the product with
  the 195-row weight matrix is then regrouped tap by tap into the state block and the input block.
-/
import proofs.«152469_g44504451121623_cont_8to1_c_180_12_alg».proof.Proof.RSem
import proofs.«152469_g44504451121623_cont_8to1_c_180_12_alg».proof.Proof.SpecSums
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.R0G

open Cert.ReferenceIdeal Cert.ReferenceIdeal.Gen Cert.ReferenceIdeal.Value Cert.ReferenceIdeal.Sem Cert.Dcgru
open Idealize.ShloMosaic Idealize.ShloMosaic.TcCoe Idealize.ShloMosaic.StableHlo ValueIdx

/-! ## The first hidden state -/

/-- The first slice of the stacked hidden states, flattened per sample: position (b, q) reads (0, b, q). -/
theorem slice0_apply (H : FVec Ideal S2x32x32768 .f32) (b : Fin 32) (q : Fin 32768) :
    (shapeCast S32x32768 (extractStridedSlice S1x32x32768 ![0, 0, 0] H slices_S2x32x32768_S1x32x32768_0_0_0)
      shapeCasts_S1x32x32768_S32x32768 : FVec Ideal S32x32768 .f32) (ix2 b q) = H (ix3 0 b q) := by
  refine (shapeCast_apply _ _ (ix2 b q) (ix3 (0 : Fin 1) b q) ?_).trans ?_
  · rw [Shape.rowMajor_val_three, Shape.rowMajor_val_two]
    show (0 * 32 + b.val) * 32768 + q.val = b.val * 32768 + q.val
    omega
  · exact extractStridedSlice_apply _ _ _ _ (ix3 (0 : Fin 2) b q) (fun a => match a with
      | ⟨0, _⟩ => rfl
      | ⟨1, _⟩ => by show b.val = 0 + b.val; omega
      | ⟨2, _⟩ => by show q.val = 0 + q.val; omega)

/-! ## The feature stack: column `32·f + b` is feature `f` of sample `b` -/

/-- Feature 0 of the stack is the scalar input. -/
theorem stack_x (X : FVec Ideal S32x512 .f32) (H1 : FVec Ideal S32x32768 .f32) (b : Fin 32) (n : Fin 512)
    (c : Fin 2080) (hc : c.val = b.val) :
    (shapeCast S512x2080 (transpose S512x65x32 [1, 2, 0] (concatenate S32x512x65 2
        [⟨S32x512x1, (shapeCast S32x512x1 X shapeCasts_S32x512_S32x512x1)⟩,
         ⟨S32x512x64, (shapeCast S32x512x64 H1 shapeCasts_S32x32768_S32x512x64)⟩]
        concatenates_S32x512x1_S32x512x64_S32x512x65_d2) transposes_S32x512x65_S512x65x32_1_2_0)
      shapeCasts_S512x65x32_S512x2080 : FVec Ideal S512x2080 .f32) (ix2 n c) = X (ix2 b n) := by
  refine (shapeCast_apply _ _ (ix2 n c) (ix3 n (0 : Fin 65) b) ?_).trans ?_
  · rw [Shape.rowMajor_val_three, Shape.rowMajor_val_two]
    show (n.val * 65 + 0) * 32 + b.val = n.val * 2080 + c.val
    omega
  refine (transpose_apply _ _ _ _ (ix3 b n (0 : Fin 65))
    (fun a => match a with | ⟨0, _⟩ => rfl | ⟨1, _⟩ => rfl | ⟨2, _⟩ => rfl)).trans ?_
  refine Eq.trans (concatenate_pair_apply_left (t := S32x512x65) 2 _ _ concatenates_S32x512x1_S32x512x64_S32x512x65_d2
    (ix3 b n (0 : Fin 65)) rfl (ix3 b n (0 : Fin 1))
    (fun a => match a with | ⟨0, _⟩ => rfl | ⟨1, _⟩ => rfl | ⟨2, _⟩ => rfl)) ?_
  refine shapeCast_apply _ _ _ (ix2 b n) ?_
  rw [Shape.rowMajor_val_three, Shape.rowMajor_val_two]
  show b.val * 512 + n.val = (b.val * 512 + n.val) * 1 + 0
  omega

/-- Feature `1 + j` of the stack is unit `j` of the hidden state. -/
theorem stack_h (X : FVec Ideal S32x512 .f32) (H1 : FVec Ideal S32x32768 .f32) (b : Fin 32) (n : Fin 512) (j : Fin 64)
    (c : Fin 2080) (hc : c.val = 32 * (1 + j.val) + b.val) :
    (shapeCast S512x2080 (transpose S512x65x32 [1, 2, 0] (concatenate S32x512x65 2
        [⟨S32x512x1, (shapeCast S32x512x1 X shapeCasts_S32x512_S32x512x1)⟩,
         ⟨S32x512x64, (shapeCast S32x512x64 H1 shapeCasts_S32x32768_S32x512x64)⟩]
        concatenates_S32x512x1_S32x512x64_S32x512x65_d2) transposes_S32x512x65_S512x65x32_1_2_0)
      shapeCasts_S512x65x32_S512x2080 : FVec Ideal S512x2080 .f32) (ix2 n c) = H1 (ix2 b (flat n j)) := by
  have hf : 1 + j.val < 65 := by have := j.isLt; omega
  refine (shapeCast_apply _ _ (ix2 n c) (ix3 n (⟨1 + j.val, hf⟩ : Fin 65) b) ?_).trans ?_
  · rw [Shape.rowMajor_val_three, Shape.rowMajor_val_two]
    show (n.val * 65 + (1 + j.val)) * 32 + b.val = n.val * 2080 + c.val
    omega
  refine (transpose_apply _ _ _ _ (ix3 b n (⟨1 + j.val, hf⟩ : Fin 65))
    (fun a => match a with | ⟨0, _⟩ => rfl | ⟨1, _⟩ => rfl | ⟨2, _⟩ => rfl)).trans ?_
  refine Eq.trans (concatenate_pair_apply_right (t := S32x512x65) 2 _ _ concatenates_S32x512x1_S32x512x64_S32x512x65_d2
    (ix3 b n (⟨1 + j.val, hf⟩ : Fin 65)) rfl rfl (ix3 b n j)
    (fun a => match a with
      | ⟨0, _⟩ => fun _ => rfl
      | ⟨1, _⟩ => fun _ => rfl
      | ⟨2, _⟩ => fun h => absurd rfl h)
    (by show j.val + 1 = 1 + j.val; omega)) ?_
  refine shapeCast_apply _ _ _ (ix2 b (flat n j)) ?_
  rw [Shape.rowMajor_val_three, Shape.rowMajor_val_two]
  show b.val * 32768 + (n.val * 64 + j.val) = (b.val * 512 + n.val) * 64 + j.val
  omega

/-! ## The taps, stacked and re-laid: row `512·b + n`, column `3·f + m` -/

/-- The tap stack re-laid as the product's left operand: entry (512·b + n, 3·f + m) is tap `m` at node `n`,
column `32·f + b`. -/
theorem lhs_outer (T : FVec Ideal S3x512x2080 .f32) (b : Fin 32) (n : Fin 512) (f : Fin 65) (m : Fin 3)
    (r : Fin 16384) (kk : Fin 195) (c : Fin 2080)
    (hr : r.val = 512 * b.val + n.val) (hk : kk.val = 3 * f.val + m.val) (hc : c.val = 32 * f.val + b.val) :
    (shapeCast S16384x195 (transpose S32x512x65x3 [3, 1, 2, 0]
        (shapeCast S3x512x65x32 T shapeCasts_S3x512x2080_S3x512x65x32)
        transposes_S3x512x65x32_S32x512x65x3_3_1_2_0)
      shapeCasts_S32x512x65x3_S16384x195 : FVec Ideal S16384x195 .f32) (ix2 r kk) = T (ix3 m n c) := by
  refine (shapeCast_apply _ _ (ix2 r kk) (ix4 b n f m) ?_).trans ?_
  · rw [Shape.rowMajor_val_four, Shape.rowMajor_val_two]
    show ((b.val * 512 + n.val) * 65 + f.val) * 3 + m.val = r.val * 195 + kk.val
    omega
  refine (transpose_apply _ _ _ _ (ix4 m n f b)
    (fun a => match a with | ⟨0, _⟩ => rfl | ⟨1, _⟩ => rfl | ⟨2, _⟩ => rfl | ⟨3, _⟩ => rfl)).trans ?_
  refine shapeCast_apply _ _ _ (ix3 m n c) ?_
  rw [Shape.rowMajor_val_three, Shape.rowMajor_val_four]
  show (m.val * 512 + n.val) * 2080 + c.val = ((m.val * 512 + n.val) * 65 + f.val) * 32 + b.val
  omega

/-- A column stack under a new leading unit axis reads the stack. -/
theorem lead_apply (Z : FVec Ideal S512x2080 .f32) (n : Fin 512) (c : Fin 2080) :
    (broadcastInDim S1x512x2080 ![1, 2] bcast_S512x2080_S1x512x2080_1_2 Z : FVec Ideal S1x512x2080 .f32)
      (ix3 (0 : Fin 1) n c) = Z (ix2 n c) :=
  broadcastInDim_apply _ _ _ _ (ix2 n c) (fun a => match a with
    | ⟨0, _⟩ => by show n.val = if (512 : Nat) = 1 then 0 else n.val; rfl
    | ⟨1, _⟩ => by show c.val = if (2080 : Nat) = 1 then 0 else c.val; rfl)

/-- The three taps stacked along a new leading axis: slab `m` is the `m`-th piece. -/
theorem cat3_apply (u0 u1 u2 : FVec Ideal S1x512x2080 .f32) (n : Fin 512) (c : Fin 2080) :
    (concatenate S3x512x2080 0 [⟨S1x512x2080, u0⟩, ⟨S1x512x2080, u1⟩, ⟨S1x512x2080, u2⟩]
        concatenates_S1x512x2080_S1x512x2080_S1x512x2080_S3x512x2080_d0 (ix3 (0 : Fin 3) n c) = u0 (ix3 (0 : Fin 1) n c))
    ∧ (concatenate S3x512x2080 0 [⟨S1x512x2080, u0⟩, ⟨S1x512x2080, u1⟩, ⟨S1x512x2080, u2⟩]
        concatenates_S1x512x2080_S1x512x2080_S1x512x2080_S3x512x2080_d0 (ix3 (1 : Fin 3) n c) = u1 (ix3 (0 : Fin 1) n c))
    ∧ (concatenate S3x512x2080 0 [⟨S1x512x2080, u0⟩, ⟨S1x512x2080, u1⟩, ⟨S1x512x2080, u2⟩]
        concatenates_S1x512x2080_S1x512x2080_S1x512x2080_S3x512x2080_d0 (ix3 (2 : Fin 3) n c) = u2 (ix3 (0 : Fin 1) n c)) := by
  refine ⟨?_, ?_, ?_⟩
  · exact concatenate_apply_piece (α := Ideal .f32) 0 [⟨S1x512x2080, u0⟩, ⟨S1x512x2080, u1⟩, ⟨S1x512x2080, u2⟩]
      concatenates_S1x512x2080_S1x512x2080_S1x512x2080_S3x512x2080_d0 (ix3 (0 : Fin 3) n c) 0 (by show (0 : Nat) < 3; omega) S1x512x2080 u0 rfl rfl 0 rfl (ix3 (0 : Fin 1) n c)
      (fun a => match a with
        | ⟨0, _⟩ => fun h => absurd rfl h
        | ⟨1, _⟩ => fun _ => rfl
        | ⟨2, _⟩ => fun _ => rfl) rfl
  · exact concatenate_apply_piece (α := Ideal .f32) 0 [⟨S1x512x2080, u0⟩, ⟨S1x512x2080, u1⟩, ⟨S1x512x2080, u2⟩]
      concatenates_S1x512x2080_S1x512x2080_S1x512x2080_S3x512x2080_d0 (ix3 (1 : Fin 3) n c) 1 (by show (1 : Nat) < 3; omega) S1x512x2080 u1 rfl rfl 1 rfl (ix3 (0 : Fin 1) n c)
      (fun a => match a with
        | ⟨0, _⟩ => fun h => absurd rfl h
        | ⟨1, _⟩ => fun _ => rfl
        | ⟨2, _⟩ => fun _ => rfl) rfl
  · exact concatenate_apply_piece (α := Ideal .f32) 0 [⟨S1x512x2080, u0⟩, ⟨S1x512x2080, u1⟩, ⟨S1x512x2080, u2⟩]
      concatenates_S1x512x2080_S1x512x2080_S1x512x2080_S3x512x2080_d0 (ix3 (2 : Fin 3) n c) 2 (by show (2 : Nat) < 3; omega) S1x512x2080 u2 rfl rfl 2 rfl (ix3 (0 : Fin 1) n c)
      (fun a => match a with
        | ⟨0, _⟩ => fun h => absurd rfl h
        | ⟨1, _⟩ => fun _ => rfl
        | ⟨2, _⟩ => fun _ => rfl) rfl

/-! ## The products -/

/-- A product with the adjacency, column by column: entry (n, c) sums over the nodes `k`. -/
theorem dotA_apply (A : FVec Ideal S512x512 .f32) (Z : FVec Ideal S512x2080 .f32) (n : Fin 512) (c : Fin 2080) :
    Host.dotGeneral dot_S512x512_S512x2080_S512x2080_1_0_0_1_n_n none A Z (ix2 n c)
      = ∑ k : Fin 512, A (ix2 n k) * Z (ix2 k c) :=
  StackMember.dotGeneral_plain_apply (m := 512) (n := 2080) none A Z n c

/-- The product with the gates' weight matrix: entry (r, o) sums over the 195 weight rows. -/
theorem dotW_apply (L : FVec Ideal S16384x195 .f32) (W : FVec Ideal S195x128 .f32) (r : Fin 16384) (o : Fin 128) :
    Host.dotGeneral dot_S16384x195_S195x128_S16384x128_1_0_0_1_n_n none L W (ix2 r o)
      = ∑ k : Fin 195, L (ix2 r k) * W (ix2 k o) :=
  StackMember.dotGeneral_plain_apply (m := 16384) (n := 128) none L W r o

/-- The three taps of one column of the stack, read in the product's left operand. `z` is the column. -/
theorem lhs_taps (A : FVec Ideal S512x512 .f32) (Z : FVec Ideal S512x2080 .f32) (z : Fin 512 → EReal)
    (b : Fin 32) (n : Fin 512) (f : Fin 65) (r : Fin 16384) (c : Fin 2080)
    (hr : r.val = 512 * b.val + n.val) (hc : c.val = 32 * f.val + b.val) (hz : ∀ k : Fin 512, Z (ix2 k c) = z k)
    (k0 k1 k2 : Fin 195) (h0 : k0.val = 3 * f.val) (h1 : k1.val = 3 * f.val + 1) (h2 : k2.val = 3 * f.val + 2) :
    ((shapeCast S16384x195 (transpose S32x512x65x3 [3, 1, 2, 0] (shapeCast S3x512x65x32 (concatenate S3x512x2080 0
        [⟨S1x512x2080, (broadcastInDim S1x512x2080 ![1, 2] bcast_S512x2080_S1x512x2080_1_2 Z)⟩,
         ⟨S1x512x2080, (broadcastInDim S1x512x2080 ![1, 2] bcast_S512x2080_S1x512x2080_1_2
            (Host.dotGeneral dot_S512x512_S512x2080_S512x2080_1_0_0_1_n_n none A Z))⟩,
         ⟨S1x512x2080, (broadcastInDim S1x512x2080 ![1, 2] bcast_S512x2080_S1x512x2080_1_2
            (subf (mulf (broadcastInDim S512x2080 ![] bcast_S_S512x2080 (constant (F := Ideal) S_ .f32 0x40000000#32))
              (Host.dotGeneral dot_S512x512_S512x2080_S512x2080_1_0_0_1_n_n none A
                (Host.dotGeneral dot_S512x512_S512x2080_S512x2080_1_0_0_1_n_n none A Z))) Z))⟩]
        concatenates_S1x512x2080_S1x512x2080_S1x512x2080_S3x512x2080_d0) shapeCasts_S3x512x2080_S3x512x65x32)
        transposes_S3x512x65x32_S32x512x65x3_3_1_2_0) shapeCasts_S32x512x65x3_S16384x195
        : FVec Ideal S16384x195 .f32) (ix2 r k0) = z n)
    ∧ ((shapeCast S16384x195 (transpose S32x512x65x3 [3, 1, 2, 0] (shapeCast S3x512x65x32 (concatenate S3x512x2080 0
        [⟨S1x512x2080, (broadcastInDim S1x512x2080 ![1, 2] bcast_S512x2080_S1x512x2080_1_2 Z)⟩,
         ⟨S1x512x2080, (broadcastInDim S1x512x2080 ![1, 2] bcast_S512x2080_S1x512x2080_1_2
            (Host.dotGeneral dot_S512x512_S512x2080_S512x2080_1_0_0_1_n_n none A Z))⟩,
         ⟨S1x512x2080, (broadcastInDim S1x512x2080 ![1, 2] bcast_S512x2080_S1x512x2080_1_2
            (subf (mulf (broadcastInDim S512x2080 ![] bcast_S_S512x2080 (constant (F := Ideal) S_ .f32 0x40000000#32))
              (Host.dotGeneral dot_S512x512_S512x2080_S512x2080_1_0_0_1_n_n none A
                (Host.dotGeneral dot_S512x512_S512x2080_S512x2080_1_0_0_1_n_n none A Z))) Z))⟩]
        concatenates_S1x512x2080_S1x512x2080_S1x512x2080_S3x512x2080_d0) shapeCasts_S3x512x2080_S3x512x65x32)
        transposes_S3x512x65x32_S32x512x65x3_3_1_2_0) shapeCasts_S32x512x65x3_S16384x195
        : FVec Ideal S16384x195 .f32) (ix2 r k1) = hop (fun n k => A (ix2 n k)) z n)
    ∧ ((shapeCast S16384x195 (transpose S32x512x65x3 [3, 1, 2, 0] (shapeCast S3x512x65x32 (concatenate S3x512x2080 0
        [⟨S1x512x2080, (broadcastInDim S1x512x2080 ![1, 2] bcast_S512x2080_S1x512x2080_1_2 Z)⟩,
         ⟨S1x512x2080, (broadcastInDim S1x512x2080 ![1, 2] bcast_S512x2080_S1x512x2080_1_2
            (Host.dotGeneral dot_S512x512_S512x2080_S512x2080_1_0_0_1_n_n none A Z))⟩,
         ⟨S1x512x2080, (broadcastInDim S1x512x2080 ![1, 2] bcast_S512x2080_S1x512x2080_1_2
            (subf (mulf (broadcastInDim S512x2080 ![] bcast_S_S512x2080 (constant (F := Ideal) S_ .f32 0x40000000#32))
              (Host.dotGeneral dot_S512x512_S512x2080_S512x2080_1_0_0_1_n_n none A
                (Host.dotGeneral dot_S512x512_S512x2080_S512x2080_1_0_0_1_n_n none A Z))) Z))⟩]
        concatenates_S1x512x2080_S1x512x2080_S1x512x2080_S3x512x2080_d0) shapeCasts_S3x512x2080_S3x512x65x32)
        transposes_S3x512x65x32_S32x512x65x3_3_1_2_0) shapeCasts_S32x512x65x3_S16384x195
        : FVec Ideal S16384x195 .f32) (ix2 r k2) = hop2 (fun n k => A (ix2 n k)) z n) := by
  -- one diffusion step of the column, as the product spells it
  have hstep : ∀ (Y : FVec Ideal S512x2080 .f32) (y : Fin 512 → EReal), (∀ k : Fin 512, Y (ix2 k c) = y k) →
      ∀ n' : Fin 512, Host.dotGeneral dot_S512x512_S512x2080_S512x2080_1_0_0_1_n_n none A Y (ix2 n' c)
        = hop (fun n k => A (ix2 n k)) y n' := by
    intro Y y hy n'
    rw [dotA_apply]
    exact Finset.sum_congr rfl (fun k _ => by rw [hy k])
  refine ⟨?_, ?_, ?_⟩
  · refine (lhs_outer _ b n f 0 r k0 c hr (by show k0.val = 3 * f.val + 0; omega) hc).trans ?_
    refine ((cat3_apply _ _ _ n c).1).trans ?_
    exact (lead_apply Z n c).trans (hz n)
  · refine (lhs_outer _ b n f 1 r k1 c hr (by show k1.val = 3 * f.val + 1; omega) hc).trans ?_
    refine ((cat3_apply _ _ _ n c).2.1).trans ?_
    exact (lead_apply _ n c).trans (hstep Z z hz n)
  · refine (lhs_outer _ b n f 2 r k2 c hr (by show k2.val = 3 * f.val + 2; omega) hc).trans ?_
    refine ((cat3_apply _ _ _ n c).2.2).trans ?_
    refine (lead_apply _ n c).trans ?_
    show two * Host.dotGeneral dot_S512x512_S512x2080_S512x2080_1_0_0_1_n_n none A
        (Host.dotGeneral dot_S512x512_S512x2080_S512x2080_1_0_0_1_n_n none A Z) (ix2 n c) - Z (ix2 n c) = _
    rw [hstep _ (hop (fun n k => A (ix2 n k)) z) (hstep Z z hz) n, hz n]
    rfl

/-! ## Bias, logistic, and the gates' layout -/

/-- The gates from the product's left operand: the 195-row product, the bias, and the logistic spelled out,
laid out as (sample, node, output). -/
theorem gate_tail (L : FVec Ideal S16384x195 .f32) (W : FVec Ideal S195x128 .f32) (B : FVec Ideal S128 .f32)
    (b : Fin 32) (n : Fin 512) (o : Fin 128) (r : Fin 16384) (hr : r.val = 512 * b.val + n.val) :
    (shapeCast S32x512x128 (Host.divf (broadcastInDim S32x65536 ![] bcast_S_S32x65536 (constant (F := Ideal) S_ .f32 0x3F800000#32))
      (addf (broadcastInDim S32x65536 ![] bcast_S_S32x65536 (constant (F := Ideal) S_ .f32 0x3F800000#32))
        (Host.exp (Host.negf (shapeCast S32x65536
          (addf (Host.dotGeneral dot_S16384x195_S195x128_S16384x128_1_0_0_1_n_n none L W)
            (broadcastInDim S16384x128 ![0, 1] bcast_S1x128_S16384x128_0_1 (broadcastInDim S1x128 ![1] bcast_S128_S1x128_1 B)))
          shapeCasts_S16384x128_S32x65536))))) shapeCasts_S32x65536_S32x512x128 : FVec Ideal S32x512x128 .f32) (ix3 b n o)
      = Ideal.logistic ((∑ k : Fin 195, L (ix2 r k) * W (ix2 k o)) + B (ix1 o)) := by
  have hq : 128 * n.val + o.val < 65536 := by have := n.isLt; have := o.isLt; omega
  -- the pre-activation at (b, 128·n + o) is the product's entry (512·b + n, o) plus the bias
  have inner : (shapeCast S32x65536
      (addf (Host.dotGeneral dot_S16384x195_S195x128_S16384x128_1_0_0_1_n_n none L W)
        (broadcastInDim S16384x128 ![0, 1] bcast_S1x128_S16384x128_0_1 (broadcastInDim S1x128 ![1] bcast_S128_S1x128_1 B)))
      shapeCasts_S16384x128_S32x65536 : FVec Ideal S32x65536 .f32) (ix2 b (⟨128 * n.val + o.val, hq⟩ : Fin 65536))
      = (∑ k : Fin 195, L (ix2 r k) * W (ix2 k o)) + B (ix1 o) := by
    refine (shapeCast_apply _ _ (ix2 b (⟨128 * n.val + o.val, hq⟩ : Fin 65536)) (ix2 r o) ?_).trans ?_
    · rw [Shape.rowMajor_val_two, Shape.rowMajor_val_two]
      show r.val * 128 + o.val = b.val * 65536 + (128 * n.val + o.val)
      omega
    rw [addf_apply, dotW_apply]
    congr 1
    refine (broadcastInDim_apply _ _ _ (ix2 r o) (ix2 (0 : Fin 1) o) (fun a => match a with
      | ⟨0, _⟩ => by show (0 : Nat) = if (1 : Nat) = 1 then 0 else r.val; rfl
      | ⟨1, _⟩ => by show o.val = if (128 : Nat) = 1 then 0 else o.val; rfl)).trans ?_
    exact broadcastInDim_apply _ _ _ (ix2 (0 : Fin 1) o) (ix1 o) (fun a => match a with
      | ⟨0, _⟩ => by show o.val = if (128 : Nat) = 1 then 0 else o.val; rfl)
  refine (shapeCast_apply _ _ (ix3 b n o) (ix2 b (⟨128 * n.val + o.val, hq⟩ : Fin 65536)) ?_).trans ?_
  · rw [Shape.rowMajor_val_two, Shape.rowMajor_val_three]
    show b.val * 65536 + (128 * n.val + o.val) = (b.val * 512 + n.val) * 128 + o.val
    omega
  rw [← logistic_spelled, ← inner]
  rfl

/-! ## The reference's intermediates -/

variable (V0 : Valuation τ sig (Elt Ideal))

/-- The first hidden state, sample by (node, unit). -/
theorem v1_sem (b : Fin 32) (n : Fin 512) (j : Fin 64) :
    (res_main_v1 V0 : FVec Ideal S32x32768 .f32) (ix2 b (flat n j)) = refH V0 0 b n j := by
  unfold res_main_v1
  exact slice0_apply (aHidden V0) b (flat n j)

/-- The scalar-input column of the first cell's feature stack. -/
theorem v6_x (b : Fin 32) (k : Fin 512) (c : Fin 2080) (hc : c.val = b.val) :
    (res_main_v6 V0 : FVec Ideal S512x2080 .f32) (ix2 k c) = refX V0 b k := by
  unfold res_main_v6
  exact stack_x (aInputs V0) (res_main_v1 V0) b k c hc

/-- The state columns of the first cell's feature stack. -/
theorem v6_h (b : Fin 32) (k : Fin 512) (j : Fin 64) (c : Fin 2080) (hc : c.val = 32 * (1 + j.val) + b.val) :
    (res_main_v6 V0 : FVec Ideal S512x2080 .f32) (ix2 k c) = refH V0 0 b k j := by
  unfold res_main_v6
  exact (stack_h (aInputs V0) (res_main_v1 V0) b k j c hc).trans (v1_sem V0 b k j)

/-- Both gates of the first cell. -/
theorem v30_sem (b : Fin 32) (n : Fin 512) (o : Fin 128) :
    (res_main_v30 V0 : FVec Ideal S32x512x128 .f32) (ix3 b n o)
      = (refParams V0).gate0 (refX V0 b) (refH V0 0 b) n o := by
  have hrlt : 512 * b.val + n.val < 16384 := by have := b.isLt; have := n.isLt; omega
  have hcx : b.val < 2080 := by have := b.isLt; omega
  have hch : ∀ j : Fin 64, 32 * (1 + j.val) + b.val < 2080 := fun j => by have := b.isLt; have := j.isLt; omega
  have hf : ∀ j : Fin 64, 1 + j.val < 65 := fun j => by have := j.isLt; omega
  -- the input column's three taps, and each state column's
  have tx := lhs_taps (aAdj V0) (res_main_v6 V0) (refX V0 b) b n (0 : Fin 65) ⟨512 * b.val + n.val, hrlt⟩ ⟨b.val, hcx⟩ rfl
    (by show b.val = 32 * 0 + b.val; omega) (fun k => v6_x V0 b k ⟨b.val, hcx⟩ rfl)
    (w0x 0) (w0x 1) (w0x 2) rfl rfl rfl
  have th := fun j : Fin 64 => lhs_taps (aAdj V0) (res_main_v6 V0) (fun k => refH V0 0 b k j) b n (⟨1 + j.val, hf j⟩ : Fin 65)
    ⟨512 * b.val + n.val, hrlt⟩ ⟨32 * (1 + j.val) + b.val, hch j⟩ rfl rfl
    (fun k => v6_h V0 b k j ⟨32 * (1 + j.val) + b.val, hch j⟩ rfl)
    (w0h 0 j) (w0h 1 j) (w0h 2 j)
    (by show (1 + j.val) * 3 + 0 = 3 * (1 + j.val); omega)
    (by show (1 + j.val) * 3 + 1 = 3 * (1 + j.val) + 1; omega)
    (by show (1 + j.val) * 3 + 2 = 3 * (1 + j.val) + 2; omega)
  unfold res_main_v30 res_main_v7
  refine (gate_tail _ (aWg0 V0) (aBg0 V0) b n o ⟨512 * b.val + n.val, hrlt⟩ rfl).trans ?_
  unfold Params.gate0 gconv0
  refine congrArg Ideal.logistic ?_
  refine (sum195_split _ _).trans ?_
  simp only [tx.1, tx.2.1, tx.2.2, fun j => (th j).1, fun j => (th j).2.1, fun j => (th j).2.2]
  rfl

/-- The update gate of the first cell. -/
theorem v34_sem (b : Fin 32) (n : Fin 512) (j : Fin 64) :
    (res_main_v34 V0 : FVec Ideal S32x32768 .f32) (ix2 b (flat n j))
      = (refParams V0).gate0 (refX V0 b) (refH V0 0 b) n (hi j) := by
  unfold res_main_v34
  refine (shapeCast_apply _ _ (ix2 b (flat n j)) (ix3 b n j) ?_).trans ?_
  · rw [Shape.rowMajor_val_three, Shape.rowMajor_val_two]
    show (b.val * 512 + n.val) * 64 + j.val = b.val * 32768 + (n.val * 64 + j.val)
    omega
  refine (extractStridedSlice_apply _ _ _ _ (ix3 b n (hi j)) (fun a => match a with
    | ⟨0, _⟩ => by show b.val = 0 + b.val; omega
    | ⟨1, _⟩ => by show n.val = 0 + n.val; omega
    | ⟨2, _⟩ => rfl)).trans ?_
  exact v30_sem V0 b n (hi j)

end Cert.ReferenceIdeal.R0G

end
-- ==== Proof.R0C.lean ====
/-
  First cell, candidate and new state, in the reference.
-/
import proofs.«152469_g44504451121623_cont_8to1_c_180_12_alg».proof.Proof.RSem
import proofs.«152469_g44504451121623_cont_8to1_c_180_12_alg».proof.Proof.SpecSums
import Idealize.ShloMosaic.Lib.Pipeline.Value

noncomputable section

namespace Cert.ReferenceIdeal.R0C

open Cert.ReferenceIdeal Cert.ReferenceIdeal.Gen Cert.ReferenceIdeal.Value Cert.ReferenceIdeal.Sem Cert.Dcgru
open Idealize.ShloMosaic Idealize.ShloMosaic.TcCoe Idealize.ShloMosaic.StableHlo ValueIdx

/-! ## Index arithmetic of the reference's stacks -/

/-- Row `512·b + n` of the tap stack. -/
def rowR (b : Fin 32) (n : Fin 512) : Fin 16384 := ⟨b.val * 512 + n.val, by have := b.isLt; have := n.isLt; omega⟩
/-- Column `32·f + b` of the feature stack. -/
def colF (f : Fin 65) (b : Fin 32) : Fin 2080 := ⟨f.val * 32 + b.val, by have := f.isLt; have := b.isLt; omega⟩
/-- The feature column of the scalar input. -/
def fX : Fin 65 := ⟨0, by omega⟩
/-- The feature column of state unit `j`. -/
def fH (j : Fin 64) : Fin 65 := ⟨1 + j.val, by have := j.isLt; omega⟩

@[simp] theorem rowR_val (b : Fin 32) (n : Fin 512) : (rowR b n).val = b.val * 512 + n.val := rfl
@[simp] theorem colF_val (f : Fin 65) (b : Fin 32) : (colF f b).val = f.val * 32 + b.val := rfl

/-! ## The two products read at an index -/

theorem lhs_A_0 (i : S512x2080.Idx) (q : dot_S512x512_S512x2080_S512x2080_1_0_0_1_n_n.contr.Idx) :
    (dot_S512x512_S512x2080_S512x2080_1_0_0_1_n_n.lhsIdx i q 0).val = (i 0).val := by
  unfold DotDims.lhsIdx
  rw [dif_neg (show ¬(0 : Fin S512x512.rank) ∈ dot_S512x512_S512x2080_S512x2080_1_0_0_1_n_n.lhsBatch by decide),
    dif_pos (show (0 : Fin S512x512.rank) ∈ dot_S512x512_S512x2080_S512x2080_1_0_0_1_n_n.lhsNonContracting by decide)]
  rfl
theorem lhs_A_1 (i : S512x2080.Idx) (q : dot_S512x512_S512x2080_S512x2080_1_0_0_1_n_n.contr.Idx) :
    (dot_S512x512_S512x2080_S512x2080_1_0_0_1_n_n.lhsIdx i q 1).val = (q ⟨0, by decide⟩).val :=
  dot_S512x512_S512x2080_S512x2080_1_0_0_1_n_n.lhsIdx_val_of_single rfl i q
theorem rhs_A_0 (i : S512x2080.Idx) (q : dot_S512x512_S512x2080_S512x2080_1_0_0_1_n_n.contr.Idx) :
    (dot_S512x512_S512x2080_S512x2080_1_0_0_1_n_n.rhsIdx i q 0).val = (q ⟨0, by decide⟩).val :=
  dot_S512x512_S512x2080_S512x2080_1_0_0_1_n_n.rhsIdx_val_of_single rfl i q
theorem rhs_A_1 (i : S512x2080.Idx) (q : dot_S512x512_S512x2080_S512x2080_1_0_0_1_n_n.contr.Idx) :
    (dot_S512x512_S512x2080_S512x2080_1_0_0_1_n_n.rhsIdx i q 1).val = (i 1).val := by
  unfold DotDims.rhsIdx
  rw [dif_neg (show ¬(1 : Fin S512x2080.rank) ∈ dot_S512x512_S512x2080_S512x2080_1_0_0_1_n_n.rhsBatch by decide),
    dif_pos (show (1 : Fin S512x2080.rank) ∈ dot_S512x512_S512x2080_S512x2080_1_0_0_1_n_n.rhsNonContracting by decide)]
  rfl

/-- The adjacency times a stack of columns, at (n, c): the sum over the 512 nodes. -/
theorem dotA_apply (a : FVec Ideal S512x512 .f32) (z : FVec Ideal S512x2080 .f32) (n : Fin 512) (c : Fin 2080) :
    Host.dotGeneral dot_S512x512_S512x2080_S512x2080_1_0_0_1_n_n none a z (ix2 n c)
      = ∑ k : Fin 512, a (ix2 n k) * z (ix2 k c) := by
  simp only [Host.dotGeneral]
  rw [Ideal.dotGeneral_apply,
    ← Equiv.sum_comp (contrEquiv1 dot_S512x512_S512x2080_S512x2080_1_0_0_1_n_n 512 rfl rfl).symm]
  refine Finset.sum_congr rfl fun k _ => ?_
  have hk := contrEquiv1_symm_val dot_S512x512_S512x2080_S512x2080_1_0_0_1_n_n 512 rfl rfl k
  have el : dot_S512x512_S512x2080_S512x2080_1_0_0_1_n_n.lhsIdx (ix2 n c)
      ((contrEquiv1 dot_S512x512_S512x2080_S512x2080_1_0_0_1_n_n 512 rfl rfl).symm k) = ix2 n k := funext fun a => Fin.ext (by
    match a with
    | ⟨0, _⟩ => exact lhs_A_0 _ _
    | ⟨1, _⟩ => exact (lhs_A_1 _ _).trans hk)
  have er : dot_S512x512_S512x2080_S512x2080_1_0_0_1_n_n.rhsIdx (ix2 n c)
      ((contrEquiv1 dot_S512x512_S512x2080_S512x2080_1_0_0_1_n_n 512 rfl rfl).symm k) = ix2 k c := funext fun a => Fin.ext (by
    match a with
    | ⟨0, _⟩ => exact (rhs_A_0 _ _).trans hk
    | ⟨1, _⟩ => exact rhs_A_1 _ _)
  rw [el, er]

theorem lhs_W_0 (i : S16384x64.Idx) (q : dot_S16384x195_S195x64_S16384x64_1_0_0_1_n_n.contr.Idx) :
    (dot_S16384x195_S195x64_S16384x64_1_0_0_1_n_n.lhsIdx i q 0).val = (i 0).val := by
  unfold DotDims.lhsIdx
  rw [dif_neg (show ¬(0 : Fin S16384x195.rank) ∈ dot_S16384x195_S195x64_S16384x64_1_0_0_1_n_n.lhsBatch by decide),
    dif_pos (show (0 : Fin S16384x195.rank) ∈ dot_S16384x195_S195x64_S16384x64_1_0_0_1_n_n.lhsNonContracting by decide)]
  rfl
theorem lhs_W_1 (i : S16384x64.Idx) (q : dot_S16384x195_S195x64_S16384x64_1_0_0_1_n_n.contr.Idx) :
    (dot_S16384x195_S195x64_S16384x64_1_0_0_1_n_n.lhsIdx i q 1).val = (q ⟨0, by decide⟩).val :=
  dot_S16384x195_S195x64_S16384x64_1_0_0_1_n_n.lhsIdx_val_of_single rfl i q
theorem rhs_W_0 (i : S16384x64.Idx) (q : dot_S16384x195_S195x64_S16384x64_1_0_0_1_n_n.contr.Idx) :
    (dot_S16384x195_S195x64_S16384x64_1_0_0_1_n_n.rhsIdx i q 0).val = (q ⟨0, by decide⟩).val :=
  dot_S16384x195_S195x64_S16384x64_1_0_0_1_n_n.rhsIdx_val_of_single rfl i q
theorem rhs_W_1 (i : S16384x64.Idx) (q : dot_S16384x195_S195x64_S16384x64_1_0_0_1_n_n.contr.Idx) :
    (dot_S16384x195_S195x64_S16384x64_1_0_0_1_n_n.rhsIdx i q 1).val = (i 1).val := by
  unfold DotDims.rhsIdx
  rw [dif_neg (show ¬(1 : Fin S195x64.rank) ∈ dot_S16384x195_S195x64_S16384x64_1_0_0_1_n_n.rhsBatch by decide),
    dif_pos (show (1 : Fin S195x64.rank) ∈ dot_S16384x195_S195x64_S16384x64_1_0_0_1_n_n.rhsNonContracting by decide)]
  rfl

/-- The tap stack times the candidate's weight matrix, at (r, o): the sum over the 195 weight rows. -/
theorem dotW_apply (l : FVec Ideal S16384x195 .f32) (w : FVec Ideal S195x64 .f32) (r : Fin 16384) (o : Fin 64) :
    Host.dotGeneral dot_S16384x195_S195x64_S16384x64_1_0_0_1_n_n none l w (ix2 r o)
      = ∑ k : Fin 195, l (ix2 r k) * w (ix2 k o) := by
  simp only [Host.dotGeneral]
  rw [Ideal.dotGeneral_apply,
    ← Equiv.sum_comp (contrEquiv1 dot_S16384x195_S195x64_S16384x64_1_0_0_1_n_n 195 rfl rfl).symm]
  refine Finset.sum_congr rfl fun k _ => ?_
  have hk := contrEquiv1_symm_val dot_S16384x195_S195x64_S16384x64_1_0_0_1_n_n 195 rfl rfl k
  have el : dot_S16384x195_S195x64_S16384x64_1_0_0_1_n_n.lhsIdx (ix2 r o)
      ((contrEquiv1 dot_S16384x195_S195x64_S16384x64_1_0_0_1_n_n 195 rfl rfl).symm k) = ix2 r k := funext fun a => Fin.ext (by
    match a with
    | ⟨0, _⟩ => exact lhs_W_0 _ _
    | ⟨1, _⟩ => exact (lhs_W_1 _ _).trans hk)
  have er : dot_S16384x195_S195x64_S16384x64_1_0_0_1_n_n.rhsIdx (ix2 r o)
      ((contrEquiv1 dot_S16384x195_S195x64_S16384x64_1_0_0_1_n_n 195 rfl rfl).symm k) = ix2 k o := funext fun a => Fin.ext (by
    match a with
    | ⟨0, _⟩ => exact (rhs_W_0 _ _).trans hk
    | ⟨1, _⟩ => exact rhs_W_1 _ _)
  rw [el, er]

/-! ## The feature stack: node by (feature, sample) -/

/-- Feature column 0 of the stack is the scalar input. -/
theorem feat_x (X : FVec Ideal S32x512 .f32) (H : FVec Ideal S32x32768 .f32) (n : Fin 512) (b : Fin 32) :
    shapeCast S512x2080 (transpose S512x65x32 [1, 2, 0]
      (concatenate S32x512x65 2 [⟨S32x512x1, shapeCast S32x512x1 X shapeCasts_S32x512_S32x512x1⟩,
        ⟨S32x512x64, shapeCast S32x512x64 H shapeCasts_S32x32768_S32x512x64⟩]
        concatenates_S32x512x1_S32x512x64_S32x512x65_d2)
      transposes_S32x512x65_S512x65x32_1_2_0) shapeCasts_S512x65x32_S512x2080 (ix2 n (colF fX b)) = X (ix2 b n) := by
  refine (shapeCast_apply _ _ _ (ix3 n fX b) ?_).trans ?_
  · rw [Shape.rowMajor_val_three, Shape.rowMajor_val_two]
    show (n.val * 65 + 0) * 32 + b.val = n.val * 2080 + (0 * 32 + b.val)
    omega
  refine (transpose_apply _ _ _ _ (ix3 b n fX) fun a => ?_).trans ?_
  · match a with
    | ⟨0, _⟩ => rfl
    | ⟨1, _⟩ => rfl
    | ⟨2, _⟩ => rfl
  refine (concatenate_pair_apply_left (t := S32x512x65) (s₁ := S32x512x1) (s₂ := S32x512x64) 2 _ _ _ _ rfl
    (ix3 b n (0 : Fin 1)) fun a => ?_).trans ?_
  · match a with
    | ⟨0, _⟩ => rfl
    | ⟨1, _⟩ => rfl
    | ⟨2, _⟩ => rfl
  refine shapeCast_apply _ _ _ (ix2 b n) ?_
  rw [Shape.rowMajor_val_three, Shape.rowMajor_val_two]
  show b.val * 512 + n.val = (b.val * 512 + n.val) * 1 + 0
  omega

/-- Feature column `1 + j` of the stack is state column `j`. -/
theorem feat_h (X : FVec Ideal S32x512 .f32) (H : FVec Ideal S32x32768 .f32) (n : Fin 512) (b : Fin 32) (j : Fin 64) :
    shapeCast S512x2080 (transpose S512x65x32 [1, 2, 0]
      (concatenate S32x512x65 2 [⟨S32x512x1, shapeCast S32x512x1 X shapeCasts_S32x512_S32x512x1⟩,
        ⟨S32x512x64, shapeCast S32x512x64 H shapeCasts_S32x32768_S32x512x64⟩]
        concatenates_S32x512x1_S32x512x64_S32x512x65_d2)
      transposes_S32x512x65_S512x65x32_1_2_0) shapeCasts_S512x65x32_S512x2080 (ix2 n (colF (fH j) b))
      = H (ix2 b (flat n j)) := by
  refine (shapeCast_apply _ _ _ (ix3 n (fH j) b) ?_).trans ?_
  · rw [Shape.rowMajor_val_three, Shape.rowMajor_val_two]
    show (n.val * 65 + (1 + j.val)) * 32 + b.val = n.val * 2080 + ((1 + j.val) * 32 + b.val)
    omega
  refine (transpose_apply _ _ _ _ (ix3 b n (fH j)) fun a => ?_).trans ?_
  · match a with
    | ⟨0, _⟩ => rfl
    | ⟨1, _⟩ => rfl
    | ⟨2, _⟩ => rfl
  refine (concatenate_pair_apply_right (t := S32x512x65) (s₁ := S32x512x1) (s₂ := S32x512x64) 2 _ _ _ _ rfl rfl
    (ix3 b n j) (fun a ha => ?_) ?_).trans ?_
  · match a with
    | ⟨0, _⟩ => rfl
    | ⟨1, _⟩ => rfl
    | ⟨2, _⟩ => exact (ha (Fin.ext rfl)).elim
  · show j.val + 1 = 1 + j.val
    omega
  refine shapeCast_apply _ _ _ (ix2 b (flat n j)) ?_
  rw [Shape.rowMajor_val_three, Shape.rowMajor_val_two]
  show b.val * 32768 + (n.val * 64 + j.val) = (b.val * 512 + n.val) * 64 + j.val
  omega

/-! ## The tap stack: (sample, node) by (feature, tap) -/

/-- The three taps, each with a leading unit axis. -/
abbrev tapPieces (Z0 Z1 Z2 : FVec Ideal S512x2080 .f32) : List ((s : Shape) × (s.Idx → Ideal .f32)) :=
  [⟨S1x512x2080, broadcastInDim S1x512x2080 ![1, 2] bcast_S512x2080_S1x512x2080_1_2 Z0⟩,
    ⟨S1x512x2080, broadcastInDim S1x512x2080 ![1, 2] bcast_S512x2080_S1x512x2080_1_2 Z1⟩,
    ⟨S1x512x2080, broadcastInDim S1x512x2080 ![1, 2] bcast_S512x2080_S1x512x2080_1_2 Z2⟩]

/-- The three taps stacked and re-laid as rows `512·b + n`, columns `3·f + m`. -/
abbrev tapStack (Z0 Z1 Z2 : FVec Ideal S512x2080 .f32) : FVec Ideal S16384x195 .f32 :=
  shapeCast S16384x195 (transpose S32x512x65x3 [3, 1, 2, 0] (shapeCast S3x512x65x32
    (concatenate S3x512x2080 0 (tapPieces Z0 Z1 Z2)
      concatenates_S1x512x2080_S1x512x2080_S1x512x2080_S3x512x2080_d0)
    shapeCasts_S3x512x2080_S3x512x65x32) transposes_S3x512x65x32_S32x512x65x3_3_1_2_0) shapeCasts_S32x512x65x3_S16384x195

/-- The re-laying alone: entry (512·b + n, 3·f + m) is entry (m, n, 32·f + b) of the stack. -/
theorem unstack_apply (S : FVec Ideal S3x512x2080 .f32) (b : Fin 32) (n : Fin 512) (f : Fin 65) (m : Fin 3)
    (q : Fin 195) (hq : q.val = f.val * 3 + m.val) :
    shapeCast S16384x195 (transpose S32x512x65x3 [3, 1, 2, 0] (shapeCast S3x512x65x32 S shapeCasts_S3x512x2080_S3x512x65x32)
      transposes_S3x512x65x32_S32x512x65x3_3_1_2_0) shapeCasts_S32x512x65x3_S16384x195 (ix2 (rowR b n) q)
      = S (ix3 m n (colF f b)) := by
  refine (shapeCast_apply _ _ _ (ix4 b n f m) ?_).trans ?_
  · rw [Shape.rowMajor_val_four, Shape.rowMajor_val_two]
    show ((b.val * 512 + n.val) * 65 + f.val) * 3 + m.val = (b.val * 512 + n.val) * 195 + q.val
    omega
  refine (transpose_apply _ _ _ _ (ix4 m n f b) fun a => ?_).trans ?_
  · match a with
    | ⟨0, _⟩ => rfl
    | ⟨1, _⟩ => rfl
    | ⟨2, _⟩ => rfl
    | ⟨3, _⟩ => rfl
  refine shapeCast_apply _ _ _ (ix3 m n (colF f b)) ?_
  rw [Shape.rowMajor_val_three, Shape.rowMajor_val_four]
  show (m.val * 512 + n.val) * 2080 + (f.val * 32 + b.val) = ((m.val * 512 + n.val) * 65 + f.val) * 32 + b.val
  omega

/-- A stack piece read at its own index. -/
theorem piece_apply (Z : FVec Ideal S512x2080 .f32) (n : Fin 512) (c : Fin 2080) :
    broadcastInDim S1x512x2080 ![1, 2] bcast_S512x2080_S1x512x2080_1_2 Z (ix3 (0 : Fin 1) n c) = Z (ix2 n c) := by
  refine broadcastInDim_apply _ _ _ _ (ix2 n c) fun a => ?_
  match a with
  | ⟨0, _⟩ => rfl
  | ⟨1, _⟩ => rfl

theorem taps_0 (Z0 Z1 Z2 : FVec Ideal S512x2080 .f32) (b : Fin 32) (n : Fin 512) (f : Fin 65)
    (q : Fin 195) (hq : q.val = f.val * 3 + 0) :
    tapStack Z0 Z1 Z2 (ix2 (rowR b n) q) = Z0 (ix2 n (colF f b)) := by
  refine (unstack_apply _ b n f 0 q hq).trans ?_
  refine (concatenate_apply_piece (t := S3x512x2080) 0 (tapPieces Z0 Z1 Z2) _ _ 0 (by show (0 : Nat) < 3; decide) S1x512x2080 _ rfl rfl 0 rfl
    (ix3 (0 : Fin 1) n (colF f b)) (fun a ha => ?_) rfl).trans (piece_apply Z0 n _)
  match a with
  | ⟨0, _⟩ => exact (ha (Fin.ext rfl)).elim
  | ⟨1, _⟩ => rfl
  | ⟨2, _⟩ => rfl

theorem taps_1 (Z0 Z1 Z2 : FVec Ideal S512x2080 .f32) (b : Fin 32) (n : Fin 512) (f : Fin 65)
    (q : Fin 195) (hq : q.val = f.val * 3 + 1) :
    tapStack Z0 Z1 Z2 (ix2 (rowR b n) q) = Z1 (ix2 n (colF f b)) := by
  refine (unstack_apply _ b n f 1 q hq).trans ?_
  refine (concatenate_apply_piece (t := S3x512x2080) 0 (tapPieces Z0 Z1 Z2) _ _ 1 (by show (1 : Nat) < 3; decide) S1x512x2080 _ rfl rfl 1 rfl
    (ix3 (0 : Fin 1) n (colF f b)) (fun a ha => ?_) rfl).trans (piece_apply Z1 n _)
  match a with
  | ⟨0, _⟩ => exact (ha (Fin.ext rfl)).elim
  | ⟨1, _⟩ => rfl
  | ⟨2, _⟩ => rfl

theorem taps_2 (Z0 Z1 Z2 : FVec Ideal S512x2080 .f32) (b : Fin 32) (n : Fin 512) (f : Fin 65)
    (q : Fin 195) (hq : q.val = f.val * 3 + 2) :
    tapStack Z0 Z1 Z2 (ix2 (rowR b n) q) = Z2 (ix2 n (colF f b)) := by
  refine (unstack_apply _ b n f 2 q hq).trans ?_
  refine (concatenate_apply_piece (t := S3x512x2080) 0 (tapPieces Z0 Z1 Z2) _ _ 2 (by show (2 : Nat) < 3; decide) S1x512x2080 _ rfl rfl 2 rfl
    (ix3 (0 : Fin 1) n (colF f b)) (fun a ha => ?_) rfl).trans (piece_apply Z2 n _)
  match a with
  | ⟨0, _⟩ => exact (ha (Fin.ext rfl)).elim
  | ⟨1, _⟩ => rfl
  | ⟨2, _⟩ => rfl

/-! ## Splat constants and the bias row -/

theorem one_apply (i : S32x32768.Idx) :
    broadcastInDim S32x32768 ![] bcast_S_S32x32768 (constant (F := Ideal) S_ .f32 0x3F800000#32) i = one :=
  (broadcastInDim_apply _ _ _ _ ix0 fun a => a.elim0).trans rfl

theorem two_apply (i : S512x2080.Idx) :
    broadcastInDim S512x2080 ![] bcast_S_S512x2080 (constant (F := Ideal) S_ .f32 0x40000000#32) i = two :=
  (broadcastInDim_apply _ _ _ _ ix0 fun a => a.elim0).trans rfl

/-- The candidate's bias row broadcast over the 16384 rows. -/
theorem biasC_apply (v : FVec Ideal S64 .f32) (r : Fin 16384) (o : Fin 64) :
    broadcastInDim S16384x64 ![0, 1] bcast_S1x64_S16384x64_0_1 (broadcastInDim S1x64 ![1] bcast_S64_S1x64_1 v) (ix2 r o)
      = v (ix1 o) := by
  refine (broadcastInDim_apply _ _ _ _ (ix2 (0 : Fin 1) o) fun a => ?_).trans ?_
  · match a with
    | ⟨0, _⟩ => rfl
    | ⟨1, _⟩ => rfl
  refine broadcastInDim_apply _ _ _ _ (ix1 o) fun a => ?_
  match a with
  | ⟨0, _⟩ => rfl

/-! ## Diffusion taps of a stack's column -/

/-- One diffusion step of column `c`. -/
theorem hop_col (a : FVec Ideal S512x512 .f32) (z : FVec Ideal S512x2080 .f32) (c : Fin 2080) (ζ : Fin 512 → EReal)
    (hz : ∀ k, z (ix2 k c) = ζ k) (n : Fin 512) :
    Host.dotGeneral dot_S512x512_S512x2080_S512x2080_1_0_0_1_n_n none a z (ix2 n c)
      = hop (fun n k => a (ix2 n k)) ζ n := by
  rw [dotA_apply]
  show _ = ∑ k : Fin 512, a (ix2 n k) * ζ k
  exact Finset.sum_congr rfl fun k _ => by rw [hz k]

/-- The third tap of column `c`, from the column and its first tap. -/
theorem hop2_col (a : FVec Ideal S512x512 .f32) (z z1 : FVec Ideal S512x2080 .f32) (c : Fin 2080) (ζ : Fin 512 → EReal)
    (hz : ∀ k, z (ix2 k c) = ζ k) (hz1 : ∀ k, z1 (ix2 k c) = hop (fun n k => a (ix2 n k)) ζ k) (n : Fin 512) :
    subf (mulf (broadcastInDim S512x2080 ![] bcast_S_S512x2080 (constant (F := Ideal) S_ .f32 0x40000000#32))
        (Host.dotGeneral dot_S512x512_S512x2080_S512x2080_1_0_0_1_n_n none a z1)) z (ix2 n c)
      = hop2 (fun n k => a (ix2 n k)) ζ n := by
  rw [subf_apply, mulf_apply, two_apply, hz n, hop_col a z1 c _ hz1 n]
  rfl

/-- The host's hyperbolic tangent at an index. -/
theorem tanh_apply {s : Shape} {φ : FTy} (x : FVec Ideal s φ) (i : s.Idx) : Host.tanh x i = Ideal.tanh (x i) := rfl

variable (V0 : Valuation τ sig (Elt Ideal))
variable (v1_sem : ∀ (b : Fin 32) (n : Fin 512) (j : Fin 64), (res_main_v1 V0 : FVec Ideal S32x32768 .f32) (ix2 b (flat n j)) = refH V0 0 b n j)
    (v30_sem : ∀ (b : Fin 32) (n : Fin 512) (o : Fin 128), (res_main_v30 V0 : FVec Ideal S32x512x128 .f32) (ix3 b n o) = (refParams V0).gate0 (refX V0 b) (refH V0 0 b) n o)
    (v34_sem : ∀ (b : Fin 32) (n : Fin 512) (j : Fin 64), (res_main_v34 V0 : FVec Ideal S32x32768 .f32) (ix2 b (flat n j)) = (refParams V0).gate0 (refX V0 b) (refH V0 0 b) n (hi j))

/-! ## The candidate's feature stack and its taps -/

/-- Feature column 0: the scalar input. -/
theorem v40_x (b : Fin 32) (n : Fin 512) :
    (res_main_v40 V0 : FVec Ideal S512x2080 .f32) (ix2 n (colF fX b)) = refX V0 b n := by
  unfold res_main_v40
  exact feat_x _ _ n b

include v1_sem v30_sem in
/-- Feature column `1 + j`: the reset gate times the state. -/
theorem v40_h (b : Fin 32) (n : Fin 512) (j : Fin 64) :
    (res_main_v40 V0 : FVec Ideal S512x2080 .f32) (ix2 n (colF (fH j) b))
      = (refParams V0).gate0 (refX V0 b) (refH V0 0 b) n (lo j) * refH V0 0 b n j := by
  unfold res_main_v40
  refine (feat_h _ _ n b j).trans ?_
  rw [mulf_apply]
  refine congrArg₂ (· * ·) ?_ (v1_sem b n j)
  refine (shapeCast_apply _ _ _ (ix3 b n j) ?_).trans ?_
  · rw [Shape.rowMajor_val_three, Shape.rowMajor_val_two]
    show (b.val * 512 + n.val) * 64 + j.val = b.val * 32768 + (n.val * 64 + j.val)
    omega
  refine (extractStridedSlice_apply _ _ _ _ (ix3 b n (lo j)) fun a => ?_).trans (v30_sem b n (lo j))
  match a with
  | ⟨0, _⟩ => show b.val = 0 + b.val; omega
  | ⟨1, _⟩ => show n.val = 0 + n.val; omega
  | ⟨2, _⟩ => show j.val = 0 + j.val; omega

/-- The first tap of a column of the stack. -/
theorem v41_col (c : Fin 2080) (ζ : Fin 512 → EReal)
    (hz : ∀ k, (res_main_v40 V0 : FVec Ideal S512x2080 .f32) (ix2 k c) = ζ k) (n : Fin 512) :
    (res_main_v41 V0 : FVec Ideal S512x2080 .f32) (ix2 n c) = hop (refParams V0).A ζ n := by
  unfold res_main_v41
  exact hop_col _ _ c ζ hz n

/-- The third tap of a column of the stack. -/
theorem t2_col (c : Fin 2080) (ζ : Fin 512 → EReal)
    (hz : ∀ k, (res_main_v40 V0 : FVec Ideal S512x2080 .f32) (ix2 k c) = ζ k) (n : Fin 512) :
    (subf (mulf (broadcastInDim S512x2080 ![] bcast_S_S512x2080 (constant (F := Ideal) S_ .f32 0x40000000#32))
        (Host.dotGeneral (φ₁ := .f32) (φ₂ := .f32) dot_S512x512_S512x2080_S512x2080_1_0_0_1_n_n none (aAdj V0) (res_main_v41 V0)))
      (res_main_v40 V0) : FVec Ideal S512x2080 .f32) (ix2 n c) = hop2 (refParams V0).A ζ n :=
  hop2_col _ _ _ c ζ hz (fun k => v41_col V0 c ζ hz k) n

include v1_sem v30_sem v34_sem in
/-- The first cell's new state. -/
theorem v63_sem (b : Fin 32) (n : Fin 512) (j : Fin 64) :
    (res_main_v63 V0 : FVec Ideal S32x32768 .f32) (ix2 b (flat n j))
      = (refParams V0).hn0 (refX V0 b) (refH V0 0 b) n j := by
  unfold res_main_v63
  rw [addf_apply, mulf_apply, mulf_apply, subf_apply, one_apply, tanh_apply]
  unfold Params.hn0 Params.cand0
  refine congrArg₂ (· + ·) (congrArg₂ (· * ·) (v34_sem b n j) (v1_sem b n j))
    (congrArg₂ (· * ·) (congrArg (one - ·) (v34_sem b n j)) (congrArg Ideal.tanh ?_))
  refine (shapeCast_apply (s := S16384x64) (t := S32x32768) _ shapeCasts_S16384x64_S32x32768 (ix2 b (flat n j))
    (ix2 (rowR b n) j) ?_).trans ?_
  · rw [Shape.rowMajor_val_two, Shape.rowMajor_val_two]
    show (b.val * 512 + n.val) * 64 + j.val = b.val * 32768 + (n.val * 64 + j.val)
    omega
  rw [addf_apply, dotW_apply, biasC_apply]
  refine (sum195_split _ _).trans ?_
  unfold gconv0
  refine congrArg₂ (· + ·) (congrArg₂ (· + ·) (congrArg₂ (· + ·) (congrArg₂ (· + ·)
    (congrArg₂ (· + ·) (congrArg₂ (· + ·) rfl ?_) ?_) ?_) ?_) ?_) ?_
  · exact Finset.sum_congr rfl fun j' _ => congrArg₂ (· * ·)
      ((taps_0 _ _ _ b n (fH j') (w0h 0 j') rfl).trans (v40_h V0 v1_sem v30_sem b n j')) rfl
  · exact congrArg₂ (· * ·) ((taps_0 _ _ _ b n fX (w0x 0) rfl).trans (v40_x V0 b n)) rfl
  · exact Finset.sum_congr rfl fun j' _ => congrArg₂ (· * ·)
      ((taps_1 _ _ _ b n (fH j') (w0h 1 j') rfl).trans
        (v41_col V0 _ _ (fun k => v40_h V0 v1_sem v30_sem b k j') n)) rfl
  · exact congrArg₂ (· * ·) ((taps_1 _ _ _ b n fX (w0x 1) rfl).trans (v41_col V0 _ _ (fun k => v40_x V0 b k) n)) rfl
  · exact Finset.sum_congr rfl fun j' _ => congrArg₂ (· * ·)
      ((taps_2 _ _ _ b n (fH j') (w0h 2 j') rfl).trans
        (t2_col V0 _ _ (fun k => v40_h V0 v1_sem v30_sem b k j') n)) rfl
  · exact congrArg₂ (· * ·) ((taps_2 _ _ _ b n fX (w0x 2) rfl).trans (t2_col V0 _ _ (fun k => v40_x V0 b k) n)) rfl

end Cert.ReferenceIdeal.R0C

end
-- ==== Proof.R1G.lean ====
/-
  Second cell, gates, in the reference: 128 feature columns (the first cell's new state, then the second hidden
  state), one 384-wide product.
-/
import proofs.«152469_g44504451121623_cont_8to1_c_180_12_alg».proof.Proof.RSem
import proofs.«152469_g44504451121623_cont_8to1_c_180_12_alg».proof.Proof.SpecSums
import Idealize.ShloMosaic.Lib.Pipeline.Value
import Idealize.ShloMosaic.PureOps.Ideal.Laws

noncomputable section

namespace Cert.ReferenceIdeal.R1G

open Cert.ReferenceIdeal Cert.ReferenceIdeal.Gen Cert.ReferenceIdeal.Value Cert.ReferenceIdeal.Sem Cert.Dcgru
open Idealize.ShloMosaic Idealize.ShloMosaic.TcCoe Idealize.ShloMosaic.StableHlo ValueIdx

/-! ## Index arithmetic

The reference stacks all 32 samples: rows 512·b + n for (sample, node), columns 32·f + b of the feature stack
for (feature, sample). Among the 128 features of the second cell the first 64 are its input units, the last 64
its state units. -/

/-- Row 512·b + n of the stacked (sample, node) rows. -/
def srow (b : Fin 32) (n : Fin 512) : Fin 16384 := ⟨b.val * 512 + n.val, by have := b.isLt; have := n.isLt; omega⟩
/-- Column 32·f + b of the feature stack. -/
def fcol (f : Fin 128) (b : Fin 32) : Fin 4096 := ⟨f.val * 32 + b.val, by have := f.isLt; have := b.isLt; omega⟩
/-- Input unit j as a feature. -/
def fx (j : Fin 64) : Fin 128 := ⟨j.val, by have := j.isLt; omega⟩
/-- State unit j as a feature. -/
def fh (j : Fin 64) : Fin 128 := ⟨64 + j.val, by have := j.isLt; omega⟩

/-! ## Slices of a state and of the gates -/

/-- Hidden state 1 as 32 × 32768. -/
theorem hidden1_apply (H : FVec Ideal S2x32x32768 .f32) (b : Fin 32) (q : Fin 32768) :
    shapeCast S32x32768 (extractStridedSlice S1x32x32768 ![1, 0, 0] H slices_S2x32x32768_S1x32x32768_1_0_0)
        shapeCasts_S1x32x32768_S32x32768 (ix2 b q)
      = H (ix3 1 b q) := by
  have hb : b.val < 32 := b.isLt
  have hq : q.val < 32768 := q.isLt
  refine (shapeCast_apply _ _ (ix2 b q) (ix3 (0 : Fin 1) b q) (by
    rw [Shape.rowMajor_val_three, Shape.rowMajor_val_two]
    show (0 * 32 + b.val) * 32768 + q.val = b.val * 32768 + q.val
    omega)).trans ?_
  exact extractStridedSlice_apply _ _ _ (ix3 (0 : Fin 1) b q) (ix3 (1 : Fin 2) b q) (fun a => match a with
    | ⟨0, _⟩ => by show 1 = 1 + 0; rfl
    | ⟨1, _⟩ => by show b.val = 0 + b.val; omega
    | ⟨2, _⟩ => by show q.val = 0 + q.val; omega)

/-- The last 64 of the 128 gate outputs, as 32 × 32768. -/
theorem upd_apply (G : FVec Ideal S32x512x128 .f32) (b : Fin 32) (n : Fin 512) (j : Fin 64) :
    shapeCast S32x32768 (extractStridedSlice S32x512x64 ![0, 0, 64] G slices_S32x512x128_S32x512x64_0_0_64)
        shapeCasts_S32x512x64_S32x32768 (ix2 b (flat n j))
      = G (ix3 b n (hi j)) := by
  have hb : b.val < 32 := b.isLt
  have hn : n.val < 512 := n.isLt
  have hj : j.val < 64 := j.isLt
  refine (shapeCast_apply _ _ (ix2 b (flat n j)) (ix3 b n j) (by
    rw [Shape.rowMajor_val_three, Shape.rowMajor_val_two]
    show (b.val * 512 + n.val) * 64 + j.val = b.val * 32768 + (n.val * 64 + j.val)
    omega)).trans ?_
  exact extractStridedSlice_apply _ _ _ (ix3 b n j) (ix3 b n (hi j)) (fun a => match a with
    | ⟨0, _⟩ => by show b.val = 0 + b.val; omega
    | ⟨1, _⟩ => by show n.val = 0 + n.val; omega
    | ⟨2, _⟩ => by show 64 + j.val = 64 + j.val; rfl)

/-! ## The feature stack of the second cell -/

/-- Two 32 × 32768 states side by side as 128 features, node-major: 512 × 4096 with column 32·f + b. -/
def stack70 (x h : FVec Ideal S32x32768 .f32) : FVec Ideal S512x4096 .f32 :=
  shapeCast S512x4096
    (transpose S512x128x32 [1, 2, 0]
      (concatenate S32x512x128 2
        [⟨S32x512x64, shapeCast S32x512x64 x shapeCasts_S32x32768_S32x512x64⟩,
         ⟨S32x512x64, shapeCast S32x512x64 h shapeCasts_S32x32768_S32x512x64⟩]
        concatenates_S32x512x64_S32x512x64_S32x512x128_d2)
      transposes_S32x512x128_S512x128x32_1_2_0)
    shapeCasts_S512x128x32_S512x4096

/-- The stack at (n, 32·f + b) is the concatenation at (b, n, f). -/
theorem stack70_cat (x h : FVec Ideal S32x32768 .f32) (b : Fin 32) (n : Fin 512) (f : Fin 128) :
    stack70 x h (ix2 n (fcol f b))
      = concatenate S32x512x128 2
          [⟨S32x512x64, shapeCast S32x512x64 x shapeCasts_S32x32768_S32x512x64⟩,
           ⟨S32x512x64, shapeCast S32x512x64 h shapeCasts_S32x32768_S32x512x64⟩]
          concatenates_S32x512x64_S32x512x64_S32x512x128_d2 (ix3 b n f) := by
  have hb : b.val < 32 := b.isLt
  have hn : n.val < 512 := n.isLt
  have hf : f.val < 128 := f.isLt
  unfold stack70
  refine (shapeCast_apply _ _ (ix2 n (fcol f b)) (ix3 n f b) (by
    rw [Shape.rowMajor_val_three, Shape.rowMajor_val_two]
    show (n.val * 128 + f.val) * 32 + b.val = n.val * 4096 + (f.val * 32 + b.val)
    omega)).trans ?_
  exact transpose_apply _ _ _ (ix3 n f b) (ix3 b n f)
    (fun a => match a with | ⟨0, _⟩ => rfl | ⟨1, _⟩ => rfl | ⟨2, _⟩ => rfl)

/-- A 32 × 32768 state as 32 × 512 × 64, at (b, n, j). -/
theorem units3_apply (x : FVec Ideal S32x32768 .f32) (b : Fin 32) (n : Fin 512) (j : Fin 64) :
    shapeCast S32x512x64 x shapeCasts_S32x32768_S32x512x64 (ix3 b n j) = x (ix2 b (flat n j)) := by
  have hb : b.val < 32 := b.isLt
  have hn : n.val < 512 := n.isLt
  have hj : j.val < 64 := j.isLt
  exact shapeCast_apply _ _ (ix3 b n j) (ix2 b (flat n j)) (by
    rw [Shape.rowMajor_val_three, Shape.rowMajor_val_two]
    show b.val * 32768 + (n.val * 64 + j.val) = (b.val * 512 + n.val) * 64 + j.val
    omega)

/-- The input half of the stack. -/
theorem stack70_x (x h : FVec Ideal S32x32768 .f32) (b : Fin 32) (n : Fin 512) (j : Fin 64) :
    stack70 x h (ix2 n (fcol (fx j) b)) = x (ix2 b (flat n j)) := by
  refine (stack70_cat x h b n (fx j)).trans ?_
  refine (concatenate_pair_apply_left (s₁ := S32x512x64) (s₂ := S32x512x64) _ _ _ _ (ix3 b n (fx j)) rfl (ix3 b n j)
    (fun a => match a with | ⟨0, _⟩ => rfl | ⟨1, _⟩ => rfl | ⟨2, _⟩ => rfl)).trans ?_
  exact units3_apply x b n j

/-- The state half of the stack. -/
theorem stack70_h (x h : FVec Ideal S32x32768 .f32) (b : Fin 32) (n : Fin 512) (j : Fin 64) :
    stack70 x h (ix2 n (fcol (fh j) b)) = h (ix2 b (flat n j)) := by
  have hj : j.val < 64 := j.isLt
  refine (stack70_cat x h b n (fh j)).trans ?_
  refine (concatenate_pair_apply_right (s₁ := S32x512x64) (s₂ := S32x512x64) _ _ _ _ (ix3 b n (fh j)) rfl rfl (ix3 b n j)
    (fun a => match a with
      | ⟨0, _⟩ => fun _ => rfl
      | ⟨1, _⟩ => fun _ => rfl
      | ⟨2, _⟩ => fun hne => absurd (Fin.ext rfl) hne)
    (by show j.val + 64 = 64 + j.val; omega)).trans ?_
  exact units3_apply h b n j

/-! ## The two products read as sums -/

theorem lhs_A_0 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide),
    dif_pos (show (0 : Fin S512x512.rank) ∈ dot_S512x512_S512x4096_S512x4096_1_0_0_1_n_n.lhsNonContracting by decide)]
  rfl
theorem lhs_A_1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
theorem rhs_A_0 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
theorem rhs_A_1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide),
    dif_pos (show (1 : Fin S512x4096.rank) ∈ dot_S512x512_S512x4096_S512x4096_1_0_0_1_n_n.rhsNonContracting by decide)]
  rfl

/-- The adjacency times a 512 × 4096 stack, at (n, c): the sum over the nodes. -/
theorem adot (A : FVec Ideal S512x512 .f32) (Z : FVec Ideal S512x4096 .f32) (n : Fin 512) (c : Fin 4096) :
    Host.dotGeneral (F := Ideal) dot_S512x512_S512x4096_S512x4096_1_0_0_1_n_n none A Z (ix2 n c)
      = ∑ k : Fin 512, A (ix2 n k) * Z (ix2 k c) := by
  simp only [Host.dotGeneral]
  rw [Ideal.dotGeneral_apply, ← Equiv.sum_comp (contrEquiv1 dot_S512x512_S512x4096_S512x4096_1_0_0_1_n_n 512 rfl rfl).symm]
  refine Finset.sum_congr rfl fun k _ => ?_
  have hk := contrEquiv1_symm_val dot_S512x512_S512x4096_S512x4096_1_0_0_1_n_n 512 rfl rfl k
  have el : dot_S512x512_S512x4096_S512x4096_1_0_0_1_n_n.lhsIdx (ix2 n c) ((contrEquiv1 dot_S512x512_S512x4096_S512x4096_1_0_0_1_n_n 512 rfl rfl).symm k) = ix2 n k :=
    funext fun a => Fin.ext (by
      match a with
      | ⟨0, _⟩ => exact lhs_A_0 _ _
      | ⟨1, _⟩ => exact (lhs_A_1 _ _).trans hk)
  have er : dot_S512x512_S512x4096_S512x4096_1_0_0_1_n_n.rhsIdx (ix2 n c) ((contrEquiv1 dot_S512x512_S512x4096_S512x4096_1_0_0_1_n_n 512 rfl rfl).symm k) = ix2 k c :=
    funext fun a => Fin.ext (by
      match a with
      | ⟨0, _⟩ => exact (rhs_A_0 _ _).trans hk
      | ⟨1, _⟩ => exact rhs_A_1 _ _)
  rw [el, er]

theorem lhs_W_0 (i : S16384x128.Idx) (q : dot_S16384x384_S384x128_S16384x128_1_0_0_1_n_n.contr.Idx) :
    (dot_S16384x384_S384x128_S16384x128_1_0_0_1_n_n.lhsIdx i q 0).val = (i 0).val := by
  unfold DotDims.lhsIdx
  rw [dif_neg (show ¬(0 : Fin S16384x384.rank) ∈ dot_S16384x384_S384x128_S16384x128_1_0_0_1_n_n.lhsBatch by decide),
    dif_pos (show (0 : Fin S16384x384.rank) ∈ dot_S16384x384_S384x128_S16384x128_1_0_0_1_n_n.lhsNonContracting by decide)]
  rfl
theorem lhs_W_1 (i : S16384x128.Idx) (q : dot_S16384x384_S384x128_S16384x128_1_0_0_1_n_n.contr.Idx) :
    (dot_S16384x384_S384x128_S16384x128_1_0_0_1_n_n.lhsIdx i q 1).val = (q ⟨0, by decide⟩).val :=
  dot_S16384x384_S384x128_S16384x128_1_0_0_1_n_n.lhsIdx_val_of_single rfl i q
theorem rhs_W_0 (i : S16384x128.Idx) (q : dot_S16384x384_S384x128_S16384x128_1_0_0_1_n_n.contr.Idx) :
    (dot_S16384x384_S384x128_S16384x128_1_0_0_1_n_n.rhsIdx i q 0).val = (q ⟨0, by decide⟩).val :=
  dot_S16384x384_S384x128_S16384x128_1_0_0_1_n_n.rhsIdx_val_of_single rfl i q
theorem rhs_W_1 (i : S16384x128.Idx) (q : dot_S16384x384_S384x128_S16384x128_1_0_0_1_n_n.contr.Idx) :
    (dot_S16384x384_S384x128_S16384x128_1_0_0_1_n_n.rhsIdx i q 1).val = (i 1).val := by
  unfold DotDims.rhsIdx
  rw [dif_neg (show ¬(1 : Fin S384x128.rank) ∈ dot_S16384x384_S384x128_S16384x128_1_0_0_1_n_n.rhsBatch by decide),
    dif_pos (show (1 : Fin S384x128.rank) ∈ dot_S16384x384_S384x128_S16384x128_1_0_0_1_n_n.rhsNonContracting by decide)]
  rfl

/-- The 384-wide product with the gates' weight matrix, at (r, o): the sum over the weight rows. -/
theorem wdot (T : FVec Ideal S16384x384 .f32) (W : FVec Ideal S384x128 .f32) (r : Fin 16384) (o : Fin 128) :
    Host.dotGeneral (F := Ideal) dot_S16384x384_S384x128_S16384x128_1_0_0_1_n_n none T W (ix2 r o)
      = ∑ k : Fin 384, T (ix2 r k) * W (ix2 k o) := by
  simp only [Host.dotGeneral]
  rw [Ideal.dotGeneral_apply, ← Equiv.sum_comp (contrEquiv1 dot_S16384x384_S384x128_S16384x128_1_0_0_1_n_n 384 rfl rfl).symm]
  refine Finset.sum_congr rfl fun k _ => ?_
  have hk := contrEquiv1_symm_val dot_S16384x384_S384x128_S16384x128_1_0_0_1_n_n 384 rfl rfl k
  have el : dot_S16384x384_S384x128_S16384x128_1_0_0_1_n_n.lhsIdx (ix2 r o) ((contrEquiv1 dot_S16384x384_S384x128_S16384x128_1_0_0_1_n_n 384 rfl rfl).symm k) = ix2 r k :=
    funext fun a => Fin.ext (by
      match a with
      | ⟨0, _⟩ => exact lhs_W_0 _ _
      | ⟨1, _⟩ => exact (lhs_W_1 _ _).trans hk)
  have er : dot_S16384x384_S384x128_S16384x128_1_0_0_1_n_n.rhsIdx (ix2 r o) ((contrEquiv1 dot_S16384x384_S384x128_S16384x128_1_0_0_1_n_n 384 rfl rfl).symm k) = ix2 k o :=
    funext fun a => Fin.ext (by
      match a with
      | ⟨0, _⟩ => exact (rhs_W_0 _ _).trans hk
      | ⟨1, _⟩ => exact rhs_W_1 _ _)
  rw [el, er]

/-! ## The tap stack

Three 512 × 4096 stacks (the features, their first and their second diffusion tap) laid as rows 512·b + n and
columns 3·f + m. -/

/-- The left operand of the 384-wide product. -/
def lhs384 (p0 p1 p2 : FVec Ideal S512x4096 .f32) : FVec Ideal S16384x384 .f32 :=
  shapeCast S16384x384
    (transpose S32x512x128x3 [3, 1, 2, 0]
      (shapeCast S3x512x128x32
        (concatenate S3x512x4096 0
          [⟨S1x512x4096, broadcastInDim S1x512x4096 ![1, 2] bcast_S512x4096_S1x512x4096_1_2 p0⟩,
           ⟨S1x512x4096, broadcastInDim S1x512x4096 ![1, 2] bcast_S512x4096_S1x512x4096_1_2 p1⟩,
           ⟨S1x512x4096, broadcastInDim S1x512x4096 ![1, 2] bcast_S512x4096_S1x512x4096_1_2 p2⟩]
          concatenates_S1x512x4096_S1x512x4096_S1x512x4096_S3x512x4096_d0)
        shapeCasts_S3x512x4096_S3x512x128x32)
      transposes_S3x512x128x32_S32x512x128x3_3_1_2_0)
    shapeCasts_S32x512x128x3_S16384x384

/-- Row 512·b + n, column 3·f + m of the left operand is the stack of three at (m, n, 32·f + b). -/
theorem lhs384_cat (p0 p1 p2 : FVec Ideal S512x4096 .f32) (b : Fin 32) (n : Fin 512) (f : Fin 128) (m : Fin 3)
    (k : Fin 384) (hk : k.val = f.val * 3 + m.val) :
    lhs384 p0 p1 p2 (ix2 (srow b n) k)
      = concatenate S3x512x4096 0
          [⟨S1x512x4096, broadcastInDim S1x512x4096 ![1, 2] bcast_S512x4096_S1x512x4096_1_2 p0⟩,
           ⟨S1x512x4096, broadcastInDim S1x512x4096 ![1, 2] bcast_S512x4096_S1x512x4096_1_2 p1⟩,
           ⟨S1x512x4096, broadcastInDim S1x512x4096 ![1, 2] bcast_S512x4096_S1x512x4096_1_2 p2⟩]
          concatenates_S1x512x4096_S1x512x4096_S1x512x4096_S3x512x4096_d0 (ix3 m n (fcol f b)) := by
  have hb : b.val < 32 := b.isLt
  have hn : n.val < 512 := n.isLt
  have hf : f.val < 128 := f.isLt
  have hm : m.val < 3 := m.isLt
  unfold lhs384
  refine (shapeCast_apply _ _ (ix2 (srow b n) k) (ix4 b n f m) (by
    rw [Shape.rowMajor_val_four, Shape.rowMajor_val_two]
    show ((b.val * 512 + n.val) * 128 + f.val) * 3 + m.val = (b.val * 512 + n.val) * 384 + k.val
    omega)).trans ?_
  refine (transpose_apply _ _ _ (ix4 b n f m) (ix4 m n f b)
    (fun a => match a with | ⟨0, _⟩ => rfl | ⟨1, _⟩ => rfl | ⟨2, _⟩ => rfl | ⟨3, _⟩ => rfl)).trans ?_
  exact shapeCast_apply _ _ (ix4 m n f b) (ix3 m n (fcol f b)) (by
    rw [Shape.rowMajor_val_three, Shape.rowMajor_val_four]
    show (m.val * 512 + n.val) * 4096 + (f.val * 32 + b.val) = ((m.val * 512 + n.val) * 128 + f.val) * 32 + b.val
    omega)

/-- Tap 0 of the stack of three. -/
theorem cat3_0 (p0 p1 p2 : FVec Ideal S512x4096 .f32) (n : Fin 512) (c : Fin 4096) :
    concatenate S3x512x4096 0
          [⟨S1x512x4096, broadcastInDim S1x512x4096 ![1, 2] bcast_S512x4096_S1x512x4096_1_2 p0⟩,
           ⟨S1x512x4096, broadcastInDim S1x512x4096 ![1, 2] bcast_S512x4096_S1x512x4096_1_2 p1⟩,
           ⟨S1x512x4096, broadcastInDim S1x512x4096 ![1, 2] bcast_S512x4096_S1x512x4096_1_2 p2⟩]
          concatenates_S1x512x4096_S1x512x4096_S1x512x4096_S3x512x4096_d0 (ix3 (0 : Fin 3) n c)
      = p0 (ix2 n c) := by
  refine (concatenate_apply_piece _ _ _ (ix3 (0 : Fin 3) n c) 0 (by show (0 : Nat) < 3; omega) S1x512x4096 _ rfl rfl 0 rfl
    (ix3 (0 : Fin 1) n c)
    (fun a => match a with
      | ⟨0, _⟩ => fun hne => absurd (Fin.ext rfl) hne
      | ⟨1, _⟩ => fun _ => rfl
      | ⟨2, _⟩ => fun _ => rfl)
    (by show 0 + 0 = 0; rfl)).trans ?_
  exact broadcastInDim_apply _ _ _ (ix3 (0 : Fin 1) n c) (ix2 n c) (fun a => match a with
    | ⟨0, _⟩ => by show n.val = if (512 : Nat) = 1 then 0 else n.val; rfl
    | ⟨1, _⟩ => by show c.val = if (4096 : Nat) = 1 then 0 else c.val; rfl)

/-- Weight row 3·f + 0 of the tap stack reads tap 0 of feature f. -/
theorem lhs384_0 (p0 p1 p2 : FVec Ideal S512x4096 .f32) (b : Fin 32) (n : Fin 512) (f : Fin 128) (k : Fin 384)
    (hk : k.val = f.val * 3 + 0) :
    lhs384 p0 p1 p2 (ix2 (srow b n) k) = p0 (ix2 n (fcol f b)) :=
  (lhs384_cat p0 p1 p2 b n f (0 : Fin 3) k hk).trans (cat3_0 p0 p1 p2 n (fcol f b))

/-- Tap 1 of the stack of three. -/
theorem cat3_1 (p0 p1 p2 : FVec Ideal S512x4096 .f32) (n : Fin 512) (c : Fin 4096) :
    concatenate S3x512x4096 0
          [⟨S1x512x4096, broadcastInDim S1x512x4096 ![1, 2] bcast_S512x4096_S1x512x4096_1_2 p0⟩,
           ⟨S1x512x4096, broadcastInDim S1x512x4096 ![1, 2] bcast_S512x4096_S1x512x4096_1_2 p1⟩,
           ⟨S1x512x4096, broadcastInDim S1x512x4096 ![1, 2] bcast_S512x4096_S1x512x4096_1_2 p2⟩]
          concatenates_S1x512x4096_S1x512x4096_S1x512x4096_S3x512x4096_d0 (ix3 (1 : Fin 3) n c)
      = p1 (ix2 n c) := by
  refine (concatenate_apply_piece _ _ _ (ix3 (1 : Fin 3) n c) 1 (by show (1 : Nat) < 3; omega) S1x512x4096 _ rfl rfl 1 rfl
    (ix3 (0 : Fin 1) n c)
    (fun a => match a with
      | ⟨0, _⟩ => fun hne => absurd (Fin.ext rfl) hne
      | ⟨1, _⟩ => fun _ => rfl
      | ⟨2, _⟩ => fun _ => rfl)
    (by show 1 + 0 = 1; rfl)).trans ?_
  exact broadcastInDim_apply _ _ _ (ix3 (0 : Fin 1) n c) (ix2 n c) (fun a => match a with
    | ⟨0, _⟩ => by show n.val = if (512 : Nat) = 1 then 0 else n.val; rfl
    | ⟨1, _⟩ => by show c.val = if (4096 : Nat) = 1 then 0 else c.val; rfl)

/-- Weight row 3·f + 1 of the tap stack reads tap 1 of feature f. -/
theorem lhs384_1 (p0 p1 p2 : FVec Ideal S512x4096 .f32) (b : Fin 32) (n : Fin 512) (f : Fin 128) (k : Fin 384)
    (hk : k.val = f.val * 3 + 1) :
    lhs384 p0 p1 p2 (ix2 (srow b n) k) = p1 (ix2 n (fcol f b)) :=
  (lhs384_cat p0 p1 p2 b n f (1 : Fin 3) k hk).trans (cat3_1 p0 p1 p2 n (fcol f b))

/-- Tap 2 of the stack of three. -/
theorem cat3_2 (p0 p1 p2 : FVec Ideal S512x4096 .f32) (n : Fin 512) (c : Fin 4096) :
    concatenate S3x512x4096 0
          [⟨S1x512x4096, broadcastInDim S1x512x4096 ![1, 2] bcast_S512x4096_S1x512x4096_1_2 p0⟩,
           ⟨S1x512x4096, broadcastInDim S1x512x4096 ![1, 2] bcast_S512x4096_S1x512x4096_1_2 p1⟩,
           ⟨S1x512x4096, broadcastInDim S1x512x4096 ![1, 2] bcast_S512x4096_S1x512x4096_1_2 p2⟩]
          concatenates_S1x512x4096_S1x512x4096_S1x512x4096_S3x512x4096_d0 (ix3 (2 : Fin 3) n c)
      = p2 (ix2 n c) := by
  refine (concatenate_apply_piece _ _ _ (ix3 (2 : Fin 3) n c) 2 (by show (2 : Nat) < 3; omega) S1x512x4096 _ rfl rfl 2 rfl
    (ix3 (0 : Fin 1) n c)
    (fun a => match a with
      | ⟨0, _⟩ => fun hne => absurd (Fin.ext rfl) hne
      | ⟨1, _⟩ => fun _ => rfl
      | ⟨2, _⟩ => fun _ => rfl)
    (by show 2 + 0 = 2; rfl)).trans ?_
  exact broadcastInDim_apply _ _ _ (ix3 (0 : Fin 1) n c) (ix2 n c) (fun a => match a with
    | ⟨0, _⟩ => by show n.val = if (512 : Nat) = 1 then 0 else n.val; rfl
    | ⟨1, _⟩ => by show c.val = if (4096 : Nat) = 1 then 0 else c.val; rfl)

/-- Weight row 3·f + 2 of the tap stack reads tap 2 of feature f. -/
theorem lhs384_2 (p0 p1 p2 : FVec Ideal S512x4096 .f32) (b : Fin 32) (n : Fin 512) (f : Fin 128) (k : Fin 384)
    (hk : k.val = f.val * 3 + 2) :
    lhs384 p0 p1 p2 (ix2 (srow b n) k) = p2 (ix2 n (fcol f b)) :=
  (lhs384_cat p0 p1 p2 b n f (2 : Fin 3) k hk).trans (cat3_2 p0 p1 p2 n (fcol f b))

/-! ## Bias, third tap, logistic -/

/-- The gates' bias broadcast over the rows. -/
theorem bias128_apply (bv : FVec Ideal S128 .f32) (r : Fin 16384) (o : Fin 128) :
    broadcastInDim S16384x128 ![0, 1] bcast_S1x128_S16384x128_0_1
        (broadcastInDim S1x128 ![1] bcast_S128_S1x128_1 bv) (ix2 r o)
      = bv (ix1 o) := by
  refine (broadcastInDim_apply _ _ _ (ix2 r o) (ix2 (0 : Fin 1) o) (fun a => match a with
    | ⟨0, _⟩ => by show (0 : Nat) = if (1 : Nat) = 1 then 0 else r.val; rfl
    | ⟨1, _⟩ => by show o.val = if (128 : Nat) = 1 then 0 else o.val; rfl)).trans ?_
  exact broadcastInDim_apply _ _ _ (ix2 (0 : Fin 1) o) (ix1 o) (fun a => match a with
    | ⟨0, _⟩ => by show o.val = if (128 : Nat) = 1 then 0 else o.val; rfl)

/-- The third tap 2·D − Z, elementwise. -/
theorem tapTwo_apply (D Z : FVec Ideal S512x4096 .f32) (i : S512x4096.Idx) :
    subf (mulf (broadcastInDim S512x4096 ![] bcast_S_S512x4096 (constant (F := Ideal) S_ .f32 0x40000000#32)) D) Z i
      = two * D i - Z i := rfl

/-- The logistic written out over the rows' pre-activation, as 32 × 512 × 128. -/
def gateOf (pre : FVec Ideal S16384x128 .f32) : FVec Ideal S32x512x128 .f32 :=
  shapeCast S32x512x128
    (Host.divf (F := Ideal) (broadcastInDim S32x65536 ![] bcast_S_S32x65536 (constant (F := Ideal) S_ .f32 0x3F800000#32))
      (addf (broadcastInDim S32x65536 ![] bcast_S_S32x65536 (constant (F := Ideal) S_ .f32 0x3F800000#32))
        (Host.exp (Host.negf (shapeCast S32x65536 pre shapeCasts_S16384x128_S32x65536)))))
    shapeCasts_S32x65536_S32x512x128

/-- At (b, n, o) it is the logistic of the pre-activation at row 512·b + n, column o. -/
theorem gateOf_apply (pre : FVec Ideal S16384x128 .f32) (b : Fin 32) (n : Fin 512) (o : Fin 128) :
    gateOf pre (ix3 b n o) = Ideal.logistic (pre (ix2 (srow b n) o)) := by
  have hb : b.val < 32 := b.isLt
  have hn : n.val < 512 := n.isLt
  have ho : o.val < 128 := o.isLt
  have e : shapeCast S32x65536 pre shapeCasts_S16384x128_S32x65536
        (ix2 b (⟨n.val * 128 + o.val, by omega⟩ : Fin 65536)) = pre (ix2 (srow b n) o) :=
    shapeCast_apply _ _ (ix2 b (⟨n.val * 128 + o.val, by omega⟩ : Fin 65536)) (ix2 (srow b n) o) (by
      rw [Shape.rowMajor_val_two, Shape.rowMajor_val_two]
      show (b.val * 512 + n.val) * 128 + o.val = b.val * 65536 + (n.val * 128 + o.val)
      omega)
  unfold gateOf
  refine (shapeCast_apply _ _ (ix3 b n o) (ix2 b (⟨n.val * 128 + o.val, by omega⟩ : Fin 65536)) (by
    rw [Shape.rowMajor_val_two, Shape.rowMajor_val_three]
    show b.val * 65536 + (n.val * 128 + o.val) = (b.val * 512 + n.val) * 128 + o.val
    omega)).trans ?_
  exact (congrArg (fun t => Ideal.div one (one + Ideal.exp (-t))) e).trans (logistic_spelled _)

/-! ## The gates over any operands

With an adjacency A, a weight matrix W, a bias and the two 32 × 32768 states x (the cell's input units) and h
(its state units): column c of the feature stack as a function of the node; the adjacency product is one
diffusion step of every column, and 2·A(A z) − z its second tap; the 384-wide product regroups into the
graph convolution. -/

section Operands

variable (A : FVec Ideal S512x512 .f32) (x h : FVec Ideal S32x32768 .f32)

/-- The adjacency as a function of two nodes. -/
def adjOf (n k : Fin 512) : EReal := A (ix2 n k)

/-- Column c of the feature stack, as a function of the node. -/
def colOf (c : Fin 4096) (n : Fin 512) : EReal := stack70 x h (ix2 n c)

/-- Input unit j of sample b. -/
theorem colOf_x (b : Fin 32) (j : Fin 64) : colOf x h (fcol (fx j) b) = fun n => x (ix2 b (flat n j)) :=
  funext fun n => stack70_x x h b n j

/-- State unit j of sample b. -/
theorem colOf_h (b : Fin 32) (j : Fin 64) : colOf x h (fcol (fh j) b) = fun n => h (ix2 b (flat n j)) :=
  funext fun n => stack70_h x h b n j

/-- The first tap's stack. -/
def tap1 : FVec Ideal S512x4096 .f32 := Host.dotGeneral (F := Ideal) dot_S512x512_S512x4096_S512x4096_1_0_0_1_n_n none A (stack70 x h)

theorem tap1_apply (n : Fin 512) (c : Fin 4096) : tap1 A x h (ix2 n c) = hop (adjOf A) (colOf x h c) n := by
  unfold tap1
  exact adot _ _ n c

/-- The second tap's stack. -/
def tap2 : FVec Ideal S512x4096 .f32 :=
  subf (mulf (broadcastInDim S512x4096 ![] bcast_S_S512x4096 (constant (F := Ideal) S_ .f32 0x40000000#32))
    (Host.dotGeneral (F := Ideal) dot_S512x512_S512x4096_S512x4096_1_0_0_1_n_n none A (tap1 A x h))) (stack70 x h)

theorem tap2_apply (n : Fin 512) (c : Fin 4096) : tap2 A x h (ix2 n c) = hop2 (adjOf A) (colOf x h c) n := by
  have e : (∑ k : Fin 512, A (ix2 n k) * tap1 A x h (ix2 k c)) = hop (adjOf A) (hop (adjOf A) (colOf x h c)) n :=
    show _ = ∑ k : Fin 512, adjOf A n k * hop (adjOf A) (colOf x h c) k from
      Finset.sum_congr rfl fun k _ => by rw [tap1_apply]; rfl
  unfold tap2
  rw [tapTwo_apply, adot, e]
  rfl

/-! The six blocks of weight rows: input and state units, tap by tap. -/

theorem lhs_x0 (b : Fin 32) (n : Fin 512) (j : Fin 64) :
    lhs384 (stack70 x h) (tap1 A x h) (tap2 A x h) (ix2 (srow b n) (w1x 0 j))
      = x (ix2 b (flat n j)) :=
  (lhs384_0 _ _ _ b n (fx j) (w1x 0 j) rfl).trans (congrFun (colOf_x x h b j) n)

theorem lhs_x1 (b : Fin 32) (n : Fin 512) (j : Fin 64) :
    lhs384 (stack70 x h) (tap1 A x h) (tap2 A x h) (ix2 (srow b n) (w1x 1 j))
      = hop (adjOf A) (fun k => x (ix2 b (flat k j))) n :=
  (lhs384_1 _ _ _ b n (fx j) (w1x 1 j) rfl).trans ((tap1_apply A x h n _).trans (by rw [colOf_x]))

theorem lhs_x2 (b : Fin 32) (n : Fin 512) (j : Fin 64) :
    lhs384 (stack70 x h) (tap1 A x h) (tap2 A x h) (ix2 (srow b n) (w1x 2 j))
      = hop2 (adjOf A) (fun k => x (ix2 b (flat k j))) n :=
  (lhs384_2 _ _ _ b n (fx j) (w1x 2 j) rfl).trans ((tap2_apply A x h n _).trans (by rw [colOf_x]))

theorem lhs_h0 (b : Fin 32) (n : Fin 512) (j : Fin 64) :
    lhs384 (stack70 x h) (tap1 A x h) (tap2 A x h) (ix2 (srow b n) (w1h 0 j))
      = h (ix2 b (flat n j)) :=
  (lhs384_0 _ _ _ b n (fh j) (w1h 0 j) rfl).trans (congrFun (colOf_h x h b j) n)

theorem lhs_h1 (b : Fin 32) (n : Fin 512) (j : Fin 64) :
    lhs384 (stack70 x h) (tap1 A x h) (tap2 A x h) (ix2 (srow b n) (w1h 1 j))
      = hop (adjOf A) (fun k => h (ix2 b (flat k j))) n :=
  (lhs384_1 _ _ _ b n (fh j) (w1h 1 j) rfl).trans ((tap1_apply A x h n _).trans (by rw [colOf_h]))

theorem lhs_h2 (b : Fin 32) (n : Fin 512) (j : Fin 64) :
    lhs384 (stack70 x h) (tap1 A x h) (tap2 A x h) (ix2 (srow b n) (w1h 2 j))
      = hop2 (adjOf A) (fun k => h (ix2 b (flat k j))) n :=
  (lhs384_2 _ _ _ b n (fh j) (w1h 2 j) rfl).trans ((tap2_apply A x h n _).trans (by rw [colOf_h]))

variable (W : FVec Ideal S384x128 .f32) (bv : FVec Ideal S128 .f32)

/-- The rows' pre-activation of the gates. -/
def preact : FVec Ideal S16384x128 .f32 :=
  addf (Host.dotGeneral (F := Ideal) dot_S16384x384_S384x128_S16384x128_1_0_0_1_n_n none
      (lhs384 (stack70 x h) (tap1 A x h) (tap2 A x h)) W)
    (broadcastInDim S16384x128 ![0, 1] bcast_S1x128_S16384x128_0_1
      (broadcastInDim S1x128 ![1] bcast_S128_S1x128_1 bv))

/-- The pre-activation is the graph convolution of the input columns x and the state columns h. -/
theorem preact_apply (b : Fin 32) (n : Fin 512) (o : Fin 128) :
    preact A x h W bv (ix2 (srow b n) o)
      = gconv1 (adjOf A) (fun k o => W (ix2 k o)) (fun o => bv (ix1 o))
          (fun j n => x (ix2 b (flat n j))) (fun j n => h (ix2 b (flat n j))) n o := by
  unfold preact
  rw [addf_apply, wdot, bias128_apply]
  refine (sum384_split
    (fun k => lhs384 (stack70 x h) (tap1 A x h) (tap2 A x h) (ix2 (srow b n) k) * W (ix2 k o))
    (bv (ix1 o))).trans ?_
  simp only [lhs_x0, lhs_x1, lhs_x2, lhs_h0, lhs_h1, lhs_h2]
  rfl

/-- Both gates over any operands. -/
theorem gates_apply (b : Fin 32) (n : Fin 512) (o : Fin 128) :
    gateOf (preact A x h W bv) (ix3 b n o)
      = Ideal.logistic (gconv1 (adjOf A) (fun k o => W (ix2 k o)) (fun o => bv (ix1 o))
          (fun j n => x (ix2 b (flat n j))) (fun j n => h (ix2 b (flat n j))) n o) := by
  rw [gateOf_apply, preact_apply]

end Operands

/-! ## The run's intermediates -/

variable (V0 : Valuation τ sig (Elt Ideal))
variable (v63_sem : ∀ (b : Fin 32) (n : Fin 512) (j : Fin 64), (res_main_v63 V0 : FVec Ideal S32x32768 .f32) (ix2 b (flat n j)) = (refParams V0).hn0 (refX V0 b) (refH V0 0 b) n j)

/-- The second hidden state, sample by (node, unit). -/
theorem v65_sem (b : Fin 32) (n : Fin 512) (j : Fin 64) :
    (res_main_v65 V0 : FVec Ideal S32x32768 .f32) (ix2 b (flat n j)) = refH V0 1 b n j := by
  unfold res_main_v65
  exact hidden1_apply _ b (flat n j)

/-- The run's gates are the gates over its own operands: the adjacency, the first cell's new state and the second
    hidden state as the two halves of the feature stack, the second cell's gate weights and bias. -/
theorem v94_eq :
    (res_main_v94 V0 : FVec Ideal S32x512x128 .f32)
      = gateOf (preact (aAdj V0) (res_main_v63 V0) (res_main_v65 V0) (aWg1 V0) (aBg1 V0)) := rfl

include v63_sem in
/-- Both gates of the second cell. -/
theorem v94_sem (b : Fin 32) (n : Fin 512) (o : Fin 128) :
    (res_main_v94 V0 : FVec Ideal S32x512x128 .f32) (ix3 b n o)
      = (refParams V0).gate1 (refX V0 b) (refH V0 0 b) (refH V0 1 b) n o := by
  have hx : (fun (j : Fin 64) (n : Fin 512) => (res_main_v63 V0 : FVec Ideal S32x32768 .f32) (ix2 b (flat n j)))
      = fun j n => (refParams V0).hn0 (refX V0 b) (refH V0 0 b) n j := by
    funext j n; exact v63_sem b n j
  have hh : (fun (j : Fin 64) (n : Fin 512) => (res_main_v65 V0 : FVec Ideal S32x32768 .f32) (ix2 b (flat n j)))
      = fun j n => refH V0 1 b n j := by
    funext j n; exact v65_sem V0 b n j
  rw [v94_eq, gates_apply]
  exact congrArg₂
    (fun xs s => Ideal.logistic (gconv1 (refParams V0).A (refParams V0).Wg1 (refParams V0).bg1 xs s n o)) hx hh

include v63_sem in
/-- The update gate of the second cell. -/
theorem v98_sem (b : Fin 32) (n : Fin 512) (j : Fin 64) :
    (res_main_v98 V0 : FVec Ideal S32x32768 .f32) (ix2 b (flat n j))
      = (refParams V0).gate1 (refX V0 b) (refH V0 0 b) (refH V0 1 b) n (hi j) := by
  unfold res_main_v98
  exact (upd_apply _ b n j).trans (v94_sem V0 v63_sem b n (hi j))

end Cert.ReferenceIdeal.R1G

end
-- ==== Proof.R1C.lean ====
/-
  Second cell, candidate and new state, in the reference.

  The feature stack of the second cell is 512 × 4096 with column `32·f + b`: feature columns 0…63 are the first
  cell's new state, 64…127 the reset gate times the second hidden state. Its three diffusion taps are laid under one
  leading axis and carried to rows `512·b + n`, columns `3·f + m`; one 384-wide product with the candidate's weight
  matrix plus the bias is then the graph convolution, the 384 terms regrouped by tap into state and input blocks.
  The new state is `u · h₁ + (1 − u) · tanh` of it.
-/
import proofs.«152469_g44504451121623_cont_8to1_c_180_12_alg».proof.Proof.RSem
import proofs.«152469_g44504451121623_cont_8to1_c_180_12_alg».proof.Proof.SpecSums
import Idealize.ShloMosaic.Lib.Pipeline.Value
import Idealize.ShloMosaic.Lib.ValueIdx
import Idealize.ShloMosaic.PureOps.Ideal.Laws

noncomputable section

namespace Cert.ReferenceIdeal.R1C

open Cert.ReferenceIdeal Cert.ReferenceIdeal.Gen Cert.ReferenceIdeal.Value Cert.ReferenceIdeal.Sem Cert.Dcgru
open Idealize.ShloMosaic Idealize.ShloMosaic.TcCoe Idealize.ShloMosaic.StableHlo ValueIdx

variable (V0 : Valuation τ sig (Elt Ideal))
variable (v63_sem : ∀ (b : Fin 32) (n : Fin 512) (j : Fin 64), (res_main_v63 V0 : FVec Ideal S32x32768 .f32) (ix2 b (flat n j)) = (refParams V0).hn0 (refX V0 b) (refH V0 0 b) n j)
    (v65_sem : ∀ (b : Fin 32) (n : Fin 512) (j : Fin 64), (res_main_v65 V0 : FVec Ideal S32x32768 .f32) (ix2 b (flat n j)) = refH V0 1 b n j)
    (v94_sem : ∀ (b : Fin 32) (n : Fin 512) (o : Fin 128), (res_main_v94 V0 : FVec Ideal S32x512x128 .f32) (ix3 b n o) = (refParams V0).gate1 (refX V0 b) (refH V0 0 b) (refH V0 1 b) n o)
    (v98_sem : ∀ (b : Fin 32) (n : Fin 512) (j : Fin 64), (res_main_v98 V0 : FVec Ideal S32x32768 .f32) (ix2 b (flat n j)) = (refParams V0).gate1 (refX V0 b) (refH V0 0 b) (refH V0 1 b) n (hi j))

/-! ## Positions -/

/-- Column `32·f + b` of a feature stack: feature column `f`, sample `b`. -/
def col (f : Fin 128) (b : Fin 32) : Fin 4096 := ⟨f.val * 32 + b.val, by have := f.isLt; have := b.isLt; omega⟩
/-- Row `512·b + n` of the tap stack: sample `b`, node `n`. -/
def row (b : Fin 32) (n : Fin 512) : Fin 16384 := ⟨b.val * 512 + n.val, by have := b.isLt; have := n.isLt; omega⟩
/-- Weight row `3·f + m`: feature column `f`, tap `m`. -/
def wrow (f : Fin 128) (m : Fin 3) : Fin 384 := ⟨f.val * 3 + m.val, by have := f.isLt; have := m.isLt; omega⟩

/-! ## The two products read as sums over the contracted coordinate -/

theorem lhs_diff_0 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl
theorem lhs_diff_1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
theorem rhs_diff_0 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
theorem rhs_diff_1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

/-- The adjacency times a feature stack, entry by entry. -/
theorem diff_apply (A : FVec Ideal S512x512 .f32) (X : FVec Ideal S512x4096 .f32) (r : Fin 512) (c : Fin 4096) :
    Host.dotGeneral dot_S512x512_S512x4096_S512x4096_1_0_0_1_n_n none A X (ix2 r c)
      = ∑ k : Fin 512, A (ix2 r k) * X (ix2 k c) := by
  simp only [Host.dotGeneral]
  rw [Ideal.dotGeneral_apply, ← Equiv.sum_comp (contrEquiv1 dot_S512x512_S512x4096_S512x4096_1_0_0_1_n_n 512 rfl rfl).symm]
  refine Finset.sum_congr rfl fun k _ => ?_
  have hk := contrEquiv1_symm_val dot_S512x512_S512x4096_S512x4096_1_0_0_1_n_n 512 rfl rfl k
  have el : dot_S512x512_S512x4096_S512x4096_1_0_0_1_n_n.lhsIdx (ix2 r c) ((contrEquiv1 dot_S512x512_S512x4096_S512x4096_1_0_0_1_n_n 512 rfl rfl).symm k) = ix2 r k :=
    funext fun a => Fin.ext (by
      match a with
      | ⟨0, _⟩ => exact lhs_diff_0 _ _
      | ⟨1, _⟩ => exact (lhs_diff_1 _ _).trans hk)
  have er : dot_S512x512_S512x4096_S512x4096_1_0_0_1_n_n.rhsIdx (ix2 r c) ((contrEquiv1 dot_S512x512_S512x4096_S512x4096_1_0_0_1_n_n 512 rfl rfl).symm k) = ix2 k c :=
    funext fun a => Fin.ext (by
      match a with
      | ⟨0, _⟩ => exact (rhs_diff_0 _ _).trans hk
      | ⟨1, _⟩ => exact rhs_diff_1 _ _)
  rw [el, er]

theorem lhs_wmm_0 (i : S16384x64.Idx) (q : dot_S16384x384_S384x64_S16384x64_1_0_0_1_n_n.contr.Idx) :
    (dot_S16384x384_S384x64_S16384x64_1_0_0_1_n_n.lhsIdx i q 0).val = (i 0).val := by
  unfold DotDims.lhsIdx
  rw [dif_neg (show ¬(0 : Fin S16384x384.rank) ∈ dot_S16384x384_S384x64_S16384x64_1_0_0_1_n_n.lhsBatch by decide), dif_pos (show (0 : Fin S16384x384.rank) ∈ dot_S16384x384_S384x64_S16384x64_1_0_0_1_n_n.lhsNonContracting by decide)]
  rfl
theorem lhs_wmm_1 (i : S16384x64.Idx) (q : dot_S16384x384_S384x64_S16384x64_1_0_0_1_n_n.contr.Idx) :
    (dot_S16384x384_S384x64_S16384x64_1_0_0_1_n_n.lhsIdx i q 1).val = (q ⟨0, by decide⟩).val :=
  dot_S16384x384_S384x64_S16384x64_1_0_0_1_n_n.lhsIdx_val_of_single rfl i q
theorem rhs_wmm_0 (i : S16384x64.Idx) (q : dot_S16384x384_S384x64_S16384x64_1_0_0_1_n_n.contr.Idx) :
    (dot_S16384x384_S384x64_S16384x64_1_0_0_1_n_n.rhsIdx i q 0).val = (q ⟨0, by decide⟩).val :=
  dot_S16384x384_S384x64_S16384x64_1_0_0_1_n_n.rhsIdx_val_of_single rfl i q
theorem rhs_wmm_1 (i : S16384x64.Idx) (q : dot_S16384x384_S384x64_S16384x64_1_0_0_1_n_n.contr.Idx) :
    (dot_S16384x384_S384x64_S16384x64_1_0_0_1_n_n.rhsIdx i q 1).val = (i 1).val := by
  unfold DotDims.rhsIdx
  rw [dif_neg (show ¬(1 : Fin S384x64.rank) ∈ dot_S16384x384_S384x64_S16384x64_1_0_0_1_n_n.rhsBatch by decide), dif_pos (show (1 : Fin S384x64.rank) ∈ dot_S16384x384_S384x64_S16384x64_1_0_0_1_n_n.rhsNonContracting by decide)]
  rfl

/-- The tap stack times the candidate's weight matrix, entry by entry. -/
theorem wmm_apply (L : FVec Ideal S16384x384 .f32) (W : FVec Ideal S384x64 .f32) (r : Fin 16384) (c : Fin 64) :
    Host.dotGeneral dot_S16384x384_S384x64_S16384x64_1_0_0_1_n_n none L W (ix2 r c)
      = ∑ k : Fin 384, L (ix2 r k) * W (ix2 k c) := by
  simp only [Host.dotGeneral]
  rw [Ideal.dotGeneral_apply, ← Equiv.sum_comp (contrEquiv1 dot_S16384x384_S384x64_S16384x64_1_0_0_1_n_n 384 rfl rfl).symm]
  refine Finset.sum_congr rfl fun k _ => ?_
  have hk := contrEquiv1_symm_val dot_S16384x384_S384x64_S16384x64_1_0_0_1_n_n 384 rfl rfl k
  have el : dot_S16384x384_S384x64_S16384x64_1_0_0_1_n_n.lhsIdx (ix2 r c) ((contrEquiv1 dot_S16384x384_S384x64_S16384x64_1_0_0_1_n_n 384 rfl rfl).symm k) = ix2 r k :=
    funext fun a => Fin.ext (by
      match a with
      | ⟨0, _⟩ => exact lhs_wmm_0 _ _
      | ⟨1, _⟩ => exact (lhs_wmm_1 _ _).trans hk)
  have er : dot_S16384x384_S384x64_S16384x64_1_0_0_1_n_n.rhsIdx (ix2 r c) ((contrEquiv1 dot_S16384x384_S384x64_S16384x64_1_0_0_1_n_n 384 rfl rfl).symm k) = ix2 k c :=
    funext fun a => Fin.ext (by
      match a with
      | ⟨0, _⟩ => exact (rhs_wmm_0 _ _).trans hk
      | ⟨1, _⟩ => exact rhs_wmm_1 _ _)
  rw [el, er]

/-! ## Layout: the feature stack -/

/-- The feature stack of two state-shaped arrays at a column of the first. -/
theorem stack_lo (p q : FVec Ideal S32x32768 .f32) (n : Fin 512) (j : Fin 64) (b : Fin 32) :
    (shapeCast S512x4096 (transpose S512x128x32 [1, 2, 0] (concatenate S32x512x128 2 [⟨S32x512x64, shapeCast S32x512x64 p shapeCasts_S32x32768_S32x512x64⟩, ⟨S32x512x64, shapeCast S32x512x64 q shapeCasts_S32x32768_S32x512x64⟩] concatenates_S32x512x64_S32x512x64_S32x512x128_d2) transposes_S32x512x128_S512x128x32_1_2_0) shapeCasts_S512x128x32_S512x4096 : FVec Ideal S512x4096 .f32) (ix2 n (col (lo j) b)) = p (ix2 b (flat n j)) := by
  refine (shapeCast_apply _ _ (ix2 n (col (lo j) b)) (ix3 n (lo j) b) (by
    rw [Shape.rowMajor_val_three, Shape.rowMajor_val_two]
    show (n.val * 128 + j.val) * 32 + b.val = n.val * 4096 + (j.val * 32 + b.val)
    omega)).trans ?_
  refine (transpose_apply _ _ _ (ix3 n (lo j) b) (ix3 b n (lo j))
    (fun a => match a with | ⟨0, _⟩ => rfl | ⟨1, _⟩ => rfl | ⟨2, _⟩ => rfl)).trans ?_
  refine (concatenate_pair_apply_left (s₁ := S32x512x64) (s₂ := S32x512x64) (2 : Fin 3) _ _ _ (ix3 b n (lo j)) rfl (ix3 b n j)
    (fun a => match a with | ⟨0, _⟩ => rfl | ⟨1, _⟩ => rfl | ⟨2, _⟩ => rfl)).trans ?_
  exact shapeCast_apply _ _ (ix3 b n j) (ix2 b (flat n j)) (by
    rw [Shape.rowMajor_val_two, Shape.rowMajor_val_three]
    show b.val * 32768 + (n.val * 64 + j.val) = (b.val * 512 + n.val) * 64 + j.val
    omega)

/-- The feature stack at a column of the second. -/
theorem stack_hi (p q : FVec Ideal S32x32768 .f32) (n : Fin 512) (j : Fin 64) (b : Fin 32) :
    (shapeCast S512x4096 (transpose S512x128x32 [1, 2, 0] (concatenate S32x512x128 2 [⟨S32x512x64, shapeCast S32x512x64 p shapeCasts_S32x32768_S32x512x64⟩, ⟨S32x512x64, shapeCast S32x512x64 q shapeCasts_S32x32768_S32x512x64⟩] concatenates_S32x512x64_S32x512x64_S32x512x128_d2) transposes_S32x512x128_S512x128x32_1_2_0) shapeCasts_S512x128x32_S512x4096 : FVec Ideal S512x4096 .f32) (ix2 n (col (hi j) b)) = q (ix2 b (flat n j)) := by
  refine (shapeCast_apply _ _ (ix2 n (col (hi j) b)) (ix3 n (hi j) b) (by
    rw [Shape.rowMajor_val_three, Shape.rowMajor_val_two]
    show (n.val * 128 + (64 + j.val)) * 32 + b.val = n.val * 4096 + ((64 + j.val) * 32 + b.val)
    omega)).trans ?_
  refine (transpose_apply _ _ _ (ix3 n (hi j) b) (ix3 b n (hi j))
    (fun a => match a with | ⟨0, _⟩ => rfl | ⟨1, _⟩ => rfl | ⟨2, _⟩ => rfl)).trans ?_
  refine (concatenate_pair_apply_right (s₁ := S32x512x64) (s₂ := S32x512x64) (2 : Fin 3) _ _ _ (ix3 b n (hi j)) rfl rfl (ix3 b n j)
    (fun a => match a with
      | ⟨0, _⟩ => fun _ => rfl
      | ⟨1, _⟩ => fun _ => rfl
      | ⟨2, _⟩ => fun h => absurd rfl h)
    (by show j.val + 64 = 64 + j.val; omega)).trans ?_
  exact shapeCast_apply _ _ (ix3 b n j) (ix2 b (flat n j)) (by
    rw [Shape.rowMajor_val_two, Shape.rowMajor_val_three]
    show b.val * 32768 + (n.val * 64 + j.val) = (b.val * 512 + n.val) * 64 + j.val
    omega)

/-! ## Layout: the tap stack -/

/-- Row `512·b + n`, column `3·f + m` of the tap stack is tap `m` at node `n`, column `32·f + b`. -/
theorem taps_to_cat (C : FVec Ideal S3x512x4096 .f32) (b : Fin 32) (n : Fin 512) (f : Fin 128) (m : Fin 3) :
    (shapeCast S16384x384 (transpose S32x512x128x3 [3, 1, 2, 0] (shapeCast S3x512x128x32 C shapeCasts_S3x512x4096_S3x512x128x32) transposes_S3x512x128x32_S32x512x128x3_3_1_2_0) shapeCasts_S32x512x128x3_S16384x384 : FVec Ideal S16384x384 .f32) (ix2 (row b n) (wrow f m))
      = C (ix3 m n (col f b)) := by
  refine (shapeCast_apply _ _ (ix2 (row b n) (wrow f m)) (ix4 b n f m) (by
    rw [Shape.rowMajor_val_four, Shape.rowMajor_val_two]
    show ((b.val * 512 + n.val) * 128 + f.val) * 3 + m.val = (b.val * 512 + n.val) * 384 + (f.val * 3 + m.val)
    omega)).trans ?_
  refine (transpose_apply _ _ _ (ix4 b n f m) (ix4 m n f b)
    (fun a => match a with | ⟨0, _⟩ => rfl | ⟨1, _⟩ => rfl | ⟨2, _⟩ => rfl | ⟨3, _⟩ => rfl)).trans ?_
  exact shapeCast_apply _ _ (ix4 m n f b) (ix3 m n (col f b)) (by
    rw [Shape.rowMajor_val_three, Shape.rowMajor_val_four]
    show (m.val * 512 + n.val) * 4096 + (f.val * 32 + b.val) = ((m.val * 512 + n.val) * 128 + f.val) * 32 + b.val
    omega)

/-- The three taps under one leading axis, read at tap 0. -/
theorem cat3_0 (T0 T1 T2 : FVec Ideal S512x4096 .f32) (n : Fin 512) (c : Fin 4096) :
    (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) (ix3 (0 : Fin 3) n c) = T0 (ix2 n c) := by
  refine (concatenate_apply_piece (0 : Fin 3) _ _ (ix3 (0 : Fin 3) n c) 0 (by show (0 : ℕ) < 3; omega) S1x512x4096 _ rfl rfl 0 rfl
    (ix3 (0 : Fin 1) n c)
    (fun a => match a with
      | ⟨0, _⟩ => fun h => absurd rfl h
      | ⟨1, _⟩ => fun _ => rfl
      | ⟨2, _⟩ => fun _ => rfl)
    rfl).trans ?_
  exact broadcastInDim_apply _ _ _ (ix3 (0 : Fin 1) n c) (ix2 n c)
    (fun a => match a with | ⟨0, _⟩ => rfl | ⟨1, _⟩ => rfl)

/-- The three taps under one leading axis, read at tap 1. -/
theorem cat3_1 (T0 T1 T2 : FVec Ideal S512x4096 .f32) (n : Fin 512) (c : Fin 4096) :
    (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) (ix3 (1 : Fin 3) n c) = T1 (ix2 n c) := by
  refine (concatenate_apply_piece (0 : Fin 3) _ _ (ix3 (1 : Fin 3) n c) 1 (by show (1 : ℕ) < 3; omega) S1x512x4096 _ rfl rfl 1 rfl
    (ix3 (0 : Fin 1) n c)
    (fun a => match a with
      | ⟨0, _⟩ => fun h => absurd rfl h
      | ⟨1, _⟩ => fun _ => rfl
      | ⟨2, _⟩ => fun _ => rfl)
    rfl).trans ?_
  exact broadcastInDim_apply _ _ _ (ix3 (0 : Fin 1) n c) (ix2 n c)
    (fun a => match a with | ⟨0, _⟩ => rfl | ⟨1, _⟩ => rfl)

/-- The three taps under one leading axis, read at tap 2. -/
theorem cat3_2 (T0 T1 T2 : FVec Ideal S512x4096 .f32) (n : Fin 512) (c : Fin 4096) :
    (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) (ix3 (2 : Fin 3) n c) = T2 (ix2 n c) := by
  refine (concatenate_apply_piece (0 : Fin 3) _ _ (ix3 (2 : Fin 3) n c) 2 (by show (2 : ℕ) < 3; omega) S1x512x4096 _ rfl rfl 2 rfl
    (ix3 (0 : Fin 1) n c)
    (fun a => match a with
      | ⟨0, _⟩ => fun h => absurd rfl h
      | ⟨1, _⟩ => fun _ => rfl
      | ⟨2, _⟩ => fun _ => rfl)
    rfl).trans ?_
  exact broadcastInDim_apply _ _ _ (ix3 (0 : Fin 1) n c) (ix2 n c)
    (fun a => match a with | ⟨0, _⟩ => rfl | ⟨1, _⟩ => rfl)

/-- Tap `m` of feature column `f`, sample `b`, node `n`, found in the tap stack. -/
theorem taps0 (T0 T1 T2 : FVec Ideal S512x4096 .f32) (b : Fin 32) (n : Fin 512) (f : Fin 128) :
    (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (wrow f 0)) = T0 (ix2 n (col f b)) :=
  (taps_to_cat _ b n f 0).trans (cat3_0 T0 T1 T2 n (col f b))
theorem taps1 (T0 T1 T2 : FVec Ideal S512x4096 .f32) (b : Fin 32) (n : Fin 512) (f : Fin 128) :
    (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (wrow f 1)) = T1 (ix2 n (col f b)) :=
  (taps_to_cat _ b n f 1).trans (cat3_1 T0 T1 T2 n (col f b))
theorem taps2 (T0 T1 T2 : FVec Ideal S512x4096 .f32) (b : Fin 32) (n : Fin 512) (f : Fin 128) :
    (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (wrow f 2)) = T2 (ix2 n (col f b)) :=
  (taps_to_cat _ b n f 2).trans (cat3_2 T0 T1 T2 n (col f b))

/-! ## Broadcasts -/

/-- The bias row under every row of the product. -/
theorem bias_apply (bias : FVec Ideal S64 .f32) (r : Fin 16384) (o : Fin 64) :
    (broadcastInDim S16384x64 ![0, 1] bcast_S1x64_S16384x64_0_1 (broadcastInDim S1x64 ![1] bcast_S64_S1x64_1 bias) : FVec Ideal S16384x64 .f32) (ix2 r o) = bias (ix1 o) := by
  refine (broadcastInDim_apply _ _ _ (ix2 r o) (ix2 (0 : Fin 1) o)
    (fun a => match a with | ⟨0, _⟩ => rfl | ⟨1, _⟩ => rfl)).trans ?_
  exact broadcastInDim_apply _ _ _ (ix2 (0 : Fin 1) o) (ix1 o) (fun a => match a with | ⟨0, _⟩ => rfl)

/-- The cell's last line, `u · h + (1 − u) · tanh c`, at an entry. -/
theorem cell_apply (u h c : FVec Ideal S32x32768 .f32) (i : S32x32768.Idx) :
    (addf (mulf u h) (mulf (subf (broadcastInDim S32x32768 ![] bcast_S_S32x32768 (constant (F := Ideal) S_ .f32 0x3F800000#32)) u) (Host.tanh c)) : FVec Ideal S32x32768 .f32) i
      = u i * h i + (one - u i) * Ideal.tanh (c i) := rfl

/-- The third tap `2·A(A z) − z` of a stack `X` whose first hop is `Y`, at an entry. -/
theorem tap2_apply (A : FVec Ideal S512x512 .f32) (X Y : FVec Ideal S512x4096 .f32) (n : Fin 512) (c : Fin 4096) :
    (subf (mulf (broadcastInDim S512x4096 ![] bcast_S_S512x4096 (constant (F := Ideal) S_ .f32 0x40000000#32)) (Host.dotGeneral dot_S512x512_S512x4096_S512x4096_1_0_0_1_n_n none A Y)) X : FVec Ideal S512x4096 .f32) (ix2 n c)
      = two * (∑ k : Fin 512, A (ix2 n k) * Y (ix2 k c)) - X (ix2 n c) := by
  refine (subf_apply _ _ _).trans ?_
  rw [mulf_apply, diff_apply]
  rfl

/-! ## The candidate's convolution: one 384-wide product, regrouped by tap -/

theorem conv_apply (T0 T1 T2 : FVec Ideal S512x4096 .f32) (W : FVec Ideal S384x64 .f32) (bias : FVec Ideal S64 .f32)
    (b : Fin 32) (n : Fin 512) (j : Fin 64) :
    (shapeCast S32x32768 (addf (Host.dotGeneral dot_S16384x384_S384x64_S16384x64_1_0_0_1_n_n none (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) W) (broadcastInDim S16384x64 ![0, 1] bcast_S1x64_S16384x64_0_1 (broadcastInDim S1x64 ![1] bcast_S64_S1x64_1 bias) : FVec Ideal S16384x64 .f32)) shapeCasts_S16384x64_S32x32768 : FVec Ideal S32x32768 .f32) (ix2 b (flat n j))
      = (((((bias (ix1 j) + ∑ i : Fin 64, T0 (ix2 n (col (hi i) b)) * W (ix2 (w1h 0 i) j))
          + ∑ i : Fin 64, T0 (ix2 n (col (lo i) b)) * W (ix2 (w1x 0 i) j))
          + ∑ i : Fin 64, T1 (ix2 n (col (hi i) b)) * W (ix2 (w1h 1 i) j))
          + ∑ i : Fin 64, T1 (ix2 n (col (lo i) b)) * W (ix2 (w1x 1 i) j))
          + ∑ i : Fin 64, T2 (ix2 n (col (hi i) b)) * W (ix2 (w1h 2 i) j))
          + ∑ i : Fin 64, T2 (ix2 n (col (lo i) b)) * W (ix2 (w1x 2 i) j) := by
  refine (shapeCast_apply _ _ (ix2 b (flat n j)) (ix2 (row b n) j) (by
    rw [Shape.rowMajor_val_two, Shape.rowMajor_val_two]
    show (b.val * 512 + n.val) * 64 + j.val = b.val * 32768 + (n.val * 64 + j.val)
    omega)).trans ?_
  refine (addf_apply _ _ _).trans ?_
  rw [wmm_apply, bias_apply, sum384_split]
  have h0 : ∀ i : Fin 64, (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (w1h 0 i)) = T0 (ix2 n (col (hi i) b)) := fun i => taps0 T0 T1 T2 b n (hi i)
  have h1 : ∀ i : Fin 64, (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (w1h 1 i)) = T1 (ix2 n (col (hi i) b)) := fun i => taps1 T0 T1 T2 b n (hi i)
  have h2 : ∀ i : Fin 64, (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (w1h 2 i)) = T2 (ix2 n (col (hi i) b)) := fun i => taps2 T0 T1 T2 b n (hi i)
  have x0 : ∀ i : Fin 64, (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (w1x 0 i)) = T0 (ix2 n (col (lo i) b)) := fun i => taps0 T0 T1 T2 b n (lo i)
  have x1 : ∀ i : Fin 64, (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (w1x 1 i)) = T1 (ix2 n (col (lo i) b)) := fun i => taps1 T0 T1 T2 b n (lo i)
  have x2 : ∀ i : Fin 64, (shapeCast S16384x384 (transpose S32x512x128x3 [3, 1, 2, 0] (shapeCast S3x512x128x32 (concatenate S3x512x4096 0 [⟨S1x512x4096, broadcastInDim S1x512x4096 ![1, 2] bcast_S512x4096_S1x512x4096_1_2 T0⟩, ⟨S1x512x4096, broadcastInDim S1x512x4096 ![1, 2] bcast_S512x4096_S1x512x4096_1_2 T1⟩, ⟨S1x512x4096, broadcastInDim S1x512x4096 ![1, 2] bcast_S512x4096_S1x512x4096_1_2 T2⟩] concatenates_S1x512x4096_S1x512x4096_S1x512x4096_S3x512x4096_d0 : FVec Ideal S3x512x4096 .f32) shapeCasts_S3x512x4096_S3x512x128x32) transposes_S3x512x128x32_S32x512x128x3_3_1_2_0) shapeCasts_S32x512x128x3_S16384x384 : FVec Ideal S16384x384 .f32) (ix2 (row b n) (w1x 2 i)) = T2 (ix2 n (col (lo i) b)) := fun i => taps2 T0 T1 T2 b n (lo i)
  simp only [h0, h1, h2, x0, x1, x2]

/-! ## The second cell's feature columns in the reference -/

/-- Input column `j` of sample `b`: the first cell's new state. -/
def xcol (b : Fin 32) (j : Fin 64) (n : Fin 512) : EReal :=
  (refParams V0).hn0 (refX V0 b) (refH V0 0 b) n j

/-- State column `j` of sample `b`: the reset gate times the second hidden state. -/
def scol (b : Fin 32) (j : Fin 64) (n : Fin 512) : EReal :=
  (refParams V0).gate1 (refX V0 b) (refH V0 0 b) (refH V0 1 b) n (lo j) * refH V0 1 b n j

include v65_sem v94_sem in
/-- The reset half of the gates times the second hidden state, entry by entry. -/
theorem rh_sem (b : Fin 32) (n : Fin 512) (j : Fin 64) :
    (mulf (shapeCast S32x32768 (extractStridedSlice S32x512x64 ![0, 0, 0] (res_main_v94 V0) slices_S32x512x128_S32x512x64_0_0_0) shapeCasts_S32x512x64_S32x32768) (res_main_v65 V0) : FVec Ideal S32x32768 .f32) (ix2 b (flat n j)) = scol V0 b j n := by
  refine (mulf_apply _ _ _).trans ?_
  rw [v65_sem]
  refine congrArg (· * refH V0 1 b n j) ?_
  refine (shapeCast_apply _ _ (ix2 b (flat n j)) (ix3 b n j) (by
    rw [Shape.rowMajor_val_three, Shape.rowMajor_val_two]
    show (b.val * 512 + n.val) * 64 + j.val = b.val * 32768 + (n.val * 64 + j.val)
    omega)).trans ?_
  refine (extractStridedSlice_apply _ _ _ (ix3 b n j) (ix3 b n (lo j))
    (fun a => match a with
      | ⟨0, _⟩ => by show b.val = 0 + b.val; omega
      | ⟨1, _⟩ => by show n.val = 0 + n.val; omega
      | ⟨2, _⟩ => by show j.val = 0 + j.val; omega)).trans ?_
  exact v94_sem b n (lo j)

include v63_sem in
/-- The stack's first 64 feature columns are the input columns … -/
theorem v104_lo (b : Fin 32) (n : Fin 512) (j : Fin 64) :
    (res_main_v104 V0 : FVec Ideal S512x4096 .f32) (ix2 n (col (lo j) b)) = xcol V0 b j n := by
  unfold res_main_v104
  exact (stack_lo _ _ n j b).trans (v63_sem b n j)

include v65_sem v94_sem in
/-- … and its last 64 the state columns. -/
theorem v104_hi (b : Fin 32) (n : Fin 512) (j : Fin 64) :
    (res_main_v104 V0 : FVec Ideal S512x4096 .f32) (ix2 n (col (hi j) b)) = scol V0 b j n := by
  unfold res_main_v104
  exact (stack_hi _ _ n j b).trans (rh_sem V0 v65_sem v94_sem b n j)

include v63_sem in
/-- One diffusion step of the stack, column by column. -/
theorem v105_lo (b : Fin 32) (n : Fin 512) (j : Fin 64) :
    (res_main_v105 V0 : FVec Ideal S512x4096 .f32) (ix2 n (col (lo j) b)) = hop (refParams V0).A (xcol V0 b j) n := by
  unfold res_main_v105
  rw [diff_apply]
  simp only [v104_lo V0 v63_sem]
  rfl

include v65_sem v94_sem in
theorem v105_hi (b : Fin 32) (n : Fin 512) (j : Fin 64) :
    (res_main_v105 V0 : FVec Ideal S512x4096 .f32) (ix2 n (col (hi j) b)) = hop (refParams V0).A (scol V0 b j) n := by
  unfold res_main_v105
  rw [diff_apply]
  simp only [v104_hi V0 v65_sem v94_sem]
  rfl

include v63_sem in
/-- The third tap of the stack, column by column. -/
theorem tap2_lo (b : Fin 32) (n : Fin 512) (j : Fin 64) :
    (subf (mulf (broadcastInDim S512x4096 ![] bcast_S_S512x4096 (constant (F := Ideal) S_ .f32 0x40000000#32)) (Host.dotGeneral (φ₁ := .f32) (φ₂ := .f32) dot_S512x512_S512x4096_S512x4096_1_0_0_1_n_n none (V0 (Proc.devRef .tc main_arg1)) (res_main_v105 V0))) (res_main_v104 V0) : FVec Ideal S512x4096 .f32) (ix2 n (col (lo j) b)) = hop2 (refParams V0).A (xcol V0 b j) n := by
  rw [tap2_apply, v104_lo V0 v63_sem]
  simp only [v105_lo V0 v63_sem]
  rfl

include v65_sem v94_sem in
theorem tap2_hi (b : Fin 32) (n : Fin 512) (j : Fin 64) :
    (subf (mulf (broadcastInDim S512x4096 ![] bcast_S_S512x4096 (constant (F := Ideal) S_ .f32 0x40000000#32)) (Host.dotGeneral (φ₁ := .f32) (φ₂ := .f32) dot_S512x512_S512x4096_S512x4096_1_0_0_1_n_n none (V0 (Proc.devRef .tc main_arg1)) (res_main_v105 V0))) (res_main_v104 V0) : FVec Ideal S512x4096 .f32) (ix2 n (col (hi j) b)) = hop2 (refParams V0).A (scol V0 b j) n := by
  rw [tap2_apply, v104_hi V0 v65_sem v94_sem]
  simp only [v105_hi V0 v65_sem v94_sem]
  rfl

/-! ## The new state -/

include v63_sem v65_sem v94_sem v98_sem in
set_option maxRecDepth 8192 in
/-- The second cell's new state. -/
theorem v127_sem (b : Fin 32) (n : Fin 512) (j : Fin 64) :
    (res_main_v127 V0 : FVec Ideal S32x32768 .f32) (ix2 b (flat n j))
      = (refParams V0).hn1 (refX V0 b) (refH V0 0 b) (refH V0 1 b) n j := by
  unfold res_main_v127
  refine (cell_apply _ _ _ _).trans ?_
  rw [v98_sem, v65_sem]
  show _ * _ + (one - _) * Ideal.tanh ((shapeCast S32x32768 _ shapeCasts_S16384x64_S32x32768 : FVec Ideal S32x32768 .f32) (ix2 b (flat n j))) = _
  rw [conv_apply]
  simp only [v104_lo V0 v63_sem, v104_hi V0 v65_sem v94_sem, v105_lo V0 v63_sem, v105_hi V0 v65_sem v94_sem,
    tap2_lo V0 v63_sem, tap2_hi V0 v65_sem v94_sem]
  rfl

end Cert.ReferenceIdeal.R1C

end
-- ==== Proof.ROut.lean ====
/-
  The reference's two results: the read-out (one 64-wide product and the bias) and the two new states stacked.

  The read-out stacks the samples' nodes as the 16384 rows `512·b + n` of a 16384 × 64 matrix (the second cell's new
  state, unit by unit), multiplies by the 64 × 1 column of read-out weights, adds the one bias to every row, and
  lays the 16384 results out again as 32 × 512. The second result puts the two new states one after the other
  along a new leading axis.
-/
import proofs.«152469_g44504451121623_cont_8to1_c_180_12_alg».proof.Proof.RSem
import proofs.«152469_g44504451121623_cont_8to1_c_180_12_alg».proof.Proof.SpecSums
import Idealize.ShloMosaic.Lib.Pipeline.Value
import Idealize.ShloMosaic.Lib.ValueIdx
import Idealize.ShloMosaic.PureOps.Ideal.Laws

noncomputable section

namespace Cert.ReferenceIdeal.ROut

open Cert.ReferenceIdeal Cert.ReferenceIdeal.Gen Cert.ReferenceIdeal.Value Cert.ReferenceIdeal.Sem Cert.Dcgru
open Idealize.ShloMosaic Idealize.ShloMosaic.TcCoe Idealize.ShloMosaic.StableHlo ValueIdx

/-! ## The read-out's product: which entries of the two operands each term reads -/

/-- Row of the left operand: the result's row. -/
theorem lhsOut_0 (j : S16384x1.Idx) (k : dot_S16384x64_S64x1_S16384x1_1_0_0_1_n_n.contr.Idx) :
    (dot_S16384x64_S64x1_S16384x1_1_0_0_1_n_n.lhsIdx j k 0 : ℕ) = j 0 := by
  simp [DotDims.lhsIdx, dot_S16384x64_S64x1_S16384x1_1_0_0_1_n_n]; rfl
/-- Column of the left operand: the summation index. -/
theorem lhsOut_1 (j : S16384x1.Idx) (k : dot_S16384x64_S64x1_S16384x1_1_0_0_1_n_n.contr.Idx) :
    (dot_S16384x64_S64x1_S16384x1_1_0_0_1_n_n.lhsIdx j k 1 : ℕ) = k ⟨0, by decide⟩ := by
  simp [DotDims.lhsIdx, dot_S16384x64_S64x1_S16384x1_1_0_0_1_n_n]; rfl
/-- Row of the right operand: the summation index. -/
theorem rhsOut_0 (j : S16384x1.Idx) (k : dot_S16384x64_S64x1_S16384x1_1_0_0_1_n_n.contr.Idx) :
    (dot_S16384x64_S64x1_S16384x1_1_0_0_1_n_n.rhsIdx j k 0 : ℕ) = k ⟨0, by decide⟩ := by
  simp [DotDims.rhsIdx, dot_S16384x64_S64x1_S16384x1_1_0_0_1_n_n]; rfl
/-- Column of the right operand: the result's column. -/
theorem rhsOut_1 (j : S16384x1.Idx) (k : dot_S16384x64_S64x1_S16384x1_1_0_0_1_n_n.contr.Idx) :
    (dot_S16384x64_S64x1_S16384x1_1_0_0_1_n_n.rhsIdx j k 1 : ℕ) = j 1 := by
  have h1 : (j 1).val < 1 := (j 1).isLt
  have h2 : (dot_S16384x64_S64x1_S16384x1_1_0_0_1_n_n.rhsIdx j k 1).val < 1 :=
    (dot_S16384x64_S64x1_S16384x1_1_0_0_1_n_n.rhsIdx j k 1).isLt
  omega

/-- The product of a 16384 × 64 matrix with a 64 × 1 column, at row `r`: the sum over the 64 units. -/
theorem dotOut_apply (L : FVec Ideal S16384x64 .f32) (R : FVec Ideal S64x1 .f32) (r : Fin 16384) :
    Host.dotGeneral (F := Ideal) dot_S16384x64_S64x1_S16384x1_1_0_0_1_n_n none L R (ix2 r (0 : Fin 1))
      = ∑ c : Fin 64, L (ix2 r c) * R (ix2 c (0 : Fin 1)) := by
  show FloatOps.dotGeneral dot_S16384x64_S64x1_S16384x1_1_0_0_1_n_n none .single L R (ix2 r (0 : Fin 1)) = _
  rw [Ideal.dotGeneral_apply,
    ← Equiv.sum_comp (contrEquiv1 dot_S16384x64_S64x1_S16384x1_1_0_0_1_n_n 64 rfl rfl).symm]
  refine Finset.sum_congr rfl fun c _ => ?_
  congr 2
  · apply Shape.idx_ext₂
    · exact lhsOut_0 _ _
    · exact (lhsOut_1 _ _).trans (contrEquiv1_symm_val _ _ _ _ c)
  · apply Shape.idx_ext₂
    · exact (rhsOut_0 _ _).trans (contrEquiv1_symm_val _ _ _ _ c)
    · exact rhsOut_1 _ _

/-! ## The layout operations around it -/

/-- Row `512·b + n` of the samples' nodes stacked. -/
def rowOf (b : Fin 32) (n : Fin 512) : Fin 16384 :=
  ⟨b.val * 512 + n.val, by have := b.isLt; have := n.isLt; omega⟩

/-- A 32 × 32768 state viewed as 16384 × 64: row `512·b + n`, column `j` is sample `b`'s entry `64·n + j`. -/
theorem stateRows_apply (v : FVec Ideal S32x32768 .f32) (b : Fin 32) (n : Fin 512) (j : Fin 64) :
    shapeCast S16384x64 v shapeCasts_S32x32768_S16384x64 (ix2 (rowOf b n) j) = v (ix2 b (flat n j)) := by
  refine shapeCast_apply _ _ _ _ ?_
  rw [Shape.rowMajor_val_two, Shape.rowMajor_val_two]
  show b.val * 32768 + (n.val * 64 + j.val) = (b.val * 512 + n.val) * 64 + j.val
  omega

/-- A 16384 × 1 column viewed as 32 × 512: entry `(b, n)` is row `512·b + n`. -/
theorem colGrid_apply (v : FVec Ideal S16384x1 .f32) (b : Fin 32) (n : Fin 512) :
    shapeCast S32x512 v shapeCasts_S16384x1_S32x512 (ix2 b n) = v (ix2 (rowOf b n) (0 : Fin 1)) := by
  refine shapeCast_apply _ _ _ _ ?_
  rw [Shape.rowMajor_val_two, Shape.rowMajor_val_two]
  show (b.val * 512 + n.val) * 1 + 0 = b.val * 512 + n.val
  omega

/-- The one bias, broadcast to every row of the column. -/
theorem biasCol_apply (v : FVec Ideal S1 .f32) (r : Fin 16384) :
    broadcastInDim S16384x1 ![0, 1] bcast_S1x1_S16384x1_0_1 (broadcastInDim S1x1 ![1] bcast_S1_S1x1_1 v)
      (ix2 r (0 : Fin 1)) = v (ix1 (0 : Fin 1)) := by
  refine (broadcastInDim_apply _ _ _ _ (ix2 (0 : Fin 1) (0 : Fin 1))
    (fun a => match a with | ⟨0, _⟩ => rfl | ⟨1, _⟩ => rfl)).trans ?_
  exact broadcastInDim_apply _ _ _ _ (ix1 (0 : Fin 1)) (fun a => match a with | ⟨0, _⟩ => rfl)

variable (V0 : Valuation τ sig (Elt Ideal))
variable (v63_sem : ∀ (b : Fin 32) (n : Fin 512) (j : Fin 64), (res_main_v63 V0 : FVec Ideal S32x32768 .f32) (ix2 b (flat n j)) = (refParams V0).hn0 (refX V0 b) (refH V0 0 b) n j)
    (v127_sem : ∀ (b : Fin 32) (n : Fin 512) (j : Fin 64), (res_main_v127 V0 : FVec Ideal S32x32768 .f32) (ix2 b (flat n j)) = (refParams V0).hn1 (refX V0 b) (refH V0 0 b) (refH V0 1 b) n j)

include v127_sem in
/-- The read-out of sample `b` at node `n`. -/
theorem resOut_apply (b : Fin 32) (n : Fin 512) :
    resOut V0 (ix2 b n) = (refParams V0).out (refX V0 b) (refH V0 0 b) (refH V0 1 b) n := by
  unfold resOut res_main_v133 Params.out
  -- the 32 × 512 layout of the 16384 rows, then the sum of the product and the bias column
  refine (colGrid_apply _ b n).trans ?_
  refine (addf_apply _ _ _).trans ?_
  refine congrArg₂ (· + ·) ?_ (biasCol_apply _ _)
  -- the product, unit by unit: the second cell's new state times the read-out weight
  refine (dotOut_apply _ _ _).trans ?_
  refine Finset.sum_congr rfl fun j _ => ?_
  exact congrArg₂ (· * ·) ((stateRows_apply _ b n j).trans (v127_sem b n j)) rfl

/-! ## The two new states stacked -/

/-- A 32 × 32768 state under a new leading unit axis. -/
theorem lead_apply (v : FVec Ideal S32x32768 .f32) (b : Fin 32) (q : Fin 32768) :
    broadcastInDim S1x32x32768 ![1, 2] bcast_S32x32768_S1x32x32768_1_2 v (ix3 (0 : Fin 1) b q) = v (ix2 b q) :=
  broadcastInDim_apply _ _ _ _ (ix2 b q) (fun a => match a with | ⟨0, _⟩ => rfl | ⟨1, _⟩ => rfl)

/-- The stack's first layer is the first state. -/
theorem stack_zero (u w : FVec Ideal S32x32768 .f32) (b : Fin 32) (q : Fin 32768) :
    concatenate S2x32x32768 0 [⟨S1x32x32768, broadcastInDim S1x32x32768 ![1, 2] bcast_S32x32768_S1x32x32768_1_2 u⟩,
        ⟨S1x32x32768, broadcastInDim S1x32x32768 ![1, 2] bcast_S32x32768_S1x32x32768_1_2 w⟩]
      concatenates_S1x32x32768_S1x32x32768_S2x32x32768_d0 (ix3 (0 : Fin 2) b q) = u (ix2 b q) := by
  have h := concatenate_pair_apply_left (t := S2x32x32768) (s₁ := S1x32x32768) (s₂ := S1x32x32768) 0
    (broadcastInDim S1x32x32768 ![1, 2] bcast_S32x32768_S1x32x32768_1_2 u)
    (broadcastInDim S1x32x32768 ![1, 2] bcast_S32x32768_S1x32x32768_1_2 w)
    concatenates_S1x32x32768_S1x32x32768_S2x32x32768_d0 (ix3 (0 : Fin 2) b q) rfl (ix3 (0 : Fin 1) b q)
    (fun a => match a with | ⟨0, _⟩ => rfl | ⟨1, _⟩ => rfl | ⟨2, _⟩ => rfl)
  exact h.trans (lead_apply u b q)

/-- The stack's second layer is the second state. -/
theorem stack_one (u w : FVec Ideal S32x32768 .f32) (b : Fin 32) (q : Fin 32768) :
    concatenate S2x32x32768 0 [⟨S1x32x32768, broadcastInDim S1x32x32768 ![1, 2] bcast_S32x32768_S1x32x32768_1_2 u⟩,
        ⟨S1x32x32768, broadcastInDim S1x32x32768 ![1, 2] bcast_S32x32768_S1x32x32768_1_2 w⟩]
      concatenates_S1x32x32768_S1x32x32768_S2x32x32768_d0 (ix3 (1 : Fin 2) b q) = w (ix2 b q) := by
  have h := concatenate_pair_apply_right (t := S2x32x32768) (s₁ := S1x32x32768) (s₂ := S1x32x32768) 0
    (broadcastInDim S1x32x32768 ![1, 2] bcast_S32x32768_S1x32x32768_1_2 u)
    (broadcastInDim S1x32x32768 ![1, 2] bcast_S32x32768_S1x32x32768_1_2 w)
    concatenates_S1x32x32768_S1x32x32768_S2x32x32768_d0 (ix3 (1 : Fin 2) b q) rfl rfl (ix3 (0 : Fin 1) b q)
    (fun a ha => match a, ha with
      | ⟨0, _⟩, ha => absurd rfl ha
      | ⟨1, _⟩, _ => rfl
      | ⟨2, _⟩, _ => rfl)
    rfl
  exact h.trans (lead_apply w b q)

include v63_sem v127_sem in
/-- New state `l` of sample `b` at (node, unit). -/
theorem resHs_apply (l : Fin 2) (b : Fin 32) (n : Fin 512) (j : Fin 64) :
    resHs V0 (ix3 l b (flat n j))
      = if l.val = 0 then (refParams V0).hn0 (refX V0 b) (refH V0 0 b) n j
        else (refParams V0).hn1 (refX V0 b) (refH V0 0 b) (refH V0 1 b) n j := by
  unfold resHs res_main_v136
  match l with
  | ⟨0, _⟩ =>
    refine ((stack_zero _ _ b (flat n j)).trans (v63_sem b n j)).trans ?_
    exact (if_pos rfl).symm
  | ⟨1, _⟩ =>
    refine ((stack_one _ _ b (flat n j)).trans (v127_sem b n j)).trans ?_
    exact (if_neg Nat.one_ne_zero).symm

end Cert.ReferenceIdeal.ROut

end
-- ==== Proof.RAll.lean ====
/-
  The reference's stages joined: each stage's reading of its intermediates, fed the readings of the stages before it,
  up to the two results — the read-out of every sample at every node, and both new states.
-/
import proofs.«152469_g44504451121623_cont_8to1_c_180_12_alg».proof.Proof.R0G
import proofs.«152469_g44504451121623_cont_8to1_c_180_12_alg».proof.Proof.R0C
import proofs.«152469_g44504451121623_cont_8to1_c_180_12_alg».proof.Proof.R1G
import proofs.«152469_g44504451121623_cont_8to1_c_180_12_alg».proof.Proof.R1C
import proofs.«152469_g44504451121623_cont_8to1_c_180_12_alg».proof.Proof.ROut

noncomputable section

namespace Cert.ReferenceIdeal.All

open Cert.ReferenceIdeal Cert.ReferenceIdeal.Gen Cert.ReferenceIdeal.Value Cert.ReferenceIdeal.Sem Cert.Dcgru
open Idealize.ShloMosaic Idealize.ShloMosaic.TcCoe Idealize.ShloMosaic.StableHlo ValueIdx

variable (V0 : Valuation τ sig (Elt Ideal))

/-- The first cell's new state. -/
theorem v63_sem (b : Fin 32) (n : Fin 512) (j : Fin 64) :
    (res_main_v63 V0 : FVec Ideal S32x32768 .f32) (ix2 b (flat n j))
      = (refParams V0).hn0 (refX V0 b) (refH V0 0 b) n j :=
  R0C.v63_sem V0 (R0G.v1_sem V0) (R0G.v30_sem V0) (R0G.v34_sem V0) b n j

/-- Both gates of the second cell. -/
theorem v94_sem (b : Fin 32) (n : Fin 512) (o : Fin 128) :
    (res_main_v94 V0 : FVec Ideal S32x512x128 .f32) (ix3 b n o)
      = (refParams V0).gate1 (refX V0 b) (refH V0 0 b) (refH V0 1 b) n o :=
  R1G.v94_sem V0 (v63_sem V0) b n o

/-- The update gate of the second cell. -/
theorem v98_sem (b : Fin 32) (n : Fin 512) (j : Fin 64) :
    (res_main_v98 V0 : FVec Ideal S32x32768 .f32) (ix2 b (flat n j))
      = (refParams V0).gate1 (refX V0 b) (refH V0 0 b) (refH V0 1 b) n (hi j) :=
  R1G.v98_sem V0 (v63_sem V0) b n j

/-- The second cell's new state. -/
theorem v127_sem (b : Fin 32) (n : Fin 512) (j : Fin 64) :
    (res_main_v127 V0 : FVec Ideal S32x32768 .f32) (ix2 b (flat n j))
      = (refParams V0).hn1 (refX V0 b) (refH V0 0 b) (refH V0 1 b) n j :=
  R1C.v127_sem V0 (v63_sem V0) (R1G.v65_sem V0) (v94_sem V0) (v98_sem V0) b n j

/-- The read-out of sample `b` at node `n`. -/
theorem resOut_apply (b : Fin 32) (n : Fin 512) :
    resOut V0 (ix2 b n) = (refParams V0).out (refX V0 b) (refH V0 0 b) (refH V0 1 b) n :=
  ROut.resOut_apply V0 (v127_sem V0) b n

/-- New state `l` of sample `b` at (node, unit). -/
theorem resHs_apply (l : Fin 2) (b : Fin 32) (n : Fin 512) (j : Fin 64) :
    resHs V0 (ix3 l b (flat n j))
      = if l.val = 0 then (refParams V0).hn0 (refX V0 b) (refH V0 0 b) n j
        else (refParams V0).hn1 (refX V0 b) (refH V0 0 b) (refH V0 1 b) n j :=
  ROut.resHs_apply V0 (v63_sem V0) (v127_sem V0) l b n j

end Cert.ReferenceIdeal.All

end
-- ==== Proof.RRun.lean ====
/- The reference program's run, read back in stretches. The operation list is cut where an intermediate with several consumers is complete. After each stretch, every buffer that a later stretch still reads holds its named term of the argument buffers: a buffer the stretch writes, by that stretch's operations applied to what the stretch before left; any other, because the stretch does not write it. The last stretch leaves the two results; the arguments are written by no operation. -/
import proofs.«152469_g44504451121623_cont_8to1_c_180_12_alg».proof.Proof.RRunDefs
import Idealize.ShloMosaic.Lib.Pipeline.Frame

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000

/-- One stretch's operations applied to a valuation, read at a buffer: each operation's result at its own buffer is its
    function of what was there, at any other buffer what was there; an operand taken out of a literal tuple of buffers
    (a concatenate of several) is that buffer. -/
macro "stretch_results" : tactic =>
  `(tactic| (simp only [after_cons, after_nil]
             repeat (first
               | rw [nullary_result] | rw [unary_result] | rw [binary_result] | rw [reshape_result] | rw [nary_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide)
               | dsimp only [Matrix.cons_val])))

/-! ## The buffers after each stretch -/

/-- The buffers after stretch 1. -/
def after1 (V0 : Valuation τ sig (Elt F)) : Valuation τ sig (Elt F) := after stretch1 V0

/-- The buffers after stretch 2. -/
def after2 (V0 : Valuation τ sig (Elt F)) : Valuation τ sig (Elt F) := after stretch2 (after1 V0)

/-- The buffers after stretch 3. -/
def after3 (V0 : Valuation τ sig (Elt F)) : Valuation τ sig (Elt F) := after stretch3 (after2 V0)

/-- The buffers after stretch 4. -/
def after4 (V0 : Valuation τ sig (Elt F)) : Valuation τ sig (Elt F) := after stretch4 (after3 V0)

/-- The buffers after stretch 5. -/
def after5 (V0 : Valuation τ sig (Elt F)) : Valuation τ sig (Elt F) := after stretch5 (after4 V0)

/-- The buffers after stretch 6. -/
def after6 (V0 : Valuation τ sig (Elt F)) : Valuation τ sig (Elt F) := after stretch6 (after5 V0)

/-- The buffers after stretch 7. -/
def after7 (V0 : Valuation τ sig (Elt F)) : Valuation τ sig (Elt F) := after stretch7 (after6 V0)

/-- The buffers after stretch 8. -/
def after8 (V0 : Valuation τ sig (Elt F)) : Valuation τ sig (Elt F) := after stretch8 (after7 V0)

/-- The buffers after stretch 9. -/
def after9 (V0 : Valuation τ sig (Elt F)) : Valuation τ sig (Elt F) := after stretch9 (after8 V0)

/-- The buffers after stretch 10. -/
def after10 (V0 : Valuation τ sig (Elt F)) : Valuation τ sig (Elt F) := after stretch10 (after9 V0)

/-- The buffers after stretch 11. -/
def after11 (V0 : Valuation τ sig (Elt F)) : Valuation τ sig (Elt F) := after stretch11 (after10 V0)

/-- The buffers after stretch 12. -/
def after12 (V0 : Valuation τ sig (Elt F)) : Valuation τ sig (Elt F) := after stretch12 (after11 V0)

/-- The buffers after stretch 13. -/
def after13 (V0 : Valuation τ sig (Elt F)) : Valuation τ sig (Elt F) := after stretch13 (after12 V0)

/-- The buffers after stretch 14. -/
def after14 (V0 : Valuation τ sig (Elt F)) : Valuation τ sig (Elt F) := after stretch14 (after13 V0)

/-- The buffers after stretch 15. -/
def after15 (V0 : Valuation τ sig (Elt F)) : Valuation τ sig (Elt F) := after stretch15 (after14 V0)

theorem after_ops (V0 : Valuation τ sig (Elt F)) : after ops V0 = after15 V0 := by
  rw [ops_stretches]
  simp only [StableHlo.after_append]
  rfl

/-! ### After stretch 1 -/

theorem after1_arg0 (V0 : Valuation τ sig (Elt F)) : after1 V0 (Proc.devRef .tc main_arg0) = V0 (Proc.devRef .tc main_arg0) := by
  unfold after1 stretch1
  stretch_results
  try rfl

theorem after1_arg1 (V0 : Valuation τ sig (Elt F)) : after1 V0 (Proc.devRef .tc main_arg1) = V0 (Proc.devRef .tc main_arg1) := by
  unfold after1 stretch1
  stretch_results
  try rfl

theorem after1_arg2 (V0 : Valuation τ sig (Elt F)) : after1 V0 (Proc.devRef .tc main_arg2) = V0 (Proc.devRef .tc main_arg2) := by
  unfold after1 stretch1
  stretch_results
  try rfl

theorem after1_arg3 (V0 : Valuation τ sig (Elt F)) : after1 V0 (Proc.devRef .tc main_arg3) = V0 (Proc.devRef .tc main_arg3) := by
  unfold after1 stretch1
  stretch_results
  try rfl

theorem after1_arg4 (V0 : Valuation τ sig (Elt F)) : after1 V0 (Proc.devRef .tc main_arg4) = V0 (Proc.devRef .tc main_arg4) := by
  unfold after1 stretch1
  stretch_results
  try rfl

theorem after1_arg5 (V0 : Valuation τ sig (Elt F)) : after1 V0 (Proc.devRef .tc main_arg5) = V0 (Proc.devRef .tc main_arg5) := by
  unfold after1 stretch1
  stretch_results
  try rfl

theorem after1_arg6 (V0 : Valuation τ sig (Elt F)) : after1 V0 (Proc.devRef .tc main_arg6) = V0 (Proc.devRef .tc main_arg6) := by
  unfold after1 stretch1
  stretch_results
  try rfl

theorem after1_arg7 (V0 : Valuation τ sig (Elt F)) : after1 V0 (Proc.devRef .tc main_arg7) = V0 (Proc.devRef .tc main_arg7) := by
  unfold after1 stretch1
  stretch_results
  try rfl

theorem after1_arg8 (V0 : Valuation τ sig (Elt F)) : after1 V0 (Proc.devRef .tc main_arg8) = V0 (Proc.devRef .tc main_arg8) := by
  unfold after1 stretch1
  stretch_results
  try rfl

theorem after1_arg9 (V0 : Valuation τ sig (Elt F)) : after1 V0 (Proc.devRef .tc main_arg9) = V0 (Proc.devRef .tc main_arg9) := by
  unfold after1 stretch1
  stretch_results
  try rfl

theorem after1_arg10 (V0 : Valuation τ sig (Elt F)) : after1 V0 (Proc.devRef .tc main_arg10) = V0 (Proc.devRef .tc main_arg10) := by
  unfold after1 stretch1
  stretch_results
  try rfl

theorem after1_arg11 (V0 : Valuation τ sig (Elt F)) : after1 V0 (Proc.devRef .tc main_arg11) = V0 (Proc.devRef .tc main_arg11) := by
  unfold after1 stretch1
  stretch_results
  try rfl

theorem after1_arg12 (V0 : Valuation τ sig (Elt F)) : after1 V0 (Proc.devRef .tc main_arg12) = V0 (Proc.devRef .tc main_arg12) := by
  unfold after1 stretch1
  stretch_results
  try rfl

theorem after1_v1 (V0 : Valuation τ sig (Elt F)) : after1 V0 (Proc.devRef .tc main_v1) = res_main_v1 V0 := by
  unfold after1 stretch1 res_main_v1
  stretch_results
  try rfl

/-! ### After stretch 2 -/

theorem after2_arg0 (V0 : Valuation τ sig (Elt F)) : after2 V0 (Proc.devRef .tc main_arg0) = V0 (Proc.devRef .tc main_arg0) := by
  unfold after2 stretch2
  stretch_results
  exact after1_arg0 V0

theorem after2_arg1 (V0 : Valuation τ sig (Elt F)) : after2 V0 (Proc.devRef .tc main_arg1) = V0 (Proc.devRef .tc main_arg1) := by
  unfold after2 stretch2
  stretch_results
  exact after1_arg1 V0

theorem after2_arg2 (V0 : Valuation τ sig (Elt F)) : after2 V0 (Proc.devRef .tc main_arg2) = V0 (Proc.devRef .tc main_arg2) := by
  unfold after2 stretch2
  stretch_results
  exact after1_arg2 V0

theorem after2_arg3 (V0 : Valuation τ sig (Elt F)) : after2 V0 (Proc.devRef .tc main_arg3) = V0 (Proc.devRef .tc main_arg3) := by
  unfold after2 stretch2
  stretch_results
  exact after1_arg3 V0

theorem after2_arg4 (V0 : Valuation τ sig (Elt F)) : after2 V0 (Proc.devRef .tc main_arg4) = V0 (Proc.devRef .tc main_arg4) := by
  unfold after2 stretch2
  stretch_results
  exact after1_arg4 V0

theorem after2_arg5 (V0 : Valuation τ sig (Elt F)) : after2 V0 (Proc.devRef .tc main_arg5) = V0 (Proc.devRef .tc main_arg5) := by
  unfold after2 stretch2
  stretch_results
  exact after1_arg5 V0

theorem after2_arg6 (V0 : Valuation τ sig (Elt F)) : after2 V0 (Proc.devRef .tc main_arg6) = V0 (Proc.devRef .tc main_arg6) := by
  unfold after2 stretch2
  stretch_results
  exact after1_arg6 V0

theorem after2_arg7 (V0 : Valuation τ sig (Elt F)) : after2 V0 (Proc.devRef .tc main_arg7) = V0 (Proc.devRef .tc main_arg7) := by
  unfold after2 stretch2
  stretch_results
  exact after1_arg7 V0

theorem after2_arg8 (V0 : Valuation τ sig (Elt F)) : after2 V0 (Proc.devRef .tc main_arg8) = V0 (Proc.devRef .tc main_arg8) := by
  unfold after2 stretch2
  stretch_results
  exact after1_arg8 V0

theorem after2_arg9 (V0 : Valuation τ sig (Elt F)) : after2 V0 (Proc.devRef .tc main_arg9) = V0 (Proc.devRef .tc main_arg9) := by
  unfold after2 stretch2
  stretch_results
  exact after1_arg9 V0

theorem after2_arg10 (V0 : Valuation τ sig (Elt F)) : after2 V0 (Proc.devRef .tc main_arg10) = V0 (Proc.devRef .tc main_arg10) := by
  unfold after2 stretch2
  stretch_results
  exact after1_arg10 V0

theorem after2_arg11 (V0 : Valuation τ sig (Elt F)) : after2 V0 (Proc.devRef .tc main_arg11) = V0 (Proc.devRef .tc main_arg11) := by
  unfold after2 stretch2
  stretch_results
  exact after1_arg11 V0

theorem after2_arg12 (V0 : Valuation τ sig (Elt F)) : after2 V0 (Proc.devRef .tc main_arg12) = V0 (Proc.devRef .tc main_arg12) := by
  unfold after2 stretch2
  stretch_results
  exact after1_arg12 V0

theorem after2_v1 (V0 : Valuation τ sig (Elt F)) : after2 V0 (Proc.devRef .tc main_v1) = res_main_v1 V0 := by
  unfold after2 stretch2
  stretch_results
  exact after1_v1 V0

theorem after2_v6 (V0 : Valuation τ sig (Elt F)) : after2 V0 (Proc.devRef .tc main_v6) = res_main_v6 V0 := by
  unfold after2 stretch2 res_main_v6
  stretch_results
  rw [after1_v1 V0, after1_arg0 V0]
  try rfl

/-! ### After stretch 3 -/

theorem after3_arg0 (V0 : Valuation τ sig (Elt F)) : after3 V0 (Proc.devRef .tc main_arg0) = V0 (Proc.devRef .tc main_arg0) := by
  unfold after3 stretch3
  stretch_results
  exact after2_arg0 V0

theorem after3_arg1 (V0 : Valuation τ sig (Elt F)) : after3 V0 (Proc.devRef .tc main_arg1) = V0 (Proc.devRef .tc main_arg1) := by
  unfold after3 stretch3
  stretch_results
  exact after2_arg1 V0

theorem after3_arg2 (V0 : Valuation τ sig (Elt F)) : after3 V0 (Proc.devRef .tc main_arg2) = V0 (Proc.devRef .tc main_arg2) := by
  unfold after3 stretch3
  stretch_results
  exact after2_arg2 V0

theorem after3_arg3 (V0 : Valuation τ sig (Elt F)) : after3 V0 (Proc.devRef .tc main_arg3) = V0 (Proc.devRef .tc main_arg3) := by
  unfold after3 stretch3
  stretch_results
  exact after2_arg3 V0

theorem after3_arg4 (V0 : Valuation τ sig (Elt F)) : after3 V0 (Proc.devRef .tc main_arg4) = V0 (Proc.devRef .tc main_arg4) := by
  unfold after3 stretch3
  stretch_results
  exact after2_arg4 V0

theorem after3_arg5 (V0 : Valuation τ sig (Elt F)) : after3 V0 (Proc.devRef .tc main_arg5) = V0 (Proc.devRef .tc main_arg5) := by
  unfold after3 stretch3
  stretch_results
  exact after2_arg5 V0

theorem after3_arg6 (V0 : Valuation τ sig (Elt F)) : after3 V0 (Proc.devRef .tc main_arg6) = V0 (Proc.devRef .tc main_arg6) := by
  unfold after3 stretch3
  stretch_results
  exact after2_arg6 V0

theorem after3_arg7 (V0 : Valuation τ sig (Elt F)) : after3 V0 (Proc.devRef .tc main_arg7) = V0 (Proc.devRef .tc main_arg7) := by
  unfold after3 stretch3
  stretch_results
  exact after2_arg7 V0

theorem after3_arg8 (V0 : Valuation τ sig (Elt F)) : after3 V0 (Proc.devRef .tc main_arg8) = V0 (Proc.devRef .tc main_arg8) := by
  unfold after3 stretch3
  stretch_results
  exact after2_arg8 V0

theorem after3_arg9 (V0 : Valuation τ sig (Elt F)) : after3 V0 (Proc.devRef .tc main_arg9) = V0 (Proc.devRef .tc main_arg9) := by
  unfold after3 stretch3
  stretch_results
  exact after2_arg9 V0

theorem after3_arg10 (V0 : Valuation τ sig (Elt F)) : after3 V0 (Proc.devRef .tc main_arg10) = V0 (Proc.devRef .tc main_arg10) := by
  unfold after3 stretch3
  stretch_results
  exact after2_arg10 V0

theorem after3_arg11 (V0 : Valuation τ sig (Elt F)) : after3 V0 (Proc.devRef .tc main_arg11) = V0 (Proc.devRef .tc main_arg11) := by
  unfold after3 stretch3
  stretch_results
  exact after2_arg11 V0

theorem after3_arg12 (V0 : Valuation τ sig (Elt F)) : after3 V0 (Proc.devRef .tc main_arg12) = V0 (Proc.devRef .tc main_arg12) := by
  unfold after3 stretch3
  stretch_results
  exact after2_arg12 V0

theorem after3_v1 (V0 : Valuation τ sig (Elt F)) : after3 V0 (Proc.devRef .tc main_v1) = res_main_v1 V0 := by
  unfold after3 stretch3
  stretch_results
  exact after2_v1 V0

theorem after3_v6 (V0 : Valuation τ sig (Elt F)) : after3 V0 (Proc.devRef .tc main_v6) = res_main_v6 V0 := by
  unfold after3 stretch3
  stretch_results
  exact after2_v6 V0

theorem after3_v7 (V0 : Valuation τ sig (Elt F)) : after3 V0 (Proc.devRef .tc main_v7) = res_main_v7 V0 := by
  unfold after3 stretch3 res_main_v7
  stretch_results
  rw [after2_v6 V0, after2_arg1 V0]
  try rfl

/-! ### After stretch 4 -/

theorem after4_arg0 (V0 : Valuation τ sig (Elt F)) : after4 V0 (Proc.devRef .tc main_arg0) = V0 (Proc.devRef .tc main_arg0) := by
  unfold after4 stretch4
  stretch_results
  exact after3_arg0 V0

theorem after4_arg1 (V0 : Valuation τ sig (Elt F)) : after4 V0 (Proc.devRef .tc main_arg1) = V0 (Proc.devRef .tc main_arg1) := by
  unfold after4 stretch4
  stretch_results
  exact after3_arg1 V0

theorem after4_arg2 (V0 : Valuation τ sig (Elt F)) : after4 V0 (Proc.devRef .tc main_arg2) = V0 (Proc.devRef .tc main_arg2) := by
  unfold after4 stretch4
  stretch_results
  exact after3_arg2 V0

theorem after4_arg5 (V0 : Valuation τ sig (Elt F)) : after4 V0 (Proc.devRef .tc main_arg5) = V0 (Proc.devRef .tc main_arg5) := by
  unfold after4 stretch4
  stretch_results
  exact after3_arg5 V0

theorem after4_arg6 (V0 : Valuation τ sig (Elt F)) : after4 V0 (Proc.devRef .tc main_arg6) = V0 (Proc.devRef .tc main_arg6) := by
  unfold after4 stretch4
  stretch_results
  exact after3_arg6 V0

theorem after4_arg7 (V0 : Valuation τ sig (Elt F)) : after4 V0 (Proc.devRef .tc main_arg7) = V0 (Proc.devRef .tc main_arg7) := by
  unfold after4 stretch4
  stretch_results
  exact after3_arg7 V0

theorem after4_arg8 (V0 : Valuation τ sig (Elt F)) : after4 V0 (Proc.devRef .tc main_arg8) = V0 (Proc.devRef .tc main_arg8) := by
  unfold after4 stretch4
  stretch_results
  exact after3_arg8 V0

theorem after4_arg9 (V0 : Valuation τ sig (Elt F)) : after4 V0 (Proc.devRef .tc main_arg9) = V0 (Proc.devRef .tc main_arg9) := by
  unfold after4 stretch4
  stretch_results
  exact after3_arg9 V0

theorem after4_arg10 (V0 : Valuation τ sig (Elt F)) : after4 V0 (Proc.devRef .tc main_arg10) = V0 (Proc.devRef .tc main_arg10) := by
  unfold after4 stretch4
  stretch_results
  exact after3_arg10 V0

theorem after4_arg11 (V0 : Valuation τ sig (Elt F)) : after4 V0 (Proc.devRef .tc main_arg11) = V0 (Proc.devRef .tc main_arg11) := by
  unfold after4 stretch4
  stretch_results
  exact after3_arg11 V0

theorem after4_arg12 (V0 : Valuation τ sig (Elt F)) : after4 V0 (Proc.devRef .tc main_arg12) = V0 (Proc.devRef .tc main_arg12) := by
  unfold after4 stretch4
  stretch_results
  exact after3_arg12 V0

theorem after4_v1 (V0 : Valuation τ sig (Elt F)) : after4 V0 (Proc.devRef .tc main_v1) = res_main_v1 V0 := by
  unfold after4 stretch4
  stretch_results
  exact after3_v1 V0

theorem after4_v30 (V0 : Valuation τ sig (Elt F)) : after4 V0 (Proc.devRef .tc main_v30) = res_main_v30 V0 := by
  unfold after4 stretch4 res_main_v30
  stretch_results
  rw [after3_v6 V0, after3_v7 V0, after3_arg1 V0, after3_arg3 V0, after3_arg4 V0]
  try rfl

/-! ### After stretch 5 -/

theorem after5_arg1 (V0 : Valuation τ sig (Elt F)) : after5 V0 (Proc.devRef .tc main_arg1) = V0 (Proc.devRef .tc main_arg1) := by
  unfold after5 stretch5
  stretch_results
  exact after4_arg1 V0

theorem after5_arg2 (V0 : Valuation τ sig (Elt F)) : after5 V0 (Proc.devRef .tc main_arg2) = V0 (Proc.devRef .tc main_arg2) := by
  unfold after5 stretch5
  stretch_results
  exact after4_arg2 V0

theorem after5_arg5 (V0 : Valuation τ sig (Elt F)) : after5 V0 (Proc.devRef .tc main_arg5) = V0 (Proc.devRef .tc main_arg5) := by
  unfold after5 stretch5
  stretch_results
  exact after4_arg5 V0

theorem after5_arg6 (V0 : Valuation τ sig (Elt F)) : after5 V0 (Proc.devRef .tc main_arg6) = V0 (Proc.devRef .tc main_arg6) := by
  unfold after5 stretch5
  stretch_results
  exact after4_arg6 V0

theorem after5_arg7 (V0 : Valuation τ sig (Elt F)) : after5 V0 (Proc.devRef .tc main_arg7) = V0 (Proc.devRef .tc main_arg7) := by
  unfold after5 stretch5
  stretch_results
  exact after4_arg7 V0

theorem after5_arg8 (V0 : Valuation τ sig (Elt F)) : after5 V0 (Proc.devRef .tc main_arg8) = V0 (Proc.devRef .tc main_arg8) := by
  unfold after5 stretch5
  stretch_results
  exact after4_arg8 V0

theorem after5_arg9 (V0 : Valuation τ sig (Elt F)) : after5 V0 (Proc.devRef .tc main_arg9) = V0 (Proc.devRef .tc main_arg9) := by
  unfold after5 stretch5
  stretch_results
  exact after4_arg9 V0

theorem after5_arg10 (V0 : Valuation τ sig (Elt F)) : after5 V0 (Proc.devRef .tc main_arg10) = V0 (Proc.devRef .tc main_arg10) := by
  unfold after5 stretch5
  stretch_results
  exact after4_arg10 V0

theorem after5_arg11 (V0 : Valuation τ sig (Elt F)) : after5 V0 (Proc.devRef .tc main_arg11) = V0 (Proc.devRef .tc main_arg11) := by
  unfold after5 stretch5
  stretch_results
  exact after4_arg11 V0

theorem after5_arg12 (V0 : Valuation τ sig (Elt F)) : after5 V0 (Proc.devRef .tc main_arg12) = V0 (Proc.devRef .tc main_arg12) := by
  unfold after5 stretch5
  stretch_results
  exact after4_arg12 V0

theorem after5_v1 (V0 : Valuation τ sig (Elt F)) : after5 V0 (Proc.devRef .tc main_v1) = res_main_v1 V0 := by
  unfold after5 stretch5
  stretch_results
  exact after4_v1 V0

theorem after5_v34 (V0 : Valuation τ sig (Elt F)) : after5 V0 (Proc.devRef .tc main_v34) = res_main_v34 V0 := by
  unfold after5 stretch5 res_main_v34
  stretch_results
  rw [after4_v30 V0]
  try rfl

theorem after5_v40 (V0 : Valuation τ sig (Elt F)) : after5 V0 (Proc.devRef .tc main_v40) = res_main_v40 V0 := by
  unfold after5 stretch5 res_main_v40
  stretch_results
  rw [after4_v30 V0, after4_v1 V0, after4_arg0 V0]
  try rfl

/-! ### After stretch 6 -/

theorem after6_arg1 (V0 : Valuation τ sig (Elt F)) : after6 V0 (Proc.devRef .tc main_arg1) = V0 (Proc.devRef .tc main_arg1) := by
  unfold after6 stretch6
  stretch_results
  exact after5_arg1 V0

theorem after6_arg2 (V0 : Valuation τ sig (Elt F)) : after6 V0 (Proc.devRef .tc main_arg2) = V0 (Proc.devRef .tc main_arg2) := by
  unfold after6 stretch6
  stretch_results
  exact after5_arg2 V0

theorem after6_arg5 (V0 : Valuation τ sig (Elt F)) : after6 V0 (Proc.devRef .tc main_arg5) = V0 (Proc.devRef .tc main_arg5) := by
  unfold after6 stretch6
  stretch_results
  exact after5_arg5 V0

theorem after6_arg6 (V0 : Valuation τ sig (Elt F)) : after6 V0 (Proc.devRef .tc main_arg6) = V0 (Proc.devRef .tc main_arg6) := by
  unfold after6 stretch6
  stretch_results
  exact after5_arg6 V0

theorem after6_arg7 (V0 : Valuation τ sig (Elt F)) : after6 V0 (Proc.devRef .tc main_arg7) = V0 (Proc.devRef .tc main_arg7) := by
  unfold after6 stretch6
  stretch_results
  exact after5_arg7 V0

theorem after6_arg8 (V0 : Valuation τ sig (Elt F)) : after6 V0 (Proc.devRef .tc main_arg8) = V0 (Proc.devRef .tc main_arg8) := by
  unfold after6 stretch6
  stretch_results
  exact after5_arg8 V0

theorem after6_arg9 (V0 : Valuation τ sig (Elt F)) : after6 V0 (Proc.devRef .tc main_arg9) = V0 (Proc.devRef .tc main_arg9) := by
  unfold after6 stretch6
  stretch_results
  exact after5_arg9 V0

theorem after6_arg10 (V0 : Valuation τ sig (Elt F)) : after6 V0 (Proc.devRef .tc main_arg10) = V0 (Proc.devRef .tc main_arg10) := by
  unfold after6 stretch6
  stretch_results
  exact after5_arg10 V0

theorem after6_arg11 (V0 : Valuation τ sig (Elt F)) : after6 V0 (Proc.devRef .tc main_arg11) = V0 (Proc.devRef .tc main_arg11) := by
  unfold after6 stretch6
  stretch_results
  exact after5_arg11 V0

theorem after6_arg12 (V0 : Valuation τ sig (Elt F)) : after6 V0 (Proc.devRef .tc main_arg12) = V0 (Proc.devRef .tc main_arg12) := by
  unfold after6 stretch6
  stretch_results
  exact after5_arg12 V0

theorem after6_v1 (V0 : Valuation τ sig (Elt F)) : after6 V0 (Proc.devRef .tc main_v1) = res_main_v1 V0 := by
  unfold after6 stretch6
  stretch_results
  exact after5_v1 V0

theorem after6_v34 (V0 : Valuation τ sig (Elt F)) : after6 V0 (Proc.devRef .tc main_v34) = res_main_v34 V0 := by
  unfold after6 stretch6
  stretch_results
  exact after5_v34 V0

theorem after6_v40 (V0 : Valuation τ sig (Elt F)) : after6 V0 (Proc.devRef .tc main_v40) = res_main_v40 V0 := by
  unfold after6 stretch6
  stretch_results
  exact after5_v40 V0

theorem after6_v41 (V0 : Valuation τ sig (Elt F)) : after6 V0 (Proc.devRef .tc main_v41) = res_main_v41 V0 := by
  unfold after6 stretch6 res_main_v41
  stretch_results
  rw [after5_v40 V0, after5_arg1 V0]
  try rfl

/-! ### After stretch 7 -/

theorem after7_arg1 (V0 : Valuation τ sig (Elt F)) : after7 V0 (Proc.devRef .tc main_arg1) = V0 (Proc.devRef .tc main_arg1) := by
  unfold after7 stretch7
  stretch_results
  exact after6_arg1 V0

theorem after7_arg2 (V0 : Valuation τ sig (Elt F)) : after7 V0 (Proc.devRef .tc main_arg2) = V0 (Proc.devRef .tc main_arg2) := by
  unfold after7 stretch7
  stretch_results
  exact after6_arg2 V0

theorem after7_arg7 (V0 : Valuation τ sig (Elt F)) : after7 V0 (Proc.devRef .tc main_arg7) = V0 (Proc.devRef .tc main_arg7) := by
  unfold after7 stretch7
  stretch_results
  exact after6_arg7 V0

theorem after7_arg8 (V0 : Valuation τ sig (Elt F)) : after7 V0 (Proc.devRef .tc main_arg8) = V0 (Proc.devRef .tc main_arg8) := by
  unfold after7 stretch7
  stretch_results
  exact after6_arg8 V0

theorem after7_arg9 (V0 : Valuation τ sig (Elt F)) : after7 V0 (Proc.devRef .tc main_arg9) = V0 (Proc.devRef .tc main_arg9) := by
  unfold after7 stretch7
  stretch_results
  exact after6_arg9 V0

theorem after7_arg10 (V0 : Valuation τ sig (Elt F)) : after7 V0 (Proc.devRef .tc main_arg10) = V0 (Proc.devRef .tc main_arg10) := by
  unfold after7 stretch7
  stretch_results
  exact after6_arg10 V0

theorem after7_arg11 (V0 : Valuation τ sig (Elt F)) : after7 V0 (Proc.devRef .tc main_arg11) = V0 (Proc.devRef .tc main_arg11) := by
  unfold after7 stretch7
  stretch_results
  exact after6_arg11 V0

theorem after7_arg12 (V0 : Valuation τ sig (Elt F)) : after7 V0 (Proc.devRef .tc main_arg12) = V0 (Proc.devRef .tc main_arg12) := by
  unfold after7 stretch7
  stretch_results
  exact after6_arg12 V0

theorem after7_v63 (V0 : Valuation τ sig (Elt F)) : after7 V0 (Proc.devRef .tc main_v63) = res_main_v63 V0 := by
  unfold after7 stretch7 res_main_v63
  stretch_results
  rw [after6_v34 V0, after6_v1 V0, after6_v40 V0, after6_v41 V0, after6_arg1 V0, after6_arg5 V0, after6_arg6 V0]
  try rfl

/-! ### After stretch 8 -/

theorem after8_arg1 (V0 : Valuation τ sig (Elt F)) : after8 V0 (Proc.devRef .tc main_arg1) = V0 (Proc.devRef .tc main_arg1) := by
  unfold after8 stretch8
  stretch_results
  exact after7_arg1 V0

theorem after8_arg7 (V0 : Valuation τ sig (Elt F)) : after8 V0 (Proc.devRef .tc main_arg7) = V0 (Proc.devRef .tc main_arg7) := by
  unfold after8 stretch8
  stretch_results
  exact after7_arg7 V0

theorem after8_arg8 (V0 : Valuation τ sig (Elt F)) : after8 V0 (Proc.devRef .tc main_arg8) = V0 (Proc.devRef .tc main_arg8) := by
  unfold after8 stretch8
  stretch_results
  exact after7_arg8 V0

theorem after8_arg9 (V0 : Valuation τ sig (Elt F)) : after8 V0 (Proc.devRef .tc main_arg9) = V0 (Proc.devRef .tc main_arg9) := by
  unfold after8 stretch8
  stretch_results
  exact after7_arg9 V0

theorem after8_arg10 (V0 : Valuation τ sig (Elt F)) : after8 V0 (Proc.devRef .tc main_arg10) = V0 (Proc.devRef .tc main_arg10) := by
  unfold after8 stretch8
  stretch_results
  exact after7_arg10 V0

theorem after8_arg11 (V0 : Valuation τ sig (Elt F)) : after8 V0 (Proc.devRef .tc main_arg11) = V0 (Proc.devRef .tc main_arg11) := by
  unfold after8 stretch8
  stretch_results
  exact after7_arg11 V0

theorem after8_arg12 (V0 : Valuation τ sig (Elt F)) : after8 V0 (Proc.devRef .tc main_arg12) = V0 (Proc.devRef .tc main_arg12) := by
  unfold after8 stretch8
  stretch_results
  exact after7_arg12 V0

theorem after8_v63 (V0 : Valuation τ sig (Elt F)) : after8 V0 (Proc.devRef .tc main_v63) = res_main_v63 V0 := by
  unfold after8 stretch8
  stretch_results
  exact after7_v63 V0

theorem after8_v65 (V0 : Valuation τ sig (Elt F)) : after8 V0 (Proc.devRef .tc main_v65) = res_main_v65 V0 := by
  unfold after8 stretch8 res_main_v65
  stretch_results
  rw [after7_arg2 V0]
  try rfl

/-! ### After stretch 9 -/

theorem after9_arg1 (V0 : Valuation τ sig (Elt F)) : after9 V0 (Proc.devRef .tc main_arg1) = V0 (Proc.devRef .tc main_arg1) := by
  unfold after9 stretch9
  stretch_results
  exact after8_arg1 V0

theorem after9_arg7 (V0 : Valuation τ sig (Elt F)) : after9 V0 (Proc.devRef .tc main_arg7) = V0 (Proc.devRef .tc main_arg7) := by
  unfold after9 stretch9
  stretch_results
  exact after8_arg7 V0

theorem after9_arg8 (V0 : Valuation τ sig (Elt F)) : after9 V0 (Proc.devRef .tc main_arg8) = V0 (Proc.devRef .tc main_arg8) := by
  unfold after9 stretch9
  stretch_results
  exact after8_arg8 V0

theorem after9_arg9 (V0 : Valuation τ sig (Elt F)) : after9 V0 (Proc.devRef .tc main_arg9) = V0 (Proc.devRef .tc main_arg9) := by
  unfold after9 stretch9
  stretch_results
  exact after8_arg9 V0

theorem after9_arg10 (V0 : Valuation τ sig (Elt F)) : after9 V0 (Proc.devRef .tc main_arg10) = V0 (Proc.devRef .tc main_arg10) := by
  unfold after9 stretch9
  stretch_results
  exact after8_arg10 V0

theorem after9_arg11 (V0 : Valuation τ sig (Elt F)) : after9 V0 (Proc.devRef .tc main_arg11) = V0 (Proc.devRef .tc main_arg11) := by
  unfold after9 stretch9
  stretch_results
  exact after8_arg11 V0

theorem after9_arg12 (V0 : Valuation τ sig (Elt F)) : after9 V0 (Proc.devRef .tc main_arg12) = V0 (Proc.devRef .tc main_arg12) := by
  unfold after9 stretch9
  stretch_results
  exact after8_arg12 V0

theorem after9_v63 (V0 : Valuation τ sig (Elt F)) : after9 V0 (Proc.devRef .tc main_v63) = res_main_v63 V0 := by
  unfold after9 stretch9
  stretch_results
  exact after8_v63 V0

theorem after9_v65 (V0 : Valuation τ sig (Elt F)) : after9 V0 (Proc.devRef .tc main_v65) = res_main_v65 V0 := by
  unfold after9 stretch9
  stretch_results
  exact after8_v65 V0

theorem after9_v70 (V0 : Valuation τ sig (Elt F)) : after9 V0 (Proc.devRef .tc main_v70) = res_main_v70 V0 := by
  unfold after9 stretch9 res_main_v70
  stretch_results
  rw [after8_v63 V0, after8_v65 V0]
  try rfl

/-! ### After stretch 10 -/

theorem after10_arg1 (V0 : Valuation τ sig (Elt F)) : after10 V0 (Proc.devRef .tc main_arg1) = V0 (Proc.devRef .tc main_arg1) := by
  unfold after10 stretch10
  stretch_results
  exact after9_arg1 V0

theorem after10_arg7 (V0 : Valuation τ sig (Elt F)) : after10 V0 (Proc.devRef .tc main_arg7) = V0 (Proc.devRef .tc main_arg7) := by
  unfold after10 stretch10
  stretch_results
  exact after9_arg7 V0

theorem after10_arg8 (V0 : Valuation τ sig (Elt F)) : after10 V0 (Proc.devRef .tc main_arg8) = V0 (Proc.devRef .tc main_arg8) := by
  unfold after10 stretch10
  stretch_results
  exact after9_arg8 V0

theorem after10_arg9 (V0 : Valuation τ sig (Elt F)) : after10 V0 (Proc.devRef .tc main_arg9) = V0 (Proc.devRef .tc main_arg9) := by
  unfold after10 stretch10
  stretch_results
  exact after9_arg9 V0

theorem after10_arg10 (V0 : Valuation τ sig (Elt F)) : after10 V0 (Proc.devRef .tc main_arg10) = V0 (Proc.devRef .tc main_arg10) := by
  unfold after10 stretch10
  stretch_results
  exact after9_arg10 V0

theorem after10_arg11 (V0 : Valuation τ sig (Elt F)) : after10 V0 (Proc.devRef .tc main_arg11) = V0 (Proc.devRef .tc main_arg11) := by
  unfold after10 stretch10
  stretch_results
  exact after9_arg11 V0

theorem after10_arg12 (V0 : Valuation τ sig (Elt F)) : after10 V0 (Proc.devRef .tc main_arg12) = V0 (Proc.devRef .tc main_arg12) := by
  unfold after10 stretch10
  stretch_results
  exact after9_arg12 V0

theorem after10_v63 (V0 : Valuation τ sig (Elt F)) : after10 V0 (Proc.devRef .tc main_v63) = res_main_v63 V0 := by
  unfold after10 stretch10
  stretch_results
  exact after9_v63 V0

theorem after10_v65 (V0 : Valuation τ sig (Elt F)) : after10 V0 (Proc.devRef .tc main_v65) = res_main_v65 V0 := by
  unfold after10 stretch10
  stretch_results
  exact after9_v65 V0

theorem after10_v70 (V0 : Valuation τ sig (Elt F)) : after10 V0 (Proc.devRef .tc main_v70) = res_main_v70 V0 := by
  unfold after10 stretch10
  stretch_results
  exact after9_v70 V0

theorem after10_v71 (V0 : Valuation τ sig (Elt F)) : after10 V0 (Proc.devRef .tc main_v71) = res_main_v71 V0 := by
  unfold after10 stretch10 res_main_v71
  stretch_results
  rw [after9_v70 V0, after9_arg1 V0]
  try rfl

/-! ### After stretch 11 -/

theorem after11_arg1 (V0 : Valuation τ sig (Elt F)) : after11 V0 (Proc.devRef .tc main_arg1) = V0 (Proc.devRef .tc main_arg1) := by
  unfold after11 stretch11
  stretch_results
  exact after10_arg1 V0

theorem after11_arg9 (V0 : Valuation τ sig (Elt F)) : after11 V0 (Proc.devRef .tc main_arg9) = V0 (Proc.devRef .tc main_arg9) := by
  unfold after11 stretch11
  stretch_results
  exact after10_arg9 V0

theorem after11_arg10 (V0 : Valuation τ sig (Elt F)) : after11 V0 (Proc.devRef .tc main_arg10) = V0 (Proc.devRef .tc main_arg10) := by
  unfold after11 stretch11
  stretch_results
  exact after10_arg10 V0

theorem after11_arg11 (V0 : Valuation τ sig (Elt F)) : after11 V0 (Proc.devRef .tc main_arg11) = V0 (Proc.devRef .tc main_arg11) := by
  unfold after11 stretch11
  stretch_results
  exact after10_arg11 V0

theorem after11_arg12 (V0 : Valuation τ sig (Elt F)) : after11 V0 (Proc.devRef .tc main_arg12) = V0 (Proc.devRef .tc main_arg12) := by
  unfold after11 stretch11
  stretch_results
  exact after10_arg12 V0

theorem after11_v63 (V0 : Valuation τ sig (Elt F)) : after11 V0 (Proc.devRef .tc main_v63) = res_main_v63 V0 := by
  unfold after11 stretch11
  stretch_results
  exact after10_v63 V0

theorem after11_v65 (V0 : Valuation τ sig (Elt F)) : after11 V0 (Proc.devRef .tc main_v65) = res_main_v65 V0 := by
  unfold after11 stretch11
  stretch_results
  exact after10_v65 V0

theorem after11_v94 (V0 : Valuation τ sig (Elt F)) : after11 V0 (Proc.devRef .tc main_v94) = res_main_v94 V0 := by
  unfold after11 stretch11 res_main_v94
  stretch_results
  rw [after10_v70 V0, after10_v71 V0, after10_arg1 V0, after10_arg7 V0, after10_arg8 V0]
  try rfl

/-! ### After stretch 12 -/

theorem after12_arg1 (V0 : Valuation τ sig (Elt F)) : after12 V0 (Proc.devRef .tc main_arg1) = V0 (Proc.devRef .tc main_arg1) := by
  unfold after12 stretch12
  stretch_results
  exact after11_arg1 V0

theorem after12_arg9 (V0 : Valuation τ sig (Elt F)) : after12 V0 (Proc.devRef .tc main_arg9) = V0 (Proc.devRef .tc main_arg9) := by
  unfold after12 stretch12
  stretch_results
  exact after11_arg9 V0

theorem after12_arg10 (V0 : Valuation τ sig (Elt F)) : after12 V0 (Proc.devRef .tc main_arg10) = V0 (Proc.devRef .tc main_arg10) := by
  unfold after12 stretch12
  stretch_results
  exact after11_arg10 V0

theorem after12_arg11 (V0 : Valuation τ sig (Elt F)) : after12 V0 (Proc.devRef .tc main_arg11) = V0 (Proc.devRef .tc main_arg11) := by
  unfold after12 stretch12
  stretch_results
  exact after11_arg11 V0

theorem after12_arg12 (V0 : Valuation τ sig (Elt F)) : after12 V0 (Proc.devRef .tc main_arg12) = V0 (Proc.devRef .tc main_arg12) := by
  unfold after12 stretch12
  stretch_results
  exact after11_arg12 V0

theorem after12_v63 (V0 : Valuation τ sig (Elt F)) : after12 V0 (Proc.devRef .tc main_v63) = res_main_v63 V0 := by
  unfold after12 stretch12
  stretch_results
  exact after11_v63 V0

theorem after12_v65 (V0 : Valuation τ sig (Elt F)) : after12 V0 (Proc.devRef .tc main_v65) = res_main_v65 V0 := by
  unfold after12 stretch12
  stretch_results
  exact after11_v65 V0

theorem after12_v98 (V0 : Valuation τ sig (Elt F)) : after12 V0 (Proc.devRef .tc main_v98) = res_main_v98 V0 := by
  unfold after12 stretch12 res_main_v98
  stretch_results
  rw [after11_v94 V0]
  try rfl

theorem after12_v104 (V0 : Valuation τ sig (Elt F)) : after12 V0 (Proc.devRef .tc main_v104) = res_main_v104 V0 := by
  unfold after12 stretch12 res_main_v104
  stretch_results
  rw [after11_v63 V0, after11_v94 V0, after11_v65 V0]
  try rfl

/-! ### After stretch 13 -/

theorem after13_arg1 (V0 : Valuation τ sig (Elt F)) : after13 V0 (Proc.devRef .tc main_arg1) = V0 (Proc.devRef .tc main_arg1) := by
  unfold after13 stretch13
  stretch_results
  exact after12_arg1 V0

theorem after13_arg9 (V0 : Valuation τ sig (Elt F)) : after13 V0 (Proc.devRef .tc main_arg9) = V0 (Proc.devRef .tc main_arg9) := by
  unfold after13 stretch13
  stretch_results
  exact after12_arg9 V0

theorem after13_arg10 (V0 : Valuation τ sig (Elt F)) : after13 V0 (Proc.devRef .tc main_arg10) = V0 (Proc.devRef .tc main_arg10) := by
  unfold after13 stretch13
  stretch_results
  exact after12_arg10 V0

theorem after13_arg11 (V0 : Valuation τ sig (Elt F)) : after13 V0 (Proc.devRef .tc main_arg11) = V0 (Proc.devRef .tc main_arg11) := by
  unfold after13 stretch13
  stretch_results
  exact after12_arg11 V0

theorem after13_arg12 (V0 : Valuation τ sig (Elt F)) : after13 V0 (Proc.devRef .tc main_arg12) = V0 (Proc.devRef .tc main_arg12) := by
  unfold after13 stretch13
  stretch_results
  exact after12_arg12 V0

theorem after13_v63 (V0 : Valuation τ sig (Elt F)) : after13 V0 (Proc.devRef .tc main_v63) = res_main_v63 V0 := by
  unfold after13 stretch13
  stretch_results
  exact after12_v63 V0

theorem after13_v65 (V0 : Valuation τ sig (Elt F)) : after13 V0 (Proc.devRef .tc main_v65) = res_main_v65 V0 := by
  unfold after13 stretch13
  stretch_results
  exact after12_v65 V0

theorem after13_v98 (V0 : Valuation τ sig (Elt F)) : after13 V0 (Proc.devRef .tc main_v98) = res_main_v98 V0 := by
  unfold after13 stretch13
  stretch_results
  exact after12_v98 V0

theorem after13_v104 (V0 : Valuation τ sig (Elt F)) : after13 V0 (Proc.devRef .tc main_v104) = res_main_v104 V0 := by
  unfold after13 stretch13
  stretch_results
  exact after12_v104 V0

theorem after13_v105 (V0 : Valuation τ sig (Elt F)) : after13 V0 (Proc.devRef .tc main_v105) = res_main_v105 V0 := by
  unfold after13 stretch13 res_main_v105
  stretch_results
  rw [after12_v104 V0, after12_arg1 V0]
  try rfl

/-! ### After stretch 14 -/

theorem after14_arg11 (V0 : Valuation τ sig (Elt F)) : after14 V0 (Proc.devRef .tc main_arg11) = V0 (Proc.devRef .tc main_arg11) := by
  unfold after14 stretch14
  stretch_results
  exact after13_arg11 V0

theorem after14_arg12 (V0 : Valuation τ sig (Elt F)) : after14 V0 (Proc.devRef .tc main_arg12) = V0 (Proc.devRef .tc main_arg12) := by
  unfold after14 stretch14
  stretch_results
  exact after13_arg12 V0

theorem after14_v63 (V0 : Valuation τ sig (Elt F)) : after14 V0 (Proc.devRef .tc main_v63) = res_main_v63 V0 := by
  unfold after14 stretch14
  stretch_results
  exact after13_v63 V0

theorem after14_v127 (V0 : Valuation τ sig (Elt F)) : after14 V0 (Proc.devRef .tc main_v127) = res_main_v127 V0 := by
  unfold after14 stretch14 res_main_v127
  stretch_results
  rw [after13_v98 V0, after13_v65 V0, after13_v104 V0, after13_v105 V0, after13_arg1 V0, after13_arg9 V0, after13_arg10 V0]
  try rfl

/-! ### After stretch 15 -/

theorem after15_v133 (V0 : Valuation τ sig (Elt F)) : after15 V0 (Proc.devRef .tc main_v133) = res_main_v133 V0 := by
  unfold after15 stretch15 res_main_v133
  stretch_results
  rw [after14_v127 V0, after14_arg11 V0, after14_arg12 V0]
  try rfl

theorem after15_v136 (V0 : Valuation τ sig (Elt F)) : after15 V0 (Proc.devRef .tc main_v136) = res_main_v136 V0 := by
  unfold after15 stretch15 res_main_v136
  stretch_results
  rw [after14_v63 V0, after14_v127 V0]
  try rfl

/-! ## The run -/

set_option maxHeartbeats 58800000 in
/-- On every device, from any memory with zero counters: every weakly fair execution of @main terminates with the two
    results at their composed terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = res_main_v133 (launchContents m c)
      ∧ r.2.mem ((c.tc : Thread nD τ).loc main_v136) = res_main_v136 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v133).trans ((congrFun (after_ops (launchContents m c)) (Proc.devRef .tc main_v133)).trans (after15_v133 _)),
      (h c main_v136).trans ((congrFun (after_ops (launchContents m c)) (Proc.devRef .tc main_v136)).trans (after15_v136 _)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.Value

end
-- ==== Proof.lean ====
/-
  The certificate of the diffusion-convolutional GRU decoder: the kernel against its reference.

  Both programs compute, sample by sample, the function of Proof/Spec.lean: two cells (logistic gates over a graph
  convolution of the three diffusion taps `z`, `A z`, `2·A(A z) − z` of every feature column, a hyperbolic-tangent
  candidate over a second convolution, the update `u · h + (1 − u) · c`) and a linear read-out.
  The reference stacks all feature columns of all 32 samples, diffuses the stack, and takes each convolution as ONE
  product over the weight rows `3·feature + tap`. The kernel works on 8 samples per grid point, diffuses the input
  columns and the state columns apart (diffusion acts on each column by itself), and accumulates a convolution tap
  by tap from a product with the state rows of the weights and a product with the input rows; for the first cell's
  single input column that product runs over the 8 samples of the chunk against a weight carried only by the
  sample itself. At the extended reals these are the same sums re-associated (addition is associative and
  commutative, and a product with zero is zero), the logistic function is one function however it is spelled, and a
  change of float format is the identity; no input needs to be finite for any of it.

  Proof/Spec.lean states the mathematics; Proof/SpecSums.lean the re-association. Kernel side: Proof/KL0G … KL1C
  read the body's intermediate vectors stage by stage against it, Proof/KOut the two output blocks, Proof/KHost the
  weight operands the host operations prepare, Proof/KGlue and Proof/KFinal the passage from the four grid points'
  blocks to the result arrays. Reference side: Proof/RRunDefs and Proof/RRun read the
  program's run back in stretches over named intermediates; Proof/R0G … R1C and Proof/ROut read those intermediates
  and the two results against the mathematics, Proof/RAll joins them. Here the two sides meet.
-/
import proofs.«152469_g44504451121623_cont_8to1_c_180_12_alg».proof.Defs
import proofs.«152469_g44504451121623_cont_8to1_c_180_12_alg».proof.Proof.Gen.Kernel
import proofs.«152469_g44504451121623_cont_8to1_c_180_12_alg».proof.Proof.Gen.Kernel.Skeleton
import proofs.«152469_g44504451121623_cont_8to1_c_180_12_alg».proof.Proof.Gen.Kernel.Launch
import proofs.«152469_g44504451121623_cont_8to1_c_180_12_alg».proof.Proof.Gen.Kernel.Points
import proofs.«152469_g44504451121623_cont_8to1_c_180_12_alg».proof.Proof.Gen.Kernel.Frame
import proofs.«152469_g44504451121623_cont_8to1_c_180_12_alg».proof.Proof.Gen.KernelIdeal
import proofs.«152469_g44504451121623_cont_8to1_c_180_12_alg».proof.Proof.Gen.KernelIdeal.Skeleton
import proofs.«152469_g44504451121623_cont_8to1_c_180_12_alg».proof.Proof.Gen.KernelIdeal.Launch
import proofs.«152469_g44504451121623_cont_8to1_c_180_12_alg».proof.Proof.Gen.KernelIdeal.Points
import proofs.«152469_g44504451121623_cont_8to1_c_180_12_alg».proof.Proof.Gen.KernelIdeal.Frame
import proofs.«152469_g44504451121623_cont_8to1_c_180_12_alg».proof.Proof.Gen.ReferenceIdeal
import proofs.«152469_g44504451121623_cont_8to1_c_180_12_alg».proof.Proof.Gen.Pre_finite_inputs
import proofs.«152469_g44504451121623_cont_8to1_c_180_12_alg».proof.Proof.KFinal
import proofs.«152469_g44504451121623_cont_8to1_c_180_12_alg».proof.Proof.RAll
import proofs.«152469_g44504451121623_cont_8to1_c_180_12_alg».proof.Proof.RRun
import Idealize.ShloMosaic.Adequacy
import Idealize.ShloMosaic.Init

noncomputable section

namespace Cert.Proof

open Idealize.ShloMosaic Idealize.ShloMosaic.StableHlo Idealize.SL.Sem Cert.Dcgru ValueIdx

/-- From memories that agree on the arguments both programs end with the two closed forms: the kernel by its
    blocks, the reference by its run read stage by stage. -/
theorem algebraic : Cert.algebraic_KernelIdeal_ReferenceIdeal := by
  intro m ρ m' ρ' _ hagree
  refine ⟨fun c => Cert.KernelIdeal.Glue.G17 m c, fun c => Cert.KernelIdeal.Glue.G18 m c, ?_, ?_⟩
  · -- the kernel: its run, with each result array re-posted at its closed form
    exact (θ_run Cert.KernelIdeal.defs _ _).mono
      (fun r h c => ⟨(h c).1.trans (Cert.KernelIdeal.Glue.final17 m c), (h c).2.1.trans (Cert.KernelIdeal.Glue.final18 m c), (h c).2.2⟩)
      (Cert.KernelIdeal.Value.run_blocks (F := Ideal) m ρ)
  -- the reference: its run read stage by stage, its arguments rewritten into the kernel's
  refine (θ_run Cert.ReferenceIdeal.defs _ _).mono (fun r h c => ⟨(h c).1.trans ?_, (h c).2.1.trans ?_, (h c).2.2⟩)
    (Cert.ReferenceIdeal.Value.run (F := Ideal) m' ρ')
  all_goals
    obtain ⟨h0, h1, h2, h3, h4, h5, h6, h7, h8, h9, h10, h11, h12⟩ := hagree c
    have eP : Cert.ReferenceIdeal.Sem.refParams (launchContents m' c) = Cert.KernelIdeal.Args.kParams m c := by
      unfold Cert.ReferenceIdeal.Sem.refParams Cert.KernelIdeal.Args.kParams
      rw [show Cert.ReferenceIdeal.Sem.aAdj (launchContents m' c) = Cert.KernelIdeal.Args.aAdj m c from h1,
        show Cert.ReferenceIdeal.Sem.aWg0 (launchContents m' c) = Cert.KernelIdeal.Args.aWg0 m c from h3,
        show Cert.ReferenceIdeal.Sem.aBg0 (launchContents m' c) = Cert.KernelIdeal.Args.aBg0 m c from h4,
        show Cert.ReferenceIdeal.Sem.aWc0 (launchContents m' c) = Cert.KernelIdeal.Args.aWc0 m c from h5,
        show Cert.ReferenceIdeal.Sem.aBc0 (launchContents m' c) = Cert.KernelIdeal.Args.aBc0 m c from h6,
        show Cert.ReferenceIdeal.Sem.aWg1 (launchContents m' c) = Cert.KernelIdeal.Args.aWg1 m c from h7,
        show Cert.ReferenceIdeal.Sem.aBg1 (launchContents m' c) = Cert.KernelIdeal.Args.aBg1 m c from h8,
        show Cert.ReferenceIdeal.Sem.aWc1 (launchContents m' c) = Cert.KernelIdeal.Args.aWc1 m c from h9,
        show Cert.ReferenceIdeal.Sem.aBc1 (launchContents m' c) = Cert.KernelIdeal.Args.aBc1 m c from h10,
        show Cert.ReferenceIdeal.Sem.aWp (launchContents m' c) = Cert.KernelIdeal.Args.aWp m c from h11,
        show Cert.ReferenceIdeal.Sem.aBp (launchContents m' c) = Cert.KernelIdeal.Args.aBp m c from h12]
    have eX : Cert.ReferenceIdeal.Sem.refX (launchContents m' c) = Cert.KernelIdeal.Args.kX m c := by
      unfold Cert.ReferenceIdeal.Sem.refX Cert.KernelIdeal.Args.kX
      rw [show Cert.ReferenceIdeal.Sem.aInputs (launchContents m' c) = Cert.KernelIdeal.Args.aInputs m c from h0]
    have eH : Cert.ReferenceIdeal.Sem.refH (launchContents m' c) = Cert.KernelIdeal.Args.kH m c := by
      unfold Cert.ReferenceIdeal.Sem.refH Cert.KernelIdeal.Args.kH
      rw [show Cert.ReferenceIdeal.Sem.aHidden (launchContents m' c) = Cert.KernelIdeal.Args.aHidden m c from h2]
  · show Cert.ReferenceIdeal.Sem.resOut (launchContents m' c) = Cert.KernelIdeal.Glue.G17 m c
    funext i
    obtain ⟨b, n, rfl⟩ : ∃ (b : Fin 32) (n : Fin 512), i = ix2 b n := ⟨i 0, i 1, eq_ix2 i⟩
    rw [Cert.ReferenceIdeal.All.resOut_apply, eP, eX, eH]
    rfl
  · show Cert.ReferenceIdeal.Sem.resHs (launchContents m' c) = Cert.KernelIdeal.Glue.G18 m c
    funext i
    obtain ⟨l, b, q, rfl⟩ : ∃ (l : Fin 2) (b : Fin 32) (q : Fin 32768), i = ix3 l b q := ⟨i 0, i 1, i 2, eq_ix3 i⟩
    have hq := flat_nodeOf_unitOf q
    calc Cert.ReferenceIdeal.Sem.resHs (launchContents m' c) (ix3 l b q)
        = Cert.ReferenceIdeal.Sem.resHs (launchContents m' c) (ix3 l b (flat (nodeOf q) (unitOf q))) := by rw [hq]
      _ = _ := Cert.ReferenceIdeal.All.resHs_apply (launchContents m' c) l b (nodeOf q) (unitOf q)
      _ = Cert.KernelIdeal.Glue.G18 m c (ix3 l b q) := by rw [eP, eX, eH]; rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
